-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1470 : Shape := ⟨2, ![16384, 1470]⟩
abbrev S16384x40 : Shape := ⟨2, ![16384, 40]⟩
abbrev S16384x8x5 : Shape := ⟨3, ![16384, 8, 5]⟩
abbrev S16384x8x1 : Shape := ⟨3, ![16384, 8, 1]⟩
abbrev S16384x8 : Shape := ⟨2, ![16384, 8]⟩
abbrev S_ : Shape := ⟨0, ![]⟩

class Facts : Prop where
  shapeCasts_S16384x40_S16384x8x5 : S16384x40.ShapeCasts S16384x8x5
  slices_S16384x8x5_S16384x8x1_0_0_0 : S16384x8x5.Slices ![0, 0, 0] S16384x8x1
  shapeCasts_S16384x8x1_S16384x8 : S16384x8x1.ShapeCasts S16384x8
  bcast_S_S16384x1470 : S_.BroadcastsInDim S16384x1470 (![] : Fin 0 → Fin S16384x1470.rank)
  reducesTo_S16384x1470_S_d0_1 : S16384x1470.ReducesTo [0, 1] S_
  h_S_ : 0 < S_.numel
  bcast_S_S16384x40 : S_.BroadcastsInDim S16384x40 (![] : Fin 0 → Fin S16384x40.rank)
  reducesTo_S16384x40_S_d0_1 : S16384x40.ReducesTo [0, 1] S_
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_v12 : IVec S_ 1) (main_v17 : IVec S16384x8 1) : IVec S_ 1 :=
  let main_c_4 : IVec S_ 1 := constantI S_ 1 1#1
  let main_v18 : IVec S_ 1 := (fun x v => Host.reduce IntOp.andi x v reducesTo_S16384x8_S_d0_1 h_S_) main_v17 main_c_4
  let main_v19 : IVec S_ 1 := andi main_v12 main_v18
  main_v19

def fn {F : FTy → Type} [FloatOps F] (main_arg0 : FVec F S16384x1470 .f32) (main_arg1 : FVec F S16384x40 .f32) : IVec S_ 1 :=
  let main_v0 : FVec F S16384x8x5 .f32 := shapeCast S16384x8x5 main_arg1 shapeCasts_S16384x40_S16384x8x5
  let main_v1 : FVec F S16384x8x1 .f32 := (extractStridedSlice S16384x8x1 ![0, 0, 0] · slices_S16384x8x5_S16384x8x1_0_0_0) main_v0
  let main_v2 : FVec F S16384x8 .f32 := shapeCast S16384x8 main_v1 shapeCasts_S16384x8x1_S16384x8
  let main_v3 : IVec S16384x8 32 := fptosi 32 main_v2
  let main_v4 : FVec F S16384x1470 .f32 := Host.absf main_arg0
  let main_cst : FVec F S_ .f32 := constant S_ .f32 0x7F800000#32
  let main_v5 : FVec F S16384x1470 .f32 := broadcastInDim S16384x1470 ![] bcast_S_S16384x1470 main_cst
  let main_v6 : IVec S16384x1470 1 := cmpf .olt main_v4 main_v5
  let main_c : IVec S_ 1 := constantI S_ 1 1#1
  let main_v7 : IVec S_ 1 := (fun x v => Host.reduce IntOp.andi x v reducesTo_S16384x1470_S_d0_1 h_S_) main_v6 main_c
  let main_v8 : FVec F S16384x40 .f32 := Host.absf main_arg1
  let main_cst_0 : FVec F S_ .f32 := constant S_ .f32 0x7F800000#32
  let main_v9 : FVec F S16384x40 .f32 := broadcastInDim S16384x40 ![] bcast_S_S16384x40 main_cst_0
  let main_v10 : IVec S16384x40 1 := cmpf .olt main_v8 main_v9
  let main_c_1 : IVec S_ 1 := constantI S_ 1 1#1
  let main_v11 : IVec S_ 1 := (fun x v => Host.reduce IntOp.andi x v reducesTo_S16384x40_S_d0_1 h_S_) main_v10 main_c_1
  let main_v12 : IVec S_ 1 := andi main_v7 main_v11
  let main_c_2 : IVec S_ 32 := constantI S_ 32 0#32
  let main_v13 : IVec S16384x8 32 := broadcastInDim S16384x8 ![] bcast_S_S16384x8 main_c_2
  let main_v14 : IVec S16384x8 1 := cmpi .sge main_v3 main_v13
  let main_c_3 : IVec S_ 32 := constantI S_ 32 20#32
  let main_v15 : IVec S16384x8 32 := broadcastInDim S16384x8 ![] bcast_S_S16384x8 main_c_3
  let main_v16 : IVec S16384x8 1 := cmpi .slt main_v3 main_v15
  let main_v17 : IVec S16384x8 1 := andi main_v14 main_v16
  fn_part1 (F := F) main_v12 main_v17
-- ==== Kernel.lean ====
abbrev S16384x1470 : Shape := ⟨2, ![16384, 1470]⟩
abbrev S16384x40 : Shape := ⟨2, ![16384, 40]⟩
abbrev S1x1 : Shape := ⟨2, ![1, 1]⟩
abbrev S512x1470 : Shape := ⟨2, ![512, 1470]⟩
abbrev S512x40 : Shape := ⟨2, ![512, 40]⟩
abbrev S512x49x30 : Shape := ⟨3, ![512, 49, 30]⟩
abbrev S512x49x20 : Shape := ⟨3, ![512, 49, 20]⟩
abbrev S512x49x10 : Shape := ⟨3, ![512, 49, 10]⟩
abbrev S512x49x2x5 : Shape := ⟨4, ![512, 49, 2, 5]⟩
abbrev S512x49x2x1 : Shape := ⟨4, ![512, 49, 2, 1]⟩
abbrev S512x49x2 : Shape := ⟨3, ![512, 49, 2]⟩
abbrev S512x49x2x4 : Shape := ⟨4, ![512, 49, 2, 4]⟩
abbrev S512x49x8 : Shape := ⟨3, ![512, 49, 8]⟩
abbrev S512x8x5 : Shape := ⟨3, ![512, 8, 5]⟩
abbrev S512x8x1 : Shape := ⟨3, ![512, 8, 1]⟩
abbrev S512x8 : Shape := ⟨2, ![512, 8]⟩
abbrev S512x8x4 : Shape := ⟨3, ![512, 8, 4]⟩
abbrev S512x8x49 : Shape := ⟨3, ![512, 8, 49]⟩
abbrev S512x8x8 : Shape := ⟨3, ![512, 8, 8]⟩
abbrev S512x8x2x4 : Shape := ⟨4, ![512, 8, 2, 4]⟩
abbrev S512x8x20 : Shape := ⟨3, ![512, 8, 20]⟩
abbrev S512x8x1x4 : Shape := ⟨4, ![512, 8, 1, 4]⟩
abbrev S512x8x2x1 : Shape := ⟨4, ![512, 8, 2, 1]⟩
abbrev S512x8x2 : Shape := ⟨3, ![512, 8, 2]⟩
abbrev S1x512x8 : Shape := ⟨3, ![1, 512, 8]⟩
abbrev S1 : Shape := ⟨1, ![1]⟩
abbrev S1x1x1 : Shape := ⟨3, ![1, 1, 1]⟩
abbrev S512x8x98 : Shape := ⟨3, ![512, 8, 98]⟩
abbrev S512x98 : Shape := ⟨2, ![512, 98]⟩
abbrev S512 : Shape := ⟨1, ![512]⟩
abbrev S1x512 : Shape := ⟨2, ![1, 512]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S16384x1470, .f32⟩
  | .hbm, ⟨1, _⟩ => ⟨S16384x40, .f32⟩
  | .hbm, ⟨2, _⟩ => ⟨S1x1, .f32⟩
  | .hbm, ⟨3, _⟩ => ⟨S_, .f32⟩
  | .local _ .vmem, ⟨0, _⟩ => ⟨S512x1470, .f32⟩
  | .local _ .vmem, ⟨1, _⟩ => ⟨S512x1470, .f32⟩
  | .local _ .vmem, ⟨2, _⟩ => ⟨S512x40, .f32⟩
  | .local _ .vmem, ⟨3, _⟩ => ⟨S512x40, .f32⟩
  | .local _ .vmem, ⟨4, _⟩ => ⟨S1x1, .f32⟩
  | .local _ .vmem, ⟨5, _⟩ => ⟨S1x1, .f32⟩
  | _, _ => ⟨S16384x1470, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v305 : BitVec 1 := Scalar.cmpi .eq arg0 c31_i32
  let v306 : BitVec 32 := Scalar.extui v305
  let c0_i32_74 : BitVec 32 := 0#32
  let v307 : BitVec 1 := Scalar.cmpi .ne v306 c0_i32_74
  v307

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1470 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1470_S512x1470_0_0 : ∀ a, (![0, 0] : Fin 2 → Nat) a + S512x1470.size a ≤ S512x1470.size a
  h_S512x1470 : 0 < S512x1470.numel
  inb_S512x40_S512x40_0_0 : ∀ a, (![0, 0] : Fin 2 → Nat) a + S512x40.size a ≤ S512x40.size a
  h_S512x40 : 0 < S512x40.numel
  shapeCasts_S512x1470_S512x49x30 : S512x1470.ShapeCasts S512x49x30
  slices_S512x49x30_o0_0_0_S512x49x20 : S512x49x30.Slices ![0, 0, 0] S512x49x20
  slices_S512x49x30_o0_0_20_S512x49x10 : S512x49x30.Slices ![0, 0, 20] S512x49x10
  shapeCasts_S512x49x10_S512x49x2x5 : S512x49x10.ShapeCasts S512x49x2x5
  slices_S512x49x2x5_o0_0_0_4_S512x49x2x1 : S512x49x2x5.Slices ![0, 0, 0, 4] S512x49x2x1
  shapeCasts_S512x49x2x1_S512x49x2 : S512x49x2x1.ShapeCasts S512x49x2
  slices_S512x49x2x5_o0_0_0_0_S512x49x2x1 : S512x49x2x5.Slices ![0, 0, 0, 0] S512x49x2x1
  slices_S512x49x2x5_o0_0_0_1_S512x49x2x1 : S512x49x2x5.Slices ![0, 0, 0, 1] S512x49x2x1
  slices_S512x49x2x5_o0_0_0_2_S512x49x2x1 : S512x49x2x5.Slices ![0, 0, 0, 2] S512x49x2x1
  slices_S512x49x2x5_o0_0_0_3_S512x49x2x1 : S512x49x2x5.Slices ![0, 0, 0, 3] S512x49x2x1
  shapeCasts_S512x49x2_S512x49x2x1 : S512x49x2.ShapeCasts S512x49x2x1
  concatenates_S512x49x2x1_S512x49x2x1_S512x49x2x1_S512x49x2x1_S512x49x2x4_d3 : Shape.Concatenates [S512x49x2x1, S512x49x2x1, S512x49x2x1, S512x49x2x1] S512x49x2x4 3
  shapeCasts_S512x49x2x4_S512x49x8 : S512x49x2x4.ShapeCasts S512x49x8
  shapeCasts_S512x40_S512x8x5 : S512x40.ShapeCasts S512x8x5
  slices_S512x8x5_o0_0_0_S512x8x1 : S512x8x5.Slices ![0, 0, 0] S512x8x1
  shapeCasts_S512x8x1_S512x8 : S512x8x1.ShapeCasts S512x8
  slices_S512x8x5_o0_0_1_S512x8x1 : S512x8x5.Slices ![0, 0, 1] S512x8x1
  slices_S512x8x5_o0_0_2_S512x8x1 : S512x8x5.Slices ![0, 0, 2] S512x8x1
  slices_S512x8x5_o0_0_3_S512x8x1 : S512x8x5.Slices ![0, 0, 3] S512x8x1
  slices_S512x8x5_o0_0_4_S512x8x1 : S512x8x5.Slices ![0, 0, 4] S512x8x1
  shapeCasts_S512x8_S512x8x1 : S512x8.ShapeCasts S512x8x1
  concatenates_S512x8x1_S512x8x1_S512x8x1_S512x8x1_S512x8x4_d2 : Shape.Concatenates [S512x8x1, S512x8x1, S512x8x1, S512x8x1] S512x8x4 2
  iota_S512x8x49_d2_w32 : S512x8x49.Iotas .tc 32 [2]
  broadcasts_S512x8x1_S512x8x49 : S512x8x1.Broadcasts S512x8x49
  natLt_1_32 : 1 < 32
  shapeCasts_S512x8x8_S512x8x2x4 : S512x8x8.ShapeCasts S512x8x2x4
  shapeCasts_S512x8x4_S512x8x1x4 : S512x8x4.ShapeCasts S512x8x1x4
  shapeCasts_S512x8x1x4_S512x8x1x4 : S512x8x1x4.ShapeCasts S512x8x1x4
  broadcasts_S512x8x1x4_S512x8x2x4 : S512x8x1x4.Broadcasts S512x8x2x4
  slices_S512x8x2x4_o0_0_0_0_S512x8x2x1 : S512x8x2x4.Slices ![0, 0, 0, 0] S512x8x2x1
  shapeCasts_S512x8x2x1_S512x8x2 : S512x8x2x1.ShapeCasts S512x8x2
  slices_S512x8x2x4_o0_0_0_2_S512x8x2x1 : S512x8x2x4.Slices ![0, 0, 0, 2] S512x8x2x1
  slices_S512x8x2x4_o0_0_0_1_S512x8x2x1 : S512x8x2x4.Slices ![0, 0, 0, 1] S512x8x2x1
  slices_S512x8x2x4_o0_0_0_3_S512x8x2x1 : S512x8x2x4.Slices ![0, 0, 0, 3] S512x8x2x1
  slices_S512x8x2_o0_0_0_S512x8x1 : S512x8x2.Slices ![0, 0, 0] S512x8x1
  slices_S512x8x2_o0_0_1_S512x8x1 : S512x8x2.Slices ![0, 0, 1] S512x8x1
  shapeCasts_S512x8_S1x512x8 : S512x8.ShapeCasts S1x512x8
  reduces_S1x512x8_S1 : S1x512x8.Reduces [1, 2] S1
  shapeCasts_S1_S1x1x1 : S1.ShapeCasts S1x1x1
  inpos_S1x1x1_p0_0_0 : ∀ a, (![0, 0, 0] : Fin 3 → Nat) a < S1x1x1.size a
  reduces_S512x8x20_S512x8 : S512x8x20.Reduces [2] S512x8
  broadcasts_S512x8x1_S512x8x20 : S512x8x1.Broadcasts S512x8x20
  iota_S512x8x20_d2_w32 : S512x8x20.Iotas .tc 32 [2]
  iota_S512x8x98_d2_w32 : S512x8x98.Iotas .tc 32 [2]
  broadcasts_S512x8x1_S512x8x98 : S512x8x1.Broadcasts S512x8x98
  reduces_S512x8x98_S512x98 : S512x8x98.Reduces [1] S512x98
  shapeCasts_S512x49x2_S512x98 : S512x49x2.ShapeCasts S512x98
  reduces_S512x98_S512 : S512x98.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  dot_S512x8x49_S512x49x8_S512x8x8_2_1_1_2_0_0_wf : DotDims.WF S512x8x49 S512x49x8 S512x8x8 [2] [1] [1] [2] [0] [0]
  dot_S512x8x49_S512x49x20_S512x8x20_2_1_1_2_0_0_wf : DotDims.WF S512x8x49 S512x49x20 S512x8x20 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1470.size a ≤ S16384x1470.size a
  hwx0_0 : ∀ i : grid0.Coords, EltTy.bits .f32 = 32 ∨ (Rect.block (s := S16384x1470) S512x1470.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x40.size a ≤ S16384x40.size a
  hwx0_1 : ∀ i : grid0.Coords, EltTy.bits .f32 = 32 ∨ (Rect.block (s := S16384x40) S512x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x8x49_S512x49x8_S512x8x8_2_1_1_2_0_0 : DotDims S512x8x49 S512x49x8 S512x8x8 where
  lhsContracting := [2]
  rhsContracting := [1]
  lhsNonContracting := [1]
  rhsNonContracting := [2]
  lhsBatch := [0]
  rhsBatch := [0]
  wf := dot_S512x8x49_S512x49x8_S512x8x8_2_1_1_2_0_0_wf
def dot_S512x8x49_S512x49x20_S512x8x20_2_1_1_2_0_0 : DotDims S512x8x49 S512x49x20 S512x8x20 where
  lhsContracting := [2]
  rhsContracting := [1]
  lhsNonContracting := [1]
  rhsNonContracting := [2]
  lhsBatch := [0]
  rhsBatch := [0]
  wf := dot_S512x8x49_S512x49x20_S512x8x20_2_1_1_2_0_0_wf

abbrev win0_0 : Pipeline.Window sig grid0 :=
  Pipeline.Window.ofSpec (Memref.whole main_arg0) S512x1470.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1470 : Shape := ⟨2, ![16384, 1470]⟩
abbrev S16384x40 : Shape := ⟨2, ![16384, 40]⟩
abbrev S16384x7x7x30 : Shape := ⟨4, ![16384, 7, 7, 30]⟩
abbrev S16384x7x7x20 : Shape := ⟨4, ![16384, 7, 7, 20]⟩
abbrev S16384x7x7x10 : Shape := ⟨4, ![16384, 7, 7, 10]⟩
abbrev S16384x7x7x2x5 : Shape := ⟨5, ![16384, 7, 7, 2, 5]⟩
abbrev S16384x7x7x2x1 : Shape := ⟨5, ![16384, 7, 7, 2, 1]⟩
abbrev S16384x7x7x2 : Shape := ⟨4, ![16384, 7, 7, 2]⟩
abbrev S_ : Shape := ⟨0, ![]⟩
abbrev S16384x7x7x2x4 : Shape := ⟨5, ![16384, 7, 7, 2, 4]⟩
abbrev S16384x8x5 : Shape := ⟨3, ![16384, 8, 5]⟩
abbrev S16384x8x1 : Shape := ⟨3, ![16384, 8, 1]⟩
abbrev S16384x8 : Shape := ⟨2, ![16384, 8]⟩
abbrev S16384x8x4 : Shape := ⟨3, ![16384, 8, 4]⟩
abbrev S16384 : Shape := ⟨1, ![16384]⟩
abbrev S16384x1 : Shape := ⟨2, ![16384, 1]⟩
abbrev S16384x8x3 : Shape := ⟨3, ![16384, 8, 3]⟩
abbrev S16384x8x2x4 : Shape := ⟨4, ![16384, 8, 2, 4]⟩
abbrev S16384x8x1x4 : Shape := ⟨4, ![16384, 8, 1, 4]⟩
abbrev S16384x8x2x1 : Shape := ⟨4, ![16384, 8, 2, 1]⟩
abbrev S16384x8x2 : Shape := ⟨3, ![16384, 8, 2]⟩
abbrev S16384x8x1x1 : Shape := ⟨4, ![16384, 8, 1, 1]⟩
abbrev S1 : Shape := ⟨1, ![1]⟩
abbrev S1x1x1x1 : Shape := ⟨4, ![1, 1, 1, 1]⟩
abbrev S16384x8x20 : Shape := ⟨3, ![16384, 8, 20]⟩
abbrev S16384x98 : Shape := ⟨2, ![16384, 98]⟩

abbrev nBuf : Space → Nat
  | .hbm => 463
  | .vmem => 0
  | .smem => 0
  | _ => 0

abbrev hbmTy0_0 (i : Nat) : BufTy := match i % 128 with
  | 0 => ⟨S16384x1470, .f32⟩
  | 1 => ⟨S16384x40, .f32⟩
  | 2 => ⟨S16384x7x7x30, .f32⟩
  | 3 => ⟨S16384x7x7x20, .f32⟩
  | 4 => ⟨S16384x7x7x10, .f32⟩
  | 5 => ⟨S16384x7x7x2x5, .f32⟩
  | 6 => ⟨S16384x7x7x2x1, .f32⟩
  | 7 => ⟨S16384x7x7x2, .f32⟩
  | 8 => ⟨S16384x7x7x2x1, .f32⟩
  | 9 => ⟨S16384x7x7x2, .f32⟩
  | 10 => ⟨S_, .f32⟩
  | 11 => ⟨S_, .f32⟩
  | 12 => ⟨S_, .f32⟩
  | 13 => ⟨S16384x7x7x2, .f32⟩
  | 14 => ⟨S16384x7x7x2, .f32⟩
  | 15 => ⟨S_, .f32⟩
  | 16 => ⟨S16384x7x7x2, .f32⟩
  | 17 => ⟨S16384x7x7x2, .f32⟩
  | 18 => ⟨S16384x7x7x2x1, .f32⟩
  | 19 => ⟨S16384x7x7x2, .f32⟩
  | 20 => ⟨S_, .f32⟩
  | 21 => ⟨S_, .f32⟩
  | 22 => ⟨S_, .f32⟩
  | 23 => ⟨S16384x7x7x2, .f32⟩
  | 24 => ⟨S16384x7x7x2, .f32⟩
  | 25 => ⟨S_, .f32⟩
  | 26 => ⟨S16384x7x7x2, .f32⟩
  | 27 => ⟨S16384x7x7x2, .f32⟩
  | 28 => ⟨S16384x7x7x2x1, .f32⟩
  | 29 => ⟨S16384x7x7x2, .f32⟩
  | 30 => ⟨S_, .f32⟩
  | 31 => ⟨S_, .f32⟩
  | 32 => ⟨S_, .f32⟩
  | 33 => ⟨S16384x7x7x2, .f32⟩
  | 34 => ⟨S16384x7x7x2, .f32⟩
  | 35 => ⟨S_, .f32⟩
  | 36 => ⟨S16384x7x7x2, .f32⟩
  | 37 => ⟨S16384x7x7x2, .f32⟩
  | 38 => ⟨S16384x7x7x2x1, .f32⟩
  | 39 => ⟨S16384x7x7x2, .f32⟩
  | 40 => ⟨S_, .f32⟩
  | 41 => ⟨S_, .f32⟩
  | 42 => ⟨S_, .f32⟩
  | 43 => ⟨S16384x7x7x2, .f32⟩
  | 44 => ⟨S16384x7x7x2, .f32⟩
  | 45 => ⟨S_, .f32⟩
  | 46 => ⟨S16384x7x7x2, .f32⟩
  | 47 => ⟨S16384x7x7x2, .f32⟩
  | 48 => ⟨S16384x7x7x2x1, .f32⟩
  | 49 => ⟨S16384x7x7x2x1, .f32⟩
  | 50 => ⟨S16384x7x7x2x1, .f32⟩
  | 51 => ⟨S16384x7x7x2x1, .f32⟩
  | 52 => ⟨S16384x7x7x2x4, .f32⟩
  | 53 => ⟨S16384x8x5, .f32⟩
  | 54 => ⟨S16384x8x1, .f32⟩
  | 55 => ⟨S16384x8, .f32⟩
  | 56 => ⟨S16384x8, .i32⟩
  | 57 => ⟨S16384x8x1, .f32⟩
  | 58 => ⟨S16384x8, .f32⟩
  | 59 => ⟨S16384x8x1, .f32⟩
  | 60 => ⟨S16384x8, .f32⟩
  | 61 => ⟨S16384x8x1, .f32⟩
  | 62 => ⟨S16384x8, .f32⟩
  | 63 => ⟨S16384x8x1, .f32⟩
  | 64 => ⟨S16384x8, .f32⟩
  | 65 => ⟨S16384x8, .f32⟩
  | 66 => ⟨S_, .f32⟩
  | 67 => ⟨S16384x8, .f32⟩
  | 68 => ⟨S16384x8, .f32⟩
  | 69 => ⟨S_, .f32⟩
  | 70 => ⟨S16384x8, .f32⟩
  | 71 => ⟨S16384x8, .f32⟩
  | 72 => ⟨S16384x8, .f32⟩
  | 73 => ⟨S_, .f32⟩
  | 74 => ⟨S16384x8, .f32⟩
  | 75 => ⟨S16384x8, .f32⟩
  | 76 => ⟨S_, .f32⟩
  | 77 => ⟨S16384x8, .f32⟩
  | 78 => ⟨S16384x8, .f32⟩
  | 79 => ⟨S16384x8, .f32⟩
  | 80 => ⟨S_, .f32⟩
  | 81 => ⟨S16384x8, .f32⟩
  | 82 => ⟨S16384x8, .f32⟩
  | 83 => ⟨S_, .f32⟩
  | 84 => ⟨S_, .f32⟩
  | 85 => ⟨S_, .f32⟩
  | 86 => ⟨S16384x8, .f32⟩
  | 87 => ⟨S16384x8, .f32⟩
  | 88 => ⟨S_, .f32⟩
  | 89 => ⟨S16384x8, .f32⟩
  | 90 => ⟨S16384x8, .f32⟩
  | 91 => ⟨S16384x8, .f32⟩
  | 92 => ⟨S_, .f32⟩
  | 93 => ⟨S16384x8, .f32⟩
  | 94 => ⟨S16384x8, .f32⟩
  | 95 => ⟨S_, .f32⟩
  | 96 => ⟨S_, .f32⟩
  | 97 => ⟨S_, .f32⟩
  | 98 => ⟨S16384x8, .f32⟩
  | 99 => ⟨S16384x8, .f32⟩
  | 100 => ⟨S_, .f32⟩
  | 101 => ⟨S16384x8, .f32⟩
  | 102 => ⟨S16384x8, .f32⟩
  | 103 => ⟨S16384x8x1, .f32⟩
  | 104 => ⟨S16384x8x1, .f32⟩
  | 105 => ⟨S16384x8x1, .f32⟩
  | 106 => ⟨S16384x8x1, .f32⟩
  | 107 => ⟨S16384x8x4, .f32⟩
  | 108 => ⟨S_, .f32⟩
  | 109 => ⟨S16384x8, .f32⟩
  | 110 => ⟨S16384x8, .f32⟩
  | 111 => ⟨S_, .i32⟩
  | 112 => ⟨S_, .i32⟩
  | 113 => ⟨S_, .f32⟩
  | 114 => ⟨S16384x8, .f32⟩
  | 115 => ⟨S16384x8, .f32⟩
  | 116 => ⟨S_, .f32⟩
  | 117 => ⟨S16384x8, .f32⟩
  | 118 => ⟨S16384x8, .f32⟩
  | 119 => ⟨S16384x8, .i32⟩
  | 120 => ⟨S_, .f32⟩
  | 121 => ⟨S16384x8, .f32⟩
  | 122 => ⟨S16384x8, .f32⟩
  | 123 => ⟨S_, .i32⟩
  | 124 => ⟨S_, .i32⟩
  | 125 => ⟨S_, .f32⟩
  | 126 => ⟨S16384x8, .f32⟩
  | 127 => ⟨S16384x8, .f32⟩
  | _ => ⟨S16384x1470, .f32⟩

abbrev hbmTy0_1 (i : Nat) : BufTy := match i % 128 with
  | 0 => ⟨S_, .f32⟩
  | 1 => ⟨S16384x8, .f32⟩
  | 2 => ⟨S16384x8, .f32⟩
  | 3 => ⟨S16384x8, .i32⟩
  | 4 => ⟨S16384, .i32⟩
  | 5 => ⟨S16384x1, .i32⟩
  | 6 => ⟨S_, .i32⟩
  | 7 => ⟨S16384x1, .i32⟩
  | 8 => ⟨S16384x1, .i1⟩
  | 9 => ⟨S_, .i32⟩
  | 10 => ⟨S16384x1, .i32⟩
  | 11 => ⟨S16384x1, .i32⟩
  | 12 => ⟨S16384x1, .i32⟩
  | 13 => ⟨S_, .i32⟩
  | 14 => ⟨S16384x8, .i32⟩
  | 15 => ⟨S16384x8, .i1⟩
  | 16 => ⟨S_, .i32⟩
  | 17 => ⟨S16384x8, .i32⟩
  | 18 => ⟨S16384x8, .i32⟩
  | 19 => ⟨S16384x8, .i32⟩
  | 20 => ⟨S_, .i32⟩
  | 21 => ⟨S16384x8, .i32⟩
  | 22 => ⟨S16384x8, .i1⟩
  | 23 => ⟨S_, .i32⟩
  | 24 => ⟨S16384x8, .i32⟩
  | 25 => ⟨S16384x8, .i32⟩
  | 26 => ⟨S16384x8, .i32⟩
  | 27 => ⟨S16384x8, .i32⟩
  | 28 => ⟨S16384x8x1, .i32⟩
  | 29 => ⟨S16384x8x1, .i32⟩
  | 30 => ⟨S16384x8x1, .i32⟩
  | 31 => ⟨S16384x8x3, .i32⟩
  | 32 => ⟨S16384x8x2x4, .f32⟩
  | 33 => ⟨S16384x8x1x4, .f32⟩
  | 34 => ⟨S16384x8x2x1, .f32⟩
  | 35 => ⟨S16384x8x2, .f32⟩
  | 36 => ⟨S16384x8x2x1, .f32⟩
  | 37 => ⟨S16384x8x2, .f32⟩
  | 38 => ⟨S_, .f32⟩
  | 39 => ⟨S16384x8x2, .f32⟩
  | 40 => ⟨S16384x8x2, .f32⟩
  | 41 => ⟨S16384x8x2, .f32⟩
  | 42 => ⟨S16384x8x2x1, .f32⟩
  | 43 => ⟨S16384x8x2, .f32⟩
  | 44 => ⟨S16384x8x2x1, .f32⟩
  | 45 => ⟨S16384x8x2, .f32⟩
  | 46 => ⟨S_, .f32⟩
  | 47 => ⟨S16384x8x2, .f32⟩
  | 48 => ⟨S16384x8x2, .f32⟩
  | 49 => ⟨S16384x8x2, .f32⟩
  | 50 => ⟨S16384x8x2x1, .f32⟩
  | 51 => ⟨S16384x8x2, .f32⟩
  | 52 => ⟨S16384x8x2x1, .f32⟩
  | 53 => ⟨S16384x8x2, .f32⟩
  | 54 => ⟨S_, .f32⟩
  | 55 => ⟨S16384x8x2, .f32⟩
  | 56 => ⟨S16384x8x2, .f32⟩
  | 57 => ⟨S16384x8x2, .f32⟩
  | 58 => ⟨S16384x8x2x1, .f32⟩
  | 59 => ⟨S16384x8x2, .f32⟩
  | 60 => ⟨S16384x8x2x1, .f32⟩
  | 61 => ⟨S16384x8x2, .f32⟩
  | 62 => ⟨S_, .f32⟩
  | 63 => ⟨S16384x8x2, .f32⟩
  | 64 => ⟨S16384x8x2, .f32⟩
  | 65 => ⟨S16384x8x2, .f32⟩
  | 66 => ⟨S16384x8x1x1, .f32⟩
  | 67 => ⟨S16384x8x1, .f32⟩
  | 68 => ⟨S16384x8x1x1, .f32⟩
  | 69 => ⟨S16384x8x1, .f32⟩
  | 70 => ⟨S_, .f32⟩
  | 71 => ⟨S16384x8x1, .f32⟩
  | 72 => ⟨S16384x8x1, .f32⟩
  | 73 => ⟨S16384x8x1, .f32⟩
  | 74 => ⟨S16384x8x1x1, .f32⟩
  | 75 => ⟨S16384x8x1, .f32⟩
  | 76 => ⟨S16384x8x1x1, .f32⟩
  | 77 => ⟨S16384x8x1, .f32⟩
  | 78 => ⟨S_, .f32⟩
  | 79 => ⟨S16384x8x1, .f32⟩
  | 80 => ⟨S16384x8x1, .f32⟩
  | 81 => ⟨S16384x8x1, .f32⟩
  | 82 => ⟨S16384x8x1x1, .f32⟩
  | 83 => ⟨S16384x8x1, .f32⟩
  | 84 => ⟨S16384x8x1x1, .f32⟩
  | 85 => ⟨S16384x8x1, .f32⟩
  | 86 => ⟨S_, .f32⟩
  | 87 => ⟨S16384x8x1, .f32⟩
  | 88 => ⟨S16384x8x1, .f32⟩
  | 89 => ⟨S16384x8x1, .f32⟩
  | 90 => ⟨S16384x8x1x1, .f32⟩
  | 91 => ⟨S16384x8x1, .f32⟩
  | 92 => ⟨S16384x8x1x1, .f32⟩
  | 93 => ⟨S16384x8x1, .f32⟩
  | 94 => ⟨S_, .f32⟩
  | 95 => ⟨S16384x8x1, .f32⟩
  | 96 => ⟨S16384x8x1, .f32⟩
  | 97 => ⟨S16384x8x1, .f32⟩
  | 98 => ⟨S16384x8x2, .f32⟩
  | 99 => ⟨S16384x8x2, .f32⟩
  | 100 => ⟨S16384x8x2, .f32⟩
  | 101 => ⟨S16384x8x2, .f32⟩
  | 102 => ⟨S16384x8x2, .f32⟩
  | 103 => ⟨S_, .f32⟩
  | 104 => ⟨S_, .f32⟩
  | 105 => ⟨S16384x8x2, .f32⟩
  | 106 => ⟨S16384x8x2, .f32⟩
  | 107 => ⟨S16384x8x2, .f32⟩
  | 108 => ⟨S16384x8x2, .f32⟩
  | 109 => ⟨S16384x8x2, .f32⟩
  | 110 => ⟨S16384x8x2, .f32⟩
  | 111 => ⟨S16384x8x2, .f32⟩
  | 112 => ⟨S_, .f32⟩
  | 113 => ⟨S_, .f32⟩
  | 114 => ⟨S16384x8x2, .f32⟩
  | 115 => ⟨S16384x8x2, .f32⟩
  | 116 => ⟨S16384x8x2, .f32⟩
  | 117 => ⟨S16384x8x2, .f32⟩
  | 118 => ⟨S_, .f32⟩
  | 119 => ⟨S_, .f32⟩
  | 120 => ⟨S16384x8x2, .f32⟩
  | 121 => ⟨S16384x8x2, .f32⟩
  | 122 => ⟨S16384x8x2, .f32⟩
  | 123 => ⟨S_, .f32⟩
  | 124 => ⟨S_, .f32⟩
  | 125 => ⟨S16384x8x2, .f32⟩
  | 126 => ⟨S16384x8x2, .f32⟩
  | 127 => ⟨S16384x8x2, .f32⟩
  | _ => ⟨S16384x1470, .f32⟩

abbrev hbmTy0_2 (i : Nat) : BufTy := match i % 128 with
  | 0 => ⟨S16384x8x1, .f32⟩
  | 1 => ⟨S_, .f32⟩
  | 2 => ⟨S_, .f32⟩
  | 3 => ⟨S16384x8x1, .f32⟩
  | 4 => ⟨S16384x8x1, .f32⟩
  | 5 => ⟨S16384x8x1, .f32⟩
  | 6 => ⟨S_, .f32⟩
  | 7 => ⟨S_, .f32⟩
  | 8 => ⟨S16384x8x1, .f32⟩
  | 9 => ⟨S16384x8x1, .f32⟩
  | 10 => ⟨S16384x8x1, .f32⟩
  | 11 => ⟨S16384x8x2, .f32⟩
  | 12 => ⟨S16384x8x2, .f32⟩
  | 13 => ⟨S16384x8x2, .f32⟩
  | 14 => ⟨S_, .f32⟩
  | 15 => ⟨S_, .f32⟩
  | 16 => ⟨S16384x8x2, .f32⟩
  | 17 => ⟨S16384x8x2, .f32⟩
  | 18 => ⟨S16384x8x2, .f32⟩
  | 19 => ⟨S16384x8x1, .f32⟩
  | 20 => ⟨S16384x8, .f32⟩
  | 21 => ⟨S16384x8x1, .f32⟩
  | 22 => ⟨S16384x8, .f32⟩
  | 23 => ⟨S16384x8, .i1⟩
  | 24 => ⟨S_, .i32⟩
  | 25 => ⟨S_, .i32⟩
  | 26 => ⟨S16384x8, .i32⟩
  | 27 => ⟨S16384x8, .i32⟩
  | 28 => ⟨S16384x8, .i32⟩
  | 29 => ⟨S16384x8x1, .i32⟩
  | 30 => ⟨S16384x8x1, .i32⟩
  | 31 => ⟨S_, .i32⟩
  | 32 => ⟨S16384x8x1, .i32⟩
  | 33 => ⟨S16384x8x1, .i1⟩
  | 34 => ⟨S_, .i32⟩
  | 35 => ⟨S16384x8x1, .i32⟩
  | 36 => ⟨S16384x8x1, .i32⟩
  | 37 => ⟨S16384x8x1, .i32⟩
  | 38 => ⟨S16384x8x1x1, .i32⟩
  | 39 => ⟨S1, .i32⟩
  | 40 => ⟨S_, .i32⟩
  | 41 => ⟨S16384x8x1x1, .i32⟩
  | 42 => ⟨S16384x8x1x1, .i1⟩
  | 43 => ⟨S1x1x1x1, .i32⟩
  | 44 => ⟨S16384x8x1x1, .i32⟩
  | 45 => ⟨S16384x8x1x1, .i1⟩
  | 46 => ⟨S16384x8x1x1, .i1⟩
  | 47 => ⟨S_, .i1⟩
  | 48 => ⟨S16384x8x1, .i1⟩
  | 49 => ⟨S16384x8x1, .f32⟩
  | 50 => ⟨S_, .f32⟩
  | 51 => ⟨S16384x8x1, .f32⟩
  | 52 => ⟨S16384x8x1, .f32⟩
  | 53 => ⟨S16384x8, .f32⟩
  | 54 => ⟨S_, .f32⟩
  | 55 => ⟨S16384x8, .f32⟩
  | 56 => ⟨S16384x8, .f32⟩
  | 57 => ⟨S_, .f32⟩
  | 58 => ⟨S_, .f32⟩
  | 59 => ⟨S_, .i32⟩
  | 60 => ⟨S16384x1, .i32⟩
  | 61 => ⟨S16384x1, .i1⟩
  | 62 => ⟨S_, .i32⟩
  | 63 => ⟨S16384x1, .i32⟩
  | 64 => ⟨S16384x1, .i32⟩
  | 65 => ⟨S16384x1, .i32⟩
  | 66 => ⟨S_, .i32⟩
  | 67 => ⟨S16384x8, .i32⟩
  | 68 => ⟨S16384x8, .i1⟩
  | 69 => ⟨S_, .i32⟩
  | 70 => ⟨S16384x8, .i32⟩
  | 71 => ⟨S16384x8, .i32⟩
  | 72 => ⟨S16384x8, .i32⟩
  | 73 => ⟨S_, .i32⟩
  | 74 => ⟨S16384x8, .i32⟩
  | 75 => ⟨S16384x8, .i1⟩
  | 76 => ⟨S_, .i32⟩
  | 77 => ⟨S16384x8, .i32⟩
  | 78 => ⟨S16384x8, .i32⟩
  | 79 => ⟨S16384x8, .i32⟩
  | 80 => ⟨S16384x8, .i32⟩
  | 81 => ⟨S16384x8x1, .i32⟩
  | 82 => ⟨S16384x8x1, .i32⟩
  | 83 => ⟨S16384x8x1, .i32⟩
  | 84 => ⟨S16384x8x3, .i32⟩
  | 85 => ⟨S16384x8x20, .f32⟩
  | 86 => ⟨S_, .f32⟩
  | 87 => ⟨S16384x8, .f32⟩
  | 88 => ⟨S_, .f32⟩
  | 89 => ⟨S16384x8, .f32⟩
  | 90 => ⟨S16384x8, .f32⟩
  | 91 => ⟨S16384x8x1, .f32⟩
  | 92 => ⟨S16384x8x20, .f32⟩
  | 93 => ⟨S16384x8x20, .f32⟩
  | 94 => ⟨S16384x8x20, .f32⟩
  | 95 => ⟨S_, .f32⟩
  | 96 => ⟨S16384x8, .f32⟩
  | 97 => ⟨S16384x8x1, .f32⟩
  | 98 => ⟨S16384x8x1, .f32⟩
  | 99 => ⟨S16384x8x20, .f32⟩
  | 100 => ⟨S16384x8x20, .f32⟩
  | 101 => ⟨S16384x8x1, .i32⟩
  | 102 => ⟨S_, .i32⟩
  | 103 => ⟨S16384x8x1, .i32⟩
  | 104 => ⟨S16384x8x1, .i1⟩
  | 105 => ⟨S_, .i32⟩
  | 106 => ⟨S16384x8x1, .i32⟩
  | 107 => ⟨S16384x8x1, .i32⟩
  | 108 => ⟨S16384x8x1, .i32⟩
  | 109 => ⟨S16384x8x1x1, .i32⟩
  | 110 => ⟨S1, .i32⟩
  | 111 => ⟨S_, .i32⟩
  | 112 => ⟨S16384x8x1x1, .i32⟩
  | 113 => ⟨S16384x8x1x1, .i1⟩
  | 114 => ⟨S1x1x1x1, .i32⟩
  | 115 => ⟨S16384x8x1x1, .i32⟩
  | 116 => ⟨S16384x8x1x1, .i1⟩
  | 117 => ⟨S16384x8x1x1, .i1⟩
  | 118 => ⟨S_, .i1⟩
  | 119 => ⟨S16384x8x1, .i1⟩
  | 120 => ⟨S16384x8x1, .f32⟩
  | 121 => ⟨S_, .f32⟩
  | 122 => ⟨S16384x8x1, .f32⟩
  | 123 => ⟨S16384x8x1, .f32⟩
  | 124 => ⟨S16384x8, .f32⟩
  | 125 => ⟨S16384x8, .f32⟩
  | 126 => ⟨S16384x8, .f32⟩
  | 127 => ⟨S16384x8, .f32⟩
  | _ => ⟨S16384x1470, .f32⟩

abbrev hbmTy0_3 (i : Nat) : BufTy := match i % 128 with
  | 0 => ⟨S_, .f32⟩
  | 1 => ⟨S16384x8, .f32⟩
  | 2 => ⟨S16384x8, .f32⟩
  | 3 => ⟨S16384x8, .f32⟩
  | 4 => ⟨S16384x8, .f32⟩
  | 5 => ⟨S_, .f32⟩
  | 6 => ⟨S_, .f32⟩
  | 7 => ⟨S_, .i32⟩
  | 8 => ⟨S16384x8, .i32⟩
  | 9 => ⟨S16384x8, .i32⟩
  | 10 => ⟨S16384x8, .i32⟩
  | 11 => ⟨S_, .i32⟩
  | 12 => ⟨S16384x8, .i32⟩
  | 13 => ⟨S16384x8, .i32⟩
  | 14 => ⟨S16384x8, .i32⟩
  | 15 => ⟨S16384x8, .i32⟩
  | 16 => ⟨S_, .i1⟩
  | 17 => ⟨S16384x98, .i1⟩
  | 18 => ⟨S_, .i32⟩
  | 19 => ⟨S16384x1, .i32⟩
  | 20 => ⟨S16384x1, .i1⟩
  | 21 => ⟨S_, .i32⟩
  | 22 => ⟨S16384x1, .i32⟩
  | 23 => ⟨S16384x1, .i32⟩
  | 24 => ⟨S16384x1, .i32⟩
  | 25 => ⟨S_, .i32⟩
  | 26 => ⟨S16384x8, .i32⟩
  | 27 => ⟨S16384x8, .i1⟩
  | 28 => ⟨S_, .i32⟩
  | 29 => ⟨S16384x8, .i32⟩
  | 30 => ⟨S16384x8, .i32⟩
  | 31 => ⟨S16384x8, .i32⟩
  | 32 => ⟨S16384x8, .i32⟩
  | 33 => ⟨S16384x8x1, .i32⟩
  | 34 => ⟨S16384x8x1, .i32⟩
  | 35 => ⟨S16384x8x2, .i32⟩
  | 36 => ⟨S_, .i1⟩
  | 37 => ⟨S16384x8, .i1⟩
  | 38 => ⟨S16384x98, .i1⟩
  | 39 => ⟨S16384x98, .f32⟩
  | 40 => ⟨S16384x98, .f32⟩
  | 41 => ⟨S_, .f32⟩
  | 42 => ⟨S16384, .f32⟩
  | 43 => ⟨S_, .f32⟩
  | 44 => ⟨S16384x98, .f32⟩
  | 45 => ⟨S16384x98, .f32⟩
  | 46 => ⟨S16384x98, .f32⟩
  | 47 => ⟨S16384x98, .f32⟩
  | 48 => ⟨S_, .f32⟩
  | 49 => ⟨S16384, .f32⟩
  | 50 => ⟨S_, .f32⟩
  | 51 => ⟨S16384, .f32⟩
  | 52 => ⟨S16384, .f32⟩
  | 53 => ⟨S16384, .f32⟩
  | 54 => ⟨S16384x98, .f32⟩
  | 55 => ⟨S_, .f32⟩
  | 56 => ⟨S16384x98, .f32⟩
  | 57 => ⟨S16384x98, .f32⟩
  | 58 => ⟨S16384x98, .f32⟩
  | 59 => ⟨S_, .f32⟩
  | 60 => ⟨S16384, .f32⟩
  | 61 => ⟨S_, .f32⟩
  | 62 => ⟨S16384, .f32⟩
  | 63 => ⟨S16384, .f32⟩
  | 64 => ⟨S_, .f32⟩
  | 65 => ⟨S16384, .f32⟩
  | 66 => ⟨S16384, .f32⟩
  | 67 => ⟨S16384, .f32⟩
  | 68 => ⟨S_, .f32⟩
  | 69 => ⟨S16384, .f32⟩
  | 70 => ⟨S16384, .f32⟩
  | 71 => ⟨S_, .f32⟩
  | 72 => ⟨S16384, .f32⟩
  | 73 => ⟨S16384, .f32⟩
  | 74 => ⟨S16384, .f32⟩
  | 75 => ⟨S_, .f32⟩
  | 76 => ⟨S_, .f32⟩
  | 77 => ⟨S_, .f32⟩
  | 78 => ⟨S_, .f32⟩
  | _ => ⟨S16384x1470, .f32⟩

abbrev hbmTy (i : Nat) : BufTy := match i / 128 with
  | 0 => hbmTy0_0 i
  | 1 => hbmTy0_1 i
  | 2 => hbmTy0_2 i
  | 3 => hbmTy0_3 i
  | _ => ⟨S16384x1470, .f32⟩

abbrev bufTy : (tb : Table) → Fin (tcTables nBuf tb) → BufTy
  | .hbm, ⟨i, _⟩ => hbmTy i
  | _, _ => ⟨S16384x1470, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_cst_4 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_5 : Ref sig .tc := ⟨.hbm, 40, rfl⟩
abbrev main_cst_6 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_v47 : Ref sig .tc := ⟨.hbm, 82, rfl⟩
abbrev main_cst_12 : Ref sig .tc := ⟨.hbm, 83, rfl⟩
abbrev main_cst_13 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v48 : Ref sig .tc := ⟨.hbm, 90, rfl⟩
abbrev main_v49 : Ref sig .tc := ⟨.hbm, 91, rfl⟩
abbrev main_cst_14 : Ref sig .tc := ⟨.hbm, 92, rfl⟩
abbrev main_v50 : Ref sig .tc := ⟨.hbm, 93, rfl⟩
abbrev main_v51 : Ref sig .tc := ⟨.hbm, 94, rfl⟩
abbrev main_cst_15 : Ref sig .tc := ⟨.hbm, 95, rfl⟩
abbrev main_cst_16 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_17 : Ref sig .tc := ⟨.hbm, 108, rfl⟩
abbrev main_v58 : Ref sig .tc := ⟨.hbm, 109, rfl⟩
abbrev main_v59 : Ref sig .tc := ⟨.hbm, 110, rfl⟩
abbrev main_c : Ref sig .tc := ⟨.hbm, 111, rfl⟩
abbrev main_c_18 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v60 : Ref sig .tc := ⟨.hbm, 118, rfl⟩
abbrev main_v61 : Ref sig .tc := ⟨.hbm, 119, rfl⟩
abbrev main_cst_19 : Ref sig .tc := ⟨.hbm, 120, rfl⟩
abbrev main_v62 : Ref sig .tc := ⟨.hbm, 121, rfl⟩
abbrev main_v63 : Ref sig .tc := ⟨.hbm, 122, rfl⟩
abbrev main_c_20 : Ref sig .tc := ⟨.hbm, 123, rfl⟩
abbrev main_c_21 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_c_22 : Ref sig .tc := ⟨.hbm, 134, rfl⟩
abbrev main_v68 : Ref sig .tc := ⟨.hbm, 135, rfl⟩
abbrev main_v69 : Ref sig .tc := ⟨.hbm, 136, rfl⟩
abbrev main_c_23 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_c_24 : Ref sig .tc := ⟨.hbm, 141, rfl⟩
abbrev main_v73 : Ref sig .tc := ⟨.hbm, 142, rfl⟩
abbrev main_v74 : Ref sig .tc := ⟨.hbm, 143, rfl⟩
abbrev main_c_25 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_c_26 : Ref sig .tc := ⟨.hbm, 148, rfl⟩
abbrev main_v78 : Ref sig .tc := ⟨.hbm, 149, rfl⟩
abbrev main_v79 : Ref sig .tc := ⟨.hbm, 150, rfl⟩
abbrev main_c_27 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_28 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_cst_29 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_30 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_31 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_cst_32 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_cst_33 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_cst_34 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_cst_35 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_cst_36 : Ref sig .tc := ⟨.hbm, 231, rfl⟩
abbrev main_call8_v0 : Ref sig .tc := ⟨.hbm, 232, rfl⟩
abbrev main_call8_v1 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_cst_37 : Ref sig .tc := ⟨.hbm, 240, rfl⟩
abbrev main_call9_v0 : Ref sig .tc := ⟨.hbm, 241, rfl⟩
abbrev main_call9_v1 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_cst_38 : Ref sig .tc := ⟨.hbm, 246, rfl⟩
abbrev main_call10_v0 : Ref sig .tc := ⟨.hbm, 247, rfl⟩
abbrev main_call10_v1 : Ref sig .tc := ⟨.hbm, 248, rfl⟩
abbrev main_v160 : Ref sig .tc := ⟨.hbm, 249, rfl⟩
abbrev main_v161 : Ref sig .tc := ⟨.hbm, 250, rfl⟩
abbrev main_cst_39 : Ref sig .tc := ⟨.hbm, 251, rfl⟩
abbrev main_call11_v0 : Ref sig .tc := ⟨.hbm, 252, rfl⟩
abbrev main_call11_v1 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_cst_40 : Ref sig .tc := ⟨.hbm, 257, rfl⟩
abbrev main_call12_v0 : Ref sig .tc := ⟨.hbm, 258, rfl⟩
abbrev main_call12_v1 : Ref sig .tc := ⟨.hbm, 259, rfl⟩
abbrev main_v165 : Ref sig .tc := ⟨.hbm, 260, rfl⟩
abbrev main_v166 : Ref sig .tc := ⟨.hbm, 261, rfl⟩
abbrev main_cst_41 : Ref sig .tc := ⟨.hbm, 262, rfl⟩
abbrev main_call13_v0 : Ref sig .tc := ⟨.hbm, 263, rfl⟩
abbrev main_call13_v1 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_cst_42 : Ref sig .tc := ⟨.hbm, 270, rfl⟩
abbrev main_call14_v0 : Ref sig .tc := ⟨.hbm, 271, rfl⟩
abbrev main_call14_v1 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_c_43 : Ref sig .tc := ⟨.hbm, 280, rfl⟩
abbrev main_c_44 : Ref sig .tc := ⟨.hbm, 281, rfl⟩
abbrev main_call15_v0 : Ref sig .tc := ⟨.hbm, 282, rfl⟩
abbrev main_call15_v1 : Ref sig .tc := ⟨.hbm, 283, rfl⟩
abbrev main_v179 : Ref sig .tc := ⟨.hbm, 284, rfl⟩
abbrev main_v180 : Ref sig .tc := ⟨.hbm, 285, rfl⟩
abbrev main_call16_v0 : Ref sig .tc := ⟨.hbm, 286, rfl⟩
abbrev main_call16_c : Ref sig .tc := ⟨.hbm, 287, rfl⟩
abbrev main_call16_v1 : Ref sig .tc := ⟨.hbm, 288, rfl⟩
abbrev main_call16_v2 : Ref sig .tc := ⟨.hbm, 289, rfl⟩
abbrev main_call16_c_0 : Ref sig .tc := ⟨.hbm, 290, rfl⟩
abbrev main_call16_v3 : Ref sig .tc := ⟨.hbm, 291, rfl⟩
abbrev main_call16_v4 : Ref sig .tc := ⟨.hbm, 292, rfl⟩
abbrev main_call16_v5 : Ref sig .tc := ⟨.hbm, 293, rfl⟩
abbrev main_call16_v6 : Ref sig .tc := ⟨.hbm, 294, rfl⟩
abbrev main_call16_c_1 : Ref sig .tc := ⟨.hbm, 295, rfl⟩
abbrev main_call16_c_2 : Ref sig .tc := ⟨.hbm, 296, rfl⟩
abbrev main_call16_v7 : Ref sig .tc := ⟨.hbm, 297, rfl⟩
abbrev main_call16_v8 : Ref sig .tc := ⟨.hbm, 298, rfl⟩
abbrev main_call16_v9 : Ref sig .tc := ⟨.hbm, 299, rfl⟩
abbrev main_call16_v10 : Ref sig .tc := ⟨.hbm, 300, rfl⟩
abbrev main_call16_v11 : Ref sig .tc := ⟨.hbm, 301, rfl⟩
abbrev main_call16_v12 : Ref sig .tc := ⟨.hbm, 302, rfl⟩
abbrev main_call16_c_3 : Ref sig .tc := ⟨.hbm, 303, rfl⟩
abbrev main_call16_v13 : Ref sig .tc := ⟨.hbm, 304, rfl⟩
abbrev main_call16_v14 : Ref sig .tc := ⟨.hbm, 305, rfl⟩
abbrev main_call16_cst : Ref sig .tc := ⟨.hbm, 306, rfl⟩
abbrev main_call16_v15 : Ref sig .tc := ⟨.hbm, 307, rfl⟩
abbrev main_v181 : Ref sig .tc := ⟨.hbm, 308, rfl⟩
abbrev main_v182 : Ref sig .tc := ⟨.hbm, 309, rfl⟩
abbrev main_cst_45 : Ref sig .tc := ⟨.hbm, 310, rfl⟩
abbrev main_v183 : Ref sig .tc := ⟨.hbm, 311, rfl⟩
abbrev main_v184 : Ref sig .tc := ⟨.hbm, 312, rfl⟩
abbrev main_cst_46 : Ref sig .tc := ⟨.hbm, 313, rfl⟩
abbrev main_v185 : Ref sig .tc := ⟨.hbm, 314, rfl⟩
abbrev main_c_47 : Ref sig .tc := ⟨.hbm, 315, rfl⟩
abbrev main_v186 : Ref sig .tc := ⟨.hbm, 316, rfl⟩
abbrev main_v187 : Ref sig .tc := ⟨.hbm, 317, rfl⟩
abbrev main_c_48 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_c_49 : Ref sig .tc := ⟨.hbm, 322, rfl⟩
abbrev main_v191 : Ref sig .tc := ⟨.hbm, 323, rfl⟩
abbrev main_v192 : Ref sig .tc := ⟨.hbm, 324, rfl⟩
abbrev main_c_50 : Ref sig .tc := ⟨.hbm, 325, rfl⟩
abbrev main_v193 : Ref sig .tc := ⟨.hbm, 326, rfl⟩
abbrev main_v194 : Ref sig .tc := ⟨.hbm, 327, rfl⟩
abbrev main_v195 : Ref sig .tc := ⟨.hbm, 328, rfl⟩
abbrev main_c_51 : Ref sig .tc := ⟨.hbm, 329, rfl⟩
abbrev main_v196 : Ref sig .tc := ⟨.hbm, 330, rfl⟩
abbrev main_v197 : Ref sig .tc := ⟨.hbm, 331, rfl⟩
abbrev main_c_52 : Ref sig .tc := ⟨.hbm, 332, rfl⟩
abbrev main_v198 : Ref sig .tc := ⟨.hbm, 333, rfl⟩
abbrev main_v199 : Ref sig .tc := ⟨.hbm, 334, rfl⟩
abbrev main_v200 : Ref sig .tc := ⟨.hbm, 335, rfl⟩
abbrev main_v201 : Ref sig .tc := ⟨.hbm, 336, rfl⟩
abbrev main_v202 : Ref sig .tc := ⟨.hbm, 337, rfl⟩
abbrev main_v203 : Ref sig .tc := ⟨.hbm, 338, rfl⟩
abbrev main_v204 : Ref sig .tc := ⟨.hbm, 339, rfl⟩
abbrev main_v205 : Ref sig .tc := ⟨.hbm, 340, rfl⟩
abbrev main_v206 : Ref sig .tc := ⟨.hbm, 341, rfl⟩
abbrev main_call17_cst : Ref sig .tc := ⟨.hbm, 342, rfl⟩
abbrev main_call17_v0 : Ref sig .tc := ⟨.hbm, 343, rfl⟩
abbrev main_call17_cst_0 : Ref sig .tc := ⟨.hbm, 344, rfl⟩
abbrev main_call17_v1 : Ref sig .tc := ⟨.hbm, 345, rfl⟩
abbrev main_call17_v2 : Ref sig .tc := ⟨.hbm, 346, rfl⟩
abbrev main_call17_v3 : Ref sig .tc := ⟨.hbm, 347, rfl⟩
abbrev main_call17_v4 : Ref sig .tc := ⟨.hbm, 348, rfl⟩
abbrev main_call17_v5 : Ref sig .tc := ⟨.hbm, 349, rfl⟩
abbrev main_call17_v6 : Ref sig .tc := ⟨.hbm, 350, rfl⟩
abbrev main_call17_cst_1 : Ref sig .tc := ⟨.hbm, 351, rfl⟩
abbrev main_call17_v7 : Ref sig .tc := ⟨.hbm, 352, rfl⟩
abbrev main_call17_v8 : Ref sig .tc := ⟨.hbm, 353, rfl⟩
abbrev main_call17_v9 : Ref sig .tc := ⟨.hbm, 354, rfl⟩
abbrev main_call17_v10 : Ref sig .tc := ⟨.hbm, 355, rfl⟩
abbrev main_v207 : Ref sig .tc := ⟨.hbm, 356, rfl⟩
abbrev main_v208 : Ref sig .tc := ⟨.hbm, 357, rfl⟩
abbrev main_call18_c : Ref sig .tc := ⟨.hbm, 358, rfl⟩
abbrev main_call18_v0 : Ref sig .tc := ⟨.hbm, 359, rfl⟩
abbrev main_call18_v1 : Ref sig .tc := ⟨.hbm, 360, rfl⟩
abbrev main_call18_c_0 : Ref sig .tc := ⟨.hbm, 361, rfl⟩
abbrev main_call18_v2 : Ref sig .tc := ⟨.hbm, 362, rfl⟩
abbrev main_call18_v3 : Ref sig .tc := ⟨.hbm, 363, rfl⟩
abbrev main_call18_v4 : Ref sig .tc := ⟨.hbm, 364, rfl⟩
abbrev main_call18_v5 : Ref sig .tc := ⟨.hbm, 365, rfl⟩
abbrev main_call18_c_1 : Ref sig .tc := ⟨.hbm, 366, rfl⟩
abbrev main_call18_c_2 : Ref sig .tc := ⟨.hbm, 367, rfl⟩
abbrev main_call18_v6 : Ref sig .tc := ⟨.hbm, 368, rfl⟩
abbrev main_call18_v7 : Ref sig .tc := ⟨.hbm, 369, rfl⟩
abbrev main_call18_v8 : Ref sig .tc := ⟨.hbm, 370, rfl⟩
abbrev main_call18_v9 : Ref sig .tc := ⟨.hbm, 371, rfl⟩
abbrev main_call18_v10 : Ref sig .tc := ⟨.hbm, 372, rfl⟩
abbrev main_call18_v11 : Ref sig .tc := ⟨.hbm, 373, rfl⟩
abbrev main_call18_c_3 : Ref sig .tc := ⟨.hbm, 374, rfl⟩
abbrev main_call18_v12 : Ref sig .tc := ⟨.hbm, 375, rfl⟩
abbrev main_call18_v13 : Ref sig .tc := ⟨.hbm, 376, rfl⟩
abbrev main_call18_cst : Ref sig .tc := ⟨.hbm, 377, rfl⟩
abbrev main_call18_v14 : Ref sig .tc := ⟨.hbm, 378, rfl⟩
abbrev main_v209 : Ref sig .tc := ⟨.hbm, 379, rfl⟩
abbrev main_v210 : Ref sig .tc := ⟨.hbm, 380, rfl⟩
abbrev main_v211 : Ref sig .tc := ⟨.hbm, 381, rfl⟩
abbrev main_v212 : Ref sig .tc := ⟨.hbm, 382, rfl⟩
abbrev main_v213 : Ref sig .tc := ⟨.hbm, 383, rfl⟩
abbrev main_cst_53 : Ref sig .tc := ⟨.hbm, 384, rfl⟩
abbrev main_v214 : Ref sig .tc := ⟨.hbm, 385, rfl⟩
abbrev main_v215 : Ref sig .tc := ⟨.hbm, 386, rfl⟩
abbrev main_v216 : Ref sig .tc := ⟨.hbm, 387, rfl⟩
abbrev main_v217 : Ref sig .tc := ⟨.hbm, 388, rfl⟩
abbrev main_cst_54 : Ref sig .tc := ⟨.hbm, 389, rfl⟩
abbrev main_v218 : Ref sig .tc := ⟨.hbm, 390, rfl⟩
abbrev main_c_55 : Ref sig .tc := ⟨.hbm, 391, rfl⟩
abbrev main_v219 : Ref sig .tc := ⟨.hbm, 392, rfl⟩
abbrev main_v220 : Ref sig .tc := ⟨.hbm, 393, rfl⟩
abbrev main_v221 : Ref sig .tc := ⟨.hbm, 394, rfl⟩
abbrev main_c_56 : Ref sig .tc := ⟨.hbm, 395, rfl⟩
abbrev main_v222 : Ref sig .tc := ⟨.hbm, 396, rfl⟩
abbrev main_v223 : Ref sig .tc := ⟨.hbm, 397, rfl⟩
abbrev main_v224 : Ref sig .tc := ⟨.hbm, 398, rfl⟩
abbrev main_v225 : Ref sig .tc := ⟨.hbm, 399, rfl⟩
abbrev main_c_57 : Ref sig .tc := ⟨.hbm, 400, rfl⟩
abbrev main_v226 : Ref sig .tc := ⟨.hbm, 401, rfl⟩
abbrev main_c_58 : Ref sig .tc := ⟨.hbm, 402, rfl⟩
abbrev main_v227 : Ref sig .tc := ⟨.hbm, 403, rfl⟩
abbrev main_v228 : Ref sig .tc := ⟨.hbm, 404, rfl⟩
abbrev main_c_59 : Ref sig .tc := ⟨.hbm, 405, rfl⟩
abbrev main_v229 : Ref sig .tc := ⟨.hbm, 406, rfl⟩
abbrev main_v230 : Ref sig .tc := ⟨.hbm, 407, rfl⟩
abbrev main_v231 : Ref sig .tc := ⟨.hbm, 408, rfl⟩
abbrev main_c_60 : Ref sig .tc := ⟨.hbm, 409, rfl⟩
abbrev main_v232 : Ref sig .tc := ⟨.hbm, 410, rfl⟩
abbrev main_v233 : Ref sig .tc := ⟨.hbm, 411, rfl⟩
abbrev main_c_61 : Ref sig .tc := ⟨.hbm, 412, rfl⟩
abbrev main_v234 : Ref sig .tc := ⟨.hbm, 413, rfl⟩
abbrev main_v235 : Ref sig .tc := ⟨.hbm, 414, rfl⟩
abbrev main_v236 : Ref sig .tc := ⟨.hbm, 415, rfl⟩
abbrev main_v237 : Ref sig .tc := ⟨.hbm, 416, rfl⟩
abbrev main_v238 : Ref sig .tc := ⟨.hbm, 417, rfl⟩
abbrev main_v239 : Ref sig .tc := ⟨.hbm, 418, rfl⟩
abbrev main_v240 : Ref sig .tc := ⟨.hbm, 419, rfl⟩
abbrev main_c_62 : Ref sig .tc := ⟨.hbm, 420, rfl⟩
abbrev main_v241 : Ref sig .tc := ⟨.hbm, 421, rfl⟩
abbrev main_v242 : Ref sig .tc := ⟨.hbm, 422, rfl⟩
abbrev main_v243 : Ref sig .tc := ⟨.hbm, 423, rfl⟩
abbrev main_v244 : Ref sig .tc := ⟨.hbm, 424, rfl⟩
abbrev main_cst_63 : Ref sig .tc := ⟨.hbm, 425, rfl⟩
abbrev main_v245 : Ref sig .tc := ⟨.hbm, 426, rfl⟩
abbrev main_cst_64 : Ref sig .tc := ⟨.hbm, 427, rfl⟩
abbrev main_v246 : Ref sig .tc := ⟨.hbm, 428, rfl⟩
abbrev main_v247 : Ref sig .tc := ⟨.hbm, 429, rfl⟩
abbrev main_v248 : Ref sig .tc := ⟨.hbm, 430, rfl⟩
abbrev main_v249 : Ref sig .tc := ⟨.hbm, 431, rfl⟩
abbrev main_cst_65 : Ref sig .tc := ⟨.hbm, 432, rfl⟩
abbrev main_v250 : Ref sig .tc := ⟨.hbm, 433, rfl⟩
abbrev main_cst_66 : Ref sig .tc := ⟨.hbm, 434, rfl⟩
abbrev main_v251 : Ref sig .tc := ⟨.hbm, 435, rfl⟩
abbrev main_v252 : Ref sig .tc := ⟨.hbm, 436, rfl⟩
abbrev main_v253 : Ref sig .tc := ⟨.hbm, 437, rfl⟩
abbrev main_v254 : Ref sig .tc := ⟨.hbm, 438, rfl⟩
abbrev main_cst_67 : Ref sig .tc := ⟨.hbm, 439, rfl⟩
abbrev main_v255 : Ref sig .tc := ⟨.hbm, 440, rfl⟩
abbrev main_v256 : Ref sig .tc := ⟨.hbm, 441, rfl⟩
abbrev main_v257 : Ref sig .tc := ⟨.hbm, 442, rfl⟩
abbrev main_cst_68 : Ref sig .tc := ⟨.hbm, 443, rfl⟩
abbrev main_v258 : Ref sig .tc := ⟨.hbm, 444, rfl⟩
abbrev main_cst_69 : Ref sig .tc := ⟨.hbm, 445, rfl⟩
abbrev main_v259 : Ref sig .tc := ⟨.hbm, 446, rfl⟩
abbrev main_v260 : Ref sig .tc := ⟨.hbm, 447, rfl⟩
abbrev main_cst_70 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_cst_71 : Ref sig .tc := ⟨.hbm, 452, rfl⟩
abbrev main_v264 : Ref sig .tc := ⟨.hbm, 453, rfl⟩
abbrev main_v265 : Ref sig .tc := ⟨.hbm, 454, rfl⟩
abbrev main_cst_72 : Ref sig .tc := ⟨.hbm, 455, rfl⟩
abbrev main_v266 : Ref sig .tc := ⟨.hbm, 456, rfl⟩
abbrev main_v267 : Ref sig .tc := ⟨.hbm, 457, rfl⟩
abbrev main_v268 : Ref sig .tc := ⟨.hbm, 458, rfl⟩
abbrev main_cst_73 : Ref sig .tc := ⟨.hbm, 459, rfl⟩
abbrev main_v269 : Ref sig .tc := ⟨.hbm, 460, rfl⟩
abbrev main_v270 : Ref sig .tc := ⟨.hbm, 461, rfl⟩
abbrev main_v271 : Ref sig .tc := ⟨.hbm, 462, rfl⟩

abbrev nD : Nat := 1
abbrev τ : Topo := Topo.v7x

variable {F : FTy → Type} [FloatOps F]

class Facts₀ : Prop where
  shapeCasts_S16384x1470_S16384x7x7x30 : S16384x1470.ShapeCasts S16384x7x7x30
  slices_S16384x7x7x30_S16384x7x7x20_0_0_0_0 : S16384x7x7x30.Slices ![0, 0, 0, 0] S16384x7x7x20
  slices_S16384x7x7x30_S16384x7x7x10_0_0_0_20 : S16384x7x7x30.Slices ![0, 0, 0, 20] S16384x7x7x10
  shapeCasts_S16384x7x7x10_S16384x7x7x2x5 : S16384x7x7x10.ShapeCasts S16384x7x7x2x5
  slices_S16384x7x7x2x5_S16384x7x7x2x1_0_0_0_0_4 : S16384x7x7x2x5.Slices ![0, 0, 0, 0, 4] S16384x7x7x2x1
  shapeCasts_S16384x7x7x2x1_S16384x7x7x2 : S16384x7x7x2x1.ShapeCasts S16384x7x7x2
  slices_S16384x7x7x2x5_S16384x7x7x2x1_0_0_0_0_0 : S16384x7x7x2x5.Slices ![0, 0, 0, 0, 0] S16384x7x7x2x1
  bcast_S_S16384x7x7x2 : S_.BroadcastsInDim S16384x7x7x2 (![] : Fin 0 → Fin S16384x7x7x2.rank)
  slices_S16384x7x7x2x5_S16384x7x7x2x1_0_0_0_0_1 : S16384x7x7x2x5.Slices ![0, 0, 0, 0, 1] S16384x7x7x2x1
  slices_S16384x7x7x2x5_S16384x7x7x2x1_0_0_0_0_2 : S16384x7x7x2x5.Slices ![0, 0, 0, 0, 2] S16384x7x7x2x1
  slices_S16384x7x7x2x5_S16384x7x7x2x1_0_0_0_0_3 : S16384x7x7x2x5.Slices ![0, 0, 0, 0, 3] S16384x7x7x2x1
  bcast_S16384x7x7x2_S16384x7x7x2x1_0_1_2_3 : S16384x7x7x2.BroadcastsInDim S16384x7x7x2x1 (![0, 1, 2, 3] : Fin 4 → Fin S16384x7x7x2x1.rank)
  concatenates_S16384x7x7x2x1_S16384x7x7x2x1_S16384x7x7x2x1_S16384x7x7x2x1_S16384x7x7x2x4_d4 : Shape.Concatenates [S16384x7x7x2x1, S16384x7x7x2x1, S16384x7x7x2x1, S16384x7x7x2x1] S16384x7x7x2x4 4
  shapeCasts_S16384x40_S16384x8x5 : S16384x40.ShapeCasts S16384x8x5
  slices_S16384x8x5_S16384x8x1_0_0_0 : S16384x8x5.Slices ![0, 0, 0] S16384x8x1
  shapeCasts_S16384x8x1_S16384x8 : S16384x8x1.ShapeCasts S16384x8
  slices_S16384x8x5_S16384x8x1_0_0_1 : S16384x8x5.Slices ![0, 0, 1] S16384x8x1
  slices_S16384x8x5_S16384x8x1_0_0_2 : S16384x8x5.Slices ![0, 0, 2] S16384x8x1
  slices_S16384x8x5_S16384x8x1_0_0_3 : S16384x8x5.Slices ![0, 0, 3] S16384x8x1
  slices_S16384x8x5_S16384x8x1_0_0_4 : S16384x8x5.Slices ![0, 0, 4] S16384x8x1
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  concatenates_S16384x8x1_S16384x8x1_S16384x8x1_S16384x8x1_S16384x8x4_d2 : Shape.Concatenates [S16384x8x1, S16384x8x1, S16384x8x1, S16384x8x1] S16384x8x4 2
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  concatenates_S16384x8x1_S16384x8x1_S16384x8x1_S16384x8x3_d2 : Shape.Concatenates [S16384x8x1, S16384x8x1, S16384x8x1] S16384x8x3 2
  bcast_S16384x8x4_S16384x8x1x4_0_1_3 : S16384x8x4.BroadcastsInDim S16384x8x1x4 (![0, 1, 3] : Fin 3 → Fin S16384x8x1x4.rank)
  slices_S16384x8x2x4_S16384x8x2x1_0_0_0_0 : S16384x8x2x4.Slices ![0, 0, 0, 0] S16384x8x2x1
  shapeCasts_S16384x8x2x1_S16384x8x2 : S16384x8x2x1.ShapeCasts S16384x8x2
  slices_S16384x8x2x4_S16384x8x2x1_0_0_0_2 : S16384x8x2x4.Slices ![0, 0, 0, 2] S16384x8x2x1
  bcast_S_S16384x8x2 : S_.BroadcastsInDim S16384x8x2 (![] : Fin 0 → Fin S16384x8x2.rank)
  slices_S16384x8x2x4_S16384x8x2x1_0_0_0_1 : S16384x8x2x4.Slices ![0, 0, 0, 1] S16384x8x2x1
  slices_S16384x8x2x4_S16384x8x2x1_0_0_0_3 : S16384x8x2x4.Slices ![0, 0, 0, 3] S16384x8x2x1
  slices_S16384x8x1x4_S16384x8x1x1_0_0_0_0 : S16384x8x1x4.Slices ![0, 0, 0, 0] S16384x8x1x1
  shapeCasts_S16384x8x1x1_S16384x8x1 : S16384x8x1x1.ShapeCasts S16384x8x1
  slices_S16384x8x1x4_S16384x8x1x1_0_0_0_2 : S16384x8x1x4.Slices ![0, 0, 0, 2] S16384x8x1x1
  bcast_S_S16384x8x1 : S_.BroadcastsInDim S16384x8x1 (![] : Fin 0 → Fin S16384x8x1.rank)
  slices_S16384x8x1x4_S16384x8x1x1_0_0_0_1 : S16384x8x1x4.Slices ![0, 0, 0, 1] S16384x8x1x1
  slices_S16384x8x1x4_S16384x8x1x1_0_0_0_3 : S16384x8x1x4.Slices ![0, 0, 0, 3] S16384x8x1x1
  bcast_S16384x8x1_S16384x8x2_0_1_2 : S16384x8x1.BroadcastsInDim S16384x8x2 (![0, 1, 2] : Fin 3 → Fin S16384x8x2.rank)
  slices_S16384x8x2_S16384x8x1_0_0_0 : S16384x8x2.Slices ![0, 0, 0] S16384x8x1
  slices_S16384x8x2_S16384x8x1_0_0_1 : S16384x8x2.Slices ![0, 0, 1] S16384x8x1
  shapeCasts_S16384x8x1_S16384x8x1x1 : S16384x8x1.ShapeCasts S16384x8x1x1
  bcast_S_S16384x8x1x1 : S_.BroadcastsInDim S16384x8x1x1 (![] : Fin 0 → Fin S16384x8x1x1.rank)
  bcast_S1_S1x1x1x1_3 : S1.BroadcastsInDim S1x1x1x1 (![3] : Fin 1 → Fin S1x1x1x1.rank)
  bcast_S1x1x1x1_S16384x8x1x1_0_1_2_3 : S1x1x1x1.BroadcastsInDim S16384x8x1x1 (![0, 1, 2, 3] : Fin 4 → Fin S16384x8x1x1.rank)
  reducesTo_S16384x8x1x1_S16384x8x1_d3 : S16384x8x1x1.ReducesTo [3] S16384x8x1
  h_S_ : 0 < S_.numel
  reducesTo_S16384x8_S_d0_1 : S16384x8.ReducesTo [0, 1] S_
  reducesTo_S16384x8x20_S16384x8_d2 : S16384x8x20.ReducesTo [2] S16384x8
  bcast_S16384x8x1_S16384x8x20_0_1_2 : S16384x8x1.BroadcastsInDim S16384x8x20 (![0, 1, 2] : Fin 3 → Fin S16384x8x20.rank)
  bcast_S_S16384x98 : S_.BroadcastsInDim S16384x98 (![] : Fin 0 → Fin S16384x98.rank)
  concatenates_S16384x8x1_S16384x8x1_S16384x8x2_d2 : Shape.Concatenates [S16384x8x1, S16384x8x1] S16384x8x2 2
  shapeCasts_S16384x7x7x2_S16384x98 : S16384x7x7x2.ShapeCasts S16384x98
  reducesTo_S16384x98_S16384_d1 : S16384x98.ReducesTo [1] S16384
  bcast_S_S16384 : S_.BroadcastsInDim S16384 (![] : Fin 0 → Fin S16384.rank)
  reducesTo_S16384_S_d0 : S16384.ReducesTo [0] S_
  gather_S16384x7x7x2x4_S16384x8x3_S16384x8x2x4_23_012_n_n_012_2_11124_wf : GatherDims.WF S16384x7x7x2x4 S16384x8x3 S16384x8x2x4 [2, 3] [0, 1, 2] [] [0, 1, 2] [] 2 ![1, 1, 1, 2, 4]
  gather_S16384x8x2_S16384x8x1x1_S16384x8x1_n_2_01_01_2_3_111_wf : GatherDims.WF S16384x8x2 S16384x8x1x1 S16384x8x1 [] [2] [0, 1] [2] [0, 1] 3 ![1, 1, 1]
  gather_S16384x7x7x20_S16384x8x3_S16384x8x20_2_012_n_n_012_2_11120_wf : GatherDims.WF S16384x7x7x20 S16384x8x3 S16384x8x20 [2] [0, 1, 2] [] [0, 1, 2] [] 2 ![1, 1, 1, 20]
  gather_S16384x8x20_S16384x8x1x1_S16384x8x1_n_2_01_01_2_3_111_wf : GatherDims.WF S16384x8x20 S16384x8x1x1 S16384x8x1 [] [2] [0, 1] [2] [0, 1] 3 ![1, 1, 1]
  scatter_S16384x98_S16384x8x2_S16384x8_n_01_01_2_wf : ScatterDims.WF S16384x98 S16384x8x2 S16384x8 [] [0, 1] [0, 1] 2

variable [Facts₀]

def gather_S16384x7x7x2x4_S16384x8x3_S16384x8x2x4_23_012_n_n_012_2_11124 : GatherDims S16384x7x7x2x4 S16384x8x3 S16384x8x2x4 where
  offsetDims := [2, 3]
  collapsedSliceDims := [0, 1, 2]
  operandBatchingDims := []
  startIndicesBatchingDims := []
  startIndexMap := [0, 1, 2]
  indexVectorDim := 2
  sliceSizes := ![1, 1, 1, 2, 4]
  wf := gather_S16384x7x7x2x4_S16384x8x3_S16384x8x2x4_23_012_n_n_012_2_11124_wf
def gather_S16384x8x2_S16384x8x1x1_S16384x8x1_n_2_01_01_2_3_111 : GatherDims S16384x8x2 S16384x8x1x1 S16384x8x1 where
  offsetDims := []
  collapsedSliceDims := [2]
  operandBatchingDims := [0, 1]
  startIndicesBatchingDims := [0, 1]
  startIndexMap := [2]
  indexVectorDim := 3
  sliceSizes := ![1, 1, 1]
  wf := gather_S16384x8x2_S16384x8x1x1_S16384x8x1_n_2_01_01_2_3_111_wf
def gather_S16384x7x7x20_S16384x8x3_S16384x8x20_2_012_n_n_012_2_11120 : GatherDims S16384x7x7x20 S16384x8x3 S16384x8x20 where
  offsetDims := [2]
  collapsedSliceDims := [0, 1, 2]
  operandBatchingDims := []
  startIndicesBatchingDims := []
  startIndexMap := [0, 1, 2]
  indexVectorDim := 2
  sliceSizes := ![1, 1, 1, 20]
  wf := gather_S16384x7x7x20_S16384x8x3_S16384x8x20_2_012_n_n_012_2_11120_wf
def gather_S16384x8x20_S16384x8x1x1_S16384x8x1_n_2_01_01_2_3_111 : GatherDims S16384x8x20 S16384x8x1x1 S16384x8x1 where
  offsetDims := []
  collapsedSliceDims := [2]
  operandBatchingDims := [0, 1]
  startIndicesBatchingDims := [0, 1]
  startIndexMap := [2]
  indexVectorDim := 3
  sliceSizes := ![1, 1, 1]
  wf := gather_S16384x8x20_S16384x8x1x1_S16384x8x1_n_2_01_01_2_3_111_wf
def scatter_S16384x98_S16384x8x2_S16384x8_n_01_01_2 : ScatterDims S16384x98 S16384x8x2 S16384x8 where
  updateWindowDims := []
  insertedWindowDims := [0, 1]
  scatterDimsToOperandDims := [0, 1]
  indexVectorDim := 2
  wf := scatter_S16384x98_S16384x8x2_S16384x8_n_01_01_2_wf

class Facts : Prop extends Facts₀ where

variable [Facts]
-- ==== Proof.KTerms.lean ====
/-
  The kernel body's values at one grid point, named as functions of the point's two input blocks: `x0`, 512 rows of
  predictions, and `x1`, 512 rows of labels. Each is the composition of the body's pure terms that computes it; the last,
  `step`, is what the body stores into the one-element accumulator it carries from point to point, given what it found
  there.
-/
import proofs.«112027_j37778532335632_1_alg».proof.Proof.Gen.KernelIdeal.Skeleton

noncomputable section

namespace Cert.KernelIdeal.Tile

open Idealize.ShloMosaic Cert.KernelIdeal Cert.KernelIdeal.Gen

variable {F : FTy → Type} [FloatOps F]

/-- The literals the body passes between its parts: 7.0 and 0.0. -/
abbrev c7 : F .f32 := FloatOps.ofBits .f32 0x40E00000#32
abbrev c0 : F .f32 := FloatOps.ofBits .f32 0x00000000#32

/-- Class scores [row, cell, class]; confidences [row, cell, box]; clipped boxes [row, cell, 4·box + coordinate]. -/
abbrev scores (x0 : Vec F S512x1470 .f32) : FVec F S512x49x20 .f32 := k0_pay4 x0
abbrev confs (x0 : Vec F S512x1470 .f32) : FVec F S512x49x2 .f32 := k0_pay6 x0
abbrev boxes (x0 : Vec F S512x1470 .f32) : FVec F S512x49x8 .f32 := k0_pay7 x0
/-- Labels [row, ground-truth box, number]; the class number as a float, and as a word. -/
abbrev labs (x1 : Vec F S512x40 .f32) : FVec F S512x8x5 .f32 := k0_pay8 x1
abbrev clsF (x1 : Vec F S512x40 .f32) : FVec F S512x8 .f32 := k0_pay9 x1
abbrev clsW (x1 : Vec F S512x40 .f32) : IVec S512x8 32 := k0_pay10 (clsF x1)
/-- The centre's y; the ground-truth box (x, y, w, h); the cell's column; the cell's number. -/
abbrev cyV (x1 : Vec F S512x40 .f32) : FVec F S512x8 .f32 := k0_pay16 (labs x1)
abbrev gtV (x1 : Vec F S512x40 .f32) : FVec F S512x8x4 .f32 := k0_pay17 (labs x1)
abbrev cellxW (x1 : Vec F S512x40 .f32) : IVec S512x8 32 := k0_pay18 (labs x1)
abbrev cellW (x1 : Vec F S512x40 .f32) : IVec S512x8 32 := k0_pay19 (cyV x1) (cellxW x1) c7
/-- The cell's class scores [row, ground-truth box, class], selected by a one-hot product. -/
abbrev logits (x0 : Vec F S512x1470 .f32) (x1 : Vec F S512x40 .f32) : FVec F S512x8x20 .f32 :=
  k0_pay22 (scores x0) (cyV x1) (cellxW x1) c7
/-- The ground-truth box repeated for the cell's two predicted boxes. -/
abbrev gtB (x1 : Vec F S512x40 .f32) : FVec F S512x8x2x4 .f32 := k0_pay23 (gtV x1)
/-- The selected predicted boxes' corners: left, top, right, bottom. -/
abbrev pLeft (x0 : Vec F S512x1470 .f32) (x1 : Vec F S512x40 .f32) : FVec F S512x8x2 .f32 := k0_pay24 (boxes x0) (cyV x1) (cellxW x1) c7
abbrev pTop (x0 : Vec F S512x1470 .f32) (x1 : Vec F S512x40 .f32) : FVec F S512x8x2 .f32 := k0_pay25 (boxes x0) (cyV x1) (cellxW x1) c7
abbrev pRight (x0 : Vec F S512x1470 .f32) (x1 : Vec F S512x40 .f32) : FVec F S512x8x2 .f32 := k0_pay26 (boxes x0) (cyV x1) (cellxW x1) c7
abbrev pBottom (x0 : Vec F S512x1470 .f32) (x1 : Vec F S512x40 .f32) : FVec F S512x8x2 .f32 := k0_pay27 (boxes x0) (cyV x1) (cellxW x1) c7
/-- Intersection area; predicted area; the ground-truth box's clipped width and its height before clipping. -/
abbrev interV (x0 : Vec F S512x1470 .f32) (x1 : Vec F S512x40 .f32) : FVec F S512x8x2 .f32 :=
  k0_pay32 (gtB x1) (pLeft x0 x1) (pTop x0 x1) (pRight x0 x1) (pBottom x0 x1)
abbrev areaP (x0 : Vec F S512x1470 .f32) (x1 : Vec F S512x40 .f32) : FVec F S512x8x2 .f32 :=
  k0_pay33 (pLeft x0 x1) (pTop x0 x1) (pRight x0 x1) (pBottom x0 x1)
abbrev gtWclip (x1 : Vec F S512x40 .f32) : FVec F S512x8x2 .f32 := k0_pay34 (gtB x1)
abbrev gtHraw (x1 : Vec F S512x40 .f32) : FVec F S512x8x2 .f32 := k0_pay35 (gtB x1)
/-- The responsible box (0 or 1) per ground-truth box; the point's sum of `1 - iou`. -/
abbrev bestW (x0 : Vec F S512x1470 .f32) (x1 : Vec F S512x40 .f32) : IVec S512x8 32 :=
  k0_pay37 (interV x0 x1) (areaP x0 x1) (gtWclip x1) (gtHraw x1) c0
abbrev boxSum (x0 : Vec F S512x1470 .f32) (x1 : Vec F S512x40 .f32) : F .f32 :=
  k0_pay38 (interV x0 x1) (areaP x0 x1) (gtWclip x1) (gtHraw x1) c0
/-- The log-probability of the box's class per ground-truth box; the point's sum of focal losses. -/
abbrev logpAtCls (x0 : Vec F S512x1470 .f32) (x1 : Vec F S512x40 .f32) : FVec F S512x8 .f32 := k0_pay39 (clsW x1) (logits x0 x1)
abbrev clsSum (x0 : Vec F S512x1470 .f32) (x1 : Vec F S512x40 .f32) : F .f32 := k0_pay40 (logpAtCls x0 x1) c0
/-- Per row: the mean squared error over the responsible slots; the sum of squares over the others; 98 minus the count. -/
abbrev objMse (x0 : Vec F S512x1470 .f32) (x1 : Vec F S512x40 .f32) : FVec F S512 .f32 := k0_pay44 (confs x0) (cellW x1) (bestW x0 x1)
abbrev noobjSum (x0 : Vec F S512x1470 .f32) (x1 : Vec F S512x40 .f32) : FVec F S512 .f32 := k0_pay45 (confs x0) (cellW x1) (bestW x0 x1)
abbrev noobjCnt (x0 : Vec F S512x1470 .f32) (x1 : Vec F S512x40 .f32) : FVec F S512 .f32 := k0_pay46 (F := F) (cellW x1) (bestW x0 x1)

/-- What the body stores into the accumulator: what it found there plus the point's three sums. -/
abbrev step (acc : Vec F S1x1 .f32) (x0 : Vec F S512x1470 .f32) (x1 : Vec F S512x40 .f32) : FVec F S1x1 .f32 :=
  k0_pay1 (boxSum x0 x1) (clsSum x0 x1) (objMse x0 x1) (noobjSum x0 x1) (noobjCnt x0 x1) acc

end Cert.KernelIdeal.Tile

end
-- ==== Proof.KFrame.lean ====
/-
  The kernel's run, read as values. The body carries a one-element accumulator from grid point to grid point: the first
  point stores zero into it and then adds the point's loss, every later point adds its loss to what it found, and the last
  point also copies the accumulator into the one-element output block, the only block ever written back. So the output
  array ends holding the accumulator after the last point, and the line after the region reshapes it to a scalar.
  A point's two input blocks are 512 consecutive rows of the argument arrays.
-/
import proofs.«112027_j37778532335632_1_alg».proof.Proof.Gen.KernelIdeal.Frame
import proofs.«112027_j37778532335632_1_alg».proof.Proof.KTerms
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Frm

open Cert.KernelIdeal Cert.KernelIdeal.Gen Cert.KernelIdeal.Tile Idealize.ShloMosaic.ValueIdx

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The zero the first point stores into the accumulator. -/
abbrev acc0 : Vec F S1x1 .f32 := k0_pay2 (F := F)

/-! ## What each case of the body leaves -/

/-- A middle point leaves the accumulator at what it found plus the point's loss. -/
theorem sout_B (c : Dev nD) (i : grid0.Coords) (arg1 : Memref sig .tc .vmem S512x1470 .f32) (harg1 : arg1.IsWhole) (arg2 : Memref sig .tc .vmem S512x40 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S512x1470 .f32) (x1 : Vec F S512x40 .f32) (xs0 : Vec F S1x1 .f32) :
    sout0_B_0 (F := F) c i arg1 harg1 arg2 harg2 arg3 harg3 arg4 harg4 hc0 hc1 x0 x1 xs0 = step xs0 x0 x1 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread,
    View.ld_unit_zero (S := S512x1470) hz, View.ld_unit_zero (S := S512x40) hz, View.ld_unit_zero (S := S1x1) hz]

/-- The last point leaves the accumulator the same way, -/
theorem sout_C (c : Dev nD) (i : grid0.Coords) (arg1 : Memref sig .tc .vmem S512x1470 .f32) (harg1 : arg1.IsWhole) (arg2 : Memref sig .tc .vmem S512x40 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S512x1470 .f32) (x1 : Vec F S512x40 .f32) (xs0 : Vec F S1x1 .f32) :
    sout0_C_0 (F := F) c i arg1 harg1 arg2 harg2 arg3 harg3 arg4 harg4 hc0 hc1 x0 x1 xs0 = step xs0 x0 x1 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread,
    View.ld_unit_zero (S := S512x1470) hz, View.ld_unit_zero (S := S512x40) hz, View.ld_unit_zero (S := S1x1) hz]

/-- and the output block at the accumulator it has just stored. -/
theorem out_C (c : Dev nD) (i : grid0.Coords) (arg1 : Memref sig .tc .vmem S512x1470 .f32) (harg1 : arg1.IsWhole) (arg2 : Memref sig .tc .vmem S512x40 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S512x1470 .f32) (x1 : Vec F S512x40 .f32) (xs0 : Vec F S1x1 .f32) :
    out0_C_2 (F := F) c i arg1 harg1 arg2 harg2 arg3 harg3 arg4 harg4 hc0 hc1 x0 x1 xs0 = step xs0 x0 x1 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread, View.readCov_unit_zero (S := S1x1) _ hz,
    View.ld_unit_zero (S := S512x1470) hz, View.ld_unit_zero (S := S512x40) hz, View.ld_unit_zero (S := S1x1) hz]

/-- The first point stores zero, reads it back, and leaves it plus the point's loss. -/
theorem sout_A (c : Dev nD) (i : grid0.Coords) (arg1 : Memref sig .tc .vmem S512x1470 .f32) (harg1 : arg1.IsWhole) (arg2 : Memref sig .tc .vmem S512x40 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S512x1470 .f32) (x1 : Vec F S512x40 .f32) :
    sout0_A_0 (F := F) c i arg1 harg1 arg2 harg2 arg3 harg3 arg4 harg4 hc0 hc1 x0 x1 = step acc0 x0 x1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz]
  simp only [View.readAt_eq_ld, harg1.read_unread, harg2.read_unread, View.readCov_unit_zero (S := S1x1) _ hz,
    View.ld_unit_zero (S := S512x1470) hz, View.ld_unit_zero (S := S512x40) hz, View.ld_unit_zero (S := S1x1) hz]

/-! ## The accumulator, point by point -/

/-- A point's two input blocks, at their literal types. -/
abbrev xblk (c : Dev nD) (t : Fin cfg0.N) : Vec F S512x1470 .f32 := iblk m c 0 t
abbrev lblk (c : Dev nD) (t : Fin cfg0.N) : Vec F S512x40 .f32 := iblk m c 1 t

/-- The accumulator after point `n`. -/
def accAt (c : Dev nD) : (n : ℕ) → n < cfg0.N → Vec F S1x1 .f32
  | 0, h => step acc0 (xblk m c ⟨0, h⟩) (lblk m c ⟨0, h⟩)
  | n + 1, h => step (accAt c n (Nat.lt_of_succ_lt h)) (xblk m c ⟨n + 1, h⟩) (lblk m c ⟨n + 1, h⟩)

/-- What the frame's point-by-point contents say of the accumulator is that. -/
theorem souts_eq (c : Dev nD) : ∀ (n : ℕ) (h : n < cfg0.N), (outsAt0 m c n h).2 = accAt m c n h
  | 0, h => by
    rw [outsAt0_A m c ⟨0, h⟩ rfl (by show ¬(0 : ℕ) % 32 = 31; decide)]
    dsimp only
    rw [sout_A]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [sout_C]
      show step (outsAt0 m c n _).2 _ _ = step (accAt m c n _) _ _
      rw [souts_eq c n]
    · rw [outsAt0_B m c ⟨n + 1, h⟩ h0 h1]
      dsimp only
      rw [sout_B]
      show step (outsAt0 m c n _).2 _ _ = step (accAt m c n _) _ _
      rw [souts_eq c n]

/-- The last point. -/
abbrev t31 : Fin cfg0.N := ⟨31, by rw [show cfg0.N = 32 from N_0]; decide⟩

/-- The result array's contents after the run: the accumulator after the last point. -/
abbrev result (c : Dev nD) : Buf (Elt F) ((c : Thread nD τ).loc main_v0) := accAt m c 31 t31.isLt

/-- The output block the last point leaves is that. -/
theorem out_last (c : Dev nD) : (outsAt0 m c t31.val t31.isLt).1 = result m c := by
  rw [outsAt0_C m c t31 (by decide) (by decide)]
  dsimp only
  rw [out_C]
  show step (outsAt0 m c 30 _).2 _ _ = step (accAt m c 30 _) _ _
  rw [souts_eq m c 30]

/-! ## The result array -/

/-- The one write-back, at the last point, writes the accumulator: block (0, 0) of the [1, 1] array is the array. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h31 : t.val = 31 := by have := (flush0_2 t).mp hf; have := t.isLt; omega
  obtain rfl : t = t31 := Fin.ext h31
  show (cfg0.win 2).cut (grid0.coords t31) ((dats m 0 c).after 2 t31) = _
  rw [after0_2, out_last]
  have hz' : (fun a => win0_2.index t31 a * main_v0.ty.shape.size a) = fun _ => 0 := funext fun a => by fin_cases a <;> decide
  exact (Memref.read_access_unit_zero (Elt F) main_v0 hz' (fun a => by rw [congrFun hz' a]; simp) (result m c)).symm

/-- So the result array ends holding the accumulator after the last point. -/
theorem final_o (c : Dev nD) : (dats m 0 c).arrAt 2 cfg0.N = result m c :=
  (dats m 0 c).arrAt_eq_of_cover 2 (result m c) (flushed_eq m c) fun i =>
    ⟨t31, (flush0_2 t31).mpr rfl, by
      show i ∈ ((View.whole main_v0).slice (win0_2.rect t31)).set
      rw [View.set_slice_whole, Rect.mem_set_unit]
      intro a
      have h0 : (i 0 : Nat) < 1 := (i 0).isLt
      have h1 : (i 1 : Nat) < 1 := (i 1).isLt
      match a with
      | ⟨0, _⟩ => show win0_2.index t31 0 * win0_2.size 0 ≤ (i 0 : Nat) ∧ (i 0 : Nat) < win0_2.index t31 0 * win0_2.size 0 + win0_2.xsize (grid0.coords t31) 0
                  rw [show win0_2.index t31 0 * win0_2.size 0 = 0 from by decide +kernel, show win0_2.xsize (grid0.coords t31) 0 = 1 from by decide +kernel]; omega
      | ⟨1, _⟩ => show win0_2.index t31 1 * win0_2.size 1 ≤ (i 1 : Nat) ∧ (i 1 : Nat) < win0_2.index t31 1 * win0_2.size 1 + win0_2.xsize (grid0.coords t31) 1
                  rw [show win0_2.index t31 1 * win0_2.size 1 = 0 from by decide +kernel, show win0_2.xsize (grid0.coords t31) 1 = 1 from by decide +kernel]; omega⟩

/-- The line after the region reshapes the result array to a scalar. -/
theorem tail_v1 (c : Dev nD) :
    Pipeline.afterTail₀ cfgs (dats m) 0 (V0 m) [hostOps1] c main_v1 = shapeCast S_ (result m c) shapeCasts_S1x1_S_ := by
  unfold Pipeline.afterTail₀
  show StableHlo.after hostOps1 _ (Proc.devRef .tc main_v1) = _
  after_results
  rw [(Pipeline.withArrays_arr spec0 launch0.win.arr_inj c _ _ 2).trans (final_o m c)]
  rfl

/-- The run, read: the scalar result at the reshaped accumulator, the arguments unchanged. -/
theorem run : θ_run defs (onTc (τ := τ) (main (F := F))) ⟨m, fun _ => 0, ρ⟩ fun r => ∀ c : Dev nD,
      r.2.mem ((c : Thread nD τ).loc main_v1) = shapeCast S_ (result m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (by decide)).trans (tail_v1 m c),
     ((h c).1 0).trans ((dats m 0 c).arrAt_in 0 rfl _),
     ((h c).1 1).trans ((dats m 0 c).arrAt_in 1 rfl _)⟩)
    (run_main m ρ)

/-! ## A point's blocks are rows of the arguments -/

/-- Row `r` of point `t`'s block of predictions is row `512 t + r` of the first argument. -/
theorem xblk_apply (c : Dev nD) (t : Fin cfg0.N) (r : Fin 512) (k : Fin 1470) :
    xblk m c t (ix2 r k) = m ((c : Thread nD τ).loc main_arg0)
      (ix2 (⟨512 * t.val + r.val, by have h32 : cfg0.N = 32 := N_0; have := t.isLt; have := r.isLt; omega⟩ : Fin 16384) k) := by
  have hi : win0_0.index t 0 = t.val ∧ win0_0.index t 1 = 0 :=
    (by decide +kernel : ∀ t : Fin grid0.N, win0_0.index t 0 = t.val ∧ win0_0.index t 1 = 0) t
  show iblk m c 0 t _ = _
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 1470 + 1 * k.val = k.val; rw [hi.2]; omega

/-- The same for the labels. -/
theorem lblk_apply (c : Dev nD) (t : Fin cfg0.N) (r : Fin 512) (k : Fin 40) :
    lblk m c t (ix2 r k) = m ((c : Thread nD τ).loc main_arg1)
      (ix2 (⟨512 * t.val + r.val, by have h32 : cfg0.N = 32 := N_0; have := t.isLt; have := r.isLt; omega⟩ : Fin 16384) k) := by
  have hi : win0_1.index t 0 = t.val ∧ win0_1.index t 1 = 0 :=
    (by decide +kernel : ∀ t : Fin grid0.N, win0_1.index t 0 = t.val ∧ win0_1.index t 1 = 0) t
  show iblk m c 1 t _ = _
  unfold iblk
  rw [View.read_apply]
  show V m c main_arg1 _ = m (c.tc.loc main_arg1) _
  unfold V
  congr 1
  funext a
  apply Fin.ext
  match a with
  | ⟨0, _⟩ => show win0_1.index t 0 * 512 + 1 * r.val = 512 * t.val + r.val; rw [hi.1]; omega
  | ⟨1, _⟩ => show win0_1.index t 1 * 40 + 1 * k.val = k.val; rw [hi.2]; omega

end Cert.KernelIdeal.Frm

end
-- ==== Proof.Spec.lean ====
/-
  The detection loss of ONE image, on the extended reals.

  An image is a row `P` of 1470 predictions — 49 grid cells of 30 numbers: 20 class scores, then two boxes of
  (x, y, w, h, confidence) — and a row `L` of 40 label numbers — 8 ground-truth boxes of (class, x1, y1, x2, y2).
  Each ground-truth box `g` falls in a cell; the two predicted boxes of that cell are compared with it by
  intersection over union, the better one is "responsible". The image's loss has three parts:

    * per ground-truth box, `1 - iou` of the responsible box;
    * per ground-truth box, the focal loss `(1 - pt)² · ce` of the cell's class scores against the box's class, where
      `ce = -log_softmax(scores)[class]` and `pt = exp(-ce)`;
    * one confidence term: with `obj` the set of (cell, box) slots some ground-truth box made responsible,
      `5 · mean over obj of (conf - 1)² + ½ · mean over the rest of conf²` (a mean over an empty set divides by 1).

  Every float literal is kept as the word the programs print; sums are finite sums in the commutative monoid of the
  extended reals, so their order and grouping do not matter.
-/
import Idealize.ShloMosaic.PureOps.Ideal
import Idealize.ShloMosaic.PureOps.Ideal.Laws
import Idealize.ShloMosaic.Lib.ValueIdx

noncomputable section

namespace Cert.Spec

open Idealize.ShloMosaic

/-- The extended real an f32 word denotes. -/
abbrev c32 (b : BitVec 32) : EReal := Ideal.ofBits .f32 b

abbrev zero : EReal := c32 0x00000000#32
abbrev one : EReal := c32 0x3F800000#32
abbrev half : EReal := c32 0x3F000000#32
abbrev two : EReal := c32 0x40000000#32
abbrev five : EReal := c32 0x40A00000#32
abbrev seven : EReal := c32 0x40E00000#32
abbrev img : EReal := c32 0x43E00000#32          -- 448
abbrev tiny : EReal := c32 0x38D1B717#32         -- the f32 nearest 1e-4
abbrev eps : EReal := c32 0x358637BD#32          -- the f32 nearest 1e-6
abbrev slots : EReal := c32 0x42C40000#32        -- 98
abbrev negInf : EReal := c32 0xFF800000#32
/-- The integer 6 as a float. -/
abbrev six : EReal := (((6#32 : BitVec 32).toInt : ℝ) : EReal)

/-- A row of predictions, a row of labels. -/
abbrev PRow := Fin 1470 → EReal
abbrev LRow := Fin 40 → EReal

/-! ## The labels -/

/-- Number `k` of ground-truth box `g`. -/
def lab (L : LRow) (g : Fin 8) (k : Fin 5) : EReal :=
  L ⟨5 * g.val + k.val, by have := g.isLt; have := k.isLt; omega⟩

/-- The box's class, as the integer word the float converts to. -/
def cls (L : LRow) (g : Fin 8) : BitVec 32 := Ideal.fptosi 32 (lab L g 0)

/-- Centre and clipped extent of the box, as fractions of the image side. -/
def cx (L : LRow) (g : Fin 8) : EReal := Ideal.div ((lab L g 1 + lab L g 3) * half) img
def cy (L : LRow) (g : Fin 8) : EReal := Ideal.div ((lab L g 2 + lab L g 4) * half) img
def gw (L : LRow) (g : Fin 8) : EReal := min one (max tiny (Ideal.div (lab L g 3 - lab L g 1) img))
def gh (L : LRow) (g : Fin 8) : EReal := min one (max tiny (Ideal.div (lab L g 4 - lab L g 2) img))

/-- The ground-truth box as (x, y, w, h). -/
def gt (L : LRow) (g : Fin 8) : Fin 4 → EReal := ![cx L g, cy L g, gw L g, gh L g]

/-- Column and row of the cell the box's centre falls in: `7 · centre` clipped to `[0, 6]`, toward zero. -/
def cellx (L : LRow) (g : Fin 8) : BitVec 32 := Ideal.fptosi 32 (min six (max zero (cx L g * seven)))
def celly (L : LRow) (g : Fin 8) : BitVec 32 := Ideal.fptosi 32 (min six (max zero (cy L g * seven)))

/-- The cell's number as a word, `7 · row + column`. -/
def cell (L : LRow) (g : Fin 8) : BitVec 32 := celly L g * 7#32 + cellx L g

/-- The cell's number among the 49. (Row and column are at most 6: `SpecFacts`; the remainders only make the
    definition total.) -/
def cellN (L : LRow) (g : Fin 8) : Fin 49 :=
  ⟨(celly L g).toNat % 7 * 7 + (cellx L g).toNat % 7, by
    have h1 := Nat.mod_lt (celly L g).toNat (show 7 > 0 by decide)
    have h2 := Nat.mod_lt (cellx L g).toNat (show 7 > 0 by decide)
    omega⟩

/-- Cell (row `sy`, column `sx`) as its number among the 49. -/
def cellOf (sy sx : Fin 7) : Fin 49 := ⟨7 * sy.val + sx.val, by have := sy.isLt; have := sx.isLt; omega⟩

/-- The class among the 20 (in range under the precondition; the remainder only makes the definition total). -/
def clsN (L : LRow) (g : Fin 8) : Fin 20 := ⟨(cls L g).toNat % 20, Nat.mod_lt _ (by decide)⟩

/-! ## The predictions -/

/-- Number `k` of cell `c`. -/
def pcell (P : PRow) (c : Fin 49) (k : Fin 30) : EReal :=
  P ⟨30 * c.val + k.val, by have := c.isLt; have := k.isLt; omega⟩

/-- Class score `d` of cell `c`. -/
def logit (P : PRow) (c : Fin 49) (d : Fin 20) : EReal := pcell P c ⟨d.val, by have := d.isLt; omega⟩

/-- Number `f` of predicted box `j` of cell `c`. -/
def pbox (P : PRow) (c : Fin 49) (j : Fin 2) (f : Fin 5) : EReal :=
  pcell P c ⟨20 + 5 * j.val + f.val, by have := j.isLt; have := f.isLt; omega⟩

/-- The box's confidence. -/
def conf (P : PRow) (c : Fin 49) (j : Fin 2) : EReal := pbox P c j 4

/-- The box as clipped (x, y, w, h). -/
def xywh (P : PRow) (c : Fin 49) (j : Fin 2) : Fin 4 → EReal :=
  ![min one (max zero (pbox P c j 0)), min one (max zero (pbox P c j 1)),
    min one (max tiny (pbox P c j 2)), min one (max tiny (pbox P c j 3))]

/-- Confidence of slot `p = 2 · cell + box`. -/
def confFlat (P : PRow) (p : Fin 98) : EReal :=
  conf P ⟨p.val / 2, by have := p.isLt; omega⟩ ⟨p.val % 2, Nat.mod_lt _ (by decide)⟩

/-! ## Intersection over union -/

/-- Of a predicted box `b` and a ground-truth box `g`, both (x, y, w, h) with (x, y) the centre. -/
def iou (b g : Fin 4 → EReal) : EReal :=
  let b1x1 := b 0 - Ideal.div (b 2) two
  let b1y1 := b 1 - Ideal.div (b 3) two
  let b1x2 := b 0 + Ideal.div (b 2) two
  let b1y2 := b 1 + Ideal.div (b 3) two
  let b2x1 := g 0 - Ideal.div (g 2) two
  let b2y1 := g 1 - Ideal.div (g 3) two
  let b2x2 := g 0 + Ideal.div (g 2) two
  let b2y2 := g 1 + Ideal.div (g 3) two
  let inter := max zero (min b1x2 b2x2 - max b1x1 b2x1) * max zero (min b1y2 b2y2 - max b1y1 b2y1)
  let a1 := max zero (b1x2 - b1x1) * max zero (b1y2 - b1y1)
  let a2 := max zero (b2x2 - b2x1) * max zero (b2y2 - b2y1)
  Ideal.div inter (max eps ((a1 + a2) - inter))

/-- Which of two boxes is responsible: the first unless the second overlaps strictly more. -/
def best (i0 i1 : EReal) : BitVec 32 := Scalar.select (Ideal.cmp .oge i0 i1) 0#32 1#32

/-- Its overlap. -/
def iouBest (i0 i1 : EReal) : EReal := Scalar.select (IntOp.cmpi .eq (best i0 i1) 0#32) i0 i1

/-! ## The class loss -/

/-- The largest score (never below `-∞`). -/
def lmax (x : Fin 20 → EReal) : EReal := max negInf ((Finset.univ : Finset (Fin 20)).fold max negInf x)

/-- `log_softmax`, shifted by the largest score. -/
def logp (x : Fin 20 → EReal) (d : Fin 20) : EReal :=
  (x d - lmax x) - Ideal.log (∑ k : Fin 20, Ideal.exp (x k - lmax x))

/-- The focal loss of a cross-entropy `ce`: `(1 - e^{-ce})² · ce`. -/
def focal (ce : EReal) : EReal := ((one - Ideal.exp (-ce)) * (one - Ideal.exp (-ce))) * ce

/-! ## The confidence loss -/

/-- From the slots' confidences `cf` and the indicator `ob` of the responsible slots. -/
def confTerm (cf ob : Fin 98 → EReal) : EReal :=
  let nobj := ∑ p : Fin 98, ob p
  let objMse := Ideal.div (∑ p : Fin 98, ((cf p - one) * (cf p - one)) * ob p) (max nobj one)
  let noobjMse := Ideal.div (∑ p : Fin 98, (cf p * cf p) * (one - ob p)) (max (slots - nobj) one)
  five * objMse + half * noobjMse

/-! ## One image -/

/-- Predicted box `j` of the cell ground-truth box `g` falls in. -/
def pbAt (P : PRow) (L : LRow) (g : Fin 8) (j : Fin 2) : Fin 4 → EReal := xywh P (cellN L g) j

def iouAt (P : PRow) (L : LRow) (g : Fin 8) (j : Fin 2) : EReal := iou (pbAt P L g j) (gt L g)

def bestAt (P : PRow) (L : LRow) (g : Fin 8) : BitVec 32 := best (iouAt P L g 0) (iouAt P L g 1)

/-- `1 - iou` of the responsible box. -/
def boxTerm (P : PRow) (L : LRow) (g : Fin 8) : EReal := one - iouBest (iouAt P L g 0) (iouAt P L g 1)

/-- The focal loss of the cell's scores at the box's class. -/
def clsTerm (P : PRow) (L : LRow) (g : Fin 8) : EReal :=
  focal (-(logp (fun d => logit P (cellN L g) d) (clsN L g)))

/-- The responsible slot of ground-truth box `g`, as a word. -/
def flatAt (P : PRow) (L : LRow) (g : Fin 8) : BitVec 32 := cell L g * 2#32 + bestAt P L g

/-- The indicator of the responsible slots. -/
def objAt (P : PRow) (L : LRow) (p : Fin 98) : EReal :=
  if ∃ g : Fin 8, flatAt P L g = BitVec.ofNat 32 p.val then one else zero

def confRow (P : PRow) (L : LRow) : EReal := confTerm (confFlat P) (objAt P L)

/-- The three parts of the image's loss, summed over its eight ground-truth boxes. -/
def boxRow (P : PRow) (L : LRow) : EReal := ∑ g : Fin 8, boxTerm P L g
def clsRow (P : PRow) (L : LRow) : EReal := ∑ g : Fin 8, clsTerm P L g

/-- The class word is one of the twenty classes. -/
def ClsOk (L : LRow) : Prop := ∀ g : Fin 8, 0 ≤ (cls L g).toInt ∧ (cls L g).toInt < 20

/-! ## Rows of an array of images -/

open Idealize.ShloMosaic.ValueIdx in
/-- Row `r` of an `[n, 1470]` array of predictions. -/
def prow {n : Nat} (x : (⟨2, ![n, 1470]⟩ : Shape).Idx → EReal) (r : Fin n) : PRow := fun k => x (ix2 r k)

open Idealize.ShloMosaic.ValueIdx in
/-- Row `r` of an `[n, 40]` array of labels. -/
def lrow {n : Nat} (x : (⟨2, ![n, 40]⟩ : Shape).Idx → EReal) (r : Fin n) : LRow := fun k => x (ix2 r k)

/-- The float a comparison of two words for equality widens to: 1 when they are equal, else 0. -/
def oh (z y : BitVec 32) : EReal := ((((IntOp.cmpi .eq z y).setWidth 32).toInt : ℝ) : EReal)

end Cert.Spec

end
-- ==== Proof.SpecFacts.lean ====
/-
  Facts about the loss of one image: the cell's row and column are at most 6, so the cell's word is its number among
  the 49 and the responsible slot's word its number among the 98; the responsible box is box 0 or box 1; a sum against a
  one-hot row selects one term; a slot is responsible exactly when the count of ground-truth boxes naming it is positive.
-/
import proofs.«112027_j37778532335632_1_alg».proof.Proof.Spec

noncomputable section

namespace Cert.Spec

open Idealize.ShloMosaic

/-! ## Literals -/

theorem zero_eq : (zero : EReal) = 0 := Ideal.ofBits_zero_f32
theorem zero_add_eq (x : EReal) : zero + x = x := by rw [zero_eq, zero_add]
theorem zero_sub_eq (x : EReal) : zero - x = -x := by rw [zero_eq, zero_sub]

/-- The word of 1.0 denotes the extended real 1. -/
theorem one_eq : (one : EReal) = 1 := by
  show Ideal.ofBits .f32 0x3F800000#32 = 1
  simp [Ideal.ofBits, Ideal.ieee, -EReal.coe_mul]; norm_num

/-- 1.0 is positive (and finite). -/
theorem one_pos : (0 : EReal) < one := by rw [one_eq]; exact zero_lt_one

/-- The integer 6 as a float is the real 6. -/
theorem six_eq : (six : EReal) = ((6 : ℝ) : EReal) := by
  show (((6#32 : BitVec 32).toInt : ℝ) : EReal) = ((6 : ℝ) : EReal)
  have h : (6#32 : BitVec 32).toInt = 6 := by decide
  rw [h]; norm_num

/-! ## One-hot rows -/

theorem oh_self (z : BitVec 32) : oh z z = 1 := by
  simp [oh, IntOp.cmpi]
theorem oh_ne {z y : BitVec 32} (h : z ≠ y) : oh z y = 0 := by
  have hb : (z == y) = false := beq_eq_false_iff_ne.mpr h
  simp [oh, IntOp.cmpi, hb]

/-- A one-hot entry is never negative. -/
theorem oh_nonneg (z y : BitVec 32) : (0 : EReal) ≤ oh z y := by
  by_cases h : z = y
  · subst h; rw [oh_self]; exact zero_le_one
  · rw [oh_ne h]

/-- Words of small numbers are equal only when the numbers are. -/
theorem ofNat_inj {a b : Nat} (ha : a < 2 ^ 32) (hb : b < 2 ^ 32) : BitVec.ofNat 32 a = BitVec.ofNat 32 b ↔ a = b := by
  constructor
  · intro h
    have h2 := congrArg BitVec.toNat h
    simp only [BitVec.toNat_ofNat] at h2
    rwa [Nat.mod_eq_of_lt ha, Nat.mod_eq_of_lt hb] at h2
  · rintro rfl; rfl

/-- A sum against the one-hot row of `n` selects term `n` (the one-hot factor on the left). -/
theorem sum_oh_mul {N : Nat} (hN : N ≤ 2 ^ 32) (n : Fin N) (f : Fin N → EReal) :
    ∑ c : Fin N, oh (BitVec.ofNat 32 n.val) (BitVec.ofNat 32 c.val) * f c = f n := by
  rw [Finset.sum_eq_single n]
  · rw [oh_self, one_mul]
  · intro c _ hc
    have hne : BitVec.ofNat 32 n.val ≠ BitVec.ofNat 32 c.val := by
      intro h
      have := (ofNat_inj (lt_of_lt_of_le n.isLt hN) (lt_of_lt_of_le c.isLt hN)).mp h
      exact hc (Fin.ext this.symm)
    rw [oh_ne hne, zero_mul]
  · intro h; exact absurd (Finset.mem_univ n) h

/-- The same with the one-hot factor on the right. -/
theorem sum_mul_oh {N : Nat} (hN : N ≤ 2 ^ 32) (n : Fin N) (f : Fin N → EReal) :
    ∑ c : Fin N, f c * oh (BitVec.ofNat 32 n.val) (BitVec.ofNat 32 c.val) = f n := by
  rw [← sum_oh_mul hN n f]
  exact Finset.sum_congr rfl (fun c _ => mul_comm _ _)

/-- The count of boxes naming a slot is positive exactly when some box names it: every term is 0 or 1. -/
theorem count_pos_iff (fl : Fin 8 → BitVec 32) (y : BitVec 32) :
    (zero < ∑ g : Fin 8, oh (fl g) y) ↔ ∃ g : Fin 8, fl g = y := by
  rw [zero_eq]
  constructor
  · intro h
    by_contra hne
    have hall : ∀ g ∈ (Finset.univ : Finset (Fin 8)), oh (fl g) y = 0 := fun g _ =>
      oh_ne (fun e => hne ⟨g, e⟩)
    rw [Finset.sum_eq_zero hall] at h
    exact lt_irrefl _ h
  · rintro ⟨g, hg⟩
    have h1 : oh (fl g) y ≤ ∑ g : Fin 8, oh (fl g) y :=
      Finset.single_le_sum (f := fun g => oh (fl g) y) (fun i _ => oh_nonneg _ _) (Finset.mem_univ g)
    rw [hg, oh_self] at h1
    exact lt_of_lt_of_le zero_lt_one h1

/-- A slot is named by some ground-truth box exactly when the count of boxes naming it is positive. -/
theorem obj_of_count (fl : Fin 8 → BitVec 32) (y : BitVec 32) :
    Scalar.select (Ideal.cmp .ogt (∑ g : Fin 8, oh (fl g) y) zero) one zero = if ∃ g : Fin 8, fl g = y then one else zero := by
  show (if BitVec.ofBool (decide (zero < ∑ g : Fin 8, oh (fl g) y)) = 1 then one else zero) = _
  by_cases h : ∃ g : Fin 8, fl g = y
  · rw [if_pos h, decide_eq_true ((count_pos_iff fl y).mpr h), if_pos (by decide)]
  · rw [if_neg h, decide_eq_false (fun hh => h ((count_pos_iff fl y).mp hh)), if_neg (by decide)]

/-! ## The cell -/

/-- A float clipped to [0, 6] converts to the word of a number at most 6. -/
theorem fptosi_clip (t : EReal) :
    ∃ n : Nat, n ≤ 6 ∧ Ideal.fptosi 32 (min six (max zero t)) = BitVec.ofNat 32 n := by
  have h0 : (0 : EReal) ≤ min six (max zero t) := by
    refine le_min ?_ ?_
    · rw [six_eq]; exact_mod_cast (by norm_num : (0 : ℝ) ≤ 6)
    · rw [zero_eq]; exact le_max_left _ _
  have h6 : min six (max zero t) ≤ ((6 : ℝ) : EReal) := by
    rw [← six_eq]; exact min_le_left _ _
  generalize min six (max zero t) = y at h0 h6
  induction y using EReal.rec with
  | bot => exact absurd h0 (by simp)
  | top => exact absurd h6 (by simp)
  | coe r =>
    have hr0 : (0 : ℝ) ≤ r := by exact_mod_cast h0
    have hr6 : r ≤ 6 := by exact_mod_cast h6
    have hf0 : 0 ≤ ⌊r⌋ := Int.floor_nonneg.mpr hr0
    have hf6 : ⌊r⌋ ≤ 6 := by
      have : ⌊r⌋ ≤ ⌊(6 : ℝ)⌋ := Int.floor_le_floor hr6
      simpa using this
    refine ⟨⌊r⌋.toNat, by omega, ?_⟩
    rw [Ideal.fptosi, Ideal.toIntClamped_coe, if_pos hr0]
    have hmin : min (((2 ^ (32 - 1) : Nat) : Int) - 1) ⌊r⌋ = ⌊r⌋ := min_eq_right (by norm_num; omega)
    have hmax : max (-((2 ^ (32 - 1) : Nat) : Int)) ⌊r⌋ = ⌊r⌋ := max_eq_right (by norm_num; omega)
    rw [hmin, hmax]
    conv_lhs => rw [← Int.toNat_of_nonneg hf0]
    exact BitVec.ofInt_natCast _ _

theorem cellx_toNat_le (L : LRow) (g : Fin 8) : (cellx L g).toNat ≤ 6 := by
  obtain ⟨n, hn, h⟩ := fptosi_clip (cx L g * seven)
  unfold cellx; rw [h, BitVec.toNat_ofNat]; omega
theorem celly_toNat_le (L : LRow) (g : Fin 8) : (celly L g).toNat ≤ 6 := by
  obtain ⟨n, hn, h⟩ := fptosi_clip (cy L g * seven)
  unfold celly; rw [h, BitVec.toNat_ofNat]; omega

/-- A word whose number is small is the same number read signed. -/
theorem toInt_of_small {z : BitVec 32} (h : z.toNat < 2 ^ 31) : z.toInt = (z.toNat : Int) := by
  rw [BitVec.toInt_eq_toNat_cond, if_pos (by omega)]

theorem cellx_toInt (L : LRow) (g : Fin 8) : (cellx L g).toInt = ((cellx L g).toNat : Int) :=
  toInt_of_small (by have := cellx_toNat_le L g; omega)
theorem celly_toInt (L : LRow) (g : Fin 8) : (celly L g).toInt = ((celly L g).toNat : Int) :=
  toInt_of_small (by have := celly_toNat_le L g; omega)
theorem cellN_val (L : LRow) (g : Fin 8) : (cellN L g).val = (celly L g).toNat * 7 + (cellx L g).toNat := by
  have hx := cellx_toNat_le L g
  have hy := celly_toNat_le L g
  show (celly L g).toNat % 7 * 7 + (cellx L g).toNat % 7 = _
  rw [Nat.mod_eq_of_lt (by omega : (celly L g).toNat < 7), Nat.mod_eq_of_lt (by omega : (cellx L g).toNat < 7)]
theorem cell_eq (L : LRow) (g : Fin 8) : cell L g = BitVec.ofNat 32 (cellN L g).val := by
  have hx := cellx_toNat_le L g
  have hy := celly_toNat_le L g
  apply BitVec.eq_of_toNat_eq
  rw [cellN_val]
  unfold cell
  rw [BitVec.toNat_add, BitVec.toNat_mul, BitVec.toNat_ofNat, BitVec.toNat_ofNat]
  omega

/-! ## The responsible box -/

theorem best_cases (i0 i1 : EReal) : best i0 i1 = 0#32 ∨ best i0 i1 = 1#32 := by
  unfold best Scalar.select
  split
  · exact Or.inl rfl
  · exact Or.inr rfl
theorem iouBest_of_zero {i0 i1 : EReal} (h : best i0 i1 = 0#32) : iouBest i0 i1 = i0 := by
  unfold iouBest; rw [h]; simp [Scalar.select, IntOp.cmpi]
theorem iouBest_of_one {i0 i1 : EReal} (h : best i0 i1 = 1#32) : iouBest i0 i1 = i1 := by
  unfold iouBest; rw [h]; simp [Scalar.select, IntOp.cmpi]

/-- The responsible box's number. -/
def bestN (P : PRow) (L : LRow) (g : Fin 8) : Fin 2 := ⟨(bestAt P L g).toNat % 2, Nat.mod_lt _ (by decide)⟩

theorem bestAt_eq (P : PRow) (L : LRow) (g : Fin 8) : bestAt P L g = BitVec.ofNat 32 (bestN P L g).val := by
  show bestAt P L g = BitVec.ofNat 32 ((bestAt P L g).toNat % 2)
  rcases best_cases (iouAt P L g 0) (iouAt P L g 1) with h | h
  · have : bestAt P L g = 0#32 := h
    rw [this]; decide
  · have : bestAt P L g = 1#32 := h
    rw [this]; decide
theorem iouBest_eq (P : PRow) (L : LRow) (g : Fin 8) :
    iouBest (iouAt P L g 0) (iouAt P L g 1) = iouAt P L g (bestN P L g) := by
  rcases best_cases (iouAt P L g 0) (iouAt P L g 1) with h | h
  · have hb : bestAt P L g = 0#32 := h
    have hn : bestN P L g = 0 := by
      apply Fin.ext; show (bestAt P L g).toNat % 2 = 0; rw [hb]; decide
    rw [iouBest_of_zero h, hn]
  · have hb : bestAt P L g = 1#32 := h
    have hn : bestN P L g = 1 := by
      apply Fin.ext; show (bestAt P L g).toNat % 2 = 1; rw [hb]; decide
    rw [iouBest_of_one h, hn]

/-- The responsible slot's number. -/
def flatN (P : PRow) (L : LRow) (g : Fin 8) : Fin 98 :=
  ⟨2 * (cellN L g).val + (bestN P L g).val, by have := (cellN L g).isLt; have := (bestN P L g).isLt; omega⟩

theorem flatAt_eq (P : PRow) (L : LRow) (g : Fin 8) : flatAt P L g = BitVec.ofNat 32 (flatN P L g).val := by
  have hc := (cellN L g).isLt
  have hb := (bestN P L g).isLt
  apply BitVec.eq_of_toNat_eq
  show (cell L g * 2#32 + bestAt P L g).toNat = (BitVec.ofNat 32 (2 * (cellN L g).val + (bestN P L g).val)).toNat
  rw [cell_eq, bestAt_eq]
  rw [BitVec.toNat_add, BitVec.toNat_mul, BitVec.toNat_ofNat, BitVec.toNat_ofNat, BitVec.toNat_ofNat, BitVec.toNat_ofNat]
  omega
theorem objAt_eq (P : PRow) (L : LRow) (p : Fin 98) :
    objAt P L p = if ∃ g : Fin 8, flatN P L g = p then one else zero := by
  unfold objAt
  have hiff : (∃ g : Fin 8, flatAt P L g = BitVec.ofNat 32 p.val) ↔ ∃ g : Fin 8, flatN P L g = p := by
    refine exists_congr (fun g => ?_)
    rw [flatAt_eq, ofNat_inj (by have := (flatN P L g).isLt; omega) (by have := p.isLt; omega), Fin.ext_iff]
  exact if_congr hiff rfl rfl

/-! ## The class, under the precondition -/

theorem cls_eq {L : LRow} (h : ClsOk L) (g : Fin 8) : cls L g = BitVec.ofNat 32 (clsN L g).val := by
  obtain ⟨h0, h20⟩ := h g
  rw [BitVec.toInt_eq_toNat_cond] at h0 h20
  have hlt := (cls L g).isLt
  have hs : (cls L g).toNat < 20 := by
    split at h0 <;> omega
  apply BitVec.eq_of_toNat_eq
  show (cls L g).toNat = (BitVec.ofNat 32 ((cls L g).toNat % 20)).toNat
  rw [BitVec.toNat_ofNat]; omega
theorem cls_toInt {L : LRow} (h : ClsOk L) (g : Fin 8) : (cls L g).toInt = ((clsN L g).val : Int) := by
  obtain ⟨h0, h20⟩ := h g
  rw [BitVec.toInt_eq_toNat_cond] at h0 h20 ⊢
  show _ = (((cls L g).toNat % 20 : Nat) : Int)
  split at h0 <;> omega

end Cert.Spec

end
-- ==== Proof.KUnpack.lean ====
/-
  The kernel's view of its two input blocks, read at an index: the 512 × 1470 block of predictions as class scores,
  confidences and clipped boxes per cell; the 512 × 40 block of labels as the ground-truth boxes, their classes, their
  centres and extents, and the cell each falls in. Each entry is the matching function of the block's row.
-/
import proofs.«112027_j37778532335632_1_alg».proof.Proof.KTerms
import proofs.«112027_j37778532335632_1_alg».proof.Proof.SpecFacts
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.Spec Cert.KernelIdeal Cert.KernelIdeal.Gen

variable (x0 : Vec Ideal S512x1470 .f32) (x1 : Vec Ideal S512x40 .f32)

/-! ## The predictions: cells, scores, boxes -/

/-- The block of predictions cut into cells: number `k` of cell `c` of row `r` is number `30 c + k` of the row. -/
theorem pay3_apply (r : Fin 512) (c : Fin 49) (k : Fin 30) :
    k0_pay3 x0 (ix3 r c k) = x0 (ix2 r (⟨30 * c.val + k.val, by have := c.isLt; have := k.isLt; omega⟩ : Fin 1470)) := by
  unfold k0_pay3
  exact shapeCast_apply x0 _ (ix3 r c k) (ix2 r (⟨30 * c.val + k.val, by have := c.isLt; have := k.isLt; omega⟩ : Fin 1470))
    (by rewrite [Shape.rowMajor_val_two, Shape.rowMajor_val_three]
        show r.val * 1470 + (30 * c.val + k.val) = (r.val * 49 + c.val) * 30 + k.val
        omega)

/-- The first twenty numbers of each cell. -/
theorem slice_scores_apply (v : FVec Ideal S512x49x30 .f32) (h : S512x49x30.Slices ![0, 0, 0] S512x49x20)
    (r : Fin 512) (c : Fin 49) (d : Fin 20) :
    extractStridedSlice S512x49x20 ![0, 0, 0] v h (ix3 r c d) = v (ix3 r c (⟨d.val, by have := d.isLt; omega⟩ : Fin 30)) :=
  extractStridedSlice_apply (s := S512x49x30) (t := S512x49x20) ![0, 0, 0] v h (ix3 r c d)
    (ix3 r c (⟨d.val, by have := d.isLt; omega⟩ : Fin 30))
    (fun a => match a with
      | ⟨0, _⟩ => by show r.val = 0 + r.val; omega
      | ⟨1, _⟩ => by show c.val = 0 + c.val; omega
      | ⟨2, _⟩ => by show d.val = 0 + d.val; omega)

theorem pay4_apply (r : Fin 512) (c : Fin 49) (d : Fin 20) :
    k0_pay4 x0 (ix3 r c d) = k0_pay3 x0 (ix3 r c (⟨d.val, by have := d.isLt; omega⟩ : Fin 30)) := by
  unfold k0_pay4
  exact slice_scores_apply (k0_pay3 x0) _ r c d

/-- The last ten numbers of each cell. -/
theorem slice_boxes_apply (v : FVec Ideal S512x49x30 .f32) (h : S512x49x30.Slices ![0, 0, 20] S512x49x10)
    (r : Fin 512) (c : Fin 49) (m : Fin 10) :
    extractStridedSlice S512x49x10 ![0, 0, 20] v h (ix3 r c m) = v (ix3 r c (⟨20 + m.val, by have := m.isLt; omega⟩ : Fin 30)) :=
  extractStridedSlice_apply (s := S512x49x30) (t := S512x49x10) ![0, 0, 20] v h (ix3 r c m)
    (ix3 r c (⟨20 + m.val, by have := m.isLt; omega⟩ : Fin 30))
    (fun a => match a with
      | ⟨0, _⟩ => by show r.val = 0 + r.val; omega
      | ⟨1, _⟩ => by show c.val = 0 + c.val; omega
      | ⟨2, _⟩ => by show 20 + m.val = 20 + m.val; omega)

/-- Ten numbers as two boxes of five. -/
theorem cast_boxes_apply (v : FVec Ideal S512x49x10 .f32) (h : S512x49x10.ShapeCasts S512x49x2x5)
    (r : Fin 512) (c : Fin 49) (j : Fin 2) (f : Fin 5) :
    shapeCast S512x49x2x5 v h (ix4 r c j f) = v (ix3 r c (⟨5 * j.val + f.val, by have := j.isLt; have := f.isLt; omega⟩ : Fin 10)) :=
  shapeCast_apply (s := S512x49x10) (t := S512x49x2x5) v h (ix4 r c j f)
    (ix3 r c (⟨5 * j.val + f.val, by have := j.isLt; have := f.isLt; omega⟩ : Fin 10))
    (by rewrite [Shape.rowMajor_val_three, Shape.rowMajor_val_four]
        show (r.val * 49 + c.val) * 10 + (5 * j.val + f.val) = ((r.val * 49 + c.val) * 2 + j.val) * 5 + f.val
        omega)

theorem pay5_apply (r : Fin 512) (c : Fin 49) (j : Fin 2) (f : Fin 5) :
    k0_pay5 x0 (ix4 r c j f)
      = k0_pay3 x0 (ix3 r c (⟨20 + 5 * j.val + f.val, by have := j.isLt; have := f.isLt; omega⟩ : Fin 30)) := by
  unfold k0_pay5
  refine (cast_boxes_apply _ _ r c j f).trans ?_
  refine (slice_boxes_apply (k0_pay3 x0) _ r c _).trans ?_
  exact congrArg (fun m : Fin 30 => k0_pay3 x0 (ix3 r c m)) (Fin.ext (by show 20 + (5 * j.val + f.val) = 20 + 5 * j.val + f.val; omega))

/-- Number `o` of each of a cell's two boxes, as a [row, cell, box] array. -/
theorem col_boxes_apply (v : FVec Ideal S512x49x2x5 .f32) (o : Nat) (f : Fin 5) (hf : f.val = o)
    (h : S512x49x2x5.Slices ![0, 0, 0, o] S512x49x2x1) (h' : S512x49x2x1.ShapeCasts S512x49x2)
    (r : Fin 512) (c : Fin 49) (j : Fin 2) :
    shapeCast S512x49x2 (extractStridedSlice S512x49x2x1 ![0, 0, 0, o] v h) h' (ix3 r c j) = v (ix4 r c j f) := by
  refine (shapeCast_apply (s := S512x49x2x1) (t := S512x49x2) _ h' (ix3 r c j) (ix4 r c j (0 : Fin 1))
    (by rewrite [Shape.rowMajor_val_four, Shape.rowMajor_val_three]
        show ((r.val * 49 + c.val) * 2 + j.val) * 1 + 0 = (r.val * 49 + c.val) * 2 + j.val
        omega)).trans ?_
  exact extractStridedSlice_apply (s := S512x49x2x5) (t := S512x49x2x1) ![0, 0, 0, o] v h (ix4 r c j (0 : Fin 1)) (ix4 r c j f)
    (fun a => match a with
      | ⟨0, _⟩ => by show r.val = 0 + r.val; omega
      | ⟨1, _⟩ => by show c.val = 0 + c.val; omega
      | ⟨2, _⟩ => by show j.val = 0 + j.val; omega
      | ⟨3, _⟩ => by show f.val = o + 0; omega)

theorem pay6_apply (r : Fin 512) (c : Fin 49) (j : Fin 2) :
    k0_pay6 x0 (ix3 r c j) = k0_pay5 x0 (ix4 r c j 4) := by
  unfold k0_pay6
  exact col_boxes_apply (k0_pay5 x0) 4 4 rfl _ _ r c j

/-- A [row, cell, box] array given a last axis of length one. -/
theorem unit_boxes_apply (v : FVec Ideal S512x49x2 .f32) (h : S512x49x2.ShapeCasts S512x49x2x1)
    (r : Fin 512) (c : Fin 49) (j : Fin 2) :
    shapeCast S512x49x2x1 v h (ix4 r c j (0 : Fin 1)) = v (ix3 r c j) :=
  shapeCast_apply (s := S512x49x2) (t := S512x49x2x1) v h (ix4 r c j (0 : Fin 1)) (ix3 r c j)
    (by rewrite [Shape.rowMajor_val_three, Shape.rowMajor_val_four]
        show (r.val * 49 + c.val) * 2 + j.val = ((r.val * 49 + c.val) * 2 + j.val) * 1 + 0
        omega)

/-- Two boxes of four numbers as eight numbers. -/
theorem flat_boxes_apply (v : FVec Ideal S512x49x2x4 .f32) (h : S512x49x2x4.ShapeCasts S512x49x8)
    (r : Fin 512) (c : Fin 49) (j : Fin 2) (f : Fin 4) :
    shapeCast S512x49x8 v h (ix3 r c (⟨4 * j.val + f.val, by have := j.isLt; have := f.isLt; omega⟩ : Fin 8)) = v (ix4 r c j f) :=
  shapeCast_apply (s := S512x49x2x4) (t := S512x49x8) v h
    (ix3 r c (⟨4 * j.val + f.val, by have := j.isLt; have := f.isLt; omega⟩ : Fin 8)) (ix4 r c j f)
    (by rewrite [Shape.rowMajor_val_four, Shape.rowMajor_val_three]
        show ((r.val * 49 + c.val) * 2 + j.val) * 4 + f.val = (r.val * 49 + c.val) * 8 + (4 * j.val + f.val)
        omega)

/-- Off the joined axis, a piece's index and the joined array's index have the same coordinates. -/
theorem cat_boxes_off (r : Fin 512) (c : Fin 49) (j : Fin 2) (f : Fin 4) (b : Fin S512x49x2x1.rank) :
    b.cast (rfl : S512x49x2x1.rank = S512x49x2x4.rank) ≠ (3 : Fin S512x49x2x4.rank) →
      ((ix4 r c j (0 : Fin 1) : S512x49x2x1.Idx) b).val
        = ((ix4 r c j f : S512x49x2x4.Idx) (b.cast (rfl : S512x49x2x1.rank = S512x49x2x4.rank))).val :=
  match b with
  | ⟨0, _⟩ => fun _ => rfl
  | ⟨1, _⟩ => fun _ => rfl
  | ⟨2, _⟩ => fun _ => rfl
  | ⟨3, _⟩ => fun hb => absurd rfl hb

/-- Four [row, cell, box, 1] arrays joined along the last axis: number `k` comes from piece `k`. -/
theorem cat_boxes_0 (v0 v1 v2 v3 : FVec Ideal S512x49x2x1 .f32)
    (h : Shape.Concatenates [S512x49x2x1, S512x49x2x1, S512x49x2x1, S512x49x2x1] S512x49x2x4 3)
    (r : Fin 512) (c : Fin 49) (j : Fin 2) :
    concatenate S512x49x2x4 3 [⟨S512x49x2x1, v0⟩, ⟨S512x49x2x1, v1⟩, ⟨S512x49x2x1, v2⟩, ⟨S512x49x2x1, v3⟩] h (ix4 r c j (0 : Fin 4))
      = v0 (ix4 r c j (0 : Fin 1)) :=
  concatenate_apply_piece (3 : Fin S512x49x2x4.rank)
    [⟨S512x49x2x1, v0⟩, ⟨S512x49x2x1, v1⟩, ⟨S512x49x2x1, v2⟩, ⟨S512x49x2x1, v3⟩] h (ix4 r c j (0 : Fin 4)) 0
    (by show (0 : Nat) < 4; omega) S512x49x2x1 v0 rfl rfl 0 rfl
    (ix4 r c j (0 : Fin 1)) (cat_boxes_off r c j _) rfl
theorem cat_boxes_1 (v0 v1 v2 v3 : FVec Ideal S512x49x2x1 .f32)
    (h : Shape.Concatenates [S512x49x2x1, S512x49x2x1, S512x49x2x1, S512x49x2x1] S512x49x2x4 3)
    (r : Fin 512) (c : Fin 49) (j : Fin 2) :
    concatenate S512x49x2x4 3 [⟨S512x49x2x1, v0⟩, ⟨S512x49x2x1, v1⟩, ⟨S512x49x2x1, v2⟩, ⟨S512x49x2x1, v3⟩] h (ix4 r c j (1 : Fin 4))
      = v1 (ix4 r c j (0 : Fin 1)) :=
  concatenate_apply_piece (3 : Fin S512x49x2x4.rank)
    [⟨S512x49x2x1, v0⟩, ⟨S512x49x2x1, v1⟩, ⟨S512x49x2x1, v2⟩, ⟨S512x49x2x1, v3⟩] h (ix4 r c j (1 : Fin 4)) 1
    (by show (1 : Nat) < 4; omega) S512x49x2x1 v1 rfl rfl 1 rfl
    (ix4 r c j (0 : Fin 1)) (cat_boxes_off r c j _) rfl
theorem cat_boxes_2 (v0 v1 v2 v3 : FVec Ideal S512x49x2x1 .f32)
    (h : Shape.Concatenates [S512x49x2x1, S512x49x2x1, S512x49x2x1, S512x49x2x1] S512x49x2x4 3)
    (r : Fin 512) (c : Fin 49) (j : Fin 2) :
    concatenate S512x49x2x4 3 [⟨S512x49x2x1, v0⟩, ⟨S512x49x2x1, v1⟩, ⟨S512x49x2x1, v2⟩, ⟨S512x49x2x1, v3⟩] h (ix4 r c j (2 : Fin 4))
      = v2 (ix4 r c j (0 : Fin 1)) :=
  concatenate_apply_piece (3 : Fin S512x49x2x4.rank)
    [⟨S512x49x2x1, v0⟩, ⟨S512x49x2x1, v1⟩, ⟨S512x49x2x1, v2⟩, ⟨S512x49x2x1, v3⟩] h (ix4 r c j (2 : Fin 4)) 2
    (by show (2 : Nat) < 4; omega) S512x49x2x1 v2 rfl rfl 2 rfl
    (ix4 r c j (0 : Fin 1)) (cat_boxes_off r c j _) rfl
theorem cat_boxes_3 (v0 v1 v2 v3 : FVec Ideal S512x49x2x1 .f32)
    (h : Shape.Concatenates [S512x49x2x1, S512x49x2x1, S512x49x2x1, S512x49x2x1] S512x49x2x4 3)
    (r : Fin 512) (c : Fin 49) (j : Fin 2) :
    concatenate S512x49x2x4 3 [⟨S512x49x2x1, v0⟩, ⟨S512x49x2x1, v1⟩, ⟨S512x49x2x1, v2⟩, ⟨S512x49x2x1, v3⟩] h (ix4 r c j (3 : Fin 4))
      = v3 (ix4 r c j (0 : Fin 1)) :=
  concatenate_apply_piece (3 : Fin S512x49x2x4.rank)
    [⟨S512x49x2x1, v0⟩, ⟨S512x49x2x1, v1⟩, ⟨S512x49x2x1, v2⟩, ⟨S512x49x2x1, v3⟩] h (ix4 r c j (3 : Fin 4)) 3
    (by show (3 : Nat) < 4; omega) S512x49x2x1 v3 rfl rfl 3 rfl
    (ix4 r c j (0 : Fin 1)) (cat_boxes_off r c j _) rfl

/-! ## The labels -/

/-- The block of labels cut into ground-truth boxes: number `k` of box `g` of row `r` is number `5 g + k` of the row. -/
theorem pay8_apply (r : Fin 512) (g : Fin 8) (k : Fin 5) :
    k0_pay8 x1 (ix3 r g k) = x1 (ix2 r (⟨5 * g.val + k.val, by have := g.isLt; have := k.isLt; omega⟩ : Fin 40)) := by
  unfold k0_pay8
  exact shapeCast_apply x1 _ (ix3 r g k) (ix2 r (⟨5 * g.val + k.val, by have := g.isLt; have := k.isLt; omega⟩ : Fin 40))
    (by rewrite [Shape.rowMajor_val_two, Shape.rowMajor_val_three]
        show r.val * 40 + (5 * g.val + k.val) = (r.val * 8 + g.val) * 5 + k.val
        omega)

/-- Number `o` of each ground-truth box, as a [row, box] array. -/
theorem col_labs_apply (v : FVec Ideal S512x8x5 .f32) (o : Nat) (k : Fin 5) (hk : k.val = o)
    (h : S512x8x5.Slices ![0, 0, o] S512x8x1) (h' : S512x8x1.ShapeCasts S512x8) (r : Fin 512) (g : Fin 8) :
    shapeCast S512x8 (extractStridedSlice S512x8x1 ![0, 0, o] v h) h' (ix2 r g) = v (ix3 r g k) := by
  refine (shapeCast_apply (s := S512x8x1) (t := S512x8) _ h' (ix2 r g) (ix3 r g (0 : Fin 1))
    (by rewrite [Shape.rowMajor_val_three, Shape.rowMajor_val_two]
        show (r.val * 8 + g.val) * 1 + 0 = r.val * 8 + g.val
        omega)).trans ?_
  exact extractStridedSlice_apply (s := S512x8x5) (t := S512x8x1) ![0, 0, o] v h (ix3 r g (0 : Fin 1)) (ix3 r g k)
    (fun a => match a with
      | ⟨0, _⟩ => by show r.val = 0 + r.val; omega
      | ⟨1, _⟩ => by show g.val = 0 + g.val; omega
      | ⟨2, _⟩ => by show k.val = o + 0; omega)

theorem pay9_apply (r : Fin 512) (g : Fin 8) : k0_pay9 x1 (ix2 r g) = k0_pay8 x1 (ix3 r g 0) := by
  unfold k0_pay9
  exact col_labs_apply (k0_pay8 x1) 0 0 rfl _ _ r g

theorem pay11_apply (v : FVec Ideal S512x8x5 .f32) (r : Fin 512) (g : Fin 8) : k0_pay11 v (ix2 r g) = v (ix3 r g 1) := by
  unfold k0_pay11
  exact col_labs_apply v 1 1 rfl _ _ r g

theorem pay12_apply (v : FVec Ideal S512x8x5 .f32) (r : Fin 512) (g : Fin 8) : k0_pay12 v (ix2 r g) = v (ix3 r g 2) := by
  unfold k0_pay12
  exact col_labs_apply v 2 2 rfl _ _ r g

theorem pay13_apply (v : FVec Ideal S512x8x5 .f32) (r : Fin 512) (g : Fin 8) : k0_pay13 v (ix2 r g) = v (ix3 r g 3) := by
  unfold k0_pay13
  exact col_labs_apply v 3 3 rfl _ _ r g

theorem pay14_apply (v : FVec Ideal S512x8x5 .f32) (r : Fin 512) (g : Fin 8) : k0_pay14 v (ix2 r g) = v (ix3 r g 4) := by
  unfold k0_pay14
  exact col_labs_apply v 4 4 rfl _ _ r g

/-- A [row, box] array given a last axis of length one. -/
theorem unit_labs_apply (v : FVec Ideal S512x8 .f32) (h : S512x8.ShapeCasts S512x8x1) (r : Fin 512) (g : Fin 8) :
    shapeCast S512x8x1 v h (ix3 r g (0 : Fin 1)) = v (ix2 r g) :=
  shapeCast_apply (s := S512x8) (t := S512x8x1) v h (ix3 r g (0 : Fin 1)) (ix2 r g)
    (by rewrite [Shape.rowMajor_val_two, Shape.rowMajor_val_three]
        show r.val * 8 + g.val = (r.val * 8 + g.val) * 1 + 0
        omega)

/-- Off the joined axis, a piece's index and the joined array's index have the same coordinates. -/
theorem cat_labs_off (r : Fin 512) (g : Fin 8) (f : Fin 4) (b : Fin S512x8x1.rank) :
    b.cast (rfl : S512x8x1.rank = S512x8x4.rank) ≠ (2 : Fin S512x8x4.rank) →
      ((ix3 r g (0 : Fin 1) : S512x8x1.Idx) b).val
        = ((ix3 r g f : S512x8x4.Idx) (b.cast (rfl : S512x8x1.rank = S512x8x4.rank))).val :=
  match b with
  | ⟨0, _⟩ => fun _ => rfl
  | ⟨1, _⟩ => fun _ => rfl
  | ⟨2, _⟩ => fun hb => absurd rfl hb

/-- Four [row, box, 1] arrays joined along the last axis: number `k` comes from piece `k`. -/
theorem cat_labs_0 (v0 v1 v2 v3 : FVec Ideal S512x8x1 .f32)
    (h : Shape.Concatenates [S512x8x1, S512x8x1, S512x8x1, S512x8x1] S512x8x4 2)
    (r : Fin 512) (g : Fin 8) :
    concatenate S512x8x4 2 [⟨S512x8x1, v0⟩, ⟨S512x8x1, v1⟩, ⟨S512x8x1, v2⟩, ⟨S512x8x1, v3⟩] h (ix3 r g (0 : Fin 4))
      = v0 (ix3 r g (0 : Fin 1)) :=
  concatenate_apply_piece (2 : Fin S512x8x4.rank)
    [⟨S512x8x1, v0⟩, ⟨S512x8x1, v1⟩, ⟨S512x8x1, v2⟩, ⟨S512x8x1, v3⟩] h (ix3 r g (0 : Fin 4)) 0
    (by show (0 : Nat) < 4; omega) S512x8x1 v0 rfl rfl 0 rfl
    (ix3 r g (0 : Fin 1)) (cat_labs_off r g _) rfl
theorem cat_labs_1 (v0 v1 v2 v3 : FVec Ideal S512x8x1 .f32)
    (h : Shape.Concatenates [S512x8x1, S512x8x1, S512x8x1, S512x8x1] S512x8x4 2)
    (r : Fin 512) (g : Fin 8) :
    concatenate S512x8x4 2 [⟨S512x8x1, v0⟩, ⟨S512x8x1, v1⟩, ⟨S512x8x1, v2⟩, ⟨S512x8x1, v3⟩] h (ix3 r g (1 : Fin 4))
      = v1 (ix3 r g (0 : Fin 1)) :=
  concatenate_apply_piece (2 : Fin S512x8x4.rank)
    [⟨S512x8x1, v0⟩, ⟨S512x8x1, v1⟩, ⟨S512x8x1, v2⟩, ⟨S512x8x1, v3⟩] h (ix3 r g (1 : Fin 4)) 1
    (by show (1 : Nat) < 4; omega) S512x8x1 v1 rfl rfl 1 rfl
    (ix3 r g (0 : Fin 1)) (cat_labs_off r g _) rfl
theorem cat_labs_2 (v0 v1 v2 v3 : FVec Ideal S512x8x1 .f32)
    (h : Shape.Concatenates [S512x8x1, S512x8x1, S512x8x1, S512x8x1] S512x8x4 2)
    (r : Fin 512) (g : Fin 8) :
    concatenate S512x8x4 2 [⟨S512x8x1, v0⟩, ⟨S512x8x1, v1⟩, ⟨S512x8x1, v2⟩, ⟨S512x8x1, v3⟩] h (ix3 r g (2 : Fin 4))
      = v2 (ix3 r g (0 : Fin 1)) :=
  concatenate_apply_piece (2 : Fin S512x8x4.rank)
    [⟨S512x8x1, v0⟩, ⟨S512x8x1, v1⟩, ⟨S512x8x1, v2⟩, ⟨S512x8x1, v3⟩] h (ix3 r g (2 : Fin 4)) 2
    (by show (2 : Nat) < 4; omega) S512x8x1 v2 rfl rfl 2 rfl
    (ix3 r g (0 : Fin 1)) (cat_labs_off r g _) rfl
theorem cat_labs_3 (v0 v1 v2 v3 : FVec Ideal S512x8x1 .f32)
    (h : Shape.Concatenates [S512x8x1, S512x8x1, S512x8x1, S512x8x1] S512x8x4 2)
    (r : Fin 512) (g : Fin 8) :
    concatenate S512x8x4 2 [⟨S512x8x1, v0⟩, ⟨S512x8x1, v1⟩, ⟨S512x8x1, v2⟩, ⟨S512x8x1, v3⟩] h (ix3 r g (3 : Fin 4))
      = v3 (ix3 r g (0 : Fin 1)) :=
  concatenate_apply_piece (2 : Fin S512x8x4.rank)
    [⟨S512x8x1, v0⟩, ⟨S512x8x1, v1⟩, ⟨S512x8x1, v2⟩, ⟨S512x8x1, v3⟩] h (ix3 r g (3 : Fin 4)) 3
    (by show (3 : Nat) < 4; omega) S512x8x1 v3 rfl rfl 3 rfl
    (ix3 r g (0 : Fin 1)) (cat_labs_off r g _) rfl

/-- The ground-truth box repeated along a new axis of length two. -/
theorem pay23_apply (v : FVec Ideal S512x8x4 .f32) (r : Fin 512) (g : Fin 8) (j : Fin 2) (f : Fin 4) :
    k0_pay23 v (ix4 r g j f) = v (ix3 r g f) := by
  unfold k0_pay23
  refine (broadcastTo_apply (s := S512x8x1x4) (t := S512x8x2x4) _ _ (ix4 r g j f) (ix4 r g (0 : Fin 1) f)
    (fun a => match a with
      | ⟨0, _⟩ => rfl
      | ⟨1, _⟩ => rfl
      | ⟨2, _⟩ => rfl
      | ⟨3, _⟩ => rfl)).trans ?_
  refine (shapeCast_apply (s := S512x8x1x4) (t := S512x8x1x4) _ _ (ix4 r g (0 : Fin 1) f) (ix4 r g (0 : Fin 1) f) rfl).trans ?_
  exact shapeCast_apply (s := S512x8x4) (t := S512x8x1x4) v _ (ix4 r g (0 : Fin 1) f) (ix3 r g f)
    (by rewrite [Shape.rowMajor_val_three, Shape.rowMajor_val_four]
        show (r.val * 8 + g.val) * 4 + f.val = ((r.val * 8 + g.val) * 1 + 0) * 4 + f.val
        omega)

/-- One number of the two boxes, clipped to `[lo, hi]` and given a last axis of length one. -/
theorem clip_col_apply (v : FVec Ideal S512x49x2x5 .f32) (lo hi : Ideal .f32) (o : Nat) (f : Fin 5) (hf : f.val = o)
    (h : S512x49x2x5.Slices ![0, 0, 0, o] S512x49x2x1) (h' : S512x49x2x1.ShapeCasts S512x49x2)
    (h'' : S512x49x2.ShapeCasts S512x49x2x1) (r : Fin 512) (c : Fin 49) (j : Fin 2) :
    shapeCast S512x49x2x1 (minimumf (broadcast S512x49x2 hi) (maximumf (broadcast S512x49x2 lo)
        (shapeCast S512x49x2 (extractStridedSlice S512x49x2x1 ![0, 0, 0, o] v h) h'))) h'' (ix4 r c j (0 : Fin 1))
      = min hi (max lo (v (ix4 r c j f))) := by
  refine (unit_boxes_apply _ h'' r c j).trans ?_
  exact congrArg (fun t : EReal => min hi (max lo t)) (col_boxes_apply v o f hf h h' r c j)

/-! ## The clipped boxes -/

theorem pay7_0 (r : Fin 512) (c : Fin 49) (j : Fin 2) :
    k0_pay7 x0 (ix3 r c (⟨4 * j.val + (0 : Fin 4).val, by have := j.isLt; have := (0 : Fin 4).isLt; omega⟩ : Fin 8))
      = min one (max zero (k0_pay5 x0 (ix4 r c j 0))) := by
  unfold k0_pay7
  refine (flat_boxes_apply _ _ r c j 0).trans ?_
  refine (cat_boxes_0 _ _ _ _ _ r c j).trans ?_
  exact clip_col_apply (k0_pay5 x0) _ _ 0 0 rfl _ _ _ r c j

theorem pay7_1 (r : Fin 512) (c : Fin 49) (j : Fin 2) :
    k0_pay7 x0 (ix3 r c (⟨4 * j.val + (1 : Fin 4).val, by have := j.isLt; have := (1 : Fin 4).isLt; omega⟩ : Fin 8))
      = min one (max zero (k0_pay5 x0 (ix4 r c j 1))) := by
  unfold k0_pay7
  refine (flat_boxes_apply _ _ r c j 1).trans ?_
  refine (cat_boxes_1 _ _ _ _ _ r c j).trans ?_
  exact clip_col_apply (k0_pay5 x0) _ _ 1 1 rfl _ _ _ r c j

theorem pay7_2 (r : Fin 512) (c : Fin 49) (j : Fin 2) :
    k0_pay7 x0 (ix3 r c (⟨4 * j.val + (2 : Fin 4).val, by have := j.isLt; have := (2 : Fin 4).isLt; omega⟩ : Fin 8))
      = min one (max tiny (k0_pay5 x0 (ix4 r c j 2))) := by
  unfold k0_pay7
  refine (flat_boxes_apply _ _ r c j 2).trans ?_
  refine (cat_boxes_2 _ _ _ _ _ r c j).trans ?_
  exact clip_col_apply (k0_pay5 x0) _ _ 2 2 rfl _ _ _ r c j

theorem pay7_3 (r : Fin 512) (c : Fin 49) (j : Fin 2) :
    k0_pay7 x0 (ix3 r c (⟨4 * j.val + (3 : Fin 4).val, by have := j.isLt; have := (3 : Fin 4).isLt; omega⟩ : Fin 8))
      = min one (max tiny (k0_pay5 x0 (ix4 r c j 3))) := by
  unfold k0_pay7
  refine (flat_boxes_apply _ _ r c j 3).trans ?_
  refine (cat_boxes_3 _ _ _ _ _ r c j).trans ?_
  exact clip_col_apply (k0_pay5 x0) _ _ 3 3 rfl _ _ _ r c j

/-- The kernel's cells and boxes are the row's. -/
theorem pcell_eq (r : Fin 512) (c : Fin 49) (k : Fin 30) : k0_pay3 x0 (ix3 r c k) = pcell (prow (n := 512) x0 r) c k :=
  pay3_apply x0 r c k

theorem pbox_eq (r : Fin 512) (c : Fin 49) (j : Fin 2) (f : Fin 5) :
    k0_pay5 x0 (ix4 r c j f) = pbox (prow (n := 512) x0 r) c j f :=
  (pay5_apply x0 r c j f).trans (pcell_eq x0 r c _)

/-! ## Centres, extents and cells of the ground-truth boxes -/

theorem labs_eq (r : Fin 512) (g : Fin 8) (k : Fin 5) : k0_pay8 x1 (ix3 r g k) = lab (lrow (n := 512) x1 r) g k :=
  pay8_apply x1 r g k

theorem pay15_apply (v : FVec Ideal S512x8x5 .f32) (r : Fin 512) (g : Fin 8) :
    k0_pay15 v (ix2 r g) = Ideal.div ((v (ix3 r g 1) + v (ix3 r g 3)) * half) img := by
  unfold k0_pay15
  show Ideal.div ((k0_pay11 v (ix2 r g) + k0_pay13 v (ix2 r g)) * half) img = _
  rw [pay11_apply, pay13_apply]

theorem pay16_apply (v : FVec Ideal S512x8x5 .f32) (r : Fin 512) (g : Fin 8) :
    k0_pay16 v (ix2 r g) = Ideal.div ((v (ix3 r g 2) + v (ix3 r g 4)) * half) img := by
  unfold k0_pay16
  show Ideal.div ((k0_pay12 v (ix2 r g) + k0_pay14 v (ix2 r g)) * half) img = _
  rw [pay12_apply, pay14_apply]

theorem cx_eq (r : Fin 512) (g : Fin 8) : k0_pay15 (k0_pay8 x1) (ix2 r g) = cx (lrow (n := 512) x1 r) g := by
  rw [pay15_apply, labs_eq, labs_eq]; rfl

theorem cy_eq (r : Fin 512) (g : Fin 8) : k0_pay16 (k0_pay8 x1) (ix2 r g) = cy (lrow (n := 512) x1 r) g := by
  rw [pay16_apply, labs_eq, labs_eq]; rfl

theorem pay17_0 (v : FVec Ideal S512x8x5 .f32) (r : Fin 512) (g : Fin 8) :
    k0_pay17 v (ix3 r g (0 : Fin 4)) = k0_pay15 v (ix2 r g) := by
  unfold k0_pay17
  refine (cat_labs_0 _ _ _ _ _ r g).trans ?_
  exact unit_labs_apply (k0_pay15 v) _ r g

theorem pay17_1 (v : FVec Ideal S512x8x5 .f32) (r : Fin 512) (g : Fin 8) :
    k0_pay17 v (ix3 r g (1 : Fin 4)) = k0_pay16 v (ix2 r g) := by
  unfold k0_pay17
  refine (cat_labs_1 _ _ _ _ _ r g).trans ?_
  exact unit_labs_apply (k0_pay16 v) _ r g

theorem pay17_2 (v : FVec Ideal S512x8x5 .f32) (r : Fin 512) (g : Fin 8) :
    k0_pay17 v (ix3 r g (2 : Fin 4)) = min one (max tiny (Ideal.div (v (ix3 r g 3) - v (ix3 r g 1)) img)) := by
  unfold k0_pay17
  refine (cat_labs_2 _ _ _ _ _ r g).trans ?_
  refine (unit_labs_apply _ _ r g).trans ?_
  show min one (max tiny (Ideal.div (k0_pay13 v (ix2 r g) - k0_pay11 v (ix2 r g)) img)) = _
  rw [pay13_apply, pay11_apply]

theorem pay17_3 (v : FVec Ideal S512x8x5 .f32) (r : Fin 512) (g : Fin 8) :
    k0_pay17 v (ix3 r g (3 : Fin 4)) = min one (max tiny (Ideal.div (v (ix3 r g 4) - v (ix3 r g 2)) img)) := by
  unfold k0_pay17
  refine (cat_labs_3 _ _ _ _ _ r g).trans ?_
  refine (unit_labs_apply _ _ r g).trans ?_
  show min one (max tiny (Ideal.div (k0_pay14 v (ix2 r g) - k0_pay12 v (ix2 r g)) img)) = _
  rw [pay14_apply, pay12_apply]

theorem gw_eq (r : Fin 512) (g : Fin 8) :
    min one (max tiny (Ideal.div (k0_pay8 x1 (ix3 r g 3) - k0_pay8 x1 (ix3 r g 1)) img)) = gw (lrow (n := 512) x1 r) g := by
  rw [labs_eq, labs_eq]; rfl

theorem gh_eq (r : Fin 512) (g : Fin 8) :
    min one (max tiny (Ideal.div (k0_pay8 x1 (ix3 r g 4) - k0_pay8 x1 (ix3 r g 2)) img)) = gh (lrow (n := 512) x1 r) g := by
  rw [labs_eq, labs_eq]; rfl

/-- The cell's column: seven times the centre's x, clipped to `[0, 6]`, toward zero. -/
theorem pay18_apply (v : FVec Ideal S512x8x5 .f32) (r : Fin 512) (g : Fin 8) :
    k0_pay18 v (ix2 r g) = Ideal.fptosi 32 (min six (max zero (k0_pay15 v (ix2 r g) * seven))) := rfl

/-- The cell's number: seven times its row plus its column. -/
theorem pay19_apply (cyv : FVec Ideal S512x8 .f32) (cxw : IVec S512x8 32) (r : Fin 512) (g : Fin 8) :
    k0_pay19 cyv cxw c7 (ix2 r g) = Ideal.fptosi 32 (min six (max zero (cyv (ix2 r g) * seven))) * 7#32 + cxw (ix2 r g) := rfl

/-! ## The values the rest of the body reads -/

theorem scores_apply (r : Fin 512) (c : Fin 49) (d : Fin 20) :
    scores x0 (ix3 r c d) = logit (prow (n := 512) x0 r) c d :=
  (pay4_apply x0 r c d).trans (pcell_eq x0 r c _)

theorem confs_apply (r : Fin 512) (c : Fin 49) (j : Fin 2) :
    confs x0 (ix3 r c j) = conf (prow (n := 512) x0 r) c j :=
  (pay6_apply x0 r c j).trans (pbox_eq x0 r c j 4)

theorem boxes_apply (r : Fin 512) (c : Fin 49) (j : Fin 2) (f : Fin 4) :
    boxes x0 (ix3 r c (⟨4 * j.val + f.val, by have := j.isLt; have := f.isLt; omega⟩ : Fin 8)) = xywh (prow (n := 512) x0 r) c j f :=
  by
  match f with
  | ⟨0, _⟩ => exact (pay7_0 x0 r c j).trans (congrArg (fun t : EReal => min one (max zero t)) (pbox_eq x0 r c j 0))
  | ⟨1, _⟩ => exact (pay7_1 x0 r c j).trans (congrArg (fun t : EReal => min one (max zero t)) (pbox_eq x0 r c j 1))
  | ⟨2, _⟩ => exact (pay7_2 x0 r c j).trans (congrArg (fun t : EReal => min one (max tiny t)) (pbox_eq x0 r c j 2))
  | ⟨3, _⟩ => exact (pay7_3 x0 r c j).trans (congrArg (fun t : EReal => min one (max tiny t)) (pbox_eq x0 r c j 3))

theorem labs_apply (r : Fin 512) (g : Fin 8) (k : Fin 5) :
    labs x1 (ix3 r g k) = lab (lrow (n := 512) x1 r) g k :=
  labs_eq x1 r g k

theorem clsW_apply (r : Fin 512) (g : Fin 8) :
    clsW x1 (ix2 r g) = cls (lrow (n := 512) x1 r) g :=
  congrArg (Ideal.fptosi 32) ((pay9_apply x1 r g).trans (labs_eq x1 r g 0))

theorem cyV_apply (r : Fin 512) (g : Fin 8) :
    cyV x1 (ix2 r g) = cy (lrow (n := 512) x1 r) g :=
  cy_eq x1 r g

theorem gtV_apply (r : Fin 512) (g : Fin 8) (f : Fin 4) :
    gtV x1 (ix3 r g f) = gt (lrow (n := 512) x1 r) g f :=
  by
  match f with
  | ⟨0, _⟩ => exact (pay17_0 (k0_pay8 x1) r g).trans (cx_eq x1 r g)
  | ⟨1, _⟩ => exact (pay17_1 (k0_pay8 x1) r g).trans (cy_eq x1 r g)
  | ⟨2, _⟩ => exact (pay17_2 (k0_pay8 x1) r g).trans (gw_eq x1 r g)
  | ⟨3, _⟩ => exact (pay17_3 (k0_pay8 x1) r g).trans (gh_eq x1 r g)

theorem cellxW_apply (r : Fin 512) (g : Fin 8) :
    cellxW x1 (ix2 r g) = cellx (lrow (n := 512) x1 r) g :=
  (pay18_apply (k0_pay8 x1) r g).trans (congrArg (fun t : EReal => Ideal.fptosi 32 (min six (max zero (t * seven)))) (cx_eq x1 r g))

theorem cellW_apply (r : Fin 512) (g : Fin 8) :
    cellW x1 (ix2 r g) = cell (lrow (n := 512) x1 r) g :=
  (pay19_apply (cyV x1) (cellxW x1) r g).trans (by rw [cyV_apply, cellxW_apply]; rfl)

theorem gtB_apply (r : Fin 512) (g : Fin 8) (j : Fin 2) (f : Fin 4) :
    gtB x1 (ix4 r g j f) = gt (lrow (n := 512) x1 r) g f :=
  (pay23_apply (gtV x1) r g j f).trans (gtV_apply x1 r g f)

end Cert.KernelIdeal.Tile

end
-- ==== Proof.KGather.lean ====
/-
  The kernel selects a ground-truth box's cell by a batched product with a one-hot row: over the 49 cells, the row is 1 at
  the cell's number and 0 elsewhere, so the product is the cell's entry. Read at an index: the selected class scores and
  the selected clipped boxes.
-/
import proofs.«112027_j37778532335632_1_alg».proof.Proof.KUnpack
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.Spec Cert.KernelIdeal Cert.KernelIdeal.Gen

/-! ## The two products' operand indices, axis by axis

Both products are batched over the row (axis 0 of each operand and of the result), contract the cell (axis 2 of the
one-hot rows, axis 1 of the table) and keep the ground-truth box (axis 1 of the left operand) and the table's last
axis. -/

theorem lhsB_0 (j : S512x8x8.Idx) (k : dot_S512x8x49_S512x49x8_S512x8x8_2_1_1_2_0_0.contr.Idx) :
    (dot_S512x8x49_S512x49x8_S512x8x8_2_1_1_2_0_0.lhsIdx j k 0 : ℕ) = j 0 := by
  simp [DotDims.lhsIdx, dot_S512x8x49_S512x49x8_S512x8x8_2_1_1_2_0_0]; rfl
theorem lhsB_1 (j : S512x8x8.Idx) (k : dot_S512x8x49_S512x49x8_S512x8x8_2_1_1_2_0_0.contr.Idx) :
    (dot_S512x8x49_S512x49x8_S512x8x8_2_1_1_2_0_0.lhsIdx j k 1 : ℕ) = j 1 := by
  simp [DotDims.lhsIdx, dot_S512x8x49_S512x49x8_S512x8x8_2_1_1_2_0_0]; rfl
theorem lhsB_2 (j : S512x8x8.Idx) (k : dot_S512x8x49_S512x49x8_S512x8x8_2_1_1_2_0_0.contr.Idx) :
    (dot_S512x8x49_S512x49x8_S512x8x8_2_1_1_2_0_0.lhsIdx j k 2 : ℕ) = k ⟨0, by decide⟩ := by
  simp [DotDims.lhsIdx, dot_S512x8x49_S512x49x8_S512x8x8_2_1_1_2_0_0]; rfl
theorem rhsB_0 (j : S512x8x8.Idx) (k : dot_S512x8x49_S512x49x8_S512x8x8_2_1_1_2_0_0.contr.Idx) :
    (dot_S512x8x49_S512x49x8_S512x8x8_2_1_1_2_0_0.rhsIdx j k 0 : ℕ) = j 0 := by
  simp [DotDims.rhsIdx, dot_S512x8x49_S512x49x8_S512x8x8_2_1_1_2_0_0]; rfl
theorem rhsB_1 (j : S512x8x8.Idx) (k : dot_S512x8x49_S512x49x8_S512x8x8_2_1_1_2_0_0.contr.Idx) :
    (dot_S512x8x49_S512x49x8_S512x8x8_2_1_1_2_0_0.rhsIdx j k 1 : ℕ) = k ⟨0, by decide⟩ := by
  simp [DotDims.rhsIdx, dot_S512x8x49_S512x49x8_S512x8x8_2_1_1_2_0_0]; rfl
theorem rhsB_2 (j : S512x8x8.Idx) (k : dot_S512x8x49_S512x49x8_S512x8x8_2_1_1_2_0_0.contr.Idx) :
    (dot_S512x8x49_S512x49x8_S512x8x8_2_1_1_2_0_0.rhsIdx j k 2 : ℕ) = j 2 := by
  simp [DotDims.rhsIdx, dot_S512x8x49_S512x49x8_S512x8x8_2_1_1_2_0_0]; rfl

theorem lhsS_0 (j : S512x8x20.Idx) (k : dot_S512x8x49_S512x49x20_S512x8x20_2_1_1_2_0_0.contr.Idx) :
    (dot_S512x8x49_S512x49x20_S512x8x20_2_1_1_2_0_0.lhsIdx j k 0 : ℕ) = j 0 := by
  simp [DotDims.lhsIdx, dot_S512x8x49_S512x49x20_S512x8x20_2_1_1_2_0_0]; rfl
theorem lhsS_1 (j : S512x8x20.Idx) (k : dot_S512x8x49_S512x49x20_S512x8x20_2_1_1_2_0_0.contr.Idx) :
    (dot_S512x8x49_S512x49x20_S512x8x20_2_1_1_2_0_0.lhsIdx j k 1 : ℕ) = j 1 := by
  simp [DotDims.lhsIdx, dot_S512x8x49_S512x49x20_S512x8x20_2_1_1_2_0_0]; rfl
theorem lhsS_2 (j : S512x8x20.Idx) (k : dot_S512x8x49_S512x49x20_S512x8x20_2_1_1_2_0_0.contr.Idx) :
    (dot_S512x8x49_S512x49x20_S512x8x20_2_1_1_2_0_0.lhsIdx j k 2 : ℕ) = k ⟨0, by decide⟩ := by
  simp [DotDims.lhsIdx, dot_S512x8x49_S512x49x20_S512x8x20_2_1_1_2_0_0]; rfl
theorem rhsS_0 (j : S512x8x20.Idx) (k : dot_S512x8x49_S512x49x20_S512x8x20_2_1_1_2_0_0.contr.Idx) :
    (dot_S512x8x49_S512x49x20_S512x8x20_2_1_1_2_0_0.rhsIdx j k 0 : ℕ) = j 0 := by
  simp [DotDims.rhsIdx, dot_S512x8x49_S512x49x20_S512x8x20_2_1_1_2_0_0]; rfl
theorem rhsS_1 (j : S512x8x20.Idx) (k : dot_S512x8x49_S512x49x20_S512x8x20_2_1_1_2_0_0.contr.Idx) :
    (dot_S512x8x49_S512x49x20_S512x8x20_2_1_1_2_0_0.rhsIdx j k 1 : ℕ) = k ⟨0, by decide⟩ := by
  simp [DotDims.rhsIdx, dot_S512x8x49_S512x49x20_S512x8x20_2_1_1_2_0_0]; rfl
theorem rhsS_2 (j : S512x8x20.Idx) (k : dot_S512x8x49_S512x49x20_S512x8x20_2_1_1_2_0_0.contr.Idx) :
    (dot_S512x8x49_S512x49x20_S512x8x20_2_1_1_2_0_0.rhsIdx j k 2 : ℕ) = j 2 := by
  simp [DotDims.rhsIdx, dot_S512x8x49_S512x49x20_S512x8x20_2_1_1_2_0_0]; rfl

/-! ## A product into the zero accumulator, read at an index: the sum over the 49 cells -/

/-- The product with the table of boxes. -/
theorem matmulB_apply (A : FVec Ideal S512x8x49 .f32) (B : FVec Ideal S512x49x8 .f32) (r : Fin 512) (g : Fin 8) (m : Fin 8) :
    matmul dot_S512x8x49_S512x49x8_S512x8x8_2_1_1_2_0_0 (some .fp32) A B (constant (F := Ideal) S512x8x8 .f32 0x00000000#32) (ix3 r g m)
      = ∑ c : Fin 49, A (ix3 r g c) * B (ix3 r c m) := by
  refine (Ideal.matmul_constant_zero_apply dot_S512x8x49_S512x49x8_S512x8x8_2_1_1_2_0_0 (some .fp32) A B (ix3 r g m)).trans ?_
  rw [← Equiv.sum_comp (contrEquiv1 dot_S512x8x49_S512x49x8_S512x8x8_2_1_1_2_0_0 49 rfl rfl).symm]
  refine Finset.sum_congr rfl fun c _ => ?_
  congr 2
  · funext a
    match a with
    | ⟨0, _⟩ => exact Fin.ext (lhsB_0 _ _)
    | ⟨1, _⟩ => exact Fin.ext (lhsB_1 _ _)
    | ⟨2, _⟩ => exact Fin.ext ((lhsB_2 _ _).trans (contrEquiv1_symm_val dot_S512x8x49_S512x49x8_S512x8x8_2_1_1_2_0_0 49 rfl rfl c))
  · funext a
    match a with
    | ⟨0, _⟩ => exact Fin.ext (rhsB_0 _ _)
    | ⟨1, _⟩ => exact Fin.ext ((rhsB_1 _ _).trans (contrEquiv1_symm_val dot_S512x8x49_S512x49x8_S512x8x8_2_1_1_2_0_0 49 rfl rfl c))
    | ⟨2, _⟩ => exact Fin.ext (rhsB_2 _ _)

/-- The product with the table of class scores. -/
theorem matmulS_apply (A : FVec Ideal S512x8x49 .f32) (B : FVec Ideal S512x49x20 .f32) (r : Fin 512) (g : Fin 8) (m : Fin 20) :
    matmul dot_S512x8x49_S512x49x20_S512x8x20_2_1_1_2_0_0 (some .fp32) A B (constant (F := Ideal) S512x8x20 .f32 0x00000000#32) (ix3 r g m)
      = ∑ c : Fin 49, A (ix3 r g c) * B (ix3 r c m) := by
  refine (Ideal.matmul_constant_zero_apply dot_S512x8x49_S512x49x20_S512x8x20_2_1_1_2_0_0 (some .fp32) A B (ix3 r g m)).trans ?_
  rw [← Equiv.sum_comp (contrEquiv1 dot_S512x8x49_S512x49x20_S512x8x20_2_1_1_2_0_0 49 rfl rfl).symm]
  refine Finset.sum_congr rfl fun c _ => ?_
  congr 2
  · funext a
    match a with
    | ⟨0, _⟩ => exact Fin.ext (lhsS_0 _ _)
    | ⟨1, _⟩ => exact Fin.ext (lhsS_1 _ _)
    | ⟨2, _⟩ => exact Fin.ext ((lhsS_2 _ _).trans (contrEquiv1_symm_val dot_S512x8x49_S512x49x20_S512x8x20_2_1_1_2_0_0 49 rfl rfl c))
  · funext a
    match a with
    | ⟨0, _⟩ => exact Fin.ext (rhsS_0 _ _)
    | ⟨1, _⟩ => exact Fin.ext ((rhsS_1 _ _).trans (contrEquiv1_symm_val dot_S512x8x49_S512x49x20_S512x8x20_2_1_1_2_0_0 49 rfl rfl c))
    | ⟨2, _⟩ => exact Fin.ext (rhsS_2 _ _)

/-! ## The one-hot row

Entry (row, ground-truth box, cell) compares the box's cell word with the cell's number and widens the bit to a float. -/

theorem onehot_apply (v62 : FVec Ideal S512x8 .f32) (v89 : IVec S512x8 32) (cst : Ideal .f32) (r : Fin 512) (g : Fin 8) (c : Fin 49) :
    k0_pay20 v62 v89 cst (ix3 r g c) = oh (k0_pay19 v62 v89 cst (ix2 r g)) (BitVec.ofNat 32 c.val) := by
  unfold k0_pay20
  generalize k0_pay19 v62 v89 cst = w
  show ((((IntOp.cmpi .eq (broadcastTo S512x8x49 (shapeCast S512x8x1 w shapeCasts_S512x8_S512x8x1) broadcasts_S512x8x1_S512x8x49 (ix3 r g c))
      (iota .tc S512x8x49 32 [2] iota_S512x8x49_d2_w32 (ix3 r g c))).setWidth 32).toInt : ℝ) : EReal) = _
  rw [iota_single_apply,
    broadcastTo_apply (shapeCast S512x8x1 w shapeCasts_S512x8_S512x8x1) broadcasts_S512x8x1_S512x8x49 (ix3 r g c) (ix3 r g (0 : Fin 1))
      (fun a => match a with | ⟨0, _⟩ => rfl | ⟨1, _⟩ => rfl | ⟨2, _⟩ => rfl),
    shapeCast_apply w shapeCasts_S512x8_S512x8x1 (ix3 r g (0 : Fin 1)) (ix2 r g)
      (by rewrite [Shape.rowMajor_val_two, Shape.rowMajor_val_three]; show r.val * 8 + g.val = (r.val * 8 + g.val) * 1 + 0; omega)]
  rfl

variable (x0 : Vec Ideal S512x1470 .f32) (x1 : Vec Ideal S512x40 .f32)

/-- The one-hot row of a ground-truth box is the one-hot row of its cell's number among the 49. -/
theorem onehot_cell (r : Fin 512) (g : Fin 8) (c : Fin 49) :
    k0_pay20 (cyV x1) (cellxW x1) (c7 (F := Ideal)) (ix3 r g c)
      = oh (BitVec.ofNat 32 (cellN (lrow (n := 512) x1 r) g).val) (BitVec.ofNat 32 c.val) := by
  refine (onehot_apply (cyV x1) (cellxW x1) (c7 (F := Ideal)) r g c).trans ?_
  exact congrArg (fun z => oh z (BitVec.ofNat 32 c.val)) ((cellW_apply x1 r g).trans (cell_eq (lrow (n := 512) x1 r) g))

theorem logits_apply (r : Fin 512) (g : Fin 8) (d : Fin 20) :
    logits x0 x1 (ix3 r g d) = logit (prow (n := 512) x0 r) (cellN (lrow (n := 512) x1 r) g) d := by
  show k0_pay22 (scores x0) (cyV x1) (cellxW x1) (c7 (F := Ideal)) (ix3 r g d) = _
  unfold k0_pay22
  refine (matmulS_apply (k0_pay20 (cyV x1) (cellxW x1) (c7 (F := Ideal))) (scores x0) r g d).trans ?_
  refine Eq.trans (Finset.sum_congr rfl fun c _ => ?_)
    (sum_oh_mul (N := 49) (by norm_num) (cellN (lrow (n := 512) x1 r) g) (fun c => logit (prow (n := 512) x0 r) c d))
  exact congrArg₂ (fun a b : EReal => a * b) (onehot_cell x1 r g c) (scores_apply x0 r c d)

/-- The selected boxes, recast [row, ground-truth box, box, coordinate]. -/
theorem pb_apply (r : Fin 512) (g : Fin 8) (j : Fin 2) (f : Fin 4) :
    k0_pay21 (boxes x0) (cyV x1) (cellxW x1) (c7 (F := Ideal)) (ix4 r g j f)
      = pbAt (prow (n := 512) x0 r) (lrow (n := 512) x1 r) g j f := by
  show _ = xywh (prow (n := 512) x0 r) (cellN (lrow (n := 512) x1 r) g) j f
  unfold k0_pay21
  refine (shapeCast_apply
    (matmul dot_S512x8x49_S512x49x8_S512x8x8_2_1_1_2_0_0 (some .fp32) (k0_pay20 (cyV x1) (cellxW x1) (c7 (F := Ideal))) (boxes x0)
      (constant (F := Ideal) S512x8x8 .f32 0x00000000#32))
    shapeCasts_S512x8x8_S512x8x2x4 (ix4 r g j f)
    (ix3 r g (⟨4 * j.val + f.val, by have := j.isLt; have := f.isLt; omega⟩ : Fin 8)) ?_).trans ?_
  · rewrite [Shape.rowMajor_val_three, Shape.rowMajor_val_four]
    show (r.val * 8 + g.val) * 8 + (4 * j.val + f.val) = ((r.val * 8 + g.val) * 2 + j.val) * 4 + f.val
    omega
  · refine (matmulB_apply (k0_pay20 (cyV x1) (cellxW x1) (c7 (F := Ideal))) (boxes x0) r g _).trans ?_
    refine Eq.trans (Finset.sum_congr rfl fun c _ => ?_)
      (sum_oh_mul (N := 49) (by norm_num) (cellN (lrow (n := 512) x1 r) g) (fun c => xywh (prow (n := 512) x0 r) c j f))
    exact congrArg₂ (fun a b : EReal => a * b) (onehot_cell x1 r g c) (boxes_apply x0 r c j f)

end Cert.KernelIdeal.Tile

end
-- ==== Proof.KIou.lean ====
/-
  Intersection over union of the cell's two predicted boxes with the ground-truth box, the responsible box, and the
  grid point's sum of `1 - iou` over its 512 rows and their 8 ground-truth boxes.
-/
import proofs.«112027_j37778532335632_1_alg».proof.Proof.KGather
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.Spec Cert.KernelIdeal Cert.KernelIdeal.Gen

namespace KIou

/-! ## Coordinates of an array of boxes -/

/-- Coordinate `c` of a [512, 8, 2, 4] array, sliced out and recast [512, 8, 2], read at an index. -/
theorem coord4_apply {α : Type} (v : S512x8x2x4.Idx → α) (c : Fin 4)
    (h : S512x8x2x4.Slices ![0, 0, 0, c.val] S512x8x2x1) (r : Fin 512) (g : Fin 8) (j : Fin 2) :
    shapeCast S512x8x2 (extractStridedSlice S512x8x2x1 ![0, 0, 0, c.val] v h) shapeCasts_S512x8x2x1_S512x8x2 (ix3 r g j)
      = v (ix4 r g j c) := by
  refine (shapeCast_apply _ shapeCasts_S512x8x2x1_S512x8x2 (ix3 r g j) (ix4 r g j (⟨0, Nat.one_pos⟩ : Fin 1)) ?_).trans ?_
  · rewrite [Shape.rowMajor_val_four, Shape.rowMajor_val_three]
    show ((r.val * 8 + g.val) * 2 + j.val) * 1 + 0 = (r.val * 8 + g.val) * 2 + j.val
    omega
  · exact extractStridedSlice_apply ![0, 0, 0, c.val] v h _ _ (fun a => match a with
      | ⟨0, _⟩ => by show r.val = 0 + r.val; omega
      | ⟨1, _⟩ => by show g.val = 0 + g.val; omega
      | ⟨2, _⟩ => by show j.val = 0 + j.val; omega
      | ⟨3, _⟩ => by show c.val = c.val + 0; omega)

/-- Entry `c` of the last axis of a [512, 8, 2] array, sliced out and recast [512, 8], read at an index. -/
theorem coord3_apply {α : Type} (v : S512x8x2.Idx → α) (c : Fin 2)
    (h : S512x8x2.Slices ![0, 0, c.val] S512x8x1) (r : Fin 512) (g : Fin 8) :
    shapeCast S512x8 (extractStridedSlice S512x8x1 ![0, 0, c.val] v h) shapeCasts_S512x8x1_S512x8 (ix2 r g)
      = v (ix3 r g c) := by
  refine (shapeCast_apply _ shapeCasts_S512x8x1_S512x8 (ix2 r g) (ix3 r g (⟨0, Nat.one_pos⟩ : Fin 1)) ?_).trans ?_
  · rewrite [Shape.rowMajor_val_three, Shape.rowMajor_val_two]
    show (r.val * 8 + g.val) * 1 + 0 = r.val * 8 + g.val
    omega
  · exact extractStridedSlice_apply ![0, 0, c.val] v h _ _ (fun a => match a with
      | ⟨0, _⟩ => by show r.val = 0 + r.val; omega
      | ⟨1, _⟩ => by show g.val = 0 + g.val; omega
      | ⟨2, _⟩ => by show c.val = c.val + 0; omega)

/-! ## The edges of a box -/

/-- Left, top, right and bottom edge of a box (x, y, w, h) centred at (x, y). -/
def eL (b : Fin 4 → EReal) : EReal := b 0 - Ideal.div (b 2) two
def eT (b : Fin 4 → EReal) : EReal := b 1 - Ideal.div (b 3) two
def eR (b : Fin 4 → EReal) : EReal := b 0 + Ideal.div (b 2) two
def eB (b : Fin 4 → EReal) : EReal := b 1 + Ideal.div (b 3) two

/-- The intersection of two boxes, and a box's area, over the edges. -/
def interOf (b g : Fin 4 → EReal) : EReal :=
  max zero (min (eR b) (eR g) - max (eL b) (eL g)) * max zero (min (eB b) (eB g) - max (eT b) (eT g))
def areaOf (b : Fin 4 → EReal) : EReal := max zero (eR b - eL b) * max zero (eB b - eT b)

/-- The intersection over union, written over the edges. -/
theorem iou_eq (b g : Fin 4 → EReal) :
    iou b g = Ideal.div (interOf b g) (max eps ((areaOf b + areaOf g) - interOf b g)) := rfl

/-- The box at (r, g, j) of an array of boxes. -/
def boxAt (v : FVec Ideal S512x8x2x4 .f32) (r : Fin 512) (g : Fin 8) (j : Fin 2) : Fin 4 → EReal := fun f => v (ix4 r g j f)

section Corners
variable (v : FVec Ideal S512x8x2x4 .f32) (r : Fin 512) (g : Fin 8) (j : Fin 2)

/-- Coordinate `a` minus half of coordinate `b`, as the body computes it. -/
theorem subCorner_apply (a b : Fin 4) (h1 : S512x8x2x4.Slices ![0, 0, 0, a.val] S512x8x2x1)
    (h2 : S512x8x2x4.Slices ![0, 0, 0, b.val] S512x8x2x1) (cst : Ideal .f32) :
    subf (shapeCast S512x8x2 (extractStridedSlice S512x8x2x1 ![0, 0, 0, a.val] v h1) shapeCasts_S512x8x2x1_S512x8x2)
      (divf (shapeCast S512x8x2 (extractStridedSlice S512x8x2x1 ![0, 0, 0, b.val] v h2) shapeCasts_S512x8x2x1_S512x8x2)
        (broadcast S512x8x2 cst)) (ix3 r g j)
      = v (ix4 r g j a) - Ideal.div (v (ix4 r g j b)) cst := by
  rw [subf_apply, divf_apply, broadcast_apply, coord4_apply v a h1, coord4_apply v b h2]

/-- Coordinate `a` plus half of coordinate `b`. -/
theorem addCorner_apply (a b : Fin 4) (h1 : S512x8x2x4.Slices ![0, 0, 0, a.val] S512x8x2x1)
    (h2 : S512x8x2x4.Slices ![0, 0, 0, b.val] S512x8x2x1) (cst : Ideal .f32) :
    addf (shapeCast S512x8x2 (extractStridedSlice S512x8x2x1 ![0, 0, 0, a.val] v h1) shapeCasts_S512x8x2x1_S512x8x2)
      (divf (shapeCast S512x8x2 (extractStridedSlice S512x8x2x1 ![0, 0, 0, b.val] v h2) shapeCasts_S512x8x2x1_S512x8x2)
        (broadcast S512x8x2 cst)) (ix3 r g j)
      = v (ix4 r g j a) + Ideal.div (v (ix4 r g j b)) cst := by
  rw [addf_apply, divf_apply, broadcast_apply, coord4_apply v a h1, coord4_apply v b h2]

theorem pay28_apply : k0_pay28 v (ix3 r g j) = eL (boxAt v r g j) := by
  unfold k0_pay28
  exact subCorner_apply v r g j 0 2 _ _ _
theorem pay29_apply : k0_pay29 v (ix3 r g j) = eT (boxAt v r g j) := by
  unfold k0_pay29
  exact subCorner_apply v r g j 1 3 _ _ _
theorem pay30_apply : k0_pay30 v (ix3 r g j) = eR (boxAt v r g j) := by
  unfold k0_pay30
  exact addCorner_apply v r g j 0 2 _ _ _
theorem pay31_apply : k0_pay31 v (ix3 r g j) = eB (boxAt v r g j) := by
  unfold k0_pay31
  exact addCorner_apply v r g j 1 3 _ _ _

end Corners

/-! ## The body's pointwise terms, read at an index -/

section Pointwise
variable (v112 : FVec Ideal S512x8x2x4 .f32) (v119 v126 v133 v140 : FVec Ideal S512x8x2 .f32) (i : S512x8x2.Idx)

theorem pay32_apply : k0_pay32 v112 v119 v126 v133 v140 i
    = max zero (min (v133 i) (k0_pay30 v112 i) - max (v119 i) (k0_pay28 v112 i))
      * max zero (min (v140 i) (k0_pay31 v112 i) - max (v126 i) (k0_pay29 v112 i)) := rfl

theorem pay33_apply : k0_pay33 v119 v126 v133 v140 i = max zero (v133 i - v119 i) * max zero (v140 i - v126 i) := rfl

theorem pay34_apply : k0_pay34 v112 i = max zero (k0_pay30 v112 i - k0_pay28 v112 i) := rfl

theorem pay35_apply : k0_pay35 v112 i = k0_pay31 v112 i - k0_pay29 v112 i := rfl

theorem pay36_apply (v179 v186 v189 v190 : FVec Ideal S512x8x2 .f32) (cst : Ideal .f32) :
    k0_pay36 v179 v186 v189 v190 cst i
      = Ideal.div (v179 i) (max eps ((v186 i + v189 i * max cst (v190 i)) - v179 i)) := rfl

end Pointwise

section Corners2
variable (v40 : FVec Ideal S512x49x8 .f32) (v62 : FVec Ideal S512x8 .f32) (v89 : IVec S512x8 32) (cst : Ideal .f32)
  (r : Fin 512) (g : Fin 8) (j : Fin 2)

theorem pay24_apply : k0_pay24 v40 v62 v89 cst (ix3 r g j) = eL (boxAt (k0_pay21 v40 v62 v89 cst) r g j) := by
  unfold k0_pay24
  exact subCorner_apply _ r g j 0 2 _ _ _
theorem pay25_apply : k0_pay25 v40 v62 v89 cst (ix3 r g j) = eT (boxAt (k0_pay21 v40 v62 v89 cst) r g j) := by
  unfold k0_pay25
  exact subCorner_apply _ r g j 1 3 _ _ _
theorem pay26_apply : k0_pay26 v40 v62 v89 cst (ix3 r g j) = eR (boxAt (k0_pay21 v40 v62 v89 cst) r g j) := by
  unfold k0_pay26
  exact addCorner_apply _ r g j 0 2 _ _ _
theorem pay27_apply : k0_pay27 v40 v62 v89 cst (ix3 r g j) = eB (boxAt (k0_pay21 v40 v62 v89 cst) r g j) := by
  unfold k0_pay27
  exact addCorner_apply _ r g j 1 3 _ _ _

end Corners2

/-! ## The overlap of the two selected boxes with the ground-truth box -/

section AtRow
variable (x0 : Vec Ideal S512x1470 .f32) (x1 : Vec Ideal S512x40 .f32) (r : Fin 512) (g : Fin 8) (j : Fin 2)

/-- The selected box `j` and the ground-truth box at (r, g). -/
theorem pbox_eq : boxAt (k0_pay21 (boxes x0) (cyV x1) (cellxW x1) (c7 (F := Ideal))) r g j
    = pbAt (prow (n := 512) x0 r) (lrow (n := 512) x1 r) g j := funext fun f => pb_apply x0 x1 r g j f

theorem gbox_eq : boxAt (gtB x1) r g j = gt (lrow (n := 512) x1 r) g := funext fun f => gtB_apply x1 r g j f

theorem pLeft_apply : pLeft x0 x1 (ix3 r g j) = eL (pbAt (prow (n := 512) x0 r) (lrow (n := 512) x1 r) g j) :=
  (pay24_apply (boxes x0) (cyV x1) (cellxW x1) (c7 (F := Ideal)) r g j).trans (congrArg eL (pbox_eq x0 x1 r g j))
theorem pTop_apply : pTop x0 x1 (ix3 r g j) = eT (pbAt (prow (n := 512) x0 r) (lrow (n := 512) x1 r) g j) :=
  (pay25_apply (boxes x0) (cyV x1) (cellxW x1) (c7 (F := Ideal)) r g j).trans (congrArg eT (pbox_eq x0 x1 r g j))
theorem pRight_apply : pRight x0 x1 (ix3 r g j) = eR (pbAt (prow (n := 512) x0 r) (lrow (n := 512) x1 r) g j) :=
  (pay26_apply (boxes x0) (cyV x1) (cellxW x1) (c7 (F := Ideal)) r g j).trans (congrArg eR (pbox_eq x0 x1 r g j))
theorem pBottom_apply : pBottom x0 x1 (ix3 r g j) = eB (pbAt (prow (n := 512) x0 r) (lrow (n := 512) x1 r) g j) :=
  (pay27_apply (boxes x0) (cyV x1) (cellxW x1) (c7 (F := Ideal)) r g j).trans (congrArg eB (pbox_eq x0 x1 r g j))

theorem gLeft_apply : k0_pay28 (gtB x1) (ix3 r g j) = eL (gt (lrow (n := 512) x1 r) g) :=
  (pay28_apply (gtB x1) r g j).trans (congrArg eL (gbox_eq x1 r g j))
theorem gTop_apply : k0_pay29 (gtB x1) (ix3 r g j) = eT (gt (lrow (n := 512) x1 r) g) :=
  (pay29_apply (gtB x1) r g j).trans (congrArg eT (gbox_eq x1 r g j))
theorem gRight_apply : k0_pay30 (gtB x1) (ix3 r g j) = eR (gt (lrow (n := 512) x1 r) g) :=
  (pay30_apply (gtB x1) r g j).trans (congrArg eR (gbox_eq x1 r g j))
theorem gBottom_apply : k0_pay31 (gtB x1) (ix3 r g j) = eB (gt (lrow (n := 512) x1 r) g) :=
  (pay31_apply (gtB x1) r g j).trans (congrArg eB (gbox_eq x1 r g j))

theorem interV_apply : interV x0 x1 (ix3 r g j)
    = interOf (pbAt (prow (n := 512) x0 r) (lrow (n := 512) x1 r) g j) (gt (lrow (n := 512) x1 r) g) := by
  refine (pay32_apply (gtB x1) (pLeft x0 x1) (pTop x0 x1) (pRight x0 x1) (pBottom x0 x1) (ix3 r g j)).trans ?_
  rw [pLeft_apply x0 x1 r g j, pTop_apply x0 x1 r g j, pRight_apply x0 x1 r g j, pBottom_apply x0 x1 r g j,
    gLeft_apply x1 r g j, gTop_apply x1 r g j, gRight_apply x1 r g j, gBottom_apply x1 r g j]
  rfl

theorem areaP_apply : areaP x0 x1 (ix3 r g j) = areaOf (pbAt (prow (n := 512) x0 r) (lrow (n := 512) x1 r) g j) := by
  refine (pay33_apply (pLeft x0 x1) (pTop x0 x1) (pRight x0 x1) (pBottom x0 x1) (ix3 r g j)).trans ?_
  rw [pLeft_apply x0 x1 r g j, pTop_apply x0 x1 r g j, pRight_apply x0 x1 r g j, pBottom_apply x0 x1 r g j]
  rfl

theorem gtWclip_apply : gtWclip x1 (ix3 r g j)
    = max zero (eR (gt (lrow (n := 512) x1 r) g) - eL (gt (lrow (n := 512) x1 r) g)) := by
  refine (pay34_apply (gtB x1) (ix3 r g j)).trans ?_
  rw [gLeft_apply x1 r g j, gRight_apply x1 r g j]

theorem gtHraw_apply : gtHraw x1 (ix3 r g j) = eB (gt (lrow (n := 512) x1 r) g) - eT (gt (lrow (n := 512) x1 r) g) := by
  refine (pay35_apply (gtB x1) (ix3 r g j)).trans ?_
  rw [gTop_apply x1 r g j, gBottom_apply x1 r g j]

/-- The body's quotient at (r, g, j) is the intersection over union of selected box `j` with the ground-truth box. -/
theorem iouK_apply : k0_pay36 (interV x0 x1) (areaP x0 x1) (gtWclip x1) (gtHraw x1) (c0 (F := Ideal)) (ix3 r g j)
    = iouAt (prow (n := 512) x0 r) (lrow (n := 512) x1 r) g j := by
  refine (pay36_apply (ix3 r g j) (interV x0 x1) (areaP x0 x1) (gtWclip x1) (gtHraw x1) (c0 (F := Ideal))).trans ?_
  rw [interV_apply x0 x1 r g j, areaP_apply x0 x1 r g j, gtWclip_apply x1 r g j, gtHraw_apply x1 r g j]
  rfl

end AtRow

/-! ## The responsible box and the sum of `1 - iou` -/

/-- The total of a [512, 8] array as the body takes it — recast [1, 512, 8], reduced over both axes into one entry,
    read out — is the double sum over rows and ground-truth boxes. -/
theorem total_eq (w : FVec Ideal S512x8 .f32) :
    extractAt ![0, 0, 0]
        (shapeCast S1x1x1
          (multiReduction .add [1, 2] S1 (shapeCast S1x512x8 w shapeCasts_S512x8_S1x512x8) 0x00000000#32
            reduces_S1x512x8_S1 (.inl rfl) rfl)
          shapeCasts_S1_S1x1x1)
        inpos_S1x1x1_p0_0_0
      = ∑ r : Fin 512, ∑ g : Fin 8, w (ix2 r g) := by
  unfold extractAt
  -- the [1, 1, 1] cast read at its one index is the one entry of the reduction's [1] result
  refine (shapeCast_apply _ shapeCasts_S1_S1x1x1 _ (ix1 (⟨0, Nat.one_pos⟩ : Fin 1)) ?_).trans ?_
  · rewrite [Shape.rowMajor_val_one, Shape.rowMajor_val_three]
    rfl
  -- which is the total over the [1, 512, 8] operand
  refine (Ideal.multiReduction_add_total _ _ reduces_S1x512x8_S1 (fun b => match b with | ⟨0, _⟩ => rfl) _ _ _).trans ?_
  -- the operand is the [512, 8] array re-indexed by a bijection, so the total is the array's own
  refine (Equiv.sum_comp (Shape.reshapeEquiv shapeCasts_S512x8_S1x512x8) w).trans ?_
  exact sum_idx2 w

section Best
variable (v179 v186 v189 v190 : FVec Ideal S512x8x2 .f32) (cst : Ideal .f32)

/-- The body's comparison of the two overlaps at (r, g). -/
theorem pay37_apply (r : Fin 512) (g : Fin 8) :
    k0_pay37 v179 v186 v189 v190 cst (ix2 r g)
      = best (k0_pay36 v179 v186 v189 v190 cst (ix3 r g 0)) (k0_pay36 v179 v186 v189 v190 cst (ix3 r g 1)) := by
  unfold k0_pay37
  exact congrArg₂ (fun a b : EReal => Scalar.select (Ideal.cmp .oge a b) 0#32 1#32)
    (coord3_apply _ 0 _ r g) (coord3_apply _ 1 _ r g)

theorem sel_congr {a a' : BitVec 32} {b b' c c' : EReal} (ha : a = a') (hb : b = b') (hc : c = c') :
    one - Scalar.select (IntOp.cmpi .eq a 0#32) b c = one - Scalar.select (IntOp.cmpi .eq a' 0#32) b' c' := by
  subst ha hb hc; rfl

/-- The body's total: over the 512 rows and 8 ground-truth boxes, 1 minus the better overlap. -/
theorem pay38_eq :
    k0_pay38 v179 v186 v189 v190 cst
      = ∑ r : Fin 512, ∑ g : Fin 8,
          (one - iouBest (k0_pay36 v179 v186 v189 v190 cst (ix3 r g 0)) (k0_pay36 v179 v186 v189 v190 cst (ix3 r g 1))) := by
  unfold k0_pay38
  refine (total_eq _).trans ?_
  refine Finset.sum_congr rfl fun r _ => Finset.sum_congr rfl fun g _ => ?_
  exact sel_congr (pay37_apply v179 v186 v189 v190 cst r g) (coord3_apply _ 0 _ r g) (coord3_apply _ 1 _ r g)

end Best

end KIou

open KIou

variable (x0 : Vec Ideal S512x1470 .f32) (x1 : Vec Ideal S512x40 .f32)

theorem bestW_apply (r : Fin 512) (g : Fin 8) :
    bestW x0 x1 (ix2 r g) = bestAt (prow (n := 512) x0 r) (lrow (n := 512) x1 r) g := by
  refine (pay37_apply (interV x0 x1) (areaP x0 x1) (gtWclip x1) (gtHraw x1) (c0 (F := Ideal)) r g).trans ?_
  rw [iouK_apply x0 x1 r g 0, iouK_apply x0 x1 r g 1]
  rfl

theorem boxSum_eq :
    boxSum x0 x1 = ∑ r : Fin 512, boxRow (prow (n := 512) x0 r) (lrow (n := 512) x1 r) := by
  refine (pay38_eq (interV x0 x1) (areaP x0 x1) (gtWclip x1) (gtHraw x1) (c0 (F := Ideal))).trans ?_
  unfold boxRow
  refine Finset.sum_congr rfl fun r _ => Finset.sum_congr rfl fun g _ => ?_
  rw [iouK_apply x0 x1 r g 0, iouK_apply x0 x1 r g 1]
  rfl

end Cert.KernelIdeal.Tile

end
-- ==== Proof.KCls.lean ====
/-
  The grid point's sum of focal losses: log-softmax of the selected class scores, read at the box's class by a sum
  against a one-hot row (which selects the class's term when the class is one of the twenty).
-/
import proofs.«112027_j37778532335632_1_alg».proof.Proof.KGather
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.Spec Cert.KernelIdeal Cert.KernelIdeal.Gen

/-! ## Reading along the class axis

The class scores are indexed (row, box, class). A reduction over the class axis at (row, box) ranges over the indices
(row, box, k); a per-box value repeated along the class axis reads, at (row, box, class), the box's value. -/

/-- The index a reduction over the class axis inserts at (row, box): (row, box, k). -/
theorem cls_lift (h : S512x8x20.Reduces [2] S512x8) (r : Fin 512) (g : Fin 8) (k : Fin 20) :
    h.lift (ix2 r g) k = ix3 r g k := by
  funext a; refine Fin.ext ?_
  match a with
  | ⟨0, _⟩ => rfl
  | ⟨1, _⟩ => rfl
  | ⟨2, _⟩ => rfl

/-- A per-box value, given a trailing unit axis and repeated along the class axis, reads the box's value. -/
theorem cls_col_apply {α : Type} (v : S512x8.Idx → α) (hc : S512x8.ShapeCasts S512x8x1)
    (hb : S512x8x1.Broadcasts S512x8x20) (r : Fin 512) (g : Fin 8) (d : Fin 20) :
    broadcastTo S512x8x20 (shapeCast S512x8x1 v hc) hb (ix3 r g d) = v (ix2 r g) := by
  refine (broadcastTo_apply _ hb (ix3 r g d) (ix3 r g (0 : Fin 1)) (fun a => ?_)).trans ?_
  · match a with
    | ⟨0, _⟩ => rfl
    | ⟨1, _⟩ => rfl
    | ⟨2, _⟩ => rfl
  · refine shapeCast_apply v hc (ix3 r g (0 : Fin 1)) (ix2 r g) ?_
    rewrite [Shape.rowMajor_val_two, Shape.rowMajor_val_three]
    show r.val * 8 + g.val = (r.val * 8 + g.val) * 1 + 0
    omega

/-- The same for the logarithm of a per-box value (the logarithm is taken entry by entry, so it commutes with the
    change of layout). -/
theorem cls_col_log_apply (v : FVec Ideal S512x8 .f32) (hc : S512x8.ShapeCasts S512x8x1)
    (hb : S512x8x1.Broadcasts S512x8x20) (r : Fin 512) (g : Fin 8) (d : Fin 20) :
    broadcastTo S512x8x20 (log (F := Ideal) (φ := .f32) (shapeCast S512x8x1 v hc)) hb (ix3 r g d) = Ideal.log (v (ix2 r g)) :=
  cls_col_apply (fun j => Ideal.log (v j)) hc hb r g d

/-- The maximum over the class axis is the fold of `max`, from `-∞`, over the twenty classes. -/
theorem cls_rowmax_apply (v : FVec Ideal S512x8x20 .f32) (h : S512x8x20.Reduces [2] S512x8) (hφ : FKind.Formats .f32)
    (hacc : (0xFF800000#32 : BitVec 32) = FKind.maximumf.neutral .f32 hφ) (r : Fin 512) (g : Fin 8) :
    multiReduction .maximumf [2] S512x8 v 0xFF800000#32 h hφ hacc (ix2 r g)
      = (Finset.univ : Finset (Fin 20)).fold max (Ideal.ofBits .f32 0xFF800000#32) (fun d => v (ix3 r g d)) := by
  refine (Ideal.multiReduction_maximumf_single v _ h hφ hacc (ix2 r g)).trans ?_
  exact congrArg (fun f : Fin 20 → EReal => (Finset.univ : Finset (Fin 20)).fold max (Ideal.ofBits .f32 0xFF800000#32) f)
    (funext fun k => congrArg v (cls_lift h r g k))

/-- The sum over the class axis is the sum over the twenty classes. -/
theorem cls_rowsum_apply (v : FVec Ideal S512x8x20 .f32) (h : S512x8x20.Reduces [2] S512x8) (hφ : FKind.Formats .f32)
    (hacc : (0x00000000#32 : BitVec 32) = FKind.add.neutral .f32 hφ) (r : Fin 512) (g : Fin 8) :
    multiReduction .add [2] S512x8 v 0x00000000#32 h hφ hacc (ix2 r g) = ∑ d : Fin 20, v (ix3 r g d) := by
  refine (Ideal.multiReduction_add_single v _ h hφ hacc (ix2 r g)).trans ?_
  exact Finset.sum_congr rfl (fun k _ => congrArg v (cls_lift h r g k))

/-! ## The log-probability at the box's class -/

/-- A class score less the largest of its box's scores (the largest never below `-∞`). -/
theorem cls_shift_apply (v : FVec Ideal S512x8x20 .f32) (h : S512x8x20.Reduces [2] S512x8) (hφ : FKind.Formats .f32)
    (hacc : (0xFF800000#32 : BitVec 32) = FKind.maximumf.neutral .f32 hφ) (hc : S512x8.ShapeCasts S512x8x1)
    (hb : S512x8x1.Broadcasts S512x8x20) (r : Fin 512) (g : Fin 8) (d : Fin 20) :
    subf v (broadcastTo S512x8x20 (shapeCast S512x8x1
        (maximumf (broadcast S512x8 (Scalar.ofBits (F := Ideal) .f32 0xFF800000#32))
          (multiReduction .maximumf [2] S512x8 v 0xFF800000#32 h hφ hacc)) hc) hb) (ix3 r g d)
      = v (ix3 r g d) - lmax (fun k => v (ix3 r g k)) := by
  refine (subf_apply _ _ _).trans (congrArg (fun z => v (ix3 r g d) - z) ?_)
  refine (cls_col_apply _ hc hb r g d).trans ?_
  refine (maximumf_apply _ _ _).trans ?_
  exact congrArg (max (Ideal.ofBits .f32 0xFF800000#32)) (cls_rowmax_apply v h hφ hacc r g)

/-- The float of the comparison of a box's class word with the class index along the class axis: the one-hot row of
    the word, at the class. -/
theorem cls_onehot_apply (w : IVec S512x8 32) (hc : S512x8.ShapeCasts S512x8x1) (hb : S512x8x1.Broadcasts S512x8x20)
    (hi : S512x8x20.Iotas .tc 32 [2]) (hlt : 1 < 32) (r : Fin 512) (g : Fin 8) (d : Fin 20) :
    sitofp (F := Ideal) .f32
        (extui 32 (cmpi .eq (broadcastTo S512x8x20 (shapeCast S512x8x1 w hc) hb) (iota .tc S512x8x20 32 [2] hi)) hlt)
        (ix3 r g d)
      = oh (w (ix2 r g)) (BitVec.ofNat 32 d.val) :=
  congrArg₂ oh (cls_col_apply w hc hb r g d) (iota_single_apply .tc S512x8x20 32 2 hi (ix3 r g d))

/-- The body's value at (row, box): the sum, over the twenty classes, of the log-softmax of the box's scores against
    the one-hot row of the box's class word. -/
theorem cls_pay39_apply (w : IVec S512x8 32) (v : FVec Ideal S512x8x20 .f32) (r : Fin 512) (g : Fin 8) :
    k0_pay39 w v (ix2 r g)
      = ∑ d : Fin 20, logp (fun k => v (ix3 r g k)) d * oh (w (ix2 r g)) (BitVec.ofNat 32 d.val) := by
  unfold k0_pay39
  refine (cls_rowsum_apply _ _ _ _ r g).trans (Finset.sum_congr rfl (fun d _ => ?_))
  refine (mulf_apply _ _ _).trans (congrArg₂ (fun a b : EReal => a * b) ?_ ?_)
  · -- the log-softmax at class d: the shifted score less the logarithm of the sum of exponentials of shifted scores
    show _ = (v (ix3 r g d) - lmax (fun k => v (ix3 r g k)))
              - Ideal.log (∑ k : Fin 20, Ideal.exp (v (ix3 r g k) - lmax (fun k => v (ix3 r g k))))
    refine (subf_apply _ _ _).trans (congrArg₂ (fun a b : EReal => a - b) ?_ ?_)
    · exact cls_shift_apply v _ _ _ _ _ r g d
    · refine (cls_col_log_apply _ _ _ r g d).trans (congrArg Ideal.log ?_)
      refine (cls_rowsum_apply _ _ _ _ r g).trans (Finset.sum_congr rfl (fun k _ => ?_))
      exact congrArg Ideal.exp (cls_shift_apply v _ _ _ _ _ r g k)
  · -- the one-hot factor
    exact cls_onehot_apply w _ _ _ _ r g d

/-- When the box's class word is the word of one of the twenty classes, the sum against its one-hot row selects that
    class's log-probability. -/
theorem cls_pay39_sel (w : IVec S512x8 32) (v : FVec Ideal S512x8x20 .f32) (r : Fin 512) (g : Fin 8)
    (x : Fin 20 → EReal) (n : Fin 20) (hx : ∀ k : Fin 20, v (ix3 r g k) = x k)
    (hw : w (ix2 r g) = BitVec.ofNat 32 n.val) :
    k0_pay39 w v (ix2 r g) = logp x n := by
  obtain rfl : (fun k : Fin 20 => v (ix3 r g k)) = x := funext hx
  refine (cls_pay39_apply w v r g).trans ?_
  rw [hw]
  exact sum_mul_oh (by decide) n _

/-! ## The sum over the rows and boxes -/

/-- An index of the [1, 512, 8] view is a (row, box) pair. -/
def clsUnitEquiv : S1x512x8.Idx ≃ Fin 512 × Fin 8 where
  toFun i := (i 1, i 2)
  invFun p := ix3 (0 : Fin 1) p.1 p.2
  left_inv i := by
    funext a; refine Fin.ext ?_
    match a with
    | ⟨0, _⟩ =>
      have h0 : (i 0).val < 1 := (i 0).isLt
      show 0 = (i 0).val
      omega
    | ⟨1, _⟩ => rfl
    | ⟨2, _⟩ => rfl
  right_inv _ := rfl

/-- A sum over the [1, 512, 8] view of a function of the trailing (row, box) is the double sum over rows and boxes. -/
theorem cls_sum_unit (f : S512x8.Idx → EReal) :
    ∑ i : S1x512x8.Idx, f (fun a => i a.succ) = ∑ r : Fin 512, ∑ g : Fin 8, f (ix2 r g) := by
  refine (Equiv.sum_comp clsUnitEquiv.symm (fun i : S1x512x8.Idx => f (fun a => i a.succ))).symm.trans ?_
  refine (Fintype.sum_prod_type _).trans ?_
  refine Finset.sum_congr rfl (fun r _ => Finset.sum_congr rfl (fun g _ => congrArg f ?_))
  funext a
  match a with
  | ⟨0, _⟩ => rfl
  | ⟨1, _⟩ => rfl

/-- The total of a per-box value over its [1, 512, 8] view is the double sum over rows and boxes. -/
theorem cls_total_apply (x : S512x8.Idx → EReal) (hc : S512x8.ShapeCasts S1x512x8) :
    ∑ i : S1x512x8.Idx, shapeCast S1x512x8 x hc i = ∑ r : Fin 512, ∑ g : Fin 8, x (ix2 r g) := by
  refine (Finset.sum_congr rfl (fun (i : S1x512x8.Idx) _ => shapeCast_addUnit_apply ![512, 8] x hc i)).trans ?_
  exact cls_sum_unit x

/-- The body's sum: over rows and boxes, the focal loss of the negated value at (row, box). -/
theorem cls_pay40_apply (u : FVec Ideal S512x8 .f32) :
    k0_pay40 u (c0 (F := Ideal)) = ∑ r : Fin 512, ∑ g : Fin 8, focal (-(u (ix2 r g))) := by
  unfold k0_pay40
  -- the one entry of the [1, 1, 1] view is the one entry of the [1] result of the reduction
  refine (shapeCast_apply _ _ _ (ix1 (0 : Fin 1)) ?_).trans ?_
  · rewrite [Shape.rowMajor_val_one, Shape.rowMajor_val_three]
    rfl
  -- which is the total over the [1, 512, 8] view
  have ht : ∀ b : Fin S1.rank, S1.size b = 1 := fun b => match b with | ⟨0, _⟩ => rfl
  refine (Ideal.multiReduction_add_total (t := S1) _ _ _ ht _ _ (ix1 (0 : Fin 1))).trans ?_
  refine (cls_total_apply _ _).trans (Finset.sum_congr rfl (fun r _ => Finset.sum_congr rfl (fun g _ => ?_)))
  -- at (row, box) every operation is entry by entry; with ce = 0 - value: (1 - exp (0 - ce))² · ce
  show ((one - Ideal.exp (zero - (zero - u (ix2 r g)))) * (one - Ideal.exp (zero - (zero - u (ix2 r g)))))
        * (zero - u (ix2 r g)) = focal (-(u (ix2 r g)))
  rw [zero_sub_eq (u (ix2 r g)), zero_sub_eq (-(u (ix2 r g)))]
  rfl

variable (x0 : Vec Ideal S512x1470 .f32) (x1 : Vec Ideal S512x40 .f32)

/-- The log-probability the body reads at (row, box): that of the box's class among the scores of the box's cell. -/
theorem logpAtCls_apply (hok : ∀ r : Fin 512, ClsOk (lrow (n := 512) x1 r)) (r : Fin 512) (g : Fin 8) :
    logpAtCls x0 x1 (ix2 r g)
      = logp (fun d => logit (prow (n := 512) x0 r) (cellN (lrow (n := 512) x1 r) g) d) (clsN (lrow (n := 512) x1 r) g) :=
  cls_pay39_sel (clsW x1) (logits x0 x1) r g _ _ (fun k => logits_apply x0 x1 r g k)
    ((clsW_apply x1 r g).trans (cls_eq (hok r) g))

theorem clsSum_eq (hok : ∀ r : Fin 512, ClsOk (lrow (n := 512) x1 r)) :
    clsSum x0 x1 = ∑ r : Fin 512, clsRow (prow (n := 512) x0 r) (lrow (n := 512) x1 r) := by
  refine (cls_pay40_apply (logpAtCls x0 x1)).trans (Finset.sum_congr rfl (fun r _ => ?_))
  show _ = ∑ g : Fin 8, clsTerm (prow (n := 512) x0 r) (lrow (n := 512) x1 r) g
  refine Finset.sum_congr rfl (fun g _ => ?_)
  exact congrArg (fun z : EReal => focal (-z)) (logpAtCls_apply x0 x1 hok r g)

end Cert.KernelIdeal.Tile

end
-- ==== Proof.KConf.lean ====
/-
  The confidence loss of one row of the grid point: the responsible slots are those whose count of naming ground-truth
  boxes is positive.
-/
import proofs.«112027_j37778532335632_1_alg».proof.Proof.KIou
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.Spec Cert.KernelIdeal Cert.KernelIdeal.Gen

/-! ## The body's last part, read at an index

The slot word of ground-truth box `g` of row `r` is compared with the numbers 0 … 97 along a third axis; the one-hot rows
are summed over the 8 boxes into a count per (row, slot); the indicator is 1 where the count is positive. The
confidences are recast [row, cell, box] → [row, slot], and the row sums over the 98 slots give the count of responsible
slots, the sum of (confidence - 1)² over them, and the sum of confidence² over the others. -/

/-- Inserting ground-truth box `g` as the middle coordinate of the slot index (r, p). -/
theorem conf_lift_slot (r : Fin 512) (p : Fin 98) (g : Fin 8) :
    reduces_S512x8x98_S512x98.lift (ix2 r p) g = ix3 r g p := by
  funext a
  match a with
  | ⟨0, _⟩ => rfl
  | ⟨1, _⟩ => rfl
  | ⟨2, _⟩ => rfl

/-- Inserting slot `p` as the second coordinate of the row index r. -/
theorem conf_lift_row (r : Fin 512) (p : Fin 98) :
    reduces_S512x98_S512.lift (ix1 r) p = ix2 r p := by
  funext a
  match a with
  | ⟨0, _⟩ => rfl
  | ⟨1, _⟩ => rfl

/-- A word per (row, ground-truth box), repeated along a third axis of 98 slots, read at (r, g, p). -/
theorem conf_slot_bcast_apply (w : IVec S512x8 32) (r : Fin 512) (g : Fin 8) (p : Fin 98) :
    broadcastTo S512x8x98 (shapeCast S512x8x1 w shapeCasts_S512x8_S512x8x1) broadcasts_S512x8x1_S512x8x98 (ix3 r g p)
      = w (ix2 r g) := by
  refine (broadcastTo_apply _ broadcasts_S512x8x1_S512x8x98 (ix3 r g p) (ix3 r g (0 : Fin 1)) ?_).trans ?_
  · intro a
    match a with
    | ⟨0, _⟩ => rfl
    | ⟨1, _⟩ => rfl
    | ⟨2, _⟩ => rfl
  · refine shapeCast_apply w shapeCasts_S512x8_S512x8x1 (ix3 r g (0 : Fin 1)) (ix2 r g) ?_
    rw [Shape.rowMajor_val_two, Shape.rowMajor_val_three]
    show r.val * 8 + g.val = (r.val * 8 + g.val) * 1 + 0
    omega

/-- The sum over the 98 slots of a row. -/
theorem conf_rowsum_apply (v : FVec Ideal S512x98 .f32) (r : Fin 512) :
    multiReduction (F := Ideal) .add [1] S512 v 0x00000000#32 reduces_S512x98_S512 (.inl rfl) rfl (ix1 r)
      = ∑ p : Fin 98, v (ix2 r p) := by
  refine (Ideal.multiReduction_add_single v 0x00000000#32 reduces_S512x98_S512 (.inl rfl) rfl (ix1 r)).trans ?_
  show ∑ p : Fin 98, v (reduces_S512x98_S512.lift (ix1 r) p) = _
  refine Finset.sum_congr rfl fun p _ => ?_
  rw [conf_lift_row]

/-- The number of ground-truth boxes of row `r` whose word is `p`: the one-hot rows against the slots' numbers, summed
    over the 8 boxes. -/
theorem conf_count_apply (w : IVec S512x8 32) (r : Fin 512) (p : Fin 98) :
    multiReduction (F := Ideal) .add [1] S512x98
        (sitofp .f32 (extui 32 (cmpi .eq
          (broadcastTo S512x8x98 (shapeCast S512x8x1 w shapeCasts_S512x8_S512x8x1) broadcasts_S512x8x1_S512x8x98)
          (iota .tc S512x8x98 32 [2] iota_S512x8x98_d2_w32)) natLt_1_32))
        0x00000000#32 reduces_S512x8x98_S512x98 (.inl rfl) rfl (ix2 r p)
      = ∑ g : Fin 8, oh (w (ix2 r g)) (BitVec.ofNat 32 p.val) := by
  refine (Ideal.multiReduction_add_single _ 0x00000000#32 reduces_S512x8x98_S512x98 (.inl rfl) rfl (ix2 r p)).trans ?_
  show ∑ g : Fin 8, (sitofp (F := Ideal) .f32 (extui 32 (cmpi .eq
          (broadcastTo S512x8x98 (shapeCast S512x8x1 w shapeCasts_S512x8_S512x8x1) broadcasts_S512x8x1_S512x8x98)
          (iota .tc S512x8x98 32 [2] iota_S512x8x98_d2_w32)) natLt_1_32)) (reduces_S512x8x98_S512x98.lift (ix2 r p) g) = _
  refine Finset.sum_congr rfl fun g _ => ?_
  rw [conf_lift_slot]
  show ((((IntOp.cmpi .eq
      (broadcastTo S512x8x98 (shapeCast S512x8x1 w shapeCasts_S512x8_S512x8x1) broadcasts_S512x8x1_S512x8x98 (ix3 r g p))
      (iota .tc S512x8x98 32 [2] iota_S512x8x98_d2_w32 (ix3 r g p))).setWidth 32).toInt : ℝ) : EReal) = _
  rw [conf_slot_bcast_apply, iota_single_apply]
  rfl

/-- The indicator at (r, p): 1 when the count of boxes naming slot `p` is positive, else 0; a box's word is twice its
    cell's plus its responsible box's. -/
theorem pay41_apply (v100 v206 : IVec S512x8 32) (r : Fin 512) (p : Fin 98) :
    k0_pay41 (F := Ideal) v100 v206 (ix2 r p)
      = Scalar.select (Ideal.cmp .ogt
            (∑ g : Fin 8, oh (v100 (ix2 r g) * 2#32 + v206 (ix2 r g)) (BitVec.ofNat 32 p.val))
            (Ideal.ofBits .f32 0x00000000#32))
          (one) (Ideal.ofBits .f32 0x00000000#32) := by
  unfold k0_pay41
  exact congrArg (fun c => Scalar.select (Ideal.cmp .ogt c (Ideal.ofBits .f32 0x00000000#32))
    (one) (Ideal.ofBits .f32 0x00000000#32)) (conf_count_apply _ r p)

/-- The confidences recast from [row, cell, box] to [row, slot]: slot `p` is box `p % 2` of cell `p / 2`. -/
theorem pay42_apply (v10 : FVec Ideal S512x49x2 .f32) (r : Fin 512) (p : Fin 98) :
    k0_pay42 v10 (ix2 r p)
      = v10 (ix3 r (⟨p.val / 2, by have := p.isLt; omega⟩ : Fin 49) (⟨p.val % 2, Nat.mod_lt _ (by decide)⟩ : Fin 2)) := by
  unfold k0_pay42
  refine shapeCast_apply v10 shapeCasts_S512x49x2_S512x98 (ix2 r p) _ ?_
  rw [Shape.rowMajor_val_two, Shape.rowMajor_val_three]
  show (r.val * 49 + p.val / 2) * 2 + p.val % 2 = r.val * 98 + p.val
  omega

/-- The row's count of responsible slots. -/
theorem pay43_apply (v100 v206 : IVec S512x8 32) (r : Fin 512) :
    k0_pay43 (F := Ideal) v100 v206 (ix1 r) = ∑ p : Fin 98, k0_pay41 (F := Ideal) v100 v206 (ix2 r p) := by
  unfold k0_pay43
  exact conf_rowsum_apply _ r

/-- The row's mean of (confidence - 1)² over the responsible slots. -/
theorem pay44_apply (v10 : FVec Ideal S512x49x2 .f32) (v100 v206 : IVec S512x8 32) (r : Fin 512) :
    k0_pay44 v10 v100 v206 (ix1 r)
      = Ideal.div (∑ p : Fin 98, ((k0_pay42 v10 (ix2 r p) - one) * (k0_pay42 v10 (ix2 r p) - one))
            * k0_pay41 (F := Ideal) v100 v206 (ix2 r p))
          (max (k0_pay43 (F := Ideal) v100 v206 (ix1 r)) (one)) := by
  unfold k0_pay44
  exact congrArg (fun s => Ideal.div s (max (k0_pay43 (F := Ideal) v100 v206 (ix1 r)) (one)))
    (conf_rowsum_apply _ r)

/-- The row's sum of confidence² over the other slots. -/
theorem pay45_apply (v10 : FVec Ideal S512x49x2 .f32) (v100 v206 : IVec S512x8 32) (r : Fin 512) :
    k0_pay45 v10 v100 v206 (ix1 r)
      = ∑ p : Fin 98, (k0_pay42 v10 (ix2 r p) * k0_pay42 v10 (ix2 r p))
          * (one - k0_pay41 (F := Ideal) v100 v206 (ix2 r p)) := by
  unfold k0_pay45
  exact conf_rowsum_apply _ r

/-- The number of the other slots: 98 less the count. -/
theorem pay46_apply (v100 v206 : IVec S512x8 32) (r : Fin 512) :
    k0_pay46 (F := Ideal) v100 v206 (ix1 r)
      = Ideal.ofBits .f32 0x42C40000#32 - k0_pay43 (F := Ideal) v100 v206 (ix1 r) := rfl

/-! ## Against the row's loss -/

variable (x0 : Vec Ideal S512x1470 .f32) (x1 : Vec Ideal S512x40 .f32)

/-- The indicator at (r, p) is the row's indicator of the responsible slots: the box's word is the responsible slot's. -/
theorem conf_ind_apply (r : Fin 512) (p : Fin 98) :
    k0_pay41 (F := Ideal) (cellW x1) (bestW x0 x1) (ix2 r p)
      = objAt (prow (n := 512) x0 r) (lrow (n := 512) x1 r) p := by
  refine (pay41_apply (cellW x1) (bestW x0 x1) r p).trans ?_
  have hsum : (∑ g : Fin 8, oh (cellW x1 (ix2 r g) * 2#32 + bestW x0 x1 (ix2 r g)) (BitVec.ofNat 32 p.val))
      = ∑ g : Fin 8, oh (flatAt (prow (n := 512) x0 r) (lrow (n := 512) x1 r) g) (BitVec.ofNat 32 p.val) :=
    Finset.sum_congr rfl fun g _ =>
      congrArg₂ (fun a b => oh (a * 2#32 + b) (BitVec.ofNat 32 p.val)) (cellW_apply x1 r g) (bestW_apply x0 x1 r g)
  rw [hsum]
  exact obj_of_count (fun g => flatAt (prow (n := 512) x0 r) (lrow (n := 512) x1 r) g) (BitVec.ofNat 32 p.val)

/-- The recast confidences at (r, p) are the row's slot confidences. -/
theorem confFlat_apply (r : Fin 512) (p : Fin 98) :
    k0_pay42 (confs x0) (ix2 r p) = confFlat (prow (n := 512) x0 r) p :=
  (pay42_apply (confs x0) r p).trans (confs_apply x0 r _ _)

/-- The row's count of responsible slots. -/
theorem conf_nobj_apply (r : Fin 512) :
    k0_pay43 (F := Ideal) (cellW x1) (bestW x0 x1) (ix1 r)
      = ∑ p : Fin 98, objAt (prow (n := 512) x0 r) (lrow (n := 512) x1 r) p :=
  (pay43_apply (cellW x1) (bestW x0 x1) r).trans (Finset.sum_congr rfl fun p _ => conf_ind_apply x0 x1 r p)

theorem objMse_apply (r : Fin 512) :
    objMse x0 x1 (ix1 r)
      = Ideal.div (∑ p : Fin 98, ((confFlat (prow (n := 512) x0 r) p - one) * (confFlat (prow (n := 512) x0 r) p - one))
            * objAt (prow (n := 512) x0 r) (lrow (n := 512) x1 r) p)
          (max (∑ p : Fin 98, objAt (prow (n := 512) x0 r) (lrow (n := 512) x1 r) p) one) := by
  refine (pay44_apply (confs x0) (cellW x1) (bestW x0 x1) r).trans ?_
  rw [conf_nobj_apply x0 x1 r]
  refine congrArg (fun s => Ideal.div s
    (max (∑ p : Fin 98, objAt (prow (n := 512) x0 r) (lrow (n := 512) x1 r) p) one)) ?_
  refine Finset.sum_congr rfl fun p _ => ?_
  rw [confFlat_apply x0 r p, conf_ind_apply x0 x1 r p]

theorem noobjSum_apply (r : Fin 512) :
    noobjSum x0 x1 (ix1 r)
      = ∑ p : Fin 98, (confFlat (prow (n := 512) x0 r) p * confFlat (prow (n := 512) x0 r) p)
          * (one - objAt (prow (n := 512) x0 r) (lrow (n := 512) x1 r) p) := by
  refine (pay45_apply (confs x0) (cellW x1) (bestW x0 x1) r).trans ?_
  refine Finset.sum_congr rfl fun p _ => ?_
  rw [confFlat_apply x0 r p, conf_ind_apply x0 x1 r p]

theorem noobjCnt_apply (r : Fin 512) :
    noobjCnt x0 x1 (ix1 r) = slots - ∑ p : Fin 98, objAt (prow (n := 512) x0 r) (lrow (n := 512) x1 r) p := by
  refine (pay46_apply (cellW x1) (bestW x0 x1) r).trans ?_
  rw [conf_nobj_apply x0 x1 r]

theorem confRow_apply (r : Fin 512) :
    five * objMse x0 x1 (ix1 r) + half * Ideal.div (noobjSum x0 x1 (ix1 r)) (max (noobjCnt x0 x1 (ix1 r)) one)
      = confRow (prow (n := 512) x0 r) (lrow (n := 512) x1 r) := by
  rw [objMse_apply x0 x1 r, noobjSum_apply x0 x1 r, noobjCnt_apply x0 x1 r]
  rfl

end Cert.KernelIdeal.Tile

end
-- ==== Proof.KStep.lean ====
/-
  What one grid point adds to the accumulator: the sum over its 512 rows of the three parts of each row's loss.
-/
import proofs.«112027_j37778532335632_1_alg».proof.Proof.KIou
import proofs.«112027_j37778532335632_1_alg».proof.Proof.KCls
import proofs.«112027_j37778532335632_1_alg».proof.Proof.KConf
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.Spec Cert.KernelIdeal Cert.KernelIdeal.Gen

variable (x0 : Vec Ideal S512x1470 .f32) (x1 : Vec Ideal S512x40 .f32)

/-- The loss of the 512 images of one grid point. -/
def tileLoss : EReal :=
  ((∑ r : Fin 512, boxRow (prow (n := 512) x0 r) (lrow (n := 512) x1 r))
    + ∑ r : Fin 512, clsRow (prow (n := 512) x0 r) (lrow (n := 512) x1 r))
    + ∑ r : Fin 512, confRow (prow (n := 512) x0 r) (lrow (n := 512) x1 r)

/-- A [1] vector cast to [1, 1] and read at its one entry. -/
theorem cast11_at (v : FVec Ideal S1 .f32) (h : S1.ShapeCasts S1x1) (hp : ∀ a, (![0, 0] : Fin 2 → Nat) a < S1x1.size a) :
    extractAt ![0, 0] (shapeCast S1x1 v h) hp = v (ix1 0) := by
  show shapeCast S1x1 v h _ = _
  refine shapeCast_apply v h _ (ix1 0) ?_
  rw [Shape.rowMajor_val_one, Shape.rowMajor_val_two]
  rfl

/-- The sum over the 512 rows of a [512] vector cast to [1, 512]. -/
theorem rowsum_at (v : FVec Ideal S512 .f32) (h : S512.ShapeCasts S1x512) (hr : S1x512.Reduces [1] S1) (hφ : FKind.Formats .f32)
    (hacc : (0x00000000#32 : BitVec 32) = FKind.add.neutral .f32 hφ) :
    multiReduction .add [1] S1 (shapeCast S1x512 v h) 0x00000000#32 hr hφ hacc (ix1 0) = ∑ r : Fin 512, v (ix1 r) := by
  refine (Ideal.multiReduction_add_single _ _ hr hφ hacc (ix1 0)).trans ?_
  show ∑ k : Fin 512, shapeCast S1x512 v h (hr.lift (ix1 0) k) = ∑ r : Fin 512, v (ix1 r)
  refine Finset.sum_congr rfl fun (r : Fin 512) _ => ?_
  have hl : hr.lift (ix1 0) r = ix2 0 r := funext fun a => Fin.ext (by
    match a with
    | ⟨0, _⟩ => rfl
    | ⟨1, _⟩ => rfl)
  rw [hl]
  refine shapeCast_apply v h _ (ix1 r) ?_
  rw [Shape.rowMajor_val_one, Shape.rowMajor_val_two]
  show r.val = 0 * 512 + r.val
  omega

/-- The body's last stretch over any values: what it stores is what it found plus the two scalar sums plus the sum over the
    rows of `5 · a + ½ · b / max(c, 1)`. -/
theorem pay1_apply (s1 s2 : Ideal .f32) (a b c : FVec Ideal S512 .f32) (acc : Vec Ideal S1x1 .f32) (i : S1x1.Idx) :
    k0_pay1 (F := Ideal) s1 s2 a b c acc i
      = acc i + ((s1 + s2) + ∑ r : Fin 512, (five * a (ix1 r) + half * Ideal.div (b (ix1 r)) (max (c (ix1 r)) one))) := by
  unfold k0_pay1
  dsimp only
  rw [shapeCast_self]
  show acc i + ((s1 + s2) + extractAt ![0, 0] (shapeCast S1x1 _ _) _) = _
  rw [cast11_at]
  refine (congrArg (fun z => acc i + ((s1 + s2) + z)) (rowsum_at _ _ _ _ _)).trans ?_
  rfl

attribute [local irreducible] k0_pay38 k0_pay40 k0_pay44 k0_pay45 k0_pay46 in
theorem step_apply (acc : Vec Ideal S1x1 .f32) (hok : ∀ r : Fin 512, ClsOk (lrow (n := 512) x1 r)) :
    step acc x0 x1 = fun i => acc i + tileLoss x0 x1 := by
  funext i
  have hb := boxSum_eq x0 x1
  have hc := clsSum_eq x0 x1 hok
  have hs : ∑ r : Fin 512, (five * objMse x0 x1 (ix1 r) + half * Ideal.div (noobjSum x0 x1 (ix1 r)) (max (noobjCnt x0 x1 (ix1 r)) one))
      = ∑ r : Fin 512, confRow (prow (n := 512) x0 r) (lrow (n := 512) x1 r) :=
    Finset.sum_congr rfl fun r _ => confRow_apply x0 x1 r
  refine (pay1_apply (boxSum x0 x1) (clsSum x0 x1) (objMse x0 x1) (noobjSum x0 x1) (noobjCnt x0 x1) acc i).trans ?_
  unfold tileLoss
  exact congrArg (fun z => acc i + z) (congr (congrArg HAdd.hAdd (congr (congrArg HAdd.hAdd hb) hc)) hs)

end Cert.KernelIdeal.Tile

end
-- ==== Proof.PreAlg.lean ====
/-
  Two facts the assembly needs. The precondition says, besides finiteness, that every ground-truth box's class word is one
  of the twenty classes. And a sum over the 16384 images is the sum over the 32 grid points of the sums over each point's
  512 images.
-/
import proofs.«112027_j37778532335632_1_alg».proof.Proof.Spec
import proofs.«112027_j37778532335632_1_alg».proof.Proof.Gen.Pre_finite_inputs
import Idealize.ShloMosaic.Lib.Pipeline.Value
import Idealize.ShloMosaic.Lib.ValueLayout
import Idealize.ShloMosaic.Lib.ReduceAll
import Idealize.ShloMosaic.Lib.StableHlo.Predicate

noncomputable section

namespace Cert.Spec

open Idealize.ShloMosaic Idealize.ShloMosaic.ValueIdx

/-- The scalar shape has exactly one index. -/
instance preAlg_scalarIdx_subsingleton : Subsingleton Cert.Pre_finite_inputs.S_.Idx := ⟨fun a b => funext fun d => d.elim0⟩

/-- A word that compares, signed, at least 0 and below 20 has its signed value in that range. -/
theorem preAlg_word_range (w : BitVec 32) (h0 : IntOp.cmpi .sge w 0#32 = 1#1) (h20 : IntOp.cmpi .slt w 20#32 = 1#1) :
    0 ≤ w.toInt ∧ w.toInt < 20 := by
  unfold IntOp.cmpi at h0 h20
  rw [StableHlo.Predicate.ofBool_eq_one_iff] at h0 h20
  simp only [BitVec.sle, BitVec.slt, decide_eq_true_eq] at h0 h20
  have e0 : (0#32 : BitVec 32).toInt = 0 := by decide
  have e20 : (20#32 : BitVec 32).toInt = 20 := by decide
  rw [e0] at h0
  rw [e20] at h20
  exact ⟨h0, h20⟩

/-- The class column of the labels: the [16384, 40] array viewed [16384, 8, 5], the first number of each box kept, viewed
    [16384, 8] and converted to a word, is at (b, g) the class word of box `g` of image `b`: entry `5 g` of row `b`.
    Each view keeps the row-major position; the slice keeps the coordinates. -/
theorem preAlg_clsWord_read (a1 : FVec Ideal Cert.Pre_finite_inputs.S16384x40 .f32)
    (h1 : Cert.Pre_finite_inputs.S16384x40.ShapeCasts Cert.Pre_finite_inputs.S16384x8x5)
    (h2 : Cert.Pre_finite_inputs.S16384x8x5.Slices ![0, 0, 0] Cert.Pre_finite_inputs.S16384x8x1)
    (h3 : Cert.Pre_finite_inputs.S16384x8x1.ShapeCasts Cert.Pre_finite_inputs.S16384x8) (b : Fin 16384) (g : Fin 8) :
    fptosi (F := Ideal) 32
        (shapeCast Cert.Pre_finite_inputs.S16384x8
          (extractStridedSlice Cert.Pre_finite_inputs.S16384x8x1 ![0, 0, 0]
            (shapeCast Cert.Pre_finite_inputs.S16384x8x5 a1 h1) h2) h3) (ix2 b g)
      = cls (lrow (n := 16384) a1 b) g := by
  show Ideal.fptosi 32 _ = Ideal.fptosi 32 _
  refine congrArg (Ideal.fptosi 32) ?_
  -- [16384, 8] ← [16384, 8, 1]: position 8 b + g on both sides
  refine (shapeCast_apply _ h3 (ix2 b g) (ix3 b g (0 : Fin 1)) ?_).trans ?_
  · rw [Shape.rowMajor_val_three, Shape.rowMajor_val_two]
    show (b.val * 8 + g.val) * 1 + 0 = b.val * 8 + g.val
    omega
  -- the slice at offsets (0, 0, 0)
  refine (extractStridedSlice_apply ![0, 0, 0] _ h2 (ix3 b g (0 : Fin 1)) (ix3 b g (0 : Fin 5)) (fun a => match a with
    | ⟨0, _⟩ => by show b.val = 0 + b.val; omega
    | ⟨1, _⟩ => by show g.val = 0 + g.val; omega
    | ⟨2, _⟩ => by show 0 = 0 + 0; omega)).trans ?_
  -- [16384, 8, 5] ← [16384, 40]: position 40 b + 5 g on both sides
  refine (shapeCast_apply a1 h1 (ix3 b g (0 : Fin 5)) (ix2 b ⟨5 * g.val, by have := g.isLt; omega⟩) ?_).trans ?_
  · rw [Shape.rowMajor_val_two, Shape.rowMajor_val_three]
    show b.val * 40 + 5 * g.val = (b.val * 8 + g.val) * 5 + 0
    omega
  rfl

/-- (grid point, image of the point) ↔ image: `(t, r) ↦ 512 t + r`, back by quotient and remainder. -/
def tileEquiv : Fin 32 × Fin 512 ≃ Fin 16384 where
  toFun p := ⟨512 * p.1.val + p.2.val, by have := p.1.isLt; have := p.2.isLt; omega⟩
  invFun b := (⟨b.val / 512, by have := b.isLt; omega⟩, ⟨b.val % 512, Nat.mod_lt _ (by decide)⟩)
  left_inv := by
    rintro ⟨t, r⟩
    have ht := t.isLt
    have hr := r.isLt
    refine Prod.ext (Fin.ext ?_) (Fin.ext ?_)
    · show (512 * t.val + r.val) / 512 = t.val
      omega
    · show (512 * t.val + r.val) % 512 = r.val
      omega
  right_inv := by
    intro b
    refine Fin.ext ?_
    show 512 * (b.val / 512) + b.val % 512 = b.val
    omega

/-- The precondition's last conjunct, read image by image. -/
theorem clsOk_of_pre [Cert.Pre_finite_inputs.Facts] (a0 : FVec Ideal Cert.Pre_finite_inputs.S16384x1470 .f32) (a1 : FVec Ideal Cert.Pre_finite_inputs.S16384x40 .f32)
    (h : Cert.Pre_finite_inputs.fn (F := Ideal) a0 a1 = fun _ => 1#1) (b : Fin 16384) : ClsOk (lrow (n := 16384) a1 b) := by
  intro g
  -- the printed predicate at its one index: a conjunction whose last conjunct is the all-reduce of the class test
  have e := congrFun h ValueIdx.ix0
  dsimp only [Cert.Pre_finite_inputs.fn, Cert.Pre_finite_inputs.fn_part1] at e
  have e2 := (IntOp.andi_eq_one.1 e).2
  -- the all-reduce is 1: the test holds at every (image, box)
  have e3 := Host.reduce_andi_all _ _ _ _ _ e2 (ix2 b g)
  obtain ⟨h0, h20⟩ := IntOp.andi_eq_one.1 e3
  have hw := preAlg_clsWord_read a1 Cert.Pre_finite_inputs.Facts.shapeCasts_S16384x40_S16384x8x5
    Cert.Pre_finite_inputs.Facts.slices_S16384x8x5_S16384x8x1_0_0_0 Cert.Pre_finite_inputs.Facts.shapeCasts_S16384x8x1_S16384x8 b g
  refine preAlg_word_range _ ?_ ?_
  · rw [← hw]; exact h0
  · rw [← hw]; exact h20

/-- Image `512 t + r` is image `r` of grid point `t`. -/
def imgOf (t : Fin 32) (r : Fin 512) : Fin 16384 := ⟨512 * t.val + r.val, by have := t.isLt; have := r.isLt; omega⟩

theorem sum_tiles (f : Fin 16384 → EReal) : ∑ t : Fin 32, ∑ r : Fin 512, f (imgOf t r) = ∑ b : Fin 16384, f b :=
  (Fintype.sum_prod_type' (fun t r => f (imgOf t r))).symm.trans (Equiv.sum_comp tileEquiv f)

end Cert.Spec

end
-- ==== Proof.KValue.lean ====
/-
  The kernel's result at the extended reals. Each grid point adds the loss of its 512 images to the accumulator, starting
  from zero, so after the last point the accumulator holds the sum over the 32 points of the points' losses; a point's
  images are images 512 t … 512 t + 511 of the arguments, so that sum is the sum over all 16384 images of the three parts of
  each image's loss, in any grouping.
-/
import proofs.«112027_j37778532335632_1_alg».proof.Proof.KFrame
import proofs.«112027_j37778532335632_1_alg».proof.Proof.KStep
import proofs.«112027_j37778532335632_1_alg».proof.Proof.PreAlg

noncomputable section

open Idealize.ShloMosaic Idealize.ShloMosaic.TcCoe Idealize.SL.Sem

namespace Cert.KernelIdeal.Frm

open Cert.KernelIdeal Cert.KernelIdeal.Gen Cert.KernelIdeal.Tile Idealize.ShloMosaic.ValueIdx Cert.Spec

variable (m : (ℓ : Loc nD τ sig) → Buf (Elt Ideal) ℓ) (c : Dev nD)

/-- The loss of the 512 images of grid point `t`, from whole arrays of predictions and labels. -/
def tileOf (a0 : (⟨2, ![16384, 1470]⟩ : Shape).Idx → EReal) (a1 : (⟨2, ![16384, 40]⟩ : Shape).Idx → EReal) (t : Fin 32) : EReal :=
  ((∑ r : Fin 512, boxRow (prow a0 (imgOf t r)) (lrow a1 (imgOf t r)))
    + ∑ r : Fin 512, clsRow (prow a0 (imgOf t r)) (lrow a1 (imgOf t r)))
    + ∑ r : Fin 512, confRow (prow a0 (imgOf t r)) (lrow a1 (imgOf t r))

/-- The argument arrays on core `c`. -/
abbrev A0 : (⟨2, ![16384, 1470]⟩ : Shape).Idx → EReal := m ((c : Thread nD τ).loc main_arg0)
abbrev A1 : (⟨2, ![16384, 40]⟩ : Shape).Idx → EReal := m ((c : Thread nD τ).loc main_arg1)

/-- A grid point as one of the 32. -/
abbrev pt (t : Fin cfg0.N) : Fin 32 := ⟨t.val, by have h32 : cfg0.N = 32 := N_0; have := t.isLt; omega⟩

theorem prow_xblk (t : Fin cfg0.N) (r : Fin 512) :
    prow (n := 512) (xblk m c t) r = prow (n := 16384) (A0 m c) (imgOf (pt t) r) :=
  funext fun k => xblk_apply m c t r k

theorem lrow_lblk (t : Fin cfg0.N) (r : Fin 512) :
    lrow (n := 512) (lblk m c t) r = lrow (n := 16384) (A1 m c) (imgOf (pt t) r) :=
  funext fun k => lblk_apply m c t r k

/-- A point's loss, from the arguments. -/
theorem tileLoss_eq (t : Fin cfg0.N) : tileLoss (xblk m c t) (lblk m c t) = tileOf (A0 m c) (A1 m c) (pt t) := by
  unfold tileLoss tileOf
  simp only [prow_xblk, lrow_lblk]

/-- The losses of the points up to `n`, summed. -/
def lossTo (n : ℕ) : EReal :=
  ∑ k ∈ Finset.range (n + 1), if hk : k < 32 then tileOf (A0 m c) (A1 m c) ⟨k, hk⟩ else 0

/-- The accumulator after point `n` holds the sum of the losses of points 0 … n. -/
theorem accAt_value (hok : ∀ b : Fin 16384, ClsOk (lrow (n := 16384) (A1 m c) b)) :
    ∀ (n : ℕ) (h : n < cfg0.N), accAt m c n h = fun _ => lossTo m c n
  | 0, h => by
    have hN : cfg0.N = 32 := N_0
    show step acc0 (xblk m c ⟨0, h⟩) (lblk m c ⟨0, h⟩) = _
    rw [step_apply _ _ _ (fun r => by rw [lrow_lblk]; exact hok _), tileLoss_eq]
    funext _
    unfold lossTo
    rw [Finset.sum_range_one, dif_pos (by decide : 0 < 32)]
    show Ideal.ofBits .f32 0x00000000#32 + _ = _
    rw [Ideal.ofBits_zero_f32, zero_add]
  | n + 1, h => by
    have hN : cfg0.N = 32 := N_0
    show step (accAt m c n _) (xblk m c ⟨n + 1, h⟩) (lblk m c ⟨n + 1, h⟩) = _
    rw [step_apply _ _ _ (fun r => by rw [lrow_lblk]; exact hok _), tileLoss_eq, accAt_value hok n]
    funext _
    unfold lossTo
    rw [Finset.sum_range_succ _ (n + 1), dif_pos (show n + 1 < 32 by omega)]

/-- The result array ends holding the sum of the 32 points' losses. -/
theorem result_value (hok : ∀ b : Fin 16384, ClsOk (lrow (n := 16384) (A1 m c) b)) :
    result m c = fun _ => ∑ t : Fin 32, tileOf (A0 m c) (A1 m c) t := by
  show accAt m c 31 _ = _
  rw [accAt_value m c hok 31]
  funext _
  unfold lossTo
  rw [Finset.sum_range fun k => if hk : k < 32 then tileOf (A0 m c) (A1 m c) ⟨k, hk⟩ else 0]
  exact Finset.sum_congr rfl fun t _ => dif_pos t.isLt

/-- The sum of the points' losses is the sum over all images of the three parts, in the reference's grouping. -/
theorem sum_tileOf (a0 : (⟨2, ![16384, 1470]⟩ : Shape).Idx → EReal) (a1 : (⟨2, ![16384, 40]⟩ : Shape).Idx → EReal) :
    ∑ t : Fin 32, tileOf a0 a1 t
      = ((∑ b : Fin 16384, clsRow (prow a0 b) (lrow a1 b)) + ∑ b : Fin 16384, boxRow (prow a0 b) (lrow a1 b))
        + ∑ b : Fin 16384, confRow (prow a0 b) (lrow a1 b) := by
  unfold tileOf
  rw [Finset.sum_add_distrib, Finset.sum_add_distrib,
    sum_tiles fun b => boxRow (prow a0 b) (lrow a1 b), sum_tiles fun b => clsRow (prow a0 b) (lrow a1 b),
    sum_tiles fun b => confRow (prow a0 b) (lrow a1 b),
    add_comm (∑ b : Fin 16384, boxRow (prow a0 b) (lrow a1 b))]

/-- The kernel's scalar result. -/
theorem scalar_value (hok : ∀ b : Fin 16384, ClsOk (lrow (n := 16384) (A1 m c) b)) :
    shapeCast S_ (result m c) shapeCasts_S1x1_S_
      = fun _ => ((∑ b : Fin 16384, clsRow (prow (A0 m c) b) (lrow (A1 m c) b)) + ∑ b : Fin 16384, boxRow (prow (A0 m c) b) (lrow (A1 m c) b))
        + ∑ b : Fin 16384, confRow (prow (A0 m c) b) (lrow (A1 m c) b) := by
  rw [result_value m c hok, sum_tileOf]
  rfl

end Cert.KernelIdeal.Frm

end
-- ==== Proof.RUnpack.lean ====
/-
  The reference's view of its two arguments, read at an index: the 16384 × 1470 array of predictions as class scores,
  confidences and clipped boxes per cell (row, column); the 16384 × 40 array of labels as the ground-truth boxes, their
  classes, their centres and extents, and the cell each falls in. Each entry is the matching function of the array's row.
-/
import proofs.«112027_j37778532335632_1_alg».proof.Proof.ReadP
import proofs.«112027_j37778532335632_1_alg».proof.Proof.SpecFacts
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.Spec Cert.ReferenceIdeal Cert.ReferenceIdeal.ReadP

variable (x0 : (⟨S16384x1470, .f32⟩ : BufTy).Contents (Elt Ideal)) (x1 : (⟨S16384x40, .f32⟩ : BufTy).Contents (Elt Ideal))

/-! ## An array read at an index given by its coordinates

Two indices with the same coordinates are the same index, so an array read at a computed index is the array read at
the index built from the coordinates' values. -/

theorem at_ix2 {α : Type} {n0 n1 : Nat} (y : (⟨2, ![n0, n1]⟩ : Shape).Idx → α) (i : (⟨2, ![n0, n1]⟩ : Shape).Idx)
    (a0 : Fin n0) (a1 : Fin n1) (h0 : (i 0).val = a0.val) (h1 : (i 1).val = a1.val) : y i = y (ix2 a0 a1) := by
  congr 1; funext d
  match d with
  | ⟨0, _⟩ => exact Fin.ext h0
  | ⟨1, _⟩ => exact Fin.ext h1

theorem at_ix3 {α : Type} {n0 n1 n2 : Nat} (y : (⟨3, ![n0, n1, n2]⟩ : Shape).Idx → α)
    (i : (⟨3, ![n0, n1, n2]⟩ : Shape).Idx) (a0 : Fin n0) (a1 : Fin n1) (a2 : Fin n2)
    (h0 : (i 0).val = a0.val) (h1 : (i 1).val = a1.val) (h2 : (i 2).val = a2.val) : y i = y (ix3 a0 a1 a2) := by
  congr 1; funext d
  match d with
  | ⟨0, _⟩ => exact Fin.ext h0
  | ⟨1, _⟩ => exact Fin.ext h1
  | ⟨2, _⟩ => exact Fin.ext h2

theorem at_ix4 {α : Type} {n0 n1 n2 n3 : Nat} (y : (⟨4, ![n0, n1, n2, n3]⟩ : Shape).Idx → α)
    (i : (⟨4, ![n0, n1, n2, n3]⟩ : Shape).Idx) (a0 : Fin n0) (a1 : Fin n1) (a2 : Fin n2) (a3 : Fin n3)
    (h0 : (i 0).val = a0.val) (h1 : (i 1).val = a1.val) (h2 : (i 2).val = a2.val) (h3 : (i 3).val = a3.val) :
    y i = y (ix4 a0 a1 a2 a3) := by
  congr 1; funext d
  match d with
  | ⟨0, _⟩ => exact Fin.ext h0
  | ⟨1, _⟩ => exact Fin.ext h1
  | ⟨2, _⟩ => exact Fin.ext h2
  | ⟨3, _⟩ => exact Fin.ext h3

theorem at_ix5 {α : Type} {n0 n1 n2 n3 n4 : Nat} (y : (⟨5, ![n0, n1, n2, n3, n4]⟩ : Shape).Idx → α)
    (i : (⟨5, ![n0, n1, n2, n3, n4]⟩ : Shape).Idx) (a0 : Fin n0) (a1 : Fin n1) (a2 : Fin n2) (a3 : Fin n3) (a4 : Fin n4)
    (h0 : (i 0).val = a0.val) (h1 : (i 1).val = a1.val) (h2 : (i 2).val = a2.val) (h3 : (i 3).val = a3.val)
    (h4 : (i 4).val = a4.val) : y i = y (ix5 a0 a1 a2 a3 a4) := by
  congr 1; funext d
  match d with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-! ## The predictions -/

/-- The array of predictions by image, cell row, cell column and number: number `k` of that cell of that image's row. -/
theorem v0_at (b : Fin 16384) (sy sx : Fin 7) (k : Fin 30) :
    val_main_v0 (F := Ideal) x0 (ix4 b sy sx k) = pcell (prow (n := 16384) x0 b) (cellOf sy sx) k := by
  have hb := b.isLt; have hy := sy.isLt; have hx := sx.isLt; have hk := k.isLt
  rw [val_main_v0_apply]
  refine at_ix2 x0 _ b ⟨30 * (7 * sy.val + sx.val) + k.val, by omega⟩ ?_ ?_
  · show (((b.val * 7 + sy.val) * 7 + sx.val) * 30 + k.val) / 1470 = b.val; omega
  · show (((b.val * 7 + sy.val) * 7 + sx.val) * 30 + k.val) % 1470 = 30 * (7 * sy.val + sx.val) + k.val; omega

/-- The last ten numbers of a cell as two boxes of five. -/
theorem v3_at (b : Fin 16384) (sy sx : Fin 7) (j : Fin 2) (f : Fin 5) :
    val_main_v3 (F := Ideal) x0 (ix5 b sy sx j f) = pbox (prow (n := 16384) x0 b) (cellOf sy sx) j f := by
  have hb := b.isLt; have hy := sy.isLt; have hx := sx.isLt; have hj := j.isLt; have hf := f.isLt
  rw [val_main_v3_apply, val_main_v2_apply]
  refine (at_ix4 (val_main_v0 (F := Ideal) x0) _ b sy sx ⟨20 + 5 * j.val + f.val, by omega⟩ ?_ ?_ ?_ ?_).trans
    (v0_at x0 b sy sx _)
  · show ((((b.val * 7 + sy.val) * 7 + sx.val) * 2 + j.val) * 5 + f.val) / 490 = b.val; omega
  · show ((((b.val * 7 + sy.val) * 7 + sx.val) * 2 + j.val) * 5 + f.val) / 70 % 7 = sy.val; omega
  · show ((((b.val * 7 + sy.val) * 7 + sx.val) * 2 + j.val) * 5 + f.val) / 10 % 7 = sx.val; omega
  · show 20 + ((((b.val * 7 + sy.val) * 7 + sx.val) * 2 + j.val) * 5 + f.val) % 10 = 20 + 5 * j.val + f.val; omega

/-! Each of a box's five numbers, by image, cell and box. -/

theorem v5_at (b : Fin 16384) (sy sx : Fin 7) (j : Fin 2) :
    val_main_v5 (F := Ideal) x0 (ix4 b sy sx j) = pbox (prow (n := 16384) x0 b) (cellOf sy sx) j 4 := by
  have hb := b.isLt; have hy := sy.isLt; have hx := sx.isLt; have hj := j.isLt
  rw [val_main_v5_apply, val_main_v4_apply]
  refine (at_ix5 (val_main_v3 (F := Ideal) x0) _ b sy sx j (4 : Fin 5) ?_ ?_ ?_ ?_ rfl).trans (v3_at x0 b sy sx j 4)
  · show (((b.val * 7 + sy.val) * 7 + sx.val) * 2 + j.val) / 98 = b.val; omega
  · show (((b.val * 7 + sy.val) * 7 + sx.val) * 2 + j.val) / 14 % 7 = sy.val; omega
  · show (((b.val * 7 + sy.val) * 7 + sx.val) * 2 + j.val) / 2 % 7 = sx.val; omega
  · show (((b.val * 7 + sy.val) * 7 + sx.val) * 2 + j.val) / 1 % 2 = j.val; omega

theorem v7_at (b : Fin 16384) (sy sx : Fin 7) (j : Fin 2) :
    val_main_v7 (F := Ideal) x0 (ix4 b sy sx j) = pbox (prow (n := 16384) x0 b) (cellOf sy sx) j 0 := by
  have hb := b.isLt; have hy := sy.isLt; have hx := sx.isLt; have hj := j.isLt
  rw [val_main_v7_apply, val_main_v6_apply]
  refine (at_ix5 (val_main_v3 (F := Ideal) x0) _ b sy sx j (0 : Fin 5) ?_ ?_ ?_ ?_ rfl).trans (v3_at x0 b sy sx j 0)
  · show (((b.val * 7 + sy.val) * 7 + sx.val) * 2 + j.val) / 98 = b.val; omega
  · show (((b.val * 7 + sy.val) * 7 + sx.val) * 2 + j.val) / 14 % 7 = sy.val; omega
  · show (((b.val * 7 + sy.val) * 7 + sx.val) * 2 + j.val) / 2 % 7 = sx.val; omega
  · show (((b.val * 7 + sy.val) * 7 + sx.val) * 2 + j.val) / 1 % 2 = j.val; omega

theorem v10_at (b : Fin 16384) (sy sx : Fin 7) (j : Fin 2) :
    val_main_v10 (F := Ideal) x0 (ix4 b sy sx j) = pbox (prow (n := 16384) x0 b) (cellOf sy sx) j 1 := by
  have hb := b.isLt; have hy := sy.isLt; have hx := sx.isLt; have hj := j.isLt
  rw [val_main_v10_apply, val_main_v9_apply]
  refine (at_ix5 (val_main_v3 (F := Ideal) x0) _ b sy sx j (1 : Fin 5) ?_ ?_ ?_ ?_ rfl).trans (v3_at x0 b sy sx j 1)
  · show (((b.val * 7 + sy.val) * 7 + sx.val) * 2 + j.val) / 98 = b.val; omega
  · show (((b.val * 7 + sy.val) * 7 + sx.val) * 2 + j.val) / 14 % 7 = sy.val; omega
  · show (((b.val * 7 + sy.val) * 7 + sx.val) * 2 + j.val) / 2 % 7 = sx.val; omega
  · show (((b.val * 7 + sy.val) * 7 + sx.val) * 2 + j.val) / 1 % 2 = j.val; omega

theorem v13_at (b : Fin 16384) (sy sx : Fin 7) (j : Fin 2) :
    val_main_v13 (F := Ideal) x0 (ix4 b sy sx j) = pbox (prow (n := 16384) x0 b) (cellOf sy sx) j 2 := by
  have hb := b.isLt; have hy := sy.isLt; have hx := sx.isLt; have hj := j.isLt
  rw [val_main_v13_apply, val_main_v12_apply]
  refine (at_ix5 (val_main_v3 (F := Ideal) x0) _ b sy sx j (2 : Fin 5) ?_ ?_ ?_ ?_ rfl).trans (v3_at x0 b sy sx j 2)
  · show (((b.val * 7 + sy.val) * 7 + sx.val) * 2 + j.val) / 98 = b.val; omega
  · show (((b.val * 7 + sy.val) * 7 + sx.val) * 2 + j.val) / 14 % 7 = sy.val; omega
  · show (((b.val * 7 + sy.val) * 7 + sx.val) * 2 + j.val) / 2 % 7 = sx.val; omega
  · show (((b.val * 7 + sy.val) * 7 + sx.val) * 2 + j.val) / 1 % 2 = j.val; omega

theorem v16_at (b : Fin 16384) (sy sx : Fin 7) (j : Fin 2) :
    val_main_v16 (F := Ideal) x0 (ix4 b sy sx j) = pbox (prow (n := 16384) x0 b) (cellOf sy sx) j 3 := by
  have hb := b.isLt; have hy := sy.isLt; have hx := sx.isLt; have hj := j.isLt
  rw [val_main_v16_apply, val_main_v15_apply]
  refine (at_ix5 (val_main_v3 (F := Ideal) x0) _ b sy sx j (3 : Fin 5) ?_ ?_ ?_ ?_ rfl).trans (v3_at x0 b sy sx j 3)
  · show (((b.val * 7 + sy.val) * 7 + sx.val) * 2 + j.val) / 98 = b.val; omega
  · show (((b.val * 7 + sy.val) * 7 + sx.val) * 2 + j.val) / 14 % 7 = sy.val; omega
  · show (((b.val * 7 + sy.val) * 7 + sx.val) * 2 + j.val) / 2 % 7 = sx.val; omega
  · show (((b.val * 7 + sy.val) * 7 + sx.val) * 2 + j.val) / 1 % 2 = j.val; omega

/-! The clipped centre and extent: a clip is the upper bound's minimum with the lower bound's maximum. -/

theorem v8_at (b : Fin 16384) (sy sx : Fin 7) (j : Fin 2) :
    val_main_v8 (F := Ideal) x0 (ix4 b sy sx j) =
      min one (max zero (pbox (prow (n := 16384) x0 b) (cellOf sy sx) j 0)) := by
  rw [val_main_v8_apply, val_main_call0_v4_apply, val_main_call0_v2_apply, val_main_call0_v1_apply,
    v7_at]
  rfl

theorem v11_at (b : Fin 16384) (sy sx : Fin 7) (j : Fin 2) :
    val_main_v11 (F := Ideal) x0 (ix4 b sy sx j) =
      min one (max zero (pbox (prow (n := 16384) x0 b) (cellOf sy sx) j 1)) := by
  rw [val_main_v11_apply, val_main_call1_v4_apply, val_main_call1_v2_apply, val_main_call1_v1_apply,
    v10_at]
  rfl

theorem v14_at (b : Fin 16384) (sy sx : Fin 7) (j : Fin 2) :
    val_main_v14 (F := Ideal) x0 (ix4 b sy sx j) =
      min one (max tiny (pbox (prow (n := 16384) x0 b) (cellOf sy sx) j 2)) := by
  rw [val_main_v14_apply, val_main_call2_v4_apply, val_main_call2_v2_apply, val_main_call2_v1_apply,
    v13_at]
  rfl

theorem v17_at (b : Fin 16384) (sy sx : Fin 7) (j : Fin 2) :
    val_main_v17 (F := Ideal) x0 (ix4 b sy sx j) =
      min one (max tiny (pbox (prow (n := 16384) x0 b) (cellOf sy sx) j 3)) := by
  rw [val_main_v17_apply, val_main_call3_v4_apply, val_main_call3_v2_apply, val_main_call3_v1_apply,
    v16_at]
  rfl

theorem v18_at (b : Fin 16384) (sy sx : Fin 7) (j : Fin 2) :
    val_main_v18 (F := Ideal) x0 (ix5 b sy sx j 0) =
      min one (max zero (pbox (prow (n := 16384) x0 b) (cellOf sy sx) j 0)) := by
  rw [val_main_v18_apply]
  exact (at_ix4 (val_main_v8 (F := Ideal) x0) _ b sy sx j rfl rfl rfl rfl).trans (v8_at x0 b sy sx j)

theorem v19_at (b : Fin 16384) (sy sx : Fin 7) (j : Fin 2) :
    val_main_v19 (F := Ideal) x0 (ix5 b sy sx j 0) =
      min one (max zero (pbox (prow (n := 16384) x0 b) (cellOf sy sx) j 1)) := by
  rw [val_main_v19_apply]
  exact (at_ix4 (val_main_v11 (F := Ideal) x0) _ b sy sx j rfl rfl rfl rfl).trans (v11_at x0 b sy sx j)

theorem v20_at (b : Fin 16384) (sy sx : Fin 7) (j : Fin 2) :
    val_main_v20 (F := Ideal) x0 (ix5 b sy sx j 0) =
      min one (max tiny (pbox (prow (n := 16384) x0 b) (cellOf sy sx) j 2)) := by
  rw [val_main_v20_apply]
  exact (at_ix4 (val_main_v14 (F := Ideal) x0) _ b sy sx j rfl rfl rfl rfl).trans (v14_at x0 b sy sx j)

theorem v21_at (b : Fin 16384) (sy sx : Fin 7) (j : Fin 2) :
    val_main_v21 (F := Ideal) x0 (ix5 b sy sx j 0) =
      min one (max tiny (pbox (prow (n := 16384) x0 b) (cellOf sy sx) j 3)) := by
  rw [val_main_v21_apply]
  exact (at_ix4 (val_main_v17 (F := Ideal) x0) _ b sy sx j rfl rfl rfl rfl).trans (v17_at x0 b sy sx j)

/-! ## The labels -/

/-- The array of labels by image, box and number: number `k` of that box of that image's row. -/
theorem v23_at (b : Fin 16384) (g : Fin 8) (k : Fin 5) :
    val_main_v23 (F := Ideal) x1 (ix3 b g k) = lab (lrow (n := 16384) x1 b) g k := by
  have hb := b.isLt; have hg := g.isLt; have hk := k.isLt
  rw [val_main_v23_apply]
  refine at_ix2 x1 _ b ⟨5 * g.val + k.val, by omega⟩ ?_ ?_
  · show ((b.val * 8 + g.val) * 5 + k.val) / 40 = b.val; omega
  · show ((b.val * 8 + g.val) * 5 + k.val) % 40 = 5 * g.val + k.val; omega

/-! Each of a ground-truth box's five numbers, by image and box. -/

theorem v25_at (b : Fin 16384) (g : Fin 8) :
    val_main_v25 (F := Ideal) x1 (ix2 b g) = lab (lrow (n := 16384) x1 b) g 0 := by
  have hb := b.isLt; have hg := g.isLt
  rw [val_main_v25_apply, val_main_v24_apply]
  refine (at_ix3 (val_main_v23 (F := Ideal) x1) _ b g (0 : Fin 5) ?_ ?_ rfl).trans (v23_at x1 b g 0)
  · show (b.val * 8 + g.val) / 8 = b.val; omega
  · show (b.val * 8 + g.val) / 1 % 8 = g.val; omega

theorem v28_at (b : Fin 16384) (g : Fin 8) :
    val_main_v28 (F := Ideal) x1 (ix2 b g) = lab (lrow (n := 16384) x1 b) g 1 := by
  have hb := b.isLt; have hg := g.isLt
  rw [val_main_v28_apply, val_main_v27_apply]
  refine (at_ix3 (val_main_v23 (F := Ideal) x1) _ b g (1 : Fin 5) ?_ ?_ rfl).trans (v23_at x1 b g 1)
  · show (b.val * 8 + g.val) / 8 = b.val; omega
  · show (b.val * 8 + g.val) / 1 % 8 = g.val; omega

theorem v30_at (b : Fin 16384) (g : Fin 8) :
    val_main_v30 (F := Ideal) x1 (ix2 b g) = lab (lrow (n := 16384) x1 b) g 2 := by
  have hb := b.isLt; have hg := g.isLt
  rw [val_main_v30_apply, val_main_v29_apply]
  refine (at_ix3 (val_main_v23 (F := Ideal) x1) _ b g (2 : Fin 5) ?_ ?_ rfl).trans (v23_at x1 b g 2)
  · show (b.val * 8 + g.val) / 8 = b.val; omega
  · show (b.val * 8 + g.val) / 1 % 8 = g.val; omega

theorem v32_at (b : Fin 16384) (g : Fin 8) :
    val_main_v32 (F := Ideal) x1 (ix2 b g) = lab (lrow (n := 16384) x1 b) g 3 := by
  have hb := b.isLt; have hg := g.isLt
  rw [val_main_v32_apply, val_main_v31_apply]
  refine (at_ix3 (val_main_v23 (F := Ideal) x1) _ b g (3 : Fin 5) ?_ ?_ rfl).trans (v23_at x1 b g 3)
  · show (b.val * 8 + g.val) / 8 = b.val; omega
  · show (b.val * 8 + g.val) / 1 % 8 = g.val; omega

theorem v34_at (b : Fin 16384) (g : Fin 8) :
    val_main_v34 (F := Ideal) x1 (ix2 b g) = lab (lrow (n := 16384) x1 b) g 4 := by
  have hb := b.isLt; have hg := g.isLt
  rw [val_main_v34_apply, val_main_v33_apply]
  refine (at_ix3 (val_main_v23 (F := Ideal) x1) _ b g (4 : Fin 5) ?_ ?_ rfl).trans (v23_at x1 b g 4)
  · show (b.val * 8 + g.val) / 8 = b.val; omega
  · show (b.val * 8 + g.val) / 1 % 8 = g.val; omega

/-! The centre and the clipped extent, as fractions of the image side. -/

theorem v39_at (b : Fin 16384) (g : Fin 8) :
    val_main_v39 (F := Ideal) x1 (ix2 b g) = cx (lrow (n := 16384) x1 b) g := by
  rw [val_main_v39_apply, val_main_v38_apply, val_main_v37_apply, val_main_v36_apply, val_main_v35_apply, v28_at, v32_at]
  rfl

theorem v44_at (b : Fin 16384) (g : Fin 8) :
    val_main_v44 (F := Ideal) x1 (ix2 b g) = cy (lrow (n := 16384) x1 b) g := by
  rw [val_main_v44_apply, val_main_v43_apply, val_main_v42_apply, val_main_v41_apply, val_main_v40_apply, v30_at, v34_at]
  rfl

theorem v48_at (b : Fin 16384) (g : Fin 8) :
    val_main_v48 (F := Ideal) x1 (ix2 b g) = gw (lrow (n := 16384) x1 b) g := by
  rw [val_main_v48_apply, val_main_call4_v4_apply, val_main_call4_v2_apply, val_main_call4_v1_apply, val_main_v47_apply,
    val_main_v46_apply, val_main_v45_apply, v32_at, v28_at]
  rfl

theorem v52_at (b : Fin 16384) (g : Fin 8) :
    val_main_v52 (F := Ideal) x1 (ix2 b g) = gh (lrow (n := 16384) x1 b) g := by
  rw [val_main_v52_apply, val_main_call5_v4_apply, val_main_call5_v2_apply, val_main_call5_v1_apply, val_main_v51_apply,
    val_main_v50_apply, val_main_v49_apply, v34_at, v30_at]
  rfl

theorem v53_at (b : Fin 16384) (g : Fin 8) :
    val_main_v53 (F := Ideal) x1 (ix3 b g 0) = cx (lrow (n := 16384) x1 b) g := by
  rw [val_main_v53_apply]
  exact (at_ix2 (val_main_v39 (F := Ideal) x1) _ b g rfl rfl).trans (v39_at x1 b g)

theorem v54_at (b : Fin 16384) (g : Fin 8) :
    val_main_v54 (F := Ideal) x1 (ix3 b g 0) = cy (lrow (n := 16384) x1 b) g := by
  rw [val_main_v54_apply]
  exact (at_ix2 (val_main_v44 (F := Ideal) x1) _ b g rfl rfl).trans (v44_at x1 b g)

theorem v55_at (b : Fin 16384) (g : Fin 8) :
    val_main_v55 (F := Ideal) x1 (ix3 b g 0) = gw (lrow (n := 16384) x1 b) g := by
  rw [val_main_v55_apply]
  exact (at_ix2 (val_main_v48 (F := Ideal) x1) _ b g rfl rfl).trans (v48_at x1 b g)

theorem v56_at (b : Fin 16384) (g : Fin 8) :
    val_main_v56 (F := Ideal) x1 (ix3 b g 0) = gh (lrow (n := 16384) x1 b) g := by
  rw [val_main_v56_apply]
  exact (at_ix2 (val_main_v52 (F := Ideal) x1) _ b g rfl rfl).trans (v52_at x1 b g)

/-- The integer 0 as a float is the float 0. -/
theorem sitofp_zero : (((0#32 : BitVec 32).toInt : ℝ) : EReal) = zero := by
  rw [zero_eq]; simp

/-! ## The reference's values -/

theorem v1_at (b : Fin 16384) (sy sx : Fin 7) (d : Fin 20) :
    val_main_v1 (F := Ideal) x0 (ix4 b sy sx d) = logit (prow (n := 16384) x0 b) (cellOf sy sx) d := by
  rw [val_main_v1_apply]
  exact (at_ix4 (val_main_v0 (F := Ideal) x0) _ b sy sx ⟨d.val, by have := d.isLt; omega⟩ rfl rfl rfl rfl).trans
    (v0_at x0 b sy sx _)

theorem v22_at (b : Fin 16384) (sy sx : Fin 7) (j : Fin 2) (f : Fin 4) :
    val_main_v22 (F := Ideal) x0 (ix5 b sy sx j f) = xywh (prow (n := 16384) x0 b) (cellOf sy sx) j f := by
  unfold val_main_v22
  match f with
  | ⟨0, _⟩ =>
    refine Eq.trans ?_ (v18_at x0 b sy sx j)
    refine concatenate_apply_piece _ _ _ _ 0 ?_ S16384x7x7x2x1 (val_main_v18 (F := Ideal) x0) ?_ ?_ 0 ?_
      (ix5 b sy sx j 0) ?_ ?_
    · show (0 : Nat) < 4; omega
    · rfl
    · rfl
    · rfl
    · intro a ha
      match a, ha with
      | ⟨0, _⟩, _ => rfl
      | ⟨1, _⟩, _ => rfl
      | ⟨2, _⟩, _ => rfl
      | ⟨3, _⟩, _ => rfl
      | ⟨4, _⟩, ha => exact absurd rfl ha
    · rfl
  | ⟨1, _⟩ =>
    refine Eq.trans ?_ (v19_at x0 b sy sx j)
    refine concatenate_apply_piece _ _ _ _ 1 ?_ S16384x7x7x2x1 (val_main_v19 (F := Ideal) x0) ?_ ?_ 1 ?_
      (ix5 b sy sx j 0) ?_ ?_
    · show (1 : Nat) < 4; omega
    · rfl
    · rfl
    · rfl
    · intro a ha
      match a, ha with
      | ⟨0, _⟩, _ => rfl
      | ⟨1, _⟩, _ => rfl
      | ⟨2, _⟩, _ => rfl
      | ⟨3, _⟩, _ => rfl
      | ⟨4, _⟩, ha => exact absurd rfl ha
    · rfl
  | ⟨2, _⟩ =>
    refine Eq.trans ?_ (v20_at x0 b sy sx j)
    refine concatenate_apply_piece _ _ _ _ 2 ?_ S16384x7x7x2x1 (val_main_v20 (F := Ideal) x0) ?_ ?_ 2 ?_
      (ix5 b sy sx j 0) ?_ ?_
    · show (2 : Nat) < 4; omega
    · rfl
    · rfl
    · rfl
    · intro a ha
      match a, ha with
      | ⟨0, _⟩, _ => rfl
      | ⟨1, _⟩, _ => rfl
      | ⟨2, _⟩, _ => rfl
      | ⟨3, _⟩, _ => rfl
      | ⟨4, _⟩, ha => exact absurd rfl ha
    · rfl
  | ⟨3, _⟩ =>
    refine Eq.trans ?_ (v21_at x0 b sy sx j)
    refine concatenate_apply_piece _ _ _ _ 3 ?_ S16384x7x7x2x1 (val_main_v21 (F := Ideal) x0) ?_ ?_ 3 ?_
      (ix5 b sy sx j 0) ?_ ?_
    · show (3 : Nat) < 4; omega
    · rfl
    · rfl
    · rfl
    · intro a ha
      match a, ha with
      | ⟨0, _⟩, _ => rfl
      | ⟨1, _⟩, _ => rfl
      | ⟨2, _⟩, _ => rfl
      | ⟨3, _⟩, _ => rfl
      | ⟨4, _⟩, ha => exact absurd rfl ha
    · rfl

theorem v243_at (b : Fin 16384) (p : Fin 98) :
    val_main_v243 (F := Ideal) x0 (ix2 b p) = confFlat (prow (n := 16384) x0 b) p := by
  have hb := b.isLt; have hp := p.isLt
  have hc : cellOf ⟨p.val / 14, by omega⟩ ⟨p.val / 2 % 7, by omega⟩ = (⟨p.val / 2, by omega⟩ : Fin 49) :=
    Fin.ext (by show 7 * (p.val / 14) + p.val / 2 % 7 = p.val / 2; omega)
  rw [val_main_v243_apply]
  refine (at_ix4 (val_main_v5 (F := Ideal) x0) _ b ⟨p.val / 14, by omega⟩ ⟨p.val / 2 % 7, by omega⟩
    ⟨p.val % 2, by omega⟩ ?_ ?_ ?_ ?_).trans ((v5_at x0 b _ _ _).trans ?_)
  · show (b.val * 98 + p.val) / 98 = b.val; omega
  · show (b.val * 98 + p.val) / 14 % 7 = p.val / 14; omega
  · show (b.val * 98 + p.val) / 2 % 7 = p.val / 2 % 7; omega
  · show (b.val * 98 + p.val) % 2 = p.val % 2; omega
  · rw [hc]; rfl

theorem v26_at (b : Fin 16384) (g : Fin 8) :
    val_main_v26 (F := Ideal) x1 (ix2 b g) = cls (lrow (n := 16384) x1 b) g := by
  rw [val_main_v26_apply, v25_at]
  rfl

theorem v57_at (b : Fin 16384) (g : Fin 8) (f : Fin 4) :
    val_main_v57 (F := Ideal) x1 (ix3 b g f) = gt (lrow (n := 16384) x1 b) g f := by
  unfold val_main_v57
  match f with
  | ⟨0, _⟩ =>
    refine Eq.trans ?_ (v53_at x1 b g)
    refine concatenate_apply_piece _ _ _ _ 0 ?_ S16384x8x1 (val_main_v53 (F := Ideal) x1) ?_ ?_ 0 ?_
      (ix3 b g 0) ?_ ?_
    · show (0 : Nat) < 4; omega
    · rfl
    · rfl
    · rfl
    · intro a ha
      match a, ha with
      | ⟨0, _⟩, _ => rfl
      | ⟨1, _⟩, _ => rfl
      | ⟨2, _⟩, ha => exact absurd rfl ha
    · rfl
  | ⟨1, _⟩ =>
    refine Eq.trans ?_ (v54_at x1 b g)
    refine concatenate_apply_piece _ _ _ _ 1 ?_ S16384x8x1 (val_main_v54 (F := Ideal) x1) ?_ ?_ 1 ?_
      (ix3 b g 0) ?_ ?_
    · show (1 : Nat) < 4; omega
    · rfl
    · rfl
    · rfl
    · intro a ha
      match a, ha with
      | ⟨0, _⟩, _ => rfl
      | ⟨1, _⟩, _ => rfl
      | ⟨2, _⟩, ha => exact absurd rfl ha
    · rfl
  | ⟨2, _⟩ =>
    refine Eq.trans ?_ (v55_at x1 b g)
    refine concatenate_apply_piece _ _ _ _ 2 ?_ S16384x8x1 (val_main_v55 (F := Ideal) x1) ?_ ?_ 2 ?_
      (ix3 b g 0) ?_ ?_
    · show (2 : Nat) < 4; omega
    · rfl
    · rfl
    · rfl
    · intro a ha
      match a, ha with
      | ⟨0, _⟩, _ => rfl
      | ⟨1, _⟩, _ => rfl
      | ⟨2, _⟩, ha => exact absurd rfl ha
    · rfl
  | ⟨3, _⟩ =>
    refine Eq.trans ?_ (v56_at x1 b g)
    refine concatenate_apply_piece _ _ _ _ 3 ?_ S16384x8x1 (val_main_v56 (F := Ideal) x1) ?_ ?_ 3 ?_
      (ix3 b g 0) ?_ ?_
    · show (3 : Nat) < 4; omega
    · rfl
    · rfl
    · rfl
    · intro a ha
      match a, ha with
      | ⟨0, _⟩, _ => rfl
      | ⟨1, _⟩, _ => rfl
      | ⟨2, _⟩, ha => exact absurd rfl ha
    · rfl

theorem v61_at (b : Fin 16384) (g : Fin 8) :
    val_main_v61 (F := Ideal) x1 (ix2 b g) = cellx (lrow (n := 16384) x1 b) g := by
  rw [val_main_v61_apply, val_main_v60_apply, val_main_call6_v4_apply, val_main_call6_v2_apply, val_main_call6_v1_apply,
    val_main_v59_apply, val_main_v58_apply, v39_at]
  show Ideal.fptosi 32 (min six (max (((0#32 : BitVec 32).toInt : ℝ) : EReal) (cx (lrow (n := 16384) x1 b) g * seven))) = _
  rw [sitofp_zero]
  rfl

theorem v65_at (b : Fin 16384) (g : Fin 8) :
    val_main_v65 (F := Ideal) x1 (ix2 b g) = celly (lrow (n := 16384) x1 b) g := by
  rw [val_main_v65_apply, val_main_v64_apply, val_main_call7_v4_apply, val_main_call7_v2_apply, val_main_call7_v1_apply,
    val_main_v63_apply, val_main_v62_apply, v44_at]
  show Ideal.fptosi 32 (min six (max (((0#32 : BitVec 32).toInt : ℝ) : EReal) (cy (lrow (n := 16384) x1 b) g * seven))) = _
  rw [sitofp_zero]
  rfl

theorem v89_at (b : Fin 16384) (g : Fin 8) (f : Fin 4) :
    val_main_v89 (F := Ideal) x1 (ix4 b g 0 f) = gt (lrow (n := 16384) x1 b) g f := by
  rw [val_main_v89_apply]
  exact (at_ix3 (val_main_v57 (F := Ideal) x1) _ b g f rfl rfl rfl).trans (v57_at x1 b g f)

end Cert.ReferenceIdeal.RefValue

end
-- ==== Proof.RGather.lean ====
/-
  The reference selects a ground-truth box's cell by a gather at (image, row, column): the start indices are in range
  (row and column are at most 6), so the gather reads the cell's entry. Read at an index: the selected clipped boxes and
  the selected class scores.
-/
import proofs.«112027_j37778532335632_1_alg».proof.Proof.RUnpack
import Idealize.ShloMosaic.Lib.Pipeline.Value
import Idealize.ShloMosaic.Lib.ValueLayout
import Idealize.ShloMosaic.PureOps.Ideal.Laws
import Idealize.ShloMosaic.Lib.ValueIdx
import Idealize.ShloMosaic.Lib.StableHlo.Predicate

noncomputable section

namespace Cert.ReferenceIdeal.RefValue

open Idealize.ShloMosaic Idealize.ShloMosaic.ValueIdx Cert.Spec Cert.ReferenceIdeal Cert.ReferenceIdeal.ReadP

section Gather
variable [Facts₀] {α : Type}

/-- A start word whose signed value is a number within the axis' range is clamped to itself. -/
theorem rg_clamp_id {w : BitVec 32} {n m : Nat} (h : w.toInt = (n : Int)) (hn : n ≤ m) : min w.toInt.toNat m = n := by
  rw [h]; omega

/-- The gather of the clipped boxes, read at an index: start components on the image, row and column axes, the box and
    the field taken whole. With every start component in range, entry (b, g, j, f) is the operand's at
    (image, row, column, j, f). -/
theorem rg_gather5_apply (x : S16384x7x7x2x4.Idx → α) (idx : IVec S16384x8x3 32)
    (b : Fin 16384) (g : Fin 8) (j : Fin 2) (f : Fin 4) (B : Fin 16384) (R C : Fin 7)
    (hB : (idx (ix3 b g 0)).toInt = (B.val : Int)) (hR : (idx (ix3 b g 1)).toInt = (R.val : Int))
    (hC : (idx (ix3 b g 2)).toInt = (C.val : Int)) :
    Host.gather gather_S16384x7x7x2x4_S16384x8x3_S16384x8x2x4_23_012_n_n_012_2_11124 x idx (ix4 b g j f) = x (ix5 B R C j f) := by
  have h0 : GatherDims.start gather_S16384x7x7x2x4_S16384x8x3_S16384x8x2x4_23_012_n_n_012_2_11124 (ix4 b g j f) idx (⟨0, by decide⟩ : Fin 5)
      + GatherDims.offCoord gather_S16384x7x7x2x4_S16384x8x3_S16384x8x2x4_23_012_n_n_012_2_11124 (ix4 b g j f) (⟨0, by decide⟩ : Fin 5) = B.val := by
    have hc : (⟨0, by decide⟩ : Fin 5) ∈ GatherDims.collapsedSliceDims gather_S16384x7x7x2x4_S16384x8x3_S16384x8x2x4_23_012_n_n_012_2_11124 := by
      show (⟨0, by decide⟩ : Fin 5) ∈ ([0, 1, 2] : List (Fin 5)); decide
    have hm : (⟨0, by decide⟩ : Fin 5) ∈ GatherDims.startIndexMap gather_S16384x7x7x2x4_S16384x8x3_S16384x8x2x4_23_012_n_n_012_2_11124 := by
      show (⟨0, by decide⟩ : Fin 5) ∈ ([0, 1, 2] : List (Fin 5)); decide
    rw [GatherDims.offCoord_eq_zero _ _ _ (fun h => ((GatherDims.mem_sKept _ _).mp h).1 hc), Nat.add_zero]
    unfold GatherDims.start
    rw [dif_pos hm]
    have hsi : ∀ hp, GatherDims.siIdx gather_S16384x7x7x2x4_S16384x8x3_S16384x8x2x4_23_012_n_n_012_2_11124 (ix4 b g j f)
        ⟨List.idxOf (⟨0, by decide⟩ : Fin 5) (GatherDims.startIndexMap gather_S16384x7x7x2x4_S16384x8x3_S16384x8x2x4_23_012_n_n_012_2_11124), hp⟩ = ix3 b g 0 := by
      intro hp; funext c; refine Fin.ext ?_
      match c with
      | ⟨0, _⟩ => rfl
      | ⟨1, _⟩ => rfl
      | ⟨2, _⟩ => rfl
    rw [hsi]
    show min _ 16383 = B.val
    exact rg_clamp_id hB (by have := B.isLt; omega)
  have h1 : GatherDims.start gather_S16384x7x7x2x4_S16384x8x3_S16384x8x2x4_23_012_n_n_012_2_11124 (ix4 b g j f) idx (⟨1, by decide⟩ : Fin 5)
      + GatherDims.offCoord gather_S16384x7x7x2x4_S16384x8x3_S16384x8x2x4_23_012_n_n_012_2_11124 (ix4 b g j f) (⟨1, by decide⟩ : Fin 5) = R.val := by
    have hc : (⟨1, by decide⟩ : Fin 5) ∈ GatherDims.collapsedSliceDims gather_S16384x7x7x2x4_S16384x8x3_S16384x8x2x4_23_012_n_n_012_2_11124 := by
      show (⟨1, by decide⟩ : Fin 5) ∈ ([0, 1, 2] : List (Fin 5)); decide
    have hm : (⟨1, by decide⟩ : Fin 5) ∈ GatherDims.startIndexMap gather_S16384x7x7x2x4_S16384x8x3_S16384x8x2x4_23_012_n_n_012_2_11124 := by
      show (⟨1, by decide⟩ : Fin 5) ∈ ([0, 1, 2] : List (Fin 5)); decide
    rw [GatherDims.offCoord_eq_zero _ _ _ (fun h => ((GatherDims.mem_sKept _ _).mp h).1 hc), Nat.add_zero]
    unfold GatherDims.start
    rw [dif_pos hm]
    have hsi : ∀ hp, GatherDims.siIdx gather_S16384x7x7x2x4_S16384x8x3_S16384x8x2x4_23_012_n_n_012_2_11124 (ix4 b g j f)
        ⟨List.idxOf (⟨1, by decide⟩ : Fin 5) (GatherDims.startIndexMap gather_S16384x7x7x2x4_S16384x8x3_S16384x8x2x4_23_012_n_n_012_2_11124), hp⟩ = ix3 b g 1 := by
      intro hp; funext c; refine Fin.ext ?_
      match c with
      | ⟨0, _⟩ => rfl
      | ⟨1, _⟩ => rfl
      | ⟨2, _⟩ => rfl
    rw [hsi]
    show min _ 6 = R.val
    exact rg_clamp_id hR (by have := R.isLt; omega)
  have h2 : GatherDims.start gather_S16384x7x7x2x4_S16384x8x3_S16384x8x2x4_23_012_n_n_012_2_11124 (ix4 b g j f) idx (⟨2, by decide⟩ : Fin 5)
      + GatherDims.offCoord gather_S16384x7x7x2x4_S16384x8x3_S16384x8x2x4_23_012_n_n_012_2_11124 (ix4 b g j f) (⟨2, by decide⟩ : Fin 5) = C.val := by
    have hc : (⟨2, by decide⟩ : Fin 5) ∈ GatherDims.collapsedSliceDims gather_S16384x7x7x2x4_S16384x8x3_S16384x8x2x4_23_012_n_n_012_2_11124 := by
      show (⟨2, by decide⟩ : Fin 5) ∈ ([0, 1, 2] : List (Fin 5)); decide
    have hm : (⟨2, by decide⟩ : Fin 5) ∈ GatherDims.startIndexMap gather_S16384x7x7x2x4_S16384x8x3_S16384x8x2x4_23_012_n_n_012_2_11124 := by
      show (⟨2, by decide⟩ : Fin 5) ∈ ([0, 1, 2] : List (Fin 5)); decide
    rw [GatherDims.offCoord_eq_zero _ _ _ (fun h => ((GatherDims.mem_sKept _ _).mp h).1 hc), Nat.add_zero]
    unfold GatherDims.start
    rw [dif_pos hm]
    have hsi : ∀ hp, GatherDims.siIdx gather_S16384x7x7x2x4_S16384x8x3_S16384x8x2x4_23_012_n_n_012_2_11124 (ix4 b g j f)
        ⟨List.idxOf (⟨2, by decide⟩ : Fin 5) (GatherDims.startIndexMap gather_S16384x7x7x2x4_S16384x8x3_S16384x8x2x4_23_012_n_n_012_2_11124), hp⟩ = ix3 b g 2 := by
      intro hp; funext c; refine Fin.ext ?_
      match c with
      | ⟨0, _⟩ => rfl
      | ⟨1, _⟩ => rfl
      | ⟨2, _⟩ => rfl
    rw [hsi]
    show min _ 6 = C.val
    exact rg_clamp_id hC (by have := C.isLt; omega)
  have h3 : GatherDims.start gather_S16384x7x7x2x4_S16384x8x3_S16384x8x2x4_23_012_n_n_012_2_11124 (ix4 b g j f) idx (⟨3, by decide⟩ : Fin 5)
      + GatherDims.offCoord gather_S16384x7x7x2x4_S16384x8x3_S16384x8x2x4_23_012_n_n_012_2_11124 (ix4 b g j f) (⟨3, by decide⟩ : Fin 5) = j.val := by
    have hm : (⟨3, by decide⟩ : Fin 5) ∉ GatherDims.startIndexMap gather_S16384x7x7x2x4_S16384x8x3_S16384x8x2x4_23_012_n_n_012_2_11124 := by
      show (⟨3, by decide⟩ : Fin 5) ∉ ([0, 1, 2] : List (Fin 5)); decide
    unfold GatherDims.start
    rw [dif_neg hm, Nat.zero_add]
    rfl
  have h4 : GatherDims.start gather_S16384x7x7x2x4_S16384x8x3_S16384x8x2x4_23_012_n_n_012_2_11124 (ix4 b g j f) idx (⟨4, by decide⟩ : Fin 5)
      + GatherDims.offCoord gather_S16384x7x7x2x4_S16384x8x3_S16384x8x2x4_23_012_n_n_012_2_11124 (ix4 b g j f) (⟨4, by decide⟩ : Fin 5) = f.val := by
    have hm : (⟨4, by decide⟩ : Fin 5) ∉ GatherDims.startIndexMap gather_S16384x7x7x2x4_S16384x8x3_S16384x8x2x4_23_012_n_n_012_2_11124 := by
      show (⟨4, by decide⟩ : Fin 5) ∉ ([0, 1, 2] : List (Fin 5)); decide
    unfold GatherDims.start
    rw [dif_neg hm, Nat.zero_add]
    rfl
  unfold Host.gather
  congr 1
  funext a
  refine Fin.ext ?_
  show GatherDims.start _ (ix4 b g j f) idx a + GatherDims.batchCoord _ (ix4 b g j f) a + GatherDims.offCoord _ (ix4 b g j f) a = _
  rw [GatherDims.batchCoord_eq_zero _ _ _ List.not_mem_nil, Nat.add_zero]
  match a with
  | ⟨0, _⟩ => exact h0
  | ⟨1, _⟩ => exact h1
  | ⟨2, _⟩ => exact h2
  | ⟨3, _⟩ => exact h3
  | ⟨4, _⟩ => exact h4

/-- The gather of the class scores, read at an index: start components on the image, row and column axes, the twenty
    scores taken whole. -/
theorem rg_gather4_apply (x : S16384x7x7x20.Idx → α) (idx : IVec S16384x8x3 32)
    (b : Fin 16384) (g : Fin 8) (d : Fin 20) (B : Fin 16384) (R C : Fin 7)
    (hB : (idx (ix3 b g 0)).toInt = (B.val : Int)) (hR : (idx (ix3 b g 1)).toInt = (R.val : Int))
    (hC : (idx (ix3 b g 2)).toInt = (C.val : Int)) :
    Host.gather gather_S16384x7x7x20_S16384x8x3_S16384x8x20_2_012_n_n_012_2_11120 x idx (ix3 b g d) = x (ix4 B R C d) := by
  have h0 : GatherDims.start gather_S16384x7x7x20_S16384x8x3_S16384x8x20_2_012_n_n_012_2_11120 (ix3 b g d) idx (⟨0, by decide⟩ : Fin 4)
      + GatherDims.offCoord gather_S16384x7x7x20_S16384x8x3_S16384x8x20_2_012_n_n_012_2_11120 (ix3 b g d) (⟨0, by decide⟩ : Fin 4) = B.val := by
    have hc : (⟨0, by decide⟩ : Fin 4) ∈ GatherDims.collapsedSliceDims gather_S16384x7x7x20_S16384x8x3_S16384x8x20_2_012_n_n_012_2_11120 := by
      show (⟨0, by decide⟩ : Fin 4) ∈ ([0, 1, 2] : List (Fin 4)); decide
    have hm : (⟨0, by decide⟩ : Fin 4) ∈ GatherDims.startIndexMap gather_S16384x7x7x20_S16384x8x3_S16384x8x20_2_012_n_n_012_2_11120 := by
      show (⟨0, by decide⟩ : Fin 4) ∈ ([0, 1, 2] : List (Fin 4)); decide
    rw [GatherDims.offCoord_eq_zero _ _ _ (fun h => ((GatherDims.mem_sKept _ _).mp h).1 hc), Nat.add_zero]
    unfold GatherDims.start
    rw [dif_pos hm]
    have hsi : ∀ hp, GatherDims.siIdx gather_S16384x7x7x20_S16384x8x3_S16384x8x20_2_012_n_n_012_2_11120 (ix3 b g d)
        ⟨List.idxOf (⟨0, by decide⟩ : Fin 4) (GatherDims.startIndexMap gather_S16384x7x7x20_S16384x8x3_S16384x8x20_2_012_n_n_012_2_11120), hp⟩ = ix3 b g 0 := by
      intro hp; funext c; refine Fin.ext ?_
      match c with
      | ⟨0, _⟩ => rfl
      | ⟨1, _⟩ => rfl
      | ⟨2, _⟩ => rfl
    rw [hsi]
    show min _ 16383 = B.val
    exact rg_clamp_id hB (by have := B.isLt; omega)
  have h1 : GatherDims.start gather_S16384x7x7x20_S16384x8x3_S16384x8x20_2_012_n_n_012_2_11120 (ix3 b g d) idx (⟨1, by decide⟩ : Fin 4)
      + GatherDims.offCoord gather_S16384x7x7x20_S16384x8x3_S16384x8x20_2_012_n_n_012_2_11120 (ix3 b g d) (⟨1, by decide⟩ : Fin 4) = R.val := by
    have hc : (⟨1, by decide⟩ : Fin 4) ∈ GatherDims.collapsedSliceDims gather_S16384x7x7x20_S16384x8x3_S16384x8x20_2_012_n_n_012_2_11120 := by
      show (⟨1, by decide⟩ : Fin 4) ∈ ([0, 1, 2] : List (Fin 4)); decide
    have hm : (⟨1, by decide⟩ : Fin 4) ∈ GatherDims.startIndexMap gather_S16384x7x7x20_S16384x8x3_S16384x8x20_2_012_n_n_012_2_11120 := by
      show (⟨1, by decide⟩ : Fin 4) ∈ ([0, 1, 2] : List (Fin 4)); decide
    rw [GatherDims.offCoord_eq_zero _ _ _ (fun h => ((GatherDims.mem_sKept _ _).mp h).1 hc), Nat.add_zero]
    unfold GatherDims.start
    rw [dif_pos hm]
    have hsi : ∀ hp, GatherDims.siIdx gather_S16384x7x7x20_S16384x8x3_S16384x8x20_2_012_n_n_012_2_11120 (ix3 b g d)
        ⟨List.idxOf (⟨1, by decide⟩ : Fin 4) (GatherDims.startIndexMap gather_S16384x7x7x20_S16384x8x3_S16384x8x20_2_012_n_n_012_2_11120), hp⟩ = ix3 b g 1 := by
      intro hp; funext c; refine Fin.ext ?_
      match c with
      | ⟨0, _⟩ => rfl
      | ⟨1, _⟩ => rfl
      | ⟨2, _⟩ => rfl
    rw [hsi]
    show min _ 6 = R.val
    exact rg_clamp_id hR (by have := R.isLt; omega)
  have h2 : GatherDims.start gather_S16384x7x7x20_S16384x8x3_S16384x8x20_2_012_n_n_012_2_11120 (ix3 b g d) idx (⟨2, by decide⟩ : Fin 4)
      + GatherDims.offCoord gather_S16384x7x7x20_S16384x8x3_S16384x8x20_2_012_n_n_012_2_11120 (ix3 b g d) (⟨2, by decide⟩ : Fin 4) = C.val := by
    have hc : (⟨2, by decide⟩ : Fin 4) ∈ GatherDims.collapsedSliceDims gather_S16384x7x7x20_S16384x8x3_S16384x8x20_2_012_n_n_012_2_11120 := by
      show (⟨2, by decide⟩ : Fin 4) ∈ ([0, 1, 2] : List (Fin 4)); decide
    have hm : (⟨2, by decide⟩ : Fin 4) ∈ GatherDims.startIndexMap gather_S16384x7x7x20_S16384x8x3_S16384x8x20_2_012_n_n_012_2_11120 := by
      show (⟨2, by decide⟩ : Fin 4) ∈ ([0, 1, 2] : List (Fin 4)); decide
    rw [GatherDims.offCoord_eq_zero _ _ _ (fun h => ((GatherDims.mem_sKept _ _).mp h).1 hc), Nat.add_zero]
    unfold GatherDims.start
    rw [dif_pos hm]
    have hsi : ∀ hp, GatherDims.siIdx gather_S16384x7x7x20_S16384x8x3_S16384x8x20_2_012_n_n_012_2_11120 (ix3 b g d)
        ⟨List.idxOf (⟨2, by decide⟩ : Fin 4) (GatherDims.startIndexMap gather_S16384x7x7x20_S16384x8x3_S16384x8x20_2_012_n_n_012_2_11120), hp⟩ = ix3 b g 2 := by
      intro hp; funext c; refine Fin.ext ?_
      match c with
      | ⟨0, _⟩ => rfl
      | ⟨1, _⟩ => rfl
      | ⟨2, _⟩ => rfl
    rw [hsi]
    show min _ 6 = C.val
    exact rg_clamp_id hC (by have := C.isLt; omega)
  have h3 : GatherDims.start gather_S16384x7x7x20_S16384x8x3_S16384x8x20_2_012_n_n_012_2_11120 (ix3 b g d) idx (⟨3, by decide⟩ : Fin 4)
      + GatherDims.offCoord gather_S16384x7x7x20_S16384x8x3_S16384x8x20_2_012_n_n_012_2_11120 (ix3 b g d) (⟨3, by decide⟩ : Fin 4) = d.val := by
    have hm : (⟨3, by decide⟩ : Fin 4) ∉ GatherDims.startIndexMap gather_S16384x7x7x20_S16384x8x3_S16384x8x20_2_012_n_n_012_2_11120 := by
      show (⟨3, by decide⟩ : Fin 4) ∉ ([0, 1, 2] : List (Fin 4)); decide
    unfold GatherDims.start
    rw [dif_neg hm, Nat.zero_add]
    rfl
  unfold Host.gather
  congr 1
  funext a
  refine Fin.ext ?_
  show GatherDims.start _ (ix3 b g d) idx a + GatherDims.batchCoord _ (ix3 b g d) a + GatherDims.offCoord _ (ix3 b g d) a = _
  rw [GatherDims.batchCoord_eq_zero _ _ _ List.not_mem_nil, Nat.add_zero]
  match a with
  | ⟨0, _⟩ => exact h0
  | ⟨1, _⟩ => exact h1
  | ⟨2, _⟩ => exact h2
  | ⟨3, _⟩ => exact h3

end Gather

/-! An array joined from three one-column pieces along its last axis, read at column 0, 1 or 2: the piece's entry. -/

theorem rg_cat3_0 {α : Type} (p0 p1 p2 : S16384x8x1.Idx → α)
    (h : Shape.Concatenates [S16384x8x1, S16384x8x1, S16384x8x1] S16384x8x3 2) (b : Fin 16384) (g : Fin 8) :
    concatenate S16384x8x3 2 [⟨S16384x8x1, p0⟩, ⟨S16384x8x1, p1⟩, ⟨S16384x8x1, p2⟩] h (ix3 b g 0) = p0 (ix3 b g 0) := by
  refine concatenate_apply_piece _ [⟨S16384x8x1, p0⟩, ⟨S16384x8x1, p1⟩, ⟨S16384x8x1, p2⟩] h (ix3 b g 0) 0 (show 0 < 3 by decide) S16384x8x1 p0 rfl rfl 0 rfl (ix3 b g 0) ?_ rfl
  intro c hc
  match c with
  | ⟨0, _⟩ => rfl
  | ⟨1, _⟩ => rfl
  | ⟨2, _⟩ => exact (hc rfl).elim

theorem rg_cat3_1 {α : Type} (p0 p1 p2 : S16384x8x1.Idx → α)
    (h : Shape.Concatenates [S16384x8x1, S16384x8x1, S16384x8x1] S16384x8x3 2) (b : Fin 16384) (g : Fin 8) :
    concatenate S16384x8x3 2 [⟨S16384x8x1, p0⟩, ⟨S16384x8x1, p1⟩, ⟨S16384x8x1, p2⟩] h (ix3 b g 1) = p1 (ix3 b g 0) := by
  refine concatenate_apply_piece _ [⟨S16384x8x1, p0⟩, ⟨S16384x8x1, p1⟩, ⟨S16384x8x1, p2⟩] h (ix3 b g 1) 1 (show 1 < 3 by decide) S16384x8x1 p1 rfl rfl 1 rfl (ix3 b g 0) ?_ rfl
  intro c hc
  match c with
  | ⟨0, _⟩ => rfl
  | ⟨1, _⟩ => rfl
  | ⟨2, _⟩ => exact (hc rfl).elim

theorem rg_cat3_2 {α : Type} (p0 p1 p2 : S16384x8x1.Idx → α)
    (h : Shape.Concatenates [S16384x8x1, S16384x8x1, S16384x8x1] S16384x8x3 2) (b : Fin 16384) (g : Fin 8) :
    concatenate S16384x8x3 2 [⟨S16384x8x1, p0⟩, ⟨S16384x8x1, p1⟩, ⟨S16384x8x1, p2⟩] h (ix3 b g 2) = p2 (ix3 b g 0) := by
  refine concatenate_apply_piece _ [⟨S16384x8x1, p0⟩, ⟨S16384x8x1, p1⟩, ⟨S16384x8x1, p2⟩] h (ix3 b g 2) 2 (show 2 < 3 by decide) S16384x8x1 p2 rfl rfl 2 rfl (ix3 b g 0) ?_ rfl
  intro c hc
  match c with
  | ⟨0, _⟩ => rfl
  | ⟨1, _⟩ => rfl
  | ⟨2, _⟩ => exact (hc rfl).elim

variable (x0 : (⟨S16384x1470, .f32⟩ : BufTy).Contents (Elt Ideal)) (x1 : (⟨S16384x40, .f32⟩ : BufTy).Contents (Elt Ideal))

/-- Adding the extent to a negative index leaves a non-negative word as it is. -/
theorem rg_wrap_id (w n : BitVec 32) (hw : w.toNat < 2 ^ 31) :
    Scalar.select (IntOp.cmpi .slt w 0#32) (IntOp.addi w n) w = w := by
  unfold Scalar.select
  refine if_neg fun h => ?_
  have h' := (StableHlo.Predicate.slt_iff_toNat hw (by decide)).mp h
  exact Nat.not_lt_zero _ h'

/-! The three pieces of the start indices at (b, g): the image number, the cell's row and the cell's column, each
    non-negative, so the index wrap leaves it as it is. -/

theorem rg_v84_at (b : Fin 16384) (g : Fin 8) :
    val_main_v84 (F := Ideal) (ix3 b g 0) = BitVec.ofNat 32 b.val := by
  rw [val_main_v84_apply, val_main_v83_apply, val_main_v72_apply, val_main_v69_apply, val_main_v71_apply,
    val_main_v67_apply, val_main_v66_apply, val_main_v68_apply, val_main_c_22_apply]
  exact rg_wrap_id (BitVec.ofNat 32 b.val) _ (by rw [BitVec.toNat_ofNat]; have := b.isLt; omega)

theorem rg_iv85 (b : Fin 16384) (g : Fin 8) : idx_main_v85 (ix3 b g 0) = ix2 b g := by
  funext a
  match a with
  | ⟨0, _⟩ => rfl
  | ⟨1, _⟩ => rfl

theorem rg_v85_at (b : Fin 16384) (g : Fin 8) :
    val_main_v85 (F := Ideal) x1 (ix3 b g 0) = celly (lrow (n := 16384) x1 b) g := by
  rw [val_main_v85_apply, rg_iv85, val_main_v77_apply, val_main_v74_apply, val_main_v76_apply, v65_at,
    val_main_v73_apply, val_main_c_24_apply]
  exact rg_wrap_id _ _ (by have := celly_toNat_le (lrow (n := 16384) x1 b) g; omega)

theorem rg_iv86 (b : Fin 16384) (g : Fin 8) : idx_main_v86 (ix3 b g 0) = ix2 b g := by
  funext a
  match a with
  | ⟨0, _⟩ => rfl
  | ⟨1, _⟩ => rfl

theorem rg_v86_at (b : Fin 16384) (g : Fin 8) :
    val_main_v86 (F := Ideal) x1 (ix3 b g 0) = cellx (lrow (n := 16384) x1 b) g := by
  rw [val_main_v86_apply, rg_iv86, val_main_v82_apply, val_main_v79_apply, val_main_v81_apply, v61_at,
    val_main_v78_apply, val_main_c_26_apply]
  exact rg_wrap_id _ _ (by have := cellx_toNat_le (lrow (n := 16384) x1 b) g; omega)

theorem rg_v202_at (b : Fin 16384) (g : Fin 8) :
    val_main_v202 (F := Ideal) (ix3 b g 0) = BitVec.ofNat 32 b.val := by
  rw [val_main_v202_apply, val_main_v201_apply, val_main_v190_apply, val_main_v187_apply, val_main_v189_apply,
    val_main_v67_apply, val_main_v66_apply, val_main_v186_apply, val_main_c_47_apply]
  exact rg_wrap_id (BitVec.ofNat 32 b.val) _ (by rw [BitVec.toNat_ofNat]; have := b.isLt; omega)

theorem rg_iv203 (b : Fin 16384) (g : Fin 8) : idx_main_v203 (ix3 b g 0) = ix2 b g := by
  funext a
  match a with
  | ⟨0, _⟩ => rfl
  | ⟨1, _⟩ => rfl

theorem rg_v203_at (b : Fin 16384) (g : Fin 8) :
    val_main_v203 (F := Ideal) x1 (ix3 b g 0) = celly (lrow (n := 16384) x1 b) g := by
  rw [val_main_v203_apply, rg_iv203, val_main_v195_apply, val_main_v192_apply, val_main_v194_apply, v65_at,
    val_main_v191_apply, val_main_c_49_apply]
  exact rg_wrap_id _ _ (by have := celly_toNat_le (lrow (n := 16384) x1 b) g; omega)

theorem rg_iv204 (b : Fin 16384) (g : Fin 8) : idx_main_v204 (ix3 b g 0) = ix2 b g := by
  funext a
  match a with
  | ⟨0, _⟩ => rfl
  | ⟨1, _⟩ => rfl

theorem rg_v204_at (b : Fin 16384) (g : Fin 8) :
    val_main_v204 (F := Ideal) x1 (ix3 b g 0) = cellx (lrow (n := 16384) x1 b) g := by
  rw [val_main_v204_apply, rg_iv204, val_main_v200_apply, val_main_v197_apply, val_main_v199_apply, v61_at,
    val_main_v196_apply, val_main_c_51_apply]
  exact rg_wrap_id _ _ (by have := cellx_toNat_le (lrow (n := 16384) x1 b) g; omega)

/-! The start indices, component by component: the joined array read at each of its three pieces. -/

theorem rg_v87_at0 (b : Fin 16384) (g : Fin 8) :
    val_main_v87 (F := Ideal) x1 (ix3 b g 0) = BitVec.ofNat 32 b.val := by
  unfold val_main_v87
  exact (rg_cat3_0 _ _ _ _ b g).trans (rg_v84_at b g)

theorem rg_v87_at1 (b : Fin 16384) (g : Fin 8) :
    val_main_v87 (F := Ideal) x1 (ix3 b g 1) = celly (lrow (n := 16384) x1 b) g := by
  unfold val_main_v87
  exact (rg_cat3_1 _ _ _ _ b g).trans (rg_v85_at x1 b g)

theorem rg_v87_at2 (b : Fin 16384) (g : Fin 8) :
    val_main_v87 (F := Ideal) x1 (ix3 b g 2) = cellx (lrow (n := 16384) x1 b) g := by
  unfold val_main_v87
  exact (rg_cat3_2 _ _ _ _ b g).trans (rg_v86_at x1 b g)

theorem rg_v205_at0 (b : Fin 16384) (g : Fin 8) :
    val_main_v205 (F := Ideal) x1 (ix3 b g 0) = BitVec.ofNat 32 b.val := by
  unfold val_main_v205
  exact (rg_cat3_0 _ _ _ _ b g).trans (rg_v202_at b g)

theorem rg_v205_at1 (b : Fin 16384) (g : Fin 8) :
    val_main_v205 (F := Ideal) x1 (ix3 b g 1) = celly (lrow (n := 16384) x1 b) g := by
  unfold val_main_v205
  exact (rg_cat3_1 _ _ _ _ b g).trans (rg_v203_at x1 b g)

theorem rg_v205_at2 (b : Fin 16384) (g : Fin 8) :
    val_main_v205 (F := Ideal) x1 (ix3 b g 2) = cellx (lrow (n := 16384) x1 b) g := by
  unfold val_main_v205
  exact (rg_cat3_2 _ _ _ _ b g).trans (rg_v204_at x1 b g)

/-- Row and column, each at most 6, name the cell 7 · row + column. -/
theorem rg_cellOf_cell (L : LRow) (g : Fin 8) (hy : (celly L g).toNat < 7) (hx : (cellx L g).toNat < 7) :
    cellOf ⟨(celly L g).toNat, hy⟩ ⟨(cellx L g).toNat, hx⟩ = cellN L g := by
  refine Fin.ext ?_
  rw [cellN_val]
  show 7 * (celly L g).toNat + (cellx L g).toNat = (celly L g).toNat * 7 + (cellx L g).toNat
  omega

theorem v88_at (b : Fin 16384) (g : Fin 8) (j : Fin 2) (f : Fin 4) :
    val_main_v88 (F := Ideal) x0 x1 (ix4 b g j f) = pbAt (prow (n := 16384) x0 b) (lrow (n := 16384) x1 b) g j f := by
  have hy : (celly (lrow (n := 16384) x1 b) g).toNat < 7 := by have := celly_toNat_le (lrow (n := 16384) x1 b) g; omega
  have hx : (cellx (lrow (n := 16384) x1 b) g).toNat < 7 := by have := cellx_toNat_le (lrow (n := 16384) x1 b) g; omega
  unfold val_main_v88
  refine (rg_gather5_apply _ _ b g j f b
    ⟨(celly (lrow (n := 16384) x1 b) g).toNat, hy⟩ ⟨(cellx (lrow (n := 16384) x1 b) g).toNat, hx⟩ ?_ ?_ ?_).trans ?_
  · rw [rg_v87_at0]; exact StableHlo.Predicate.toInt_ofNat_small _ (by have := b.isLt; omega)
  · rw [rg_v87_at1]; exact celly_toInt _ _
  · rw [rg_v87_at2]; exact cellx_toInt _ _
  · rw [v22_at, rg_cellOf_cell (lrow (n := 16384) x1 b) g hy hx]
    rfl

theorem v206_at (b : Fin 16384) (g : Fin 8) (d : Fin 20) :
    val_main_v206 (F := Ideal) x0 x1 (ix3 b g d) = logit (prow (n := 16384) x0 b) (cellN (lrow (n := 16384) x1 b) g) d := by
  have hy : (celly (lrow (n := 16384) x1 b) g).toNat < 7 := by have := celly_toNat_le (lrow (n := 16384) x1 b) g; omega
  have hx : (cellx (lrow (n := 16384) x1 b) g).toNat < 7 := by have := cellx_toNat_le (lrow (n := 16384) x1 b) g; omega
  unfold val_main_v206
  refine (rg_gather4_apply _ _ b g d b
    ⟨(celly (lrow (n := 16384) x1 b) g).toNat, hy⟩ ⟨(cellx (lrow (n := 16384) x1 b) g).toNat, hx⟩ ?_ ?_ ?_).trans ?_
  · rw [rg_v205_at0]; exact StableHlo.Predicate.toInt_ofNat_small _ (by have := b.isLt; omega)
  · rw [rg_v205_at1]; exact celly_toInt _ _
  · rw [rg_v205_at2]; exact cellx_toInt _ _
  · rw [v1_at, rg_cellOf_cell (lrow (n := 16384) x1 b) g hy hx]

end Cert.ReferenceIdeal.RefValue

end
-- ==== Proof.RIou.lean ====
/-
  Intersection over union of the cell's two predicted boxes with the ground-truth box, the responsible box (read back by
  an in-range take along the box axis), and the sum of `1 - iou` over all images and their 8 ground-truth boxes.
-/
import proofs.«112027_j37778532335632_1_alg».proof.Proof.RGather
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.Spec Cert.ReferenceIdeal Cert.ReferenceIdeal.ReadP

/-! ## The edges of the boxes, their overlap and their areas, as functions of one image's rows -/

/-- Left, top, right and bottom edge of predicted box `j` of the cell ground-truth box `g` falls in. -/
def riouPx1 (P : PRow) (L : LRow) (g : Fin 8) (j : Fin 2) : EReal := pbAt P L g j 0 - Ideal.div (pbAt P L g j 2) two
def riouPy1 (P : PRow) (L : LRow) (g : Fin 8) (j : Fin 2) : EReal := pbAt P L g j 1 - Ideal.div (pbAt P L g j 3) two
def riouPx2 (P : PRow) (L : LRow) (g : Fin 8) (j : Fin 2) : EReal := pbAt P L g j 0 + Ideal.div (pbAt P L g j 2) two
def riouPy2 (P : PRow) (L : LRow) (g : Fin 8) (j : Fin 2) : EReal := pbAt P L g j 1 + Ideal.div (pbAt P L g j 3) two
/-- The same four edges of ground-truth box `g`. -/
def riouGx1 (L : LRow) (g : Fin 8) : EReal := gt L g 0 - Ideal.div (gt L g 2) two
def riouGy1 (L : LRow) (g : Fin 8) : EReal := gt L g 1 - Ideal.div (gt L g 3) two
def riouGx2 (L : LRow) (g : Fin 8) : EReal := gt L g 0 + Ideal.div (gt L g 2) two
def riouGy2 (L : LRow) (g : Fin 8) : EReal := gt L g 1 + Ideal.div (gt L g 3) two
/-- Width and height of the overlap, clipped at zero. -/
def riouIw (P : PRow) (L : LRow) (g : Fin 8) (j : Fin 2) : EReal :=
  max zero (min (riouPx2 P L g j) (riouGx2 L g) - max (riouPx1 P L g j) (riouGx1 L g))
def riouIh (P : PRow) (L : LRow) (g : Fin 8) (j : Fin 2) : EReal :=
  max zero (min (riouPy2 P L g j) (riouGy2 L g) - max (riouPy1 P L g j) (riouGy1 L g))
/-- The overlap's area and the two boxes' areas. -/
def riouInter (P : PRow) (L : LRow) (g : Fin 8) (j : Fin 2) : EReal := riouIw P L g j * riouIh P L g j
def riouA1 (P : PRow) (L : LRow) (g : Fin 8) (j : Fin 2) : EReal :=
  max zero (riouPx2 P L g j - riouPx1 P L g j) * max zero (riouPy2 P L g j - riouPy1 P L g j)
def riouA2 (L : LRow) (g : Fin 8) : EReal :=
  max zero (riouGx2 L g - riouGx1 L g) * max zero (riouGy2 L g - riouGy1 L g)

/-- Intersection over union is the overlap over the union's area, the latter kept above the small constant. -/
theorem riou_iouAt (P : PRow) (L : LRow) (g : Fin 8) (j : Fin 2) :
    Ideal.div (riouInter P L g j) (max eps ((riouA1 P L g j + riouA2 L g) - riouInter P L g j)) = iouAt P L g j := rfl

/-! ## Words: the responsible box's number is 0 or 1 -/

/-- A word that is 0 or 1 is not negative, so the wrap of a negative index leaves it. -/
theorem riou_wrap (w : BitVec 32) (hw : w = 0#32 ∨ w = 1#32) :
    Scalar.select (IntOp.cmpi .slt w 0#32) (IntOp.addi w 2#32) w = w := by
  rcases hw with rfl | rfl <;> decide

/-- A word that is 0 or 1 lies in the range `[0, 1]`. -/
theorem riou_inrange (w : BitVec 32) (hw : w = 0#32 ∨ w = 1#32) :
    IntOp.andi (IntOp.cmpi .sge w 0#32) (IntOp.cmpi .sle w 1#32) = 1#1 := by
  rcases hw with rfl | rfl <;> decide

/-- The responsible box's number is 0 or 1. -/
theorem riou_bestAt_cases (P : PRow) (L : LRow) (g : Fin 8) : bestAt P L g = 0#32 ∨ bestAt P L g = 1#32 :=
  best_cases _ _

/-! ## An and-reduction of ones, and the take along the last axis -/

/-- A left fold by `and` from 1 over words that are all 1 is 1. -/
theorem riou_foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    have h1 : IntOp.andi 1#1 1#1 = (1#1 : BitVec 1) := by decide
    rw [h1]
    exact ih (fun n hn => hf n (List.mem_cons_of_mem _ hn))

/-- An and-reduction from 1 of an array of ones is 1 at every index. -/
theorem riou_reduce_andi_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  unfold Host.reduce
  rw [hi]
  exact riou_foldl_andi_one (fun n => x (s.rowMajor.symm n)) _ (fun n _ => hx _)

/-- The take along the box axis read at an index: the operand at the start index, read signed and clamped into the axis. -/
theorem riou_gather_last {α : Type} {w : Nat} (x : S16384x8x2.Idx → α) (idx : IVec S16384x8x1x1 w) (b : Fin 16384) (g : Fin 8)
    (z : Fin 1) (k : Fin 2) (hk : min (idx (ix4 b g (0 : Fin 1) (0 : Fin 1))).toInt.toNat 1 = k.val) :
    Host.gather gather_S16384x8x2_S16384x8x1x1_S16384x8x1_n_2_01_01_2_3_111 x idx (ix3 b g z) = x (ix3 b g k) := by
  obtain rfl : z = 0 := Subsingleton.elim _ _
  unfold Host.gather
  congr 1
  funext a
  refine Fin.ext ?_
  match a with
  | ⟨0, _⟩ => exact Eq.trans (b := 0 + b.val) rfl (Nat.zero_add _)
  | ⟨1, _⟩ => exact Eq.trans (b := 0 + g.val) rfl (Nat.zero_add _)
  | ⟨2, _⟩ =>
    have hsi : gather_S16384x8x2_S16384x8x1x1_S16384x8x1_n_2_01_01_2_3_111.siIdx (ix3 b g (0 : Fin 1)) ⟨0, by decide⟩
        = ix4 b g (0 : Fin 1) (0 : Fin 1) := by
      funext c
      refine Fin.ext ?_
      match c with
      | ⟨0, _⟩ => rfl
      | ⟨1, _⟩ => rfl
      | ⟨2, _⟩ => rfl
      | ⟨3, _⟩ => rfl
    refine Eq.trans (b := min (idx (gather_S16384x8x2_S16384x8x1x1_S16384x8x1_n_2_01_01_2_3_111.siIdx
      (ix3 b g (0 : Fin 1)) ⟨0, by decide⟩)).toInt.toNat 1) rfl ?_
    rw [hsi]
    exact hk

/-! ## The layout operations' operand indices at explicit coordinates -/

theorem riou_idx_v91 (b : Fin 16384) (g : Fin 8) (j : Fin 2) : idx_main_v91 (ix3 b g j) = ix4 b g j (0 : Fin 1) := by
  have hb := b.isLt; have hg := g.isLt; have hj := j.isLt
  funext a
  match a with
  | ⟨0, _⟩ => exact Fin.ext (by show ((b.val * 8 + g.val) * 2 + j.val) / 16 = b.val; omega)
  | ⟨1, _⟩ => exact Fin.ext (by show ((b.val * 8 + g.val) * 2 + j.val) / 2 % 8 = g.val; omega)
  | ⟨2, _⟩ => exact Fin.ext (by show ((b.val * 8 + g.val) * 2 + j.val) / 1 % 2 = j.val; omega)
  | ⟨3, _⟩ => rfl
theorem riou_idx_v93 (b : Fin 16384) (g : Fin 8) (j : Fin 2) : idx_main_v93 (ix3 b g j) = ix4 b g j (0 : Fin 1) := by
  have hb := b.isLt; have hg := g.isLt; have hj := j.isLt
  funext a
  match a with
  | ⟨0, _⟩ => exact Fin.ext (by show ((b.val * 8 + g.val) * 2 + j.val) / 16 = b.val; omega)
  | ⟨1, _⟩ => exact Fin.ext (by show ((b.val * 8 + g.val) * 2 + j.val) / 2 % 8 = g.val; omega)
  | ⟨2, _⟩ => exact Fin.ext (by show ((b.val * 8 + g.val) * 2 + j.val) / 1 % 2 = j.val; omega)
  | ⟨3, _⟩ => rfl
theorem riou_idx_v98 (b : Fin 16384) (g : Fin 8) (j : Fin 2) : idx_main_v98 (ix3 b g j) = ix4 b g j (0 : Fin 1) := by
  have hb := b.isLt; have hg := g.isLt; have hj := j.isLt
  funext a
  match a with
  | ⟨0, _⟩ => exact Fin.ext (by show ((b.val * 8 + g.val) * 2 + j.val) / 16 = b.val; omega)
  | ⟨1, _⟩ => exact Fin.ext (by show ((b.val * 8 + g.val) * 2 + j.val) / 2 % 8 = g.val; omega)
  | ⟨2, _⟩ => exact Fin.ext (by show ((b.val * 8 + g.val) * 2 + j.val) / 1 % 2 = j.val; omega)
  | ⟨3, _⟩ => rfl
theorem riou_idx_v100 (b : Fin 16384) (g : Fin 8) (j : Fin 2) : idx_main_v100 (ix3 b g j) = ix4 b g j (0 : Fin 1) := by
  have hb := b.isLt; have hg := g.isLt; have hj := j.isLt
  funext a
  match a with
  | ⟨0, _⟩ => exact Fin.ext (by show ((b.val * 8 + g.val) * 2 + j.val) / 16 = b.val; omega)
  | ⟨1, _⟩ => exact Fin.ext (by show ((b.val * 8 + g.val) * 2 + j.val) / 2 % 8 = g.val; omega)
  | ⟨2, _⟩ => exact Fin.ext (by show ((b.val * 8 + g.val) * 2 + j.val) / 1 % 2 = j.val; omega)
  | ⟨3, _⟩ => rfl
theorem riou_idx_v105 (b : Fin 16384) (g : Fin 8) (j : Fin 2) : idx_main_v105 (ix3 b g j) = ix4 b g j (0 : Fin 1) := by
  have hb := b.isLt; have hg := g.isLt; have hj := j.isLt
  funext a
  match a with
  | ⟨0, _⟩ => exact Fin.ext (by show ((b.val * 8 + g.val) * 2 + j.val) / 16 = b.val; omega)
  | ⟨1, _⟩ => exact Fin.ext (by show ((b.val * 8 + g.val) * 2 + j.val) / 2 % 8 = g.val; omega)
  | ⟨2, _⟩ => exact Fin.ext (by show ((b.val * 8 + g.val) * 2 + j.val) / 1 % 2 = j.val; omega)
  | ⟨3, _⟩ => rfl
theorem riou_idx_v107 (b : Fin 16384) (g : Fin 8) (j : Fin 2) : idx_main_v107 (ix3 b g j) = ix4 b g j (0 : Fin 1) := by
  have hb := b.isLt; have hg := g.isLt; have hj := j.isLt
  funext a
  match a with
  | ⟨0, _⟩ => exact Fin.ext (by show ((b.val * 8 + g.val) * 2 + j.val) / 16 = b.val; omega)
  | ⟨1, _⟩ => exact Fin.ext (by show ((b.val * 8 + g.val) * 2 + j.val) / 2 % 8 = g.val; omega)
  | ⟨2, _⟩ => exact Fin.ext (by show ((b.val * 8 + g.val) * 2 + j.val) / 1 % 2 = j.val; omega)
  | ⟨3, _⟩ => rfl
theorem riou_idx_v112 (b : Fin 16384) (g : Fin 8) (j : Fin 2) : idx_main_v112 (ix3 b g j) = ix4 b g j (0 : Fin 1) := by
  have hb := b.isLt; have hg := g.isLt; have hj := j.isLt
  funext a
  match a with
  | ⟨0, _⟩ => exact Fin.ext (by show ((b.val * 8 + g.val) * 2 + j.val) / 16 = b.val; omega)
  | ⟨1, _⟩ => exact Fin.ext (by show ((b.val * 8 + g.val) * 2 + j.val) / 2 % 8 = g.val; omega)
  | ⟨2, _⟩ => exact Fin.ext (by show ((b.val * 8 + g.val) * 2 + j.val) / 1 % 2 = j.val; omega)
  | ⟨3, _⟩ => rfl
theorem riou_idx_v114 (b : Fin 16384) (g : Fin 8) (j : Fin 2) : idx_main_v114 (ix3 b g j) = ix4 b g j (0 : Fin 1) := by
  have hb := b.isLt; have hg := g.isLt; have hj := j.isLt
  funext a
  match a with
  | ⟨0, _⟩ => exact Fin.ext (by show ((b.val * 8 + g.val) * 2 + j.val) / 16 = b.val; omega)
  | ⟨1, _⟩ => exact Fin.ext (by show ((b.val * 8 + g.val) * 2 + j.val) / 2 % 8 = g.val; omega)
  | ⟨2, _⟩ => exact Fin.ext (by show ((b.val * 8 + g.val) * 2 + j.val) / 1 % 2 = j.val; omega)
  | ⟨3, _⟩ => rfl
theorem riou_idx_v90 (b : Fin 16384) (g : Fin 8) (j : Fin 2) (z : Fin 1) : idx_main_v90 (ix4 b g j z) = ix4 b g j (0 : Fin 4) := by
  have hz := z.isLt
  funext a
  match a with
  | ⟨0, _⟩ => rfl
  | ⟨1, _⟩ => rfl
  | ⟨2, _⟩ => rfl
  | ⟨3, _⟩ => exact Fin.ext (by show z.val = 0; omega)
theorem riou_idx_v92 (b : Fin 16384) (g : Fin 8) (j : Fin 2) (z : Fin 1) : idx_main_v92 (ix4 b g j z) = ix4 b g j (2 : Fin 4) := by
  have hz := z.isLt
  funext a
  match a with
  | ⟨0, _⟩ => rfl
  | ⟨1, _⟩ => rfl
  | ⟨2, _⟩ => rfl
  | ⟨3, _⟩ => exact Fin.ext (by show 2 + z.val = 2; omega)
theorem riou_idx_v97 (b : Fin 16384) (g : Fin 8) (j : Fin 2) (z : Fin 1) : idx_main_v97 (ix4 b g j z) = ix4 b g j (1 : Fin 4) := by
  have hz := z.isLt
  funext a
  match a with
  | ⟨0, _⟩ => rfl
  | ⟨1, _⟩ => rfl
  | ⟨2, _⟩ => rfl
  | ⟨3, _⟩ => exact Fin.ext (by show 1 + z.val = 1; omega)
theorem riou_idx_v99 (b : Fin 16384) (g : Fin 8) (j : Fin 2) (z : Fin 1) : idx_main_v99 (ix4 b g j z) = ix4 b g j (3 : Fin 4) := by
  have hz := z.isLt
  funext a
  match a with
  | ⟨0, _⟩ => rfl
  | ⟨1, _⟩ => rfl
  | ⟨2, _⟩ => rfl
  | ⟨3, _⟩ => exact Fin.ext (by show 3 + z.val = 3; omega)
theorem riou_idx_v104 (b : Fin 16384) (g : Fin 8) (j : Fin 2) (z : Fin 1) : idx_main_v104 (ix4 b g j z) = ix4 b g j (0 : Fin 4) := by
  have hz := z.isLt
  funext a
  match a with
  | ⟨0, _⟩ => rfl
  | ⟨1, _⟩ => rfl
  | ⟨2, _⟩ => rfl
  | ⟨3, _⟩ => exact Fin.ext (by show z.val = 0; omega)
theorem riou_idx_v106 (b : Fin 16384) (g : Fin 8) (j : Fin 2) (z : Fin 1) : idx_main_v106 (ix4 b g j z) = ix4 b g j (2 : Fin 4) := by
  have hz := z.isLt
  funext a
  match a with
  | ⟨0, _⟩ => rfl
  | ⟨1, _⟩ => rfl
  | ⟨2, _⟩ => rfl
  | ⟨3, _⟩ => exact Fin.ext (by show 2 + z.val = 2; omega)
theorem riou_idx_v111 (b : Fin 16384) (g : Fin 8) (j : Fin 2) (z : Fin 1) : idx_main_v111 (ix4 b g j z) = ix4 b g j (1 : Fin 4) := by
  have hz := z.isLt
  funext a
  match a with
  | ⟨0, _⟩ => rfl
  | ⟨1, _⟩ => rfl
  | ⟨2, _⟩ => rfl
  | ⟨3, _⟩ => exact Fin.ext (by show 1 + z.val = 1; omega)
theorem riou_idx_v113 (b : Fin 16384) (g : Fin 8) (j : Fin 2) (z : Fin 1) : idx_main_v113 (ix4 b g j z) = ix4 b g j (3 : Fin 4) := by
  have hz := z.isLt
  funext a
  match a with
  | ⟨0, _⟩ => rfl
  | ⟨1, _⟩ => rfl
  | ⟨2, _⟩ => rfl
  | ⟨3, _⟩ => exact Fin.ext (by show 3 + z.val = 3; omega)
theorem riou_idx_v119 (b : Fin 16384) (g : Fin 8) (z : Fin 1) : idx_main_v119 (ix3 b g z) = ix4 b g (0 : Fin 1) (0 : Fin 1) := by
  have hb := b.isLt; have hg := g.isLt; have hz := z.isLt
  funext a
  match a with
  | ⟨0, _⟩ => exact Fin.ext (by show ((b.val * 8 + g.val) * 1 + z.val) / 8 = b.val; omega)
  | ⟨1, _⟩ => exact Fin.ext (by show ((b.val * 8 + g.val) * 1 + z.val) / 1 % 8 = g.val; omega)
  | ⟨2, _⟩ => rfl
  | ⟨3, _⟩ => rfl
theorem riou_idx_v121 (b : Fin 16384) (g : Fin 8) (z : Fin 1) : idx_main_v121 (ix3 b g z) = ix4 b g (0 : Fin 1) (0 : Fin 1) := by
  have hb := b.isLt; have hg := g.isLt; have hz := z.isLt
  funext a
  match a with
  | ⟨0, _⟩ => exact Fin.ext (by show ((b.val * 8 + g.val) * 1 + z.val) / 8 = b.val; omega)
  | ⟨1, _⟩ => exact Fin.ext (by show ((b.val * 8 + g.val) * 1 + z.val) / 1 % 8 = g.val; omega)
  | ⟨2, _⟩ => rfl
  | ⟨3, _⟩ => rfl
theorem riou_idx_v126 (b : Fin 16384) (g : Fin 8) (z : Fin 1) : idx_main_v126 (ix3 b g z) = ix4 b g (0 : Fin 1) (0 : Fin 1) := by
  have hb := b.isLt; have hg := g.isLt; have hz := z.isLt
  funext a
  match a with
  | ⟨0, _⟩ => exact Fin.ext (by show ((b.val * 8 + g.val) * 1 + z.val) / 8 = b.val; omega)
  | ⟨1, _⟩ => exact Fin.ext (by show ((b.val * 8 + g.val) * 1 + z.val) / 1 % 8 = g.val; omega)
  | ⟨2, _⟩ => rfl
  | ⟨3, _⟩ => rfl
theorem riou_idx_v128 (b : Fin 16384) (g : Fin 8) (z : Fin 1) : idx_main_v128 (ix3 b g z) = ix4 b g (0 : Fin 1) (0 : Fin 1) := by
  have hb := b.isLt; have hg := g.isLt; have hz := z.isLt
  funext a
  match a with
  | ⟨0, _⟩ => exact Fin.ext (by show ((b.val * 8 + g.val) * 1 + z.val) / 8 = b.val; omega)
  | ⟨1, _⟩ => exact Fin.ext (by show ((b.val * 8 + g.val) * 1 + z.val) / 1 % 8 = g.val; omega)
  | ⟨2, _⟩ => rfl
  | ⟨3, _⟩ => rfl
theorem riou_idx_v133 (b : Fin 16384) (g : Fin 8) (z : Fin 1) : idx_main_v133 (ix3 b g z) = ix4 b g (0 : Fin 1) (0 : Fin 1) := by
  have hb := b.isLt; have hg := g.isLt; have hz := z.isLt
  funext a
  match a with
  | ⟨0, _⟩ => exact Fin.ext (by show ((b.val * 8 + g.val) * 1 + z.val) / 8 = b.val; omega)
  | ⟨1, _⟩ => exact Fin.ext (by show ((b.val * 8 + g.val) * 1 + z.val) / 1 % 8 = g.val; omega)
  | ⟨2, _⟩ => rfl
  | ⟨3, _⟩ => rfl
theorem riou_idx_v135 (b : Fin 16384) (g : Fin 8) (z : Fin 1) : idx_main_v135 (ix3 b g z) = ix4 b g (0 : Fin 1) (0 : Fin 1) := by
  have hb := b.isLt; have hg := g.isLt; have hz := z.isLt
  funext a
  match a with
  | ⟨0, _⟩ => exact Fin.ext (by show ((b.val * 8 + g.val) * 1 + z.val) / 8 = b.val; omega)
  | ⟨1, _⟩ => exact Fin.ext (by show ((b.val * 8 + g.val) * 1 + z.val) / 1 % 8 = g.val; omega)
  | ⟨2, _⟩ => rfl
  | ⟨3, _⟩ => rfl
theorem riou_idx_v140 (b : Fin 16384) (g : Fin 8) (z : Fin 1) : idx_main_v140 (ix3 b g z) = ix4 b g (0 : Fin 1) (0 : Fin 1) := by
  have hb := b.isLt; have hg := g.isLt; have hz := z.isLt
  funext a
  match a with
  | ⟨0, _⟩ => exact Fin.ext (by show ((b.val * 8 + g.val) * 1 + z.val) / 8 = b.val; omega)
  | ⟨1, _⟩ => exact Fin.ext (by show ((b.val * 8 + g.val) * 1 + z.val) / 1 % 8 = g.val; omega)
  | ⟨2, _⟩ => rfl
  | ⟨3, _⟩ => rfl
theorem riou_idx_v142 (b : Fin 16384) (g : Fin 8) (z : Fin 1) : idx_main_v142 (ix3 b g z) = ix4 b g (0 : Fin 1) (0 : Fin 1) := by
  have hb := b.isLt; have hg := g.isLt; have hz := z.isLt
  funext a
  match a with
  | ⟨0, _⟩ => exact Fin.ext (by show ((b.val * 8 + g.val) * 1 + z.val) / 8 = b.val; omega)
  | ⟨1, _⟩ => exact Fin.ext (by show ((b.val * 8 + g.val) * 1 + z.val) / 1 % 8 = g.val; omega)
  | ⟨2, _⟩ => rfl
  | ⟨3, _⟩ => rfl
theorem riou_idx_v118 (b : Fin 16384) (g : Fin 8) (z z' : Fin 1) : idx_main_v118 (ix4 b g z z') = ix4 b g (0 : Fin 1) (0 : Fin 4) := by
  have hz := z.isLt; have hz' := z'.isLt
  funext a
  match a with
  | ⟨0, _⟩ => rfl
  | ⟨1, _⟩ => rfl
  | ⟨2, _⟩ => exact Fin.ext (by show z.val = 0; omega)
  | ⟨3, _⟩ => exact Fin.ext (by show z'.val = 0; omega)
theorem riou_idx_v120 (b : Fin 16384) (g : Fin 8) (z z' : Fin 1) : idx_main_v120 (ix4 b g z z') = ix4 b g (0 : Fin 1) (2 : Fin 4) := by
  have hz := z.isLt; have hz' := z'.isLt
  funext a
  match a with
  | ⟨0, _⟩ => rfl
  | ⟨1, _⟩ => rfl
  | ⟨2, _⟩ => exact Fin.ext (by show z.val = 0; omega)
  | ⟨3, _⟩ => exact Fin.ext (by show 2 + z'.val = 2; omega)
theorem riou_idx_v125 (b : Fin 16384) (g : Fin 8) (z z' : Fin 1) : idx_main_v125 (ix4 b g z z') = ix4 b g (0 : Fin 1) (1 : Fin 4) := by
  have hz := z.isLt; have hz' := z'.isLt
  funext a
  match a with
  | ⟨0, _⟩ => rfl
  | ⟨1, _⟩ => rfl
  | ⟨2, _⟩ => exact Fin.ext (by show z.val = 0; omega)
  | ⟨3, _⟩ => exact Fin.ext (by show 1 + z'.val = 1; omega)
theorem riou_idx_v127 (b : Fin 16384) (g : Fin 8) (z z' : Fin 1) : idx_main_v127 (ix4 b g z z') = ix4 b g (0 : Fin 1) (3 : Fin 4) := by
  have hz := z.isLt; have hz' := z'.isLt
  funext a
  match a with
  | ⟨0, _⟩ => rfl
  | ⟨1, _⟩ => rfl
  | ⟨2, _⟩ => exact Fin.ext (by show z.val = 0; omega)
  | ⟨3, _⟩ => exact Fin.ext (by show 3 + z'.val = 3; omega)
theorem riou_idx_v132 (b : Fin 16384) (g : Fin 8) (z z' : Fin 1) : idx_main_v132 (ix4 b g z z') = ix4 b g (0 : Fin 1) (0 : Fin 4) := by
  have hz := z.isLt; have hz' := z'.isLt
  funext a
  match a with
  | ⟨0, _⟩ => rfl
  | ⟨1, _⟩ => rfl
  | ⟨2, _⟩ => exact Fin.ext (by show z.val = 0; omega)
  | ⟨3, _⟩ => exact Fin.ext (by show z'.val = 0; omega)
theorem riou_idx_v134 (b : Fin 16384) (g : Fin 8) (z z' : Fin 1) : idx_main_v134 (ix4 b g z z') = ix4 b g (0 : Fin 1) (2 : Fin 4) := by
  have hz := z.isLt; have hz' := z'.isLt
  funext a
  match a with
  | ⟨0, _⟩ => rfl
  | ⟨1, _⟩ => rfl
  | ⟨2, _⟩ => exact Fin.ext (by show z.val = 0; omega)
  | ⟨3, _⟩ => exact Fin.ext (by show 2 + z'.val = 2; omega)
theorem riou_idx_v139 (b : Fin 16384) (g : Fin 8) (z z' : Fin 1) : idx_main_v139 (ix4 b g z z') = ix4 b g (0 : Fin 1) (1 : Fin 4) := by
  have hz := z.isLt; have hz' := z'.isLt
  funext a
  match a with
  | ⟨0, _⟩ => rfl
  | ⟨1, _⟩ => rfl
  | ⟨2, _⟩ => exact Fin.ext (by show z.val = 0; omega)
  | ⟨3, _⟩ => exact Fin.ext (by show 1 + z'.val = 1; omega)
theorem riou_idx_v141 (b : Fin 16384) (g : Fin 8) (z z' : Fin 1) : idx_main_v141 (ix4 b g z z') = ix4 b g (0 : Fin 1) (3 : Fin 4) := by
  have hz := z.isLt; have hz' := z'.isLt
  funext a
  match a with
  | ⟨0, _⟩ => rfl
  | ⟨1, _⟩ => rfl
  | ⟨2, _⟩ => exact Fin.ext (by show z.val = 0; omega)
  | ⟨3, _⟩ => exact Fin.ext (by show 3 + z'.val = 3; omega)
theorem riou_idx_v146 (b : Fin 16384) (g : Fin 8) (j : Fin 2) : idx_main_v146 (ix3 b g j) = ix3 b g (0 : Fin 1) := by
  funext a
  match a with
  | ⟨0, _⟩ => rfl
  | ⟨1, _⟩ => rfl
  | ⟨2, _⟩ => rfl
theorem riou_idx_v148 (b : Fin 16384) (g : Fin 8) (j : Fin 2) : idx_main_v148 (ix3 b g j) = ix3 b g (0 : Fin 1) := by
  funext a
  match a with
  | ⟨0, _⟩ => rfl
  | ⟨1, _⟩ => rfl
  | ⟨2, _⟩ => rfl
theorem riou_idx_v152 (b : Fin 16384) (g : Fin 8) (j : Fin 2) : idx_main_v152 (ix3 b g j) = ix3 b g (0 : Fin 1) := by
  funext a
  match a with
  | ⟨0, _⟩ => rfl
  | ⟨1, _⟩ => rfl
  | ⟨2, _⟩ => rfl
theorem riou_idx_v154 (b : Fin 16384) (g : Fin 8) (j : Fin 2) : idx_main_v154 (ix3 b g j) = ix3 b g (0 : Fin 1) := by
  funext a
  match a with
  | ⟨0, _⟩ => rfl
  | ⟨1, _⟩ => rfl
  | ⟨2, _⟩ => rfl
theorem riou_idx_v169 (b : Fin 16384) (g : Fin 8) (j : Fin 2) : idx_main_v169 (ix3 b g j) = ix3 b g (0 : Fin 1) := by
  funext a
  match a with
  | ⟨0, _⟩ => rfl
  | ⟨1, _⟩ => rfl
  | ⟨2, _⟩ => rfl
theorem riou_idx_v175 (b : Fin 16384) (g : Fin 8) : idx_main_v175 (ix2 b g) = ix3 b g (0 : Fin 1) := by
  have hb := b.isLt; have hg := g.isLt
  funext a
  match a with
  | ⟨0, _⟩ => exact Fin.ext (by show (b.val * 8 + g.val) / 8 = b.val; omega)
  | ⟨1, _⟩ => exact Fin.ext (by show (b.val * 8 + g.val) / 1 % 8 = g.val; omega)
  | ⟨2, _⟩ => rfl
theorem riou_idx_v177 (b : Fin 16384) (g : Fin 8) : idx_main_v177 (ix2 b g) = ix3 b g (0 : Fin 1) := by
  have hb := b.isLt; have hg := g.isLt
  funext a
  match a with
  | ⟨0, _⟩ => exact Fin.ext (by show (b.val * 8 + g.val) / 8 = b.val; omega)
  | ⟨1, _⟩ => exact Fin.ext (by show (b.val * 8 + g.val) / 1 % 8 = g.val; omega)
  | ⟨2, _⟩ => rfl
theorem riou_idx_v182 (b : Fin 16384) (g : Fin 8) : idx_main_v182 (ix2 b g) = ix3 b g (0 : Fin 1) := by
  have hb := b.isLt; have hg := g.isLt
  funext a
  match a with
  | ⟨0, _⟩ => exact Fin.ext (by show (b.val * 8 + g.val) / 8 = b.val; omega)
  | ⟨1, _⟩ => exact Fin.ext (by show (b.val * 8 + g.val) / 1 % 8 = g.val; omega)
  | ⟨2, _⟩ => rfl
theorem riou_idx_v174 (b : Fin 16384) (g : Fin 8) (z : Fin 1) : idx_main_v174 (ix3 b g z) = ix3 b g (0 : Fin 2) := by
  have hz := z.isLt
  funext a
  match a with
  | ⟨0, _⟩ => rfl
  | ⟨1, _⟩ => rfl
  | ⟨2, _⟩ => exact Fin.ext (by show z.val = 0; omega)
theorem riou_idx_v176 (b : Fin 16384) (g : Fin 8) (z : Fin 1) : idx_main_v176 (ix3 b g z) = ix3 b g (1 : Fin 2) := by
  have hz := z.isLt
  funext a
  match a with
  | ⟨0, _⟩ => rfl
  | ⟨1, _⟩ => rfl
  | ⟨2, _⟩ => exact Fin.ext (by show 1 + z.val = 1; omega)
theorem riou_idx_v180 (b : Fin 16384) (g : Fin 8) (z : Fin 1) : idx_main_v180 (ix3 b g z) = ix2 b g := by
  funext a
  match a with
  | ⟨0, _⟩ => rfl
  | ⟨1, _⟩ => rfl
theorem riou_idx_call16_v6 (b : Fin 16384) (g : Fin 8) (z z' : Fin 1) : idx_main_call16_v6 (ix4 b g z z') = ix3 b g (0 : Fin 1) := by
  have hb := b.isLt; have hg := g.isLt; have hz := z.isLt; have hz' := z'.isLt
  funext a
  match a with
  | ⟨0, _⟩ => exact Fin.ext (by show (((b.val * 8 + g.val) * 1 + z.val) * 1 + z'.val) / 8 = b.val; omega)
  | ⟨1, _⟩ => exact Fin.ext (by show (((b.val * 8 + g.val) * 1 + z.val) * 1 + z'.val) / 1 % 8 = g.val; omega)
  | ⟨2, _⟩ => rfl

variable (x0 : (⟨S16384x1470, .f32⟩ : BufTy).Contents (Elt Ideal)) (x1 : (⟨S16384x40, .f32⟩ : BufTy).Contents (Elt Ideal))

/-! ## The selected boxes' and the ground-truth box's numbers -/

theorem v91_at (b : Fin 16384) (g : Fin 8) (j : Fin 2) :
    val_main_v91 (F := Ideal) x0 x1 (ix3 b g j) = pbAt (prow (n := 16384) x0 b) (lrow (n := 16384) x1 b) g j 0 := by
  rw [val_main_v91_apply, riou_idx_v91, val_main_v90_apply, riou_idx_v90, v88_at]
theorem v93_at (b : Fin 16384) (g : Fin 8) (j : Fin 2) :
    val_main_v93 (F := Ideal) x0 x1 (ix3 b g j) = pbAt (prow (n := 16384) x0 b) (lrow (n := 16384) x1 b) g j 2 := by
  rw [val_main_v93_apply, riou_idx_v93, val_main_v92_apply, riou_idx_v92, v88_at]
theorem v98_at (b : Fin 16384) (g : Fin 8) (j : Fin 2) :
    val_main_v98 (F := Ideal) x0 x1 (ix3 b g j) = pbAt (prow (n := 16384) x0 b) (lrow (n := 16384) x1 b) g j 1 := by
  rw [val_main_v98_apply, riou_idx_v98, val_main_v97_apply, riou_idx_v97, v88_at]
theorem v100_at (b : Fin 16384) (g : Fin 8) (j : Fin 2) :
    val_main_v100 (F := Ideal) x0 x1 (ix3 b g j) = pbAt (prow (n := 16384) x0 b) (lrow (n := 16384) x1 b) g j 3 := by
  rw [val_main_v100_apply, riou_idx_v100, val_main_v99_apply, riou_idx_v99, v88_at]
theorem v105_at (b : Fin 16384) (g : Fin 8) (j : Fin 2) :
    val_main_v105 (F := Ideal) x0 x1 (ix3 b g j) = pbAt (prow (n := 16384) x0 b) (lrow (n := 16384) x1 b) g j 0 := by
  rw [val_main_v105_apply, riou_idx_v105, val_main_v104_apply, riou_idx_v104, v88_at]
theorem v107_at (b : Fin 16384) (g : Fin 8) (j : Fin 2) :
    val_main_v107 (F := Ideal) x0 x1 (ix3 b g j) = pbAt (prow (n := 16384) x0 b) (lrow (n := 16384) x1 b) g j 2 := by
  rw [val_main_v107_apply, riou_idx_v107, val_main_v106_apply, riou_idx_v106, v88_at]
theorem v112_at (b : Fin 16384) (g : Fin 8) (j : Fin 2) :
    val_main_v112 (F := Ideal) x0 x1 (ix3 b g j) = pbAt (prow (n := 16384) x0 b) (lrow (n := 16384) x1 b) g j 1 := by
  rw [val_main_v112_apply, riou_idx_v112, val_main_v111_apply, riou_idx_v111, v88_at]
theorem v114_at (b : Fin 16384) (g : Fin 8) (j : Fin 2) :
    val_main_v114 (F := Ideal) x0 x1 (ix3 b g j) = pbAt (prow (n := 16384) x0 b) (lrow (n := 16384) x1 b) g j 3 := by
  rw [val_main_v114_apply, riou_idx_v114, val_main_v113_apply, riou_idx_v113, v88_at]
theorem v119_at (b : Fin 16384) (g : Fin 8) (z : Fin 1) :
    val_main_v119 (F := Ideal) x1 (ix3 b g z) = gt (lrow (n := 16384) x1 b) g 0 := by
  rw [val_main_v119_apply, riou_idx_v119, val_main_v118_apply, riou_idx_v118, v89_at]
theorem v121_at (b : Fin 16384) (g : Fin 8) (z : Fin 1) :
    val_main_v121 (F := Ideal) x1 (ix3 b g z) = gt (lrow (n := 16384) x1 b) g 2 := by
  rw [val_main_v121_apply, riou_idx_v121, val_main_v120_apply, riou_idx_v120, v89_at]
theorem v126_at (b : Fin 16384) (g : Fin 8) (z : Fin 1) :
    val_main_v126 (F := Ideal) x1 (ix3 b g z) = gt (lrow (n := 16384) x1 b) g 1 := by
  rw [val_main_v126_apply, riou_idx_v126, val_main_v125_apply, riou_idx_v125, v89_at]
theorem v128_at (b : Fin 16384) (g : Fin 8) (z : Fin 1) :
    val_main_v128 (F := Ideal) x1 (ix3 b g z) = gt (lrow (n := 16384) x1 b) g 3 := by
  rw [val_main_v128_apply, riou_idx_v128, val_main_v127_apply, riou_idx_v127, v89_at]
theorem v133_at (b : Fin 16384) (g : Fin 8) (z : Fin 1) :
    val_main_v133 (F := Ideal) x1 (ix3 b g z) = gt (lrow (n := 16384) x1 b) g 0 := by
  rw [val_main_v133_apply, riou_idx_v133, val_main_v132_apply, riou_idx_v132, v89_at]
theorem v135_at (b : Fin 16384) (g : Fin 8) (z : Fin 1) :
    val_main_v135 (F := Ideal) x1 (ix3 b g z) = gt (lrow (n := 16384) x1 b) g 2 := by
  rw [val_main_v135_apply, riou_idx_v135, val_main_v134_apply, riou_idx_v134, v89_at]
theorem v140_at (b : Fin 16384) (g : Fin 8) (z : Fin 1) :
    val_main_v140 (F := Ideal) x1 (ix3 b g z) = gt (lrow (n := 16384) x1 b) g 1 := by
  rw [val_main_v140_apply, riou_idx_v140, val_main_v139_apply, riou_idx_v139, v89_at]
theorem v142_at (b : Fin 16384) (g : Fin 8) (z : Fin 1) :
    val_main_v142 (F := Ideal) x1 (ix3 b g z) = gt (lrow (n := 16384) x1 b) g 3 := by
  rw [val_main_v142_apply, riou_idx_v142, val_main_v141_apply, riou_idx_v141, v89_at]

/-! ## The edges -/

theorem v96_at (b : Fin 16384) (g : Fin 8) (j : Fin 2) :
    val_main_v96 (F := Ideal) x0 x1 (ix3 b g j) = riouPx1 (prow (n := 16384) x0 b) (lrow (n := 16384) x1 b) g j := by
  rw [val_main_v96_apply, val_main_v95_apply, v91_at, v93_at, val_main_v94_apply, val_main_cst_28_apply]
  first | done | rfl
theorem v103_at (b : Fin 16384) (g : Fin 8) (j : Fin 2) :
    val_main_v103 (F := Ideal) x0 x1 (ix3 b g j) = riouPy1 (prow (n := 16384) x0 b) (lrow (n := 16384) x1 b) g j := by
  rw [val_main_v103_apply, val_main_v102_apply, v98_at, v100_at, val_main_v101_apply, val_main_cst_29_apply]
  first | done | rfl
theorem v110_at (b : Fin 16384) (g : Fin 8) (j : Fin 2) :
    val_main_v110 (F := Ideal) x0 x1 (ix3 b g j) = riouPx2 (prow (n := 16384) x0 b) (lrow (n := 16384) x1 b) g j := by
  rw [val_main_v110_apply, val_main_v109_apply, v105_at, v107_at, val_main_v108_apply, val_main_cst_30_apply]
  first | done | rfl
theorem v117_at (b : Fin 16384) (g : Fin 8) (j : Fin 2) :
    val_main_v117 (F := Ideal) x0 x1 (ix3 b g j) = riouPy2 (prow (n := 16384) x0 b) (lrow (n := 16384) x1 b) g j := by
  rw [val_main_v117_apply, val_main_v116_apply, v112_at, v114_at, val_main_v115_apply, val_main_cst_31_apply]
  first | done | rfl
theorem v124_at (b : Fin 16384) (g : Fin 8) (z : Fin 1) :
    val_main_v124 (F := Ideal) x1 (ix3 b g z) = riouGx1 (lrow (n := 16384) x1 b) g := by
  rw [val_main_v124_apply, val_main_v123_apply, v119_at, v121_at, val_main_v122_apply, val_main_cst_32_apply]
  first | done | rfl
theorem v131_at (b : Fin 16384) (g : Fin 8) (z : Fin 1) :
    val_main_v131 (F := Ideal) x1 (ix3 b g z) = riouGy1 (lrow (n := 16384) x1 b) g := by
  rw [val_main_v131_apply, val_main_v130_apply, v126_at, v128_at, val_main_v129_apply, val_main_cst_33_apply]
  first | done | rfl
theorem v138_at (b : Fin 16384) (g : Fin 8) (z : Fin 1) :
    val_main_v138 (F := Ideal) x1 (ix3 b g z) = riouGx2 (lrow (n := 16384) x1 b) g := by
  rw [val_main_v138_apply, val_main_v137_apply, v133_at, v135_at, val_main_v136_apply, val_main_cst_34_apply]
  first | done | rfl
theorem v145_at (b : Fin 16384) (g : Fin 8) (z : Fin 1) :
    val_main_v145 (F := Ideal) x1 (ix3 b g z) = riouGy2 (lrow (n := 16384) x1 b) g := by
  rw [val_main_v145_apply, val_main_v144_apply, v140_at, v142_at, val_main_v143_apply, val_main_cst_35_apply]
  first | done | rfl

/-! ## Overlap, areas and the quotient -/

theorem v151_at (b : Fin 16384) (g : Fin 8) (j : Fin 2) :
    val_main_v151 (F := Ideal) x0 x1 (ix3 b g j) = riouIw (prow (n := 16384) x0 b) (lrow (n := 16384) x1 b) g j := by
  rw [val_main_v151_apply, val_main_call8_v1_apply, val_main_call8_v0_apply, val_main_cst_36_apply, val_main_v150_apply,
    val_main_v147_apply, val_main_v149_apply, v110_at, v96_at, val_main_v146_apply, riou_idx_v146, v138_at,
    val_main_v148_apply, riou_idx_v148, v124_at]
  first | done | rfl
theorem v157_at (b : Fin 16384) (g : Fin 8) (j : Fin 2) :
    val_main_v157 (F := Ideal) x0 x1 (ix3 b g j) = riouIh (prow (n := 16384) x0 b) (lrow (n := 16384) x1 b) g j := by
  rw [val_main_v157_apply, val_main_call9_v1_apply, val_main_call9_v0_apply, val_main_cst_37_apply, val_main_v156_apply,
    val_main_v153_apply, val_main_v155_apply, v117_at, v103_at, val_main_v152_apply, riou_idx_v152, v145_at,
    val_main_v154_apply, riou_idx_v154, v131_at]
  first | done | rfl
theorem v158_at (b : Fin 16384) (g : Fin 8) (j : Fin 2) :
    val_main_v158 (F := Ideal) x0 x1 (ix3 b g j) = riouInter (prow (n := 16384) x0 b) (lrow (n := 16384) x1 b) g j := by
  rw [val_main_v158_apply, v151_at, v157_at]
  first | done | rfl
theorem v163_at (b : Fin 16384) (g : Fin 8) (j : Fin 2) :
    val_main_v163 (F := Ideal) x0 x1 (ix3 b g j) = riouA1 (prow (n := 16384) x0 b) (lrow (n := 16384) x1 b) g j := by
  rw [val_main_v163_apply, val_main_v160_apply, val_main_v162_apply, val_main_call10_v1_apply, val_main_call10_v0_apply,
    val_main_cst_38_apply, val_main_call11_v1_apply, val_main_call11_v0_apply, val_main_cst_39_apply, val_main_v159_apply,
    val_main_v161_apply, v110_at, v96_at, v117_at, v103_at]
  first | done | rfl
theorem v168_at (b : Fin 16384) (g : Fin 8) (z : Fin 1) :
    val_main_v168 (F := Ideal) x1 (ix3 b g z) = riouA2 (lrow (n := 16384) x1 b) g := by
  rw [val_main_v168_apply, val_main_v165_apply, val_main_v167_apply, val_main_call12_v1_apply, val_main_call12_v0_apply,
    val_main_cst_40_apply, val_main_call13_v1_apply, val_main_call13_v0_apply, val_main_cst_41_apply, val_main_v164_apply,
    val_main_v166_apply, v138_at, v124_at, v145_at, v131_at]
  first | done | rfl
theorem v173_at (b : Fin 16384) (g : Fin 8) (j : Fin 2) :
    val_main_v173 (F := Ideal) x0 x1 (ix3 b g j) = iouAt (prow (n := 16384) x0 b) (lrow (n := 16384) x1 b) g j := by
  rw [val_main_v173_apply, val_main_v172_apply, val_main_call14_v1_apply, val_main_call14_v0_apply, val_main_cst_42_apply,
    val_main_v171_apply, val_main_v170_apply, v158_at, v163_at, val_main_v169_apply, riou_idx_v169, v168_at]
  first | done | exact riou_iouAt _ _ _ _

/-! ## The two overlaps compared -/

theorem v175_at (b : Fin 16384) (g : Fin 8) :
    val_main_v175 (F := Ideal) x0 x1 (ix2 b g) = iouAt (prow (n := 16384) x0 b) (lrow (n := 16384) x1 b) g 0 := by
  rw [val_main_v175_apply, riou_idx_v175, val_main_v174_apply, riou_idx_v174, v173_at]
theorem v177_at (b : Fin 16384) (g : Fin 8) :
    val_main_v177 (F := Ideal) x0 x1 (ix2 b g) = iouAt (prow (n := 16384) x0 b) (lrow (n := 16384) x1 b) g 1 := by
  rw [val_main_v177_apply, riou_idx_v177, val_main_v176_apply, riou_idx_v176, v173_at]

theorem v179_at (b : Fin 16384) (g : Fin 8) :
    val_main_v179 (F := Ideal) x0 x1 (ix2 b g) = bestAt (prow (n := 16384) x0 b) (lrow (n := 16384) x1 b) g := by
  rw [val_main_v179_apply, val_main_v178_apply, v175_at, v177_at, val_main_call15_v0_apply, val_main_c_43_apply,
    val_main_call15_v1_apply, val_main_c_44_apply]
  first | done | rfl

/-! ## The take along the box axis: the index is 0 or 1, so in range -/

theorem call16_v5_at (b : Fin 16384) (g : Fin 8) (z : Fin 1) :
    val_main_call16_v5 (F := Ideal) x0 x1 (ix3 b g z) = bestAt (prow (n := 16384) x0 b) (lrow (n := 16384) x1 b) g := by
  rw [val_main_call16_v5_apply, val_main_call16_v2_apply, val_main_call16_v4_apply, val_main_call16_v0_apply,
    val_main_v180_apply, riou_idx_v180, v179_at, val_main_call16_v1_apply, val_main_call16_c_apply,
    val_main_call16_v3_apply, val_main_call16_c_0_apply]
  exact riou_wrap _ (riou_bestAt_cases _ _ _)
theorem call16_v6_at (b : Fin 16384) (g : Fin 8) (z z' : Fin 1) :
    val_main_call16_v6 (F := Ideal) x0 x1 (ix4 b g z z') = bestAt (prow (n := 16384) x0 b) (lrow (n := 16384) x1 b) g := by
  rw [val_main_call16_v6_apply, riou_idx_call16_v6, call16_v5_at]
theorem call16_v12_at (b : Fin 16384) (g : Fin 8) (z z' : Fin 1) :
    val_main_call16_v12 (F := Ideal) x0 x1 (ix4 b g z z') = 1#1 := by
  rw [val_main_call16_v12_apply, val_main_call16_v8_apply, val_main_call16_v11_apply, call16_v6_at,
    val_main_call16_v7_apply, val_main_call16_c_2_apply, val_main_call16_v10_apply, val_main_call16_v9_apply,
    val_main_call16_c_1_apply]
  exact riou_inrange _ (riou_bestAt_cases _ _ _)
theorem call16_v12_all (i : S16384x8x1x1.Idx) : val_main_call16_v12 (F := Ideal) x0 x1 i = 1#1 :=
  (congrArg (val_main_call16_v12 (F := Ideal) x0 x1) (eq_ix4 i)).trans (call16_v12_at x0 x1 _ _ _ _)
theorem call16_v13_at (b : Fin 16384) (g : Fin 8) (z : Fin 1) :
    val_main_call16_v13 (F := Ideal) x0 x1 (ix3 b g z) = 1#1 := by
  unfold val_main_call16_v13
  exact riou_reduce_andi_one _ _ _ _ rfl (call16_v12_all x0 x1) _
theorem call16_v14_at (b : Fin 16384) (g : Fin 8) (z : Fin 1) :
    val_main_call16_v14 (F := Ideal) x0 x1 (ix3 b g z)
      = iouBest (iouAt (prow (n := 16384) x0 b) (lrow (n := 16384) x1 b) g 0) (iouAt (prow (n := 16384) x0 b) (lrow (n := 16384) x1 b) g 1) := by
  unfold val_main_call16_v14
  rcases best_cases (iouAt (prow (n := 16384) x0 b) (lrow (n := 16384) x1 b) g 0) (iouAt (prow (n := 16384) x0 b) (lrow (n := 16384) x1 b) g 1) with h | h
  · have h' : bestAt (prow (n := 16384) x0 b) (lrow (n := 16384) x1 b) g = 0#32 := h
    rw [riou_gather_last (val_main_v173 (F := Ideal) x0 x1) (val_main_call16_v6 (F := Ideal) x0 x1) b g z (0 : Fin 2)
      (by rw [call16_v6_at, h']; first | done | rfl | decide), v173_at, iouBest_of_zero h]
  · have h' : bestAt (prow (n := 16384) x0 b) (lrow (n := 16384) x1 b) g = 1#32 := h
    rw [riou_gather_last (val_main_v173 (F := Ideal) x0 x1) (val_main_call16_v6 (F := Ideal) x0 x1) b g z (1 : Fin 2)
      (by rw [call16_v6_at, h']; first | done | rfl | decide), v173_at, iouBest_of_one h]
theorem v181_at (b : Fin 16384) (g : Fin 8) (z : Fin 1) :
    val_main_v181 (F := Ideal) x0 x1 (ix3 b g z)
      = iouBest (iouAt (prow (n := 16384) x0 b) (lrow (n := 16384) x1 b) g 0) (iouAt (prow (n := 16384) x0 b) (lrow (n := 16384) x1 b) g 1) := by
  rw [val_main_v181_apply, call16_v13_at, select_one, call16_v14_at]
theorem v184_at (b : Fin 16384) (g : Fin 8) :
    val_main_v184 (F := Ideal) x0 x1 (ix2 b g) = boxTerm (prow (n := 16384) x0 b) (lrow (n := 16384) x1 b) g := by
  rw [val_main_v184_apply, val_main_v183_apply, val_main_cst_45_apply, val_main_v182_apply, riou_idx_v182, v181_at]
  first | done | rfl

/-! ## The sum over all images and ground-truth boxes -/

theorem v185_eq :
    val_main_v185 (F := Ideal) x0 x1 = fun _ => ∑ b : Fin 16384, boxRow (prow (n := 16384) x0 b) (lrow (n := 16384) x1 b) := by
  funext i
  rw [val_main_v185_apply, val_main_cst_46_apply]
  refine (zero_add_eq _).trans ?_
  refine (sum_idx2 (n0 := 16384) (n1 := 8) _).trans ?_
  refine Finset.sum_congr rfl (fun b _ => ?_)
  unfold boxRow
  exact Finset.sum_congr rfl (fun g _ => v184_at x0 x1 b g)

end Cert.ReferenceIdeal.RefValue

end
-- ==== Proof.RCls.lean ====
/-
  The sum of focal losses over all images: log-softmax of the selected class scores, read at the box's class by a take
  along the class axis (in range when the class is one of the twenty, so nothing is filled in).
-/
import proofs.«112027_j37778532335632_1_alg».proof.Proof.RGather
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.Spec Cert.ReferenceIdeal Cert.ReferenceIdeal.ReadP

variable (x0 : (⟨S16384x1470, .f32⟩ : BufTy).Contents (Elt Ideal)) (x1 : (⟨S16384x40, .f32⟩ : BufTy).Contents (Elt Ideal))

/-! ## A maximum over the class axis, read at (image, box)

The reduction over the last of three axes, at (b, g), is the fold of `max` over the twenty entries (b, g, ·). -/

theorem rcls_red20 : S16384x8x20.Reduces [2] S16384x8 := by decide

/-- The index over (b, g) with class coordinate k is (b, g, k). -/
theorem rcls_lift20 (b : Fin 16384) (g : Fin 8) (k : Fin 20) : rcls_red20.lift (ix2 b g) k = ix3 b g k := by
  funext c; apply Fin.ext
  match c with
  | ⟨0, _⟩ => rfl
  | ⟨1, _⟩ => rfl
  | ⟨2, _⟩ => rfl

theorem rcls_reduce_max_at (x : S16384x8x20.Idx → EReal) (init : S_.Idx → EReal) (b : Fin 16384) (g : Fin 8) :
    Host.reduce (FloatOps.maximumf (F := Ideal) (φ := .f32)) x init Gen.reducesTo_S16384x8x20_S16384x8_d2 Gen.h_S_ (ix2 b g)
      = (Finset.univ : Finset (Fin 20)).fold max (init (Shape.Idx.first Gen.h_S_)) (fun d => x (ix3 b g d)) := by
  refine (Host.reduce_eq_fold_single _ x init Gen.reducesTo_S16384x8x20_S16384x8_d2 rcls_red20 Gen.h_S_ (ix2 b g)).trans ?_
  exact congrArg (fun f : Fin 20 → EReal => (Finset.univ : Finset (Fin 20)).fold max (init (Shape.Idx.first Gen.h_S_)) f)
    (funext fun d => congrArg x (rcls_lift20 b g d))

/-! ## A conjunction over a unit axis, read at (image, box, 0)

The reduction over a last axis of extent one is the one entry, combined with the initial bit. -/

theorem rcls_red1 : S16384x8x1x1.Reduces [3] S16384x8x1 := by decide

theorem rcls_lift1 (b : Fin 16384) (g : Fin 8) (k : Fin 1) : rcls_red1.lift (ix3 b g 0) k = ix4 b g 0 0 := by
  funext c; apply Fin.ext
  match c with
  | ⟨0, _⟩ => rfl
  | ⟨1, _⟩ => rfl
  | ⟨2, _⟩ => rfl
  | ⟨3, _⟩ => show k.val = 0; omega

theorem rcls_reduce_and_at (x : S16384x8x1x1.Idx → BitVec 1) (init : S_.Idx → BitVec 1) (b : Fin 16384) (g : Fin 8) :
    Host.reduce IntOp.andi x init Gen.reducesTo_S16384x8x1x1_S16384x8x1_d3 Gen.h_S_ (ix3 b g 0)
      = IntOp.andi (x (ix4 b g 0 0)) (init (Shape.Idx.first Gen.h_S_)) := by
  refine (Host.reduce_eq_fold_single _ x init Gen.reducesTo_S16384x8x1x1_S16384x8x1_d3 rcls_red1 Gen.h_S_ (ix3 b g 0)).trans ?_
  have e : (x ∘ rcls_red1.lift (ix3 b g 0) : Fin 1 → BitVec 1) = fun _ => x (ix4 b g 0 0) :=
    funext fun k => congrArg x (rcls_lift1 b g k)
  refine (congrArg (fun f : Fin 1 → BitVec 1 => (Finset.univ : Finset (Fin 1)).fold IntOp.andi (init (Shape.Idx.first Gen.h_S_)) f) e).trans ?_
  show (Finset.univ : Finset (Fin 1)).fold IntOp.andi (init (Shape.Idx.first Gen.h_S_)) (fun _ => x (ix4 b g 0 0)) = _
  rw [Finset.univ_unique, Finset.fold_singleton]

/-! ## The batched take along the class axis, read at (image, box, 0)

Image and box are batching axes, so the operand is read at the same image and box; on the class axis it is read at the
start index, taken as a signed number and clamped into [0, 19]. -/

theorem rcls_gather_at {α : Type} (x : S16384x8x20.Idx → α) (idx : IVec S16384x8x1x1 32) (b : Fin 16384) (g : Fin 8) :
    Host.gather gather_S16384x8x20_S16384x8x1x1_S16384x8x1_n_2_01_01_2_3_111 x idx (ix3 b g 0)
      = x (ix3 b g ⟨min (idx (ix4 b g 0 0)).toInt.toNat 19, by omega⟩) := by
  unfold Host.gather
  congr 1
  funext a
  refine Fin.ext ?_
  match a with
  | ⟨0, _⟩ =>
    show gather_S16384x8x20_S16384x8x1x1_S16384x8x1_n_2_01_01_2_3_111.start (ix3 b g 0) idx 0
      + gather_S16384x8x20_S16384x8x1x1_S16384x8x1_n_2_01_01_2_3_111.batchCoord (ix3 b g 0) 0
      + gather_S16384x8x20_S16384x8x1x1_S16384x8x1_n_2_01_01_2_3_111.offCoord (ix3 b g 0) 0 = b.val
    have h1 : gather_S16384x8x20_S16384x8x1x1_S16384x8x1_n_2_01_01_2_3_111.start (ix3 b g 0) idx 0 = 0 := rfl
    have h2 : gather_S16384x8x20_S16384x8x1x1_S16384x8x1_n_2_01_01_2_3_111.batchCoord (ix3 b g 0) 0 = b.val := rfl
    have h3 : gather_S16384x8x20_S16384x8x1x1_S16384x8x1_n_2_01_01_2_3_111.offCoord (ix3 b g 0) 0 = 0 := rfl
    rw [h1, h2, h3]; omega
  | ⟨1, _⟩ =>
    show gather_S16384x8x20_S16384x8x1x1_S16384x8x1_n_2_01_01_2_3_111.start (ix3 b g 0) idx 1
      + gather_S16384x8x20_S16384x8x1x1_S16384x8x1_n_2_01_01_2_3_111.batchCoord (ix3 b g 0) 1
      + gather_S16384x8x20_S16384x8x1x1_S16384x8x1_n_2_01_01_2_3_111.offCoord (ix3 b g 0) 1 = g.val
    have h1 : gather_S16384x8x20_S16384x8x1x1_S16384x8x1_n_2_01_01_2_3_111.start (ix3 b g 0) idx 1 = 0 := rfl
    have h2 : gather_S16384x8x20_S16384x8x1x1_S16384x8x1_n_2_01_01_2_3_111.batchCoord (ix3 b g 0) 1 = g.val := rfl
    have h3 : gather_S16384x8x20_S16384x8x1x1_S16384x8x1_n_2_01_01_2_3_111.offCoord (ix3 b g 0) 1 = 0 := rfl
    rw [h1, h2, h3]; omega
  | ⟨2, _⟩ =>
    show gather_S16384x8x20_S16384x8x1x1_S16384x8x1_n_2_01_01_2_3_111.start (ix3 b g 0) idx 2
      + gather_S16384x8x20_S16384x8x1x1_S16384x8x1_n_2_01_01_2_3_111.batchCoord (ix3 b g 0) 2
      + gather_S16384x8x20_S16384x8x1x1_S16384x8x1_n_2_01_01_2_3_111.offCoord (ix3 b g 0) 2 = min (idx (ix4 b g 0 0)).toInt.toNat 19
    have h2 : gather_S16384x8x20_S16384x8x1x1_S16384x8x1_n_2_01_01_2_3_111.batchCoord (ix3 b g 0) 2 = 0 := rfl
    have h3 : gather_S16384x8x20_S16384x8x1x1_S16384x8x1_n_2_01_01_2_3_111.offCoord (ix3 b g 0) 2 = 0 := rfl
    rw [h2, h3]
    simp only [Nat.add_zero]
    unfold GatherDims.start
    rw [dif_pos (show (2 : Fin 3) ∈ gather_S16384x8x20_S16384x8x1x1_S16384x8x1_n_2_01_01_2_3_111.startIndexMap from List.mem_singleton.mpr rfl)]
    have hsi : gather_S16384x8x20_S16384x8x1x1_S16384x8x1_n_2_01_01_2_3_111.siIdx (ix3 b g 0)
        ⟨List.idxOf (2 : Fin 3) gather_S16384x8x20_S16384x8x1x1_S16384x8x1_n_2_01_01_2_3_111.startIndexMap,
          List.idxOf_lt_length_iff.2 (List.mem_singleton.mpr rfl)⟩ = ix4 b g 0 0 := by
      funext c; refine Fin.ext ?_
      match c with
      | ⟨0, _⟩ => rfl
      | ⟨1, _⟩ => rfl
      | ⟨2, _⟩ => rfl
      | ⟨3, _⟩ => rfl
    rw [hsi]
    rfl

/-- The same, with the clamped start index named. -/
theorem rcls_gather_at' {α : Type} (x : S16384x8x20.Idx → α) (idx : IVec S16384x8x1x1 32) (b : Fin 16384) (g : Fin 8)
    (n : Fin 20) (hn : min (idx (ix4 b g 0 0)).toInt.toNat 19 = n.val) :
    Host.gather gather_S16384x8x20_S16384x8x1x1_S16384x8x1_n_2_01_01_2_3_111 x idx (ix3 b g 0) = x (ix3 b g n) := by
  rw [rcls_gather_at]
  exact congrArg (fun k : Fin 20 => x (ix3 b g k)) (Fin.ext hn)

/-! ## Signed comparisons of a word between 0 and 19 -/

theorem rcls_slt_zero {c : BitVec 32} (h0 : 0 ≤ c.toInt) : IntOp.cmpi .slt c 0#32 = 0#1 := by
  have h : ¬ c.toInt < (0#32 : BitVec 32).toInt := by rw [BitVec.toInt_zero]; omega
  show BitVec.ofBool (c.slt 0#32) = 0#1
  rw [BitVec.slt_eq_decide, decide_eq_false h]
  rfl

theorem rcls_sge_zero {c : BitVec 32} (h0 : 0 ≤ c.toInt) : IntOp.cmpi .sge c 0#32 = 1#1 := by
  have h : (0#32 : BitVec 32).toInt ≤ c.toInt := by rw [BitVec.toInt_zero]; exact h0
  show BitVec.ofBool ((0#32 : BitVec 32).sle c) = 1#1
  rw [BitVec.sle_eq_decide, decide_eq_true h]
  rfl

theorem rcls_sle_19 {c : BitVec 32} (h1 : c.toInt < 20) : IntOp.cmpi .sle c 19#32 = 1#1 := by
  have e : (19#32 : BitVec 32).toInt = 19 := by decide
  have h : c.toInt ≤ (19#32 : BitVec 32).toInt := by rw [e]; omega
  show BitVec.ofBool (c.sle 19#32) = 1#1
  rw [BitVec.sle_eq_decide, decide_eq_true h]
  rfl

/-! ## `log_softmax` of the selected scores -/

/-- The largest of a box's twenty selected scores. -/
theorem rcls_v0_at (b : Fin 16384) (g : Fin 8) :
    val_main_call17_v0 (F := Ideal) x0 x1 (ix2 b g)
      = (Finset.univ : Finset (Fin 20)).fold max negInf (fun d => logit (prow (n := 16384) x0 b) (cellN (lrow (n := 16384) x1 b) g) d) := by
  unfold val_main_call17_v0
  refine (rcls_reduce_max_at _ _ b g).trans ?_
  exact congrArg (fun f : Fin 20 → EReal => (Finset.univ : Finset (Fin 20)).fold max negInf f)
    (funext fun d => v206_at x0 x1 b g d)

/-- The shift: that maximum, never below `-∞`. -/
theorem rcls_v2_at (b : Fin 16384) (g : Fin 8) :
    val_main_call17_v2 (F := Ideal) x0 x1 (ix2 b g) = lmax (fun d => logit (prow (n := 16384) x0 b) (cellN (lrow (n := 16384) x1 b) g) d) := by
  rw [val_main_call17_v2_apply, val_main_call17_v1_apply, val_main_call17_cst_0_apply, rcls_v0_at]
  rfl

/-- The shifted scores. -/
theorem rcls_v5_at (b : Fin 16384) (g : Fin 8) (d : Fin 20) :
    val_main_call17_v5 (F := Ideal) x0 x1 (ix3 b g d)
      = logit (prow (n := 16384) x0 b) (cellN (lrow (n := 16384) x1 b) g) d - lmax (fun d => logit (prow (n := 16384) x0 b) (cellN (lrow (n := 16384) x1 b) g) d) := by
  rw [val_main_call17_v5_apply, val_main_call17_v4_apply, val_main_call17_v3_apply, v206_at]
  rw [show idx_main_call17_v3 (idx_main_call17_v4 (ix3 b g d)) = ix2 b g from
    funext fun a => match a with | ⟨0, _⟩ => rfl | ⟨1, _⟩ => rfl]
  rw [rcls_v2_at]
  rfl

/-- The sum of their exponentials. -/
theorem rcls_v7_at (b : Fin 16384) (g : Fin 8) :
    val_main_call17_v7 (F := Ideal) x0 x1 (ix2 b g)
      = ∑ k : Fin 20, Ideal.exp (logit (prow (n := 16384) x0 b) (cellN (lrow (n := 16384) x1 b) g) k - lmax (fun d => logit (prow (n := 16384) x0 b) (cellN (lrow (n := 16384) x1 b) g) d)) := by
  rw [val_main_call17_v7_apply, val_main_call17_cst_1_apply]
  refine (zero_add_eq _).trans ?_
  refine Finset.sum_congr rfl fun k _ => ?_
  rw [show idx_main_call17_v7 (ix2 b g) k = ix3 b g k from
    funext fun a => match a with | ⟨0, _⟩ => rfl | ⟨1, _⟩ => rfl | ⟨2, _⟩ => rfl]
  rw [val_main_call17_v6_apply, rcls_v5_at]
  rfl

/-- `log_softmax` at (image, box, class). -/
theorem rcls_v207_at (b : Fin 16384) (g : Fin 8) (d : Fin 20) :
    val_main_v207 (F := Ideal) x0 x1 (ix3 b g d) = logp (fun d => logit (prow (n := 16384) x0 b) (cellN (lrow (n := 16384) x1 b) g) d) d := by
  rw [val_main_v207_apply, val_main_call17_v10_apply, val_main_call17_v9_apply, val_main_call17_v8_apply, rcls_v5_at]
  rw [show idx_main_call17_v8 (idx_main_call17_v10 (ix3 b g d)) = ix2 b g from
    funext fun a => match a with | ⟨0, _⟩ => rfl | ⟨1, _⟩ => rfl]
  rw [rcls_v7_at]
  rfl

/-! ## The take at the box's class -/

/-- The class word the take reads. -/
theorem rcls_v208_at (b : Fin 16384) (g : Fin 8) :
    val_main_v208 (F := Ideal) x1 (ix3 b g 0) = cls (lrow (n := 16384) x1 b) g := by
  rw [val_main_v208_apply]
  rw [show idx_main_v208 (ix3 b g (0 : Fin 1)) = ix2 b g from
    funext fun a => match a with | ⟨0, _⟩ => rfl | ⟨1, _⟩ => rfl]
  exact v26_at x1 b g

/-- The class is not negative, so it is not wrapped. -/
theorem rcls_v4_at (hok : ∀ b : Fin 16384, ClsOk (lrow (n := 16384) x1 b)) (b : Fin 16384) (g : Fin 8) :
    val_main_call18_v4 (F := Ideal) x1 (ix3 b g 0) = cls (lrow (n := 16384) x1 b) g := by
  rw [val_main_call18_v4_apply, val_main_call18_v1_apply, val_main_call18_v0_apply, val_main_call18_c_apply, rcls_v208_at]
  rw [rcls_slt_zero (hok b g).1]
  exact select_zero _ _

/-- The start index of the take. -/
theorem rcls_v5i_at (hok : ∀ b : Fin 16384, ClsOk (lrow (n := 16384) x1 b)) (b : Fin 16384) (g : Fin 8) :
    val_main_call18_v5 (F := Ideal) x1 (ix4 b g 0 0) = cls (lrow (n := 16384) x1 b) g := by
  rw [val_main_call18_v5_apply]
  rw [show idx_main_call18_v5 (ix4 b g (0 : Fin 1) (0 : Fin 1)) = ix3 b g 0 from
    funext fun a => Fin.ext (match a with
      | ⟨0, _⟩ => by have := g.isLt; show (((b.val * 8 + g.val) * 1 + 0) * 1 + 0) / 8 = b.val; omega
      | ⟨1, _⟩ => by have := g.isLt; show (((b.val * 8 + g.val) * 1 + 0) * 1 + 0) / 1 % 8 = g.val; omega
      | ⟨2, _⟩ => rfl)]
  exact rcls_v4_at x1 hok b g

/-- The class is between 0 and 19, so the take's range mask is set. -/
theorem rcls_v12_at (hok : ∀ b : Fin 16384, ClsOk (lrow (n := 16384) x1 b)) (b : Fin 16384) (g : Fin 8) :
    val_main_call18_v12 (F := Ideal) x1 (ix3 b g 0) = 1#1 := by
  unfold val_main_call18_v12
  refine (rcls_reduce_and_at _ _ b g).trans ?_
  rw [val_main_call18_v11_apply, val_main_call18_v7_apply, val_main_call18_v10_apply, val_main_call18_v6_apply,
    val_main_call18_c_2_apply, val_main_call18_v9_apply, val_main_call18_v8_apply, val_main_call18_c_1_apply,
    val_main_call18_c_3_apply, rcls_v5i_at x1 hok]
  rw [rcls_sge_zero (hok b g).1, rcls_sle_19 (hok b g).2]
  rfl

/-- The take reads `log_softmax` at the box's class. -/
theorem rcls_v13_at (hok : ∀ b : Fin 16384, ClsOk (lrow (n := 16384) x1 b)) (b : Fin 16384) (g : Fin 8) :
    val_main_call18_v13 (F := Ideal) x0 x1 (ix3 b g 0)
      = logp (fun d => logit (prow (n := 16384) x0 b) (cellN (lrow (n := 16384) x1 b) g) d) (clsN (lrow (n := 16384) x1 b) g) := by
  unfold val_main_call18_v13
  refine (rcls_gather_at' _ _ b g (clsN (lrow (n := 16384) x1 b) g) ?_).trans (rcls_v207_at x0 x1 b g _)
  rw [rcls_v5i_at x1 hok, cls_toInt (hok b) g, Int.toNat_natCast]
  exact Nat.min_eq_left (by have := (clsN (lrow (n := 16384) x1 b) g).isLt; omega)

/-- Nothing is filled in: the taken value, per (image, box). -/
theorem rcls_v210_at (hok : ∀ b : Fin 16384, ClsOk (lrow (n := 16384) x1 b)) (b : Fin 16384) (g : Fin 8) :
    val_main_v210 (F := Ideal) x0 x1 (ix2 b g)
      = logp (fun d => logit (prow (n := 16384) x0 b) (cellN (lrow (n := 16384) x1 b) g) d) (clsN (lrow (n := 16384) x1 b) g) := by
  rw [val_main_v210_apply]
  rw [show idx_main_v210 (ix2 b g) = ix3 b g 0 from
    funext fun a => Fin.ext (match a with
      | ⟨0, _⟩ => by have := g.isLt; show (b.val * 8 + g.val) / 8 = b.val; omega
      | ⟨1, _⟩ => by have := g.isLt; show (b.val * 8 + g.val) / 1 % 8 = g.val; omega
      | ⟨2, _⟩ => rfl)]
  rw [val_main_v209_apply, rcls_v12_at x1 hok, rcls_v13_at x0 x1 hok]
  exact select_one _ _

/-! ## The focal loss and its sum -/

/-- The focal loss of the cross-entropy `-log_softmax[class]`, per (image, box). -/
theorem rcls_v217_at (hok : ∀ b : Fin 16384, ClsOk (lrow (n := 16384) x1 b)) (b : Fin 16384) (g : Fin 8) :
    val_main_v217 (F := Ideal) x0 x1 (ix2 b g) = clsTerm (prow (n := 16384) x0 b) (lrow (n := 16384) x1 b) g := by
  rw [val_main_v217_apply, val_main_v216_apply, val_main_v215_apply, val_main_v214_apply, val_main_cst_53_apply,
    val_main_v213_apply, val_main_v212_apply, val_main_v211_apply, rcls_v210_at x0 x1 hok]
  rfl

theorem v218_eq (hok : ∀ b : Fin 16384, ClsOk (lrow (n := 16384) x1 b)) :
    val_main_v218 (F := Ideal) x0 x1 = fun _ => ∑ b : Fin 16384, clsRow (prow (n := 16384) x0 b) (lrow (n := 16384) x1 b) := by
  funext i
  show val_main_v218 (F := Ideal) x0 x1 i = ∑ b : Fin 16384, clsRow (prow (n := 16384) x0 b) (lrow (n := 16384) x1 b)
  rw [val_main_v218_apply, val_main_cst_54_apply]
  refine (zero_add_eq _).trans ?_
  rw [sum_idx2]
  refine Finset.sum_congr rfl fun b _ => ?_
  unfold clsRow
  exact Finset.sum_congr rfl fun g _ => rcls_v217_at x0 x1 hok b g

end Cert.ReferenceIdeal.RefValue

end
-- ==== Proof.RConf.lean ====
/-
  The confidence loss summed over all images: the responsible slots are those some ground-truth box's scatter update
  lands on (every update writes the same value, so their order does not matter).
-/
import proofs.«112027_j37778532335632_1_alg».proof.Proof.RIou
import Idealize.ShloMosaic.Lib.Pipeline.Value
import Idealize.ShloMosaic.Lib.ValueLayout
import Idealize.ShloMosaic.PureOps.Ideal.Laws
import Idealize.ShloMosaic.Lib.IdealHost
import Idealize.ShloMosaic.Lib.ValueIdxRank1

noncomputable section

namespace Cert.ReferenceIdeal.RefValue

open Idealize.ShloMosaic Idealize.ShloMosaic.ValueIdx Cert.Spec Cert.ReferenceIdeal Cert.ReferenceIdeal.ReadP

/-! ## A fold of writes of one value -/

section Fold
variable {α ι κ : Type} (p : κ → Option ι) (v : α) (step : (ι → α) → κ → (ι → α))
  (hs1 : ∀ r n i0, p n = some i0 → step r n i0 = v)
  (hs2 : ∀ r n i0 i', p n = some i0 → i' ≠ i0 → step r n i' = r i')
  (hn : ∀ r n, p n = none → step r n = r)
include hs2 hn in
/-- A left fold of steps, each writing one position or nothing, leaves a position no step names as it was. -/
theorem foldl_set_miss (l : List κ) (r : ι → α) (i : ι) (h : ∀ n ∈ l, p n ≠ some i) : l.foldl step r i = r i := by
  induction l generalizing r with
  | nil => rfl
  | cons n l ih =>
    rw [List.foldl_cons, ih _ (fun m hm => h m (List.mem_cons_of_mem _ hm))]
    have hn' := h n List.mem_cons_self
    cases hp : p n with
    | none => rw [hn r n hp]
    | some i0 =>
      refine hs2 r n i0 i hp ?_
      intro e; subst e; exact hn' hp
include hs1 hs2 hn in
/-- When every step writes the same value, a position some step names ends with that value. -/
theorem foldl_set_hit (l : List κ) (r : ι → α) (i : ι) (h : ∃ n ∈ l, p n = some i) : l.foldl step r i = v := by
  induction l generalizing r with
  | nil => obtain ⟨n, hn, _⟩ := h; cases hn
  | cons n l ih =>
    rw [List.foldl_cons]
    by_cases h' : ∃ m ∈ l, p m = some i
    · exact ih _ h'
    · rw [foldl_set_miss p step hs2 hn l _ i (fun m hm e => h' ⟨m, hm, e⟩)]
      obtain ⟨m, hm, e⟩ := h
      rcases List.mem_cons.1 hm with rfl | hm
      · exact hs1 r m i e
      · exact absurd ⟨m, hm, e⟩ h'
end Fold

/-! ## A scatter of one value -/

section Scatter
variable {α : Type} {s si u : Shape} {w : Nat} (d : ScatterDims s si u) (x : s.Idx → α) (idx : IVec si w)
  (upd : u.Idx → α) (v : α) (hupd : ∀ j, upd j = v)

include hupd in
/-- Scattering one value with the body that keeps the update: an element some update lands on holds the value. -/
theorem scatter_set_hit (i : s.Idx) (h : ∃ j : u.Idx, d.resultIdx? j idx = some i) :
    Host.scatter d (fun _ b => b) x idx upd i = v := by
  unfold Host.scatter
  refine foldl_set_hit (fun n : Fin u.numel => d.resultIdx? (u.rowMajor.symm n) idx) v _ ?_ ?_ ?_ _ x i ?_
  · intro r n i0 hp; simp only [hp, if_true, hupd]
  · intro r n i0 i' hp hne; simp only [hp, if_neg hne]
  · intro r n hp; simp only [hp]
  · obtain ⟨j, hj⟩ := h
    exact ⟨u.rowMajor j, List.mem_finRange _, by rw [Equiv.symm_apply_apply]; exact hj⟩

/-- … and an element no update lands on keeps the operand's. -/
theorem scatter_set_miss (i : s.Idx) (h : ¬ ∃ j : u.Idx, d.resultIdx? j idx = some i) :
    Host.scatter d (fun _ b => b) x idx upd i = x i := by
  unfold Host.scatter
  refine foldl_set_miss (fun n : Fin u.numel => d.resultIdx? (u.rowMajor.symm n) idx) _ ?_ ?_ _ x i ?_
  · intro r n i0 i' hp hne; simp only [hp, if_neg hne]
  · intro r n hp; simp only [hp]
  · intro n _ e; exact h ⟨_, e⟩
end Scatter

/-! ## Small words -/

/-- A word below 2³¹ reads signed as itself. -/
theorem conf_toInt_small (n : Nat) (hn : n < 2 ^ 31) : (BitVec.ofNat 32 n).toInt = (n : Int) := by
  have h1 : (BitVec.ofNat 32 n).toNat = n := by rw [BitVec.toNat_ofNat]; exact Nat.mod_eq_of_lt (by omega)
  rw [BitVec.toInt_eq_toNat_of_lt (by rw [h1]; omega), h1]

/-- It is not negative. -/
theorem conf_not_neg (n : Nat) (hn : n < 2 ^ 31) : IntOp.cmpi .slt (BitVec.ofNat 32 n) 0#32 = 0#1 := by
  have h : (BitVec.ofNat 32 n).slt 0#32 = false := by
    rw [BitVec.slt_eq_decide, conf_toInt_small n hn, BitVec.toInt_zero]
    exact decide_eq_false (by omega)
  show BitVec.ofBool ((BitVec.ofNat 32 n).slt 0#32) = 0#1
  rw [h]; rfl

/-- So the wrap of a negative index leaves it alone. -/
theorem conf_wrap (n : Nat) (hn : n < 2 ^ 31) (m : BitVec 32) :
    Scalar.select (IntOp.cmpi .slt (BitVec.ofNat 32 n) 0#32) (IntOp.addi (BitVec.ofNat 32 n) m) (BitVec.ofNat 32 n)
      = BitVec.ofNat 32 n := by
  rw [conf_not_neg n hn]; exact select_zero _ _

/-! ## Where an update lands -/

section Landing

/-- The scatter's dimension numbers: each of the [16384, 8] updates is one element, written at the (image, slot)
    pair its index vector names. -/
abbrev scatDims : ScatterDims S16384x98 S16384x8x2 S16384x8 := scatter_S16384x98_S16384x8x2_S16384x8_n_01_01_2

variable (idx : IVec S16384x8x2 32) (b : Fin 16384) (g : Fin 8)

/-- The first component of update (b, g)'s start is the index array's word at (b, g, 0), read signed. -/
theorem scatDims_start0 : scatDims.start (ix2 b g) idx (0 : Fin 2) = (idx (ix3 b g 0)).toInt := by
  unfold ScatterDims.start
  rw [dif_pos (show (0 : Fin 2) ∈ scatDims.scatterDimsToOperandDims from List.mem_cons_self)]
  refine congrArg (fun k => (idx k).toInt) ?_
  funext k; refine Fin.ext ?_
  match k with
  | ⟨0, _⟩ => rfl
  | ⟨1, _⟩ => rfl
  | ⟨2, _⟩ => rfl

/-- The second is the word at (b, g, 1). -/
theorem scatDims_start1 : scatDims.start (ix2 b g) idx (1 : Fin 2) = (idx (ix3 b g 1)).toInt := by
  unfold ScatterDims.start
  rw [dif_pos (show (1 : Fin 2) ∈ scatDims.scatterDimsToOperandDims from List.mem_cons_of_mem _ List.mem_cons_self)]
  refine congrArg (fun k => (idx k).toInt) ?_
  funext k; refine Fin.ext ?_
  match k with
  | ⟨0, _⟩ => rfl
  | ⟨1, _⟩ => rfl
  | ⟨2, _⟩ => rfl

/-- Both operand axes are inserted window axes: the window adds nothing. -/
theorem scatDims_window (a : Fin 2) : scatDims.window (ix2 b g) a = 0 := by
  unfold ScatterDims.window
  have hk : scatDims.sKept = [] := by decide
  exact dif_neg (by rw [hk]; exact List.not_mem_nil)

/-- When the two words are an image number and a slot number, the update lands on that (image, slot). -/
theorem scatDims_resultIdx (bb : Fin 16384) (p : Fin 98) (h0 : idx (ix3 b g 0) = BitVec.ofNat 32 bb.val)
    (h1 : idx (ix3 b g 1) = BitVec.ofNat 32 p.val) : scatDims.resultIdx? (ix2 b g) idx = some (ix2 bb p) := by
  have e0 : scatDims.start (ix2 b g) idx (0 : Fin 2) + scatDims.window (ix2 b g) (0 : Fin 2) = (bb.val : Int) := by
    rw [scatDims_start0, scatDims_window, h0, conf_toInt_small _ (by have := bb.isLt; omega)]; simp
  have e1 : scatDims.start (ix2 b g) idx (1 : Fin 2) + scatDims.window (ix2 b g) (1 : Fin 2) = (p.val : Int) := by
    rw [scatDims_start1, scatDims_window, h1, conf_toInt_small _ (by have := p.isLt; omega)]; simp
  unfold ScatterDims.resultIdx?
  have hall : ∀ a : Fin 2, 0 ≤ scatDims.start (ix2 b g) idx a + scatDims.window (ix2 b g) a ∧
      scatDims.start (ix2 b g) idx a + scatDims.window (ix2 b g) a < (S16384x98.size a : Int) := by
    intro a
    match a with
    | ⟨0, _⟩ =>
      rw [show (⟨0, _⟩ : Fin 2) = 0 from rfl, e0]; have := bb.isLt
      exact ⟨by omega, by show (bb.val : Int) < ((16384 : Nat) : Int); omega⟩
    | ⟨1, _⟩ =>
      rw [show (⟨1, _⟩ : Fin 2) = 1 from rfl, e1]; have := p.isLt
      exact ⟨by omega, by show (p.val : Int) < ((98 : Nat) : Int); omega⟩
  rw [dif_pos hall]
  refine congrArg some ?_
  funext a; refine Fin.ext ?_
  match a with
  | ⟨0, _⟩ => show (scatDims.start (ix2 b g) idx (0 : Fin 2) + scatDims.window (ix2 b g) (0 : Fin 2)).toNat = bb.val; rw [e0]; rfl
  | ⟨1, _⟩ => show (scatDims.start (ix2 b g) idx (1 : Fin 2) + scatDims.window (ix2 b g) (1 : Fin 2)).toNat = p.val; rw [e1]; rfl

end Landing

variable (x0 : (⟨S16384x1470, .f32⟩ : BufTy).Contents (Elt Ideal)) (x1 : (⟨S16384x40, .f32⟩ : BufTy).Contents (Elt Ideal))

/-! ## The scatter's index array -/

/-- The image number, wrapped: itself. -/
theorem v231_at (b : Fin 16384) : val_main_v231 (F := Ideal) (ix2 b (0 : Fin 1)) = BitVec.ofNat 32 b.val := by
  rw [val_main_v231_apply, val_main_v228_apply, val_main_v230_apply, val_main_v227_apply, val_main_c_58_apply,
    val_main_v67_apply, val_main_v66_apply]
  exact conf_wrap b.val (by have := b.isLt; omega) _

theorem v238_at (b : Fin 16384) (g : Fin 8) :
    val_main_v238 (F := Ideal) (ix3 b g (0 : Fin 1)) = BitVec.ofNat 32 b.val := by
  rw [val_main_v238_apply, val_main_v237_apply]
  have e : idx_main_v237 (idx_main_v238 (ix3 b g (0 : Fin 1))) = ix2 b (0 : Fin 1) := by
    funext a; match a with | ⟨0, _⟩ => rfl | ⟨1, _⟩ => rfl
  rw [e]; exact v231_at b

/-- The slot word: twice the cell's word plus the responsible box's. -/
theorem v225_at (b : Fin 16384) (g : Fin 8) :
    val_main_v225 (F := Ideal) x0 x1 (ix2 b g) = flatAt (prow (n := 16384) x0 b) (lrow (n := 16384) x1 b) g := by
  rw [val_main_v225_apply, val_main_v224_apply, val_main_v223_apply, val_main_v222_apply, val_main_c_56_apply,
    val_main_v221_apply, val_main_v220_apply, val_main_v219_apply, val_main_c_55_apply, v65_at, v61_at, v179_at]
  rfl

/-- Wrapped, it is the slot's number: that is below 98. -/
theorem v236_at (b : Fin 16384) (g : Fin 8) :
    val_main_v236 (F := Ideal) x0 x1 (ix2 b g)
      = BitVec.ofNat 32 (flatN (prow (n := 16384) x0 b) (lrow (n := 16384) x1 b) g).val := by
  rw [val_main_v236_apply, val_main_v233_apply, val_main_v235_apply, val_main_v232_apply, val_main_c_60_apply,
    v225_at, flatAt_eq]
  exact conf_wrap _ (by have := (flatN (prow (n := 16384) x0 b) (lrow (n := 16384) x1 b) g).isLt; omega) _

theorem v239_at (b : Fin 16384) (g : Fin 8) :
    val_main_v239 (F := Ideal) x0 x1 (ix3 b g (0 : Fin 1))
      = BitVec.ofNat 32 (flatN (prow (n := 16384) x0 b) (lrow (n := 16384) x1 b) g).val := by
  rw [val_main_v239_apply]
  have e : idx_main_v239 (ix3 b g (0 : Fin 1)) = ix2 b g := by
    funext a; match a with | ⟨0, _⟩ => rfl | ⟨1, _⟩ => rfl
  rw [e]; exact v236_at x0 x1 b g

/-- The index vector of update (b, g): first the image number … -/
theorem v240_at0 (b : Fin 16384) (g : Fin 8) :
    val_main_v240 (F := Ideal) x0 x1 (ix3 b g (0 : Fin 2)) = BitVec.ofNat 32 b.val := by
  have key := concatenate_pair_apply_left (t := S16384x8x2) (s₁ := S16384x8x1) (s₂ := S16384x8x1) (2 : Fin 3)
    (val_main_v238 (F := Ideal)) (val_main_v239 (F := Ideal) x0 x1)
    Cert.ReferenceIdeal.Gen.concatenates_S16384x8x1_S16384x8x1_S16384x8x2_d2 (ix3 b g (0 : Fin 2)) rfl
    (ix3 b g (0 : Fin 1)) (fun a => by match a with | ⟨0, _⟩ => rfl | ⟨1, _⟩ => rfl | ⟨2, _⟩ => rfl)
  exact key.trans (v238_at b g)

/-- … then the slot's number. -/
theorem v240_at1 (b : Fin 16384) (g : Fin 8) :
    val_main_v240 (F := Ideal) x0 x1 (ix3 b g (1 : Fin 2))
      = BitVec.ofNat 32 (flatN (prow (n := 16384) x0 b) (lrow (n := 16384) x1 b) g).val := by
  have key := concatenate_pair_apply_right (t := S16384x8x2) (s₁ := S16384x8x1) (s₂ := S16384x8x1) (2 : Fin 3)
    (val_main_v238 (F := Ideal)) (val_main_v239 (F := Ideal) x0 x1)
    Cert.ReferenceIdeal.Gen.concatenates_S16384x8x1_S16384x8x1_S16384x8x2_d2 (ix3 b g (1 : Fin 2)) rfl rfl
    (ix3 b g (0 : Fin 1))
    (fun a ha => by match a with | ⟨0, _⟩ => rfl | ⟨1, _⟩ => rfl | ⟨2, _⟩ => exact absurd rfl ha) rfl
  exact key.trans (v239_at x0 x1 b g)

/-! ## The indicator of the responsible slots -/

/-- The bit 1 converts to 1.0 … -/
theorem uitofp_true : FloatOps.uitofp (F := Ideal) .f32 (1#1 : BitVec 1) = one := by
  show (((1#1 : BitVec 1).toNat : ℝ) : EReal) = Ideal.ofBits .f32 0x3F800000#32
  rw [Ideal.ofBits_one_f32]; simp

/-- … and the bit 0 to 0.0. -/
theorem uitofp_false : FloatOps.uitofp (F := Ideal) .f32 (0#1 : BitVec 1) = zero := by
  show (((0#1 : BitVec 1).toNat : ℝ) : EReal) = Ideal.ofBits .f32 0x00000000#32
  rw [Ideal.ofBits_zero_f32]; simp

/-- Update (b', g) lands on (b', slot of g): a slot of image b is written exactly when one of b's ground-truth
    boxes names it. -/
theorem v244_at (b : Fin 16384) (p : Fin 98) :
    val_main_v244 (F := Ideal) x0 x1 (ix2 b p) = objAt (prow (n := 16384) x0 b) (lrow (n := 16384) x1 b) p := by
  have hupd : ∀ j, val_main_v241 (F := Ideal) j = 1#1 := fun j => by
    rw [val_main_v241_apply, val_main_c_62_apply]
  have hland : ∀ (b' : Fin 16384) (g : Fin 8), scatDims.resultIdx? (ix2 b' g) (val_main_v240 (F := Ideal) x0 x1)
      = some (ix2 b' (flatN (prow (n := 16384) x0 b') (lrow (n := 16384) x1 b') g)) := fun b' g =>
    scatDims_resultIdx _ b' g b' _ (v240_at0 x0 x1 b' g) (v240_at1 x0 x1 b' g)
  rw [val_main_v244_apply, objAt_eq]
  unfold val_main_v242
  by_cases h : ∃ g : Fin 8, flatN (prow (n := 16384) x0 b) (lrow (n := 16384) x1 b) g = p
  · rw [if_pos h]
    obtain ⟨g, hg⟩ := h
    exact (congrArg (FloatOps.uitofp (F := Ideal) .f32)
      (scatter_set_hit scatDims (val_main_v226 (F := Ideal)) (val_main_v240 (F := Ideal) x0 x1) (val_main_v241 (F := Ideal))
        1#1 hupd (ix2 b p) ⟨ix2 b g, by rw [← hg]; exact hland b g⟩)).trans uitofp_true
  · rw [if_neg h]
    have hmiss : ¬ ∃ j : S16384x8.Idx, scatDims.resultIdx? j (val_main_v240 (F := Ideal) x0 x1) = some (ix2 b p) := by
      rintro ⟨j, hj⟩
      obtain ⟨b', g', rfl⟩ : ∃ (b' : Fin 16384) (g' : Fin 8), j = ix2 b' g' := ⟨j 0, j 1, eq_ix2 j⟩
      rw [hland b' g'] at hj
      have e := Option.some.inj hj
      have hb : b' = b := congrFun e 0
      have hp : flatN (prow (n := 16384) x0 b') (lrow (n := 16384) x1 b') g' = p := congrFun e 1
      subst hb; exact h ⟨g', hp⟩
    refine (congrArg (FloatOps.uitofp (F := Ideal) .f32)
      (scatter_set_miss scatDims (val_main_v226 (F := Ideal)) (val_main_v240 (F := Ideal) x0 x1) (val_main_v241 (F := Ideal))
        (ix2 b p) hmiss)).trans ?_
    rw [val_main_v226_apply, val_main_c_57_apply]
    exact uitofp_false

/-! ## The three row sums -/

theorem idx245 (b : Fin 16384) (k : Fin 98) : idx_main_v245 (ix1 b) k = ix2 b k := by
  funext a; match a with | ⟨0, _⟩ => rfl | ⟨1, _⟩ => rfl
theorem idx250 (b : Fin 16384) (k : Fin 98) : idx_main_v250 (ix1 b) k = ix2 b k := by
  funext a; match a with | ⟨0, _⟩ => rfl | ⟨1, _⟩ => rfl
theorem idx258 (b : Fin 16384) (k : Fin 98) : idx_main_v258 (ix1 b) k = ix2 b k := by
  funext a; match a with | ⟨0, _⟩ => rfl | ⟨1, _⟩ => rfl

/-- The number of responsible slots of image b. -/
theorem v245_at (b : Fin 16384) :
    val_main_v245 (F := Ideal) x0 x1 (ix1 b) = ∑ p : Fin 98, objAt (prow (n := 16384) x0 b) (lrow (n := 16384) x1 b) p := by
  rw [val_main_v245_apply, val_main_cst_63_apply]
  refine (zero_add_eq _).trans (Finset.sum_congr rfl fun k _ => ?_)
  rw [idx245, v244_at]

/-- The squared distance of the confidence from 1, over the responsible slots. -/
theorem v250_at (b : Fin 16384) :
    val_main_v250 (F := Ideal) x0 x1 (ix1 b) = ∑ p : Fin 98,
      ((confFlat (prow (n := 16384) x0 b) p - one) * (confFlat (prow (n := 16384) x0 b) p - one))
        * objAt (prow (n := 16384) x0 b) (lrow (n := 16384) x1 b) p := by
  rw [val_main_v250_apply, val_main_cst_65_apply]
  refine (zero_add_eq _).trans (Finset.sum_congr rfl fun k _ => ?_)
  rw [idx250, val_main_v249_apply, val_main_v248_apply, val_main_v247_apply, val_main_v246_apply,
    val_main_cst_64_apply, v243_at, v244_at]
  rfl

/-- The squared confidence, over the other slots. -/
theorem v258_at (b : Fin 16384) :
    val_main_v258 (F := Ideal) x0 x1 (ix1 b) = ∑ p : Fin 98,
      (confFlat (prow (n := 16384) x0 b) p * confFlat (prow (n := 16384) x0 b) p)
        * (one - objAt (prow (n := 16384) x0 b) (lrow (n := 16384) x1 b) p) := by
  rw [val_main_v258_apply, val_main_cst_68_apply]
  refine (zero_add_eq _).trans (Finset.sum_congr rfl fun k _ => ?_)
  rw [idx258, val_main_v257_apply, val_main_v256_apply, val_main_v255_apply, val_main_cst_67_apply,
    val_main_v254_apply, v243_at, v244_at]
  rfl

/-! ## The confidence loss of one image, and of all -/

theorem v268_at (b : Fin 16384) :
    val_main_v268 (F := Ideal) x0 x1 (ix1 b) = confRow (prow (n := 16384) x0 b) (lrow (n := 16384) x1 b) := by
  rw [val_main_v268_apply, val_main_v265_apply, val_main_v267_apply, val_main_v264_apply, val_main_cst_71_apply,
    val_main_v266_apply, val_main_cst_72_apply, val_main_v253_apply, val_main_v263_apply, val_main_v252_apply,
    val_main_v262_apply, val_main_v260_apply, val_main_v251_apply, val_main_cst_66_apply, val_main_v261_apply,
    val_main_cst_70_apply, val_main_v259_apply, val_main_cst_69_apply, v245_at, v250_at, v258_at]
  rfl

theorem v269_eq :
    val_main_v269 (F := Ideal) x0 x1 = fun _ => ∑ b : Fin 16384, confRow (prow (n := 16384) x0 b) (lrow (n := 16384) x1 b) := by
  funext i
  rw [val_main_v269_apply, val_main_cst_73_apply]
  refine (zero_add_eq _).trans ?_
  refine (Equiv.sum_comp (idxEquiv1 (n := 16384)).symm (val_main_v268 (F := Ideal) x0 x1)).symm.trans ?_
  exact Finset.sum_congr rfl fun b _ => v268_at x0 x1 b

end Cert.ReferenceIdeal.RefValue

end
-- ==== Proof.lean ====
/-
  The certificate of the detection-loss kernel against its jnp reference.

  Both programs compute, over 16384 images, the sum of the three parts of each image's loss (Proof/Spec.lean): the kernel
  in 32 grid points of 512 images, adding each point's three sums to an accumulator it carries between points and reshaping
  the accumulator to a scalar at the end; the reference as three sums over all images, added. On the extended reals a finite
  sum does not depend on its order or grouping, so the two results are equal as soon as each program's per-image terms are
  the specification's: for the kernel Proof/KStep.lean (one point) and Proof/KValue.lean (the run), for the reference
  Proof/RIou.lean, Proof/RCls.lean and Proof/RConf.lean. The precondition's conjunct "every class word is one of the twenty
  classes" (Proof/PreAlg.lean) is what makes the kernel's one-hot selection of a class score and the reference's take along
  the class axis read the same score. The frames are the generated ones; the idealization rewrote nothing.
-/
import proofs.«112027_j37778532335632_1_alg».proof.Defs
import proofs.«112027_j37778532335632_1_alg».proof.Proof.Gen.Kernel
import proofs.«112027_j37778532335632_1_alg».proof.Proof.Gen.Kernel.Skeleton
import proofs.«112027_j37778532335632_1_alg».proof.Proof.Gen.Kernel.Launch
import proofs.«112027_j37778532335632_1_alg».proof.Proof.Gen.Kernel.Points
import proofs.«112027_j37778532335632_1_alg».proof.Proof.Gen.Kernel.Frame
import proofs.«112027_j37778532335632_1_alg».proof.Proof.Gen.KernelIdeal
import proofs.«112027_j37778532335632_1_alg».proof.Proof.Gen.KernelIdeal.Skeleton
import proofs.«112027_j37778532335632_1_alg».proof.Proof.Gen.KernelIdeal.Launch
import proofs.«112027_j37778532335632_1_alg».proof.Proof.Gen.KernelIdeal.Points
import proofs.«112027_j37778532335632_1_alg».proof.Proof.Gen.KernelIdeal.Frame
import proofs.«112027_j37778532335632_1_alg».proof.Proof.Gen.ReferenceIdeal
import proofs.«112027_j37778532335632_1_alg».proof.Proof.Gen.Pre_finite_inputs
import proofs.«112027_j37778532335632_1_alg».proof.Proof.RunP
import proofs.«112027_j37778532335632_1_alg».proof.Proof.KValue
import proofs.«112027_j37778532335632_1_alg».proof.Proof.RIou
import proofs.«112027_j37778532335632_1_alg».proof.Proof.RCls
import proofs.«112027_j37778532335632_1_alg».proof.Proof.RConf
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the sum over all images of the three parts of each image's loss. -/
theorem algebraic : Cert.algebraic_KernelIdeal_ReferenceIdeal := by
  intro m ρ m' ρ' hpre hagree
  have hok : ∀ (c : Dev Cert.KernelIdeal.nD) (b : Fin 16384), ClsOk (lrow (n := 16384) (Cert.KernelIdeal.Frm.A1 m c) b) :=
    fun c b => clsOk_of_pre _ _ (hpre c) b
  refine ⟨fun c => shapeCast Cert.KernelIdeal.S_ (Cert.KernelIdeal.Frm.result m c) Cert.KernelIdeal.Facts₀.shapeCasts_S1x1_S_,
    Cert.KernelIdeal.Frm.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2]
  refine Eq.trans ?_ (Cert.KernelIdeal.Frm.scalar_value m c (hok c)).symm
  funext i
  rw [Cert.ReferenceIdeal.ReadP.val_main_v271_apply, Cert.ReferenceIdeal.ReadP.val_main_v270_apply,
    Cert.ReferenceIdeal.RefValue.v218_eq _ _ (hok c), Cert.ReferenceIdeal.RefValue.v185_eq, Cert.ReferenceIdeal.RefValue.v269_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
